-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x10000x128 : Shape := ⟨3, ![8, 10000, 128]⟩
abbrev S160000x2 : Shape := ⟨2, ![160000, 2]⟩
abbrev S8x160000 : Shape := ⟨2, ![8, 160000]⟩
abbrev S128x128 : Shape := ⟨2, ![128, 128]⟩
abbrev S128x1 : Shape := ⟨2, ![128, 1]⟩
abbrev S128 : Shape := ⟨1, ![128]⟩
abbrev S_ : Shape := ⟨0, ![]⟩

class Facts : Prop where
  bcast_S_S8x10000x128 : S_.BroadcastsInDim S8x10000x128 (![] : Fin 0 → Fin S8x10000x128.rank)
  reducesTo_S8x10000x128_S_d0_1_2 : S8x10000x128.ReducesTo [0, 1, 2] S_
  h_S_ : 0 < S_.numel
  bcast_S_S8x160000 : S_.BroadcastsInDim S8x160000 (![] : Fin 0 → Fin S8x160000.rank)
  reducesTo_S8x160000_S_d0_1 : S8x160000.ReducesTo [0, 1] S_
  bcast_S_S128x128 : S_.BroadcastsInDim S128x128 (![] : Fin 0 → Fin S128x128.rank)
  reducesTo_S128x128_S_d0_1 : S128x128.ReducesTo [0, 1] S_
  bcast_S_S128x1 : S_.BroadcastsInDim S128x1 (![] : Fin 0 → Fin S128x1.rank)
  reducesTo_S128x1_S_d0_1 : S128x1.ReducesTo [0, 1] S_
  bcast_S_S128 : S_.BroadcastsInDim S128 (![] : Fin 0 → Fin S128.rank)
  reducesTo_S128_S_d0 : S128.ReducesTo [0] S_
  bcast_S_S160000x2 : S_.BroadcastsInDim S160000x2 (![] : Fin 0 → Fin S160000x2.rank)
  reducesTo_S160000x2_S_d0_1 : S160000x2.ReducesTo [0, 1] S_

variable [Facts]

def fn_part2 {F : FTy → Type} [FloatOps F] (main_arg1 : IVec S160000x2 32) (main_arg8 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_c_14 : IVec S_ 32 := constantI S_ 32 0#32
  let main_v39 : IVec S160000x2 32 := broadcastInDim S160000x2 ![] bcast_S_S160000x2 main_c_14
  let main_v40 : IVec S160000x2 1 := cmpi .sge main_arg1 main_v39
  let main_c_15 : IVec S_ 1 := constantI S_ 1 1#1
  let main_v41 : IVec S_ 1 := (fun x v => Host.reduce IntOp.andi x v reducesTo_S160000x2_S_d0_1 h_S_) main_v40 main_c_15
  let main_v42 : IVec S_ 1 := andi main_v38 main_v41
  let main_c_16 : IVec S_ 32 := constantI S_ 32 10000#32
  let main_v43 : IVec S160000x2 32 := broadcastInDim S160000x2 ![] bcast_S_S160000x2 main_c_16
  let main_v44 : IVec S160000x2 1 := cmpi .slt main_arg1 main_v43
  let main_c_17 : IVec S_ 1 := constantI S_ 1 1#1
  let main_v45 : IVec S_ 1 := (fun x v => Host.reduce IntOp.andi x v reducesTo_S160000x2_S_d0_1 h_S_) main_v44 main_c_17
  let main_v46 : IVec S_ 1 := andi main_v42 main_v45
  main_v46

def fn_part1 {F : FTy → Type} [FloatOps F] (main_arg1 : IVec S160000x2 32) (main_arg5 : FVec F S128x128 .f32) (main_arg6 : FVec F S128 .f32) (main_arg7 : FVec F S128 .f32) (main_arg8 : FVec F S128 .f32) (main_v13 : IVec S_ 1) (main_v16 : IVec S128x1 1) : IVec S_ 1 :=
  let main_c_5 : IVec S_ 1 := constantI S_ 1 1#1
  let main_v17 : IVec S_ 1 := (fun x v => Host.reduce IntOp.andi x v reducesTo_S128x1_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg1 main_arg8 main_v33

def fn {F : FTy → Type} [FloatOps F] (main_arg0 : FVec F S8x10000x128 .f32) (main_arg1 : IVec S160000x2 32) (main_arg2 : FVec F S8x160000 .f32) (main_arg3 : FVec F S128x128 .f32) (main_arg4 : FVec F S128x1 .f32) (main_arg5 : FVec F S128x128 .f32) (main_arg6 : FVec F S128 .f32) (main_arg7 : FVec F S128 .f32) (main_arg8 : FVec F S128 .f32) : IVec S_ 1 :=
  let main_v0 : FVec F S8x10000x128 .f32 := Host.absf main_arg0
  let main_cst : FVec F S_ .f32 := constant S_ .f32 0x7F800000#32
  let main_v1 : FVec F S8x10000x128 .f32 := broadcastInDim S8x10000x128 ![] bcast_S_S8x10000x128 main_cst
  let main_v2 : IVec S8x10000x128 1 := cmpf .olt main_v0 main_v1
  let main_c : IVec S_ 1 := constantI S_ 1 1#1
  let main_v3 : IVec S_ 1 := (fun x v => Host.reduce IntOp.andi x v reducesTo_S8x10000x128_S_d0_1_2 h_S_) main_v2 main_c
  let main_v4 : FVec F S8x160000 .f32 := Host.absf main_arg2
  let main_cst_0 : FVec F S_ .f32 := constant S_ .f32 0x7F800000#32
  let main_v5 : FVec F S8x160000 .f32 := broadcastInDim S8x160000 ![] bcast_S_S8x160000 main_cst_0
  let main_v6 : IVec S8x160000 1 := cmpf .olt main_v4 main_v5
  let main_c_1 : IVec S_ 1 := constantI S_ 1 1#1
  let main_v7 : IVec S_ 1 := (fun x v => Host.reduce IntOp.andi x v reducesTo_S8x160000_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x1 .f32 := Host.absf main_arg4
  let main_cst_4 : FVec F S_ .f32 := constant S_ .f32 0x7F800000#32
  let main_v15 : FVec F S128x1 .f32 := broadcastInDim S128x1 ![] bcast_S_S128x1 main_cst_4
  let main_v16 : IVec S128x1 1 := cmpf .olt main_v14 main_v15
  fn_part1 (F := F) main_arg1 main_arg5 main_arg6 main_arg7 main_arg8 main_v13 main_v16
-- ==== Kernel.lean ====
abbrev S8x10000x128 : Shape := ⟨3, ![8, 10000, 128]⟩
abbrev S160000x2 : Shape := ⟨2, ![160000, 2]⟩
abbrev S8x160000 : Shape := ⟨2, ![8, 160000]⟩
abbrev S128x128 : Shape := ⟨2, ![128, 128]⟩
abbrev S128x1 : Shape := ⟨2, ![128, 1]⟩
abbrev S128 : Shape := ⟨1, ![128]⟩
abbrev S160000x1 : Shape := ⟨2, ![160000, 1]⟩
abbrev S160000 : Shape := ⟨1, ![160000]⟩
abbrev S_ : Shape := ⟨0, ![]⟩
abbrev S8x10240x128 : Shape := ⟨3, ![8, 10240, 128]⟩
abbrev S1x128 : Shape := ⟨2, ![1, 128]⟩
abbrev S10240x1024 : Shape := ⟨2, ![10240, 1024]⟩
abbrev S1x1280x128 : Shape := ⟨3, ![1, 1280, 128]⟩
abbrev S1280x128 : Shape := ⟨2, ![1280, 128]⟩
abbrev S10240x10240 : Shape := ⟨2, ![10240, 10240]⟩
abbrev S160000x8 : Shape := ⟨2, ![160000, 8]⟩
abbrev S10000x8 : Shape := ⟨2, ![10000, 8]⟩
abbrev S10240x8 : Shape := ⟨2, ![10240, 8]⟩
abbrev S1024x1280 : Shape := ⟨2, ![1024, 1280]⟩
abbrev S1280x1024 : Shape := ⟨2, ![1280, 1024]⟩
abbrev S1024x1024 : Shape := ⟨2, ![1024, 1024]⟩
abbrev S1024x8 : Shape := ⟨2, ![1024, 8]⟩
abbrev S1024x128 : Shape := ⟨2, ![1024, 128]⟩
abbrev S1024x1 : Shape := ⟨2, ![1024, 1]⟩
abbrev S2000x1024 : Shape := ⟨2, ![2000, 1024]⟩
abbrev S2000x128 : Shape := ⟨2, ![2000, 128]⟩
abbrev S1x2000x128 : Shape := ⟨3, ![1, 2000, 128]⟩

abbrev nBuf : Space → Nat
  | .hbm => 69
  | .vmem => 33
  | .smem => 0
  | _ => 0

abbrev bufTy : (tb : Table) → Fin (tcTables nBuf tb) → BufTy
  | .hbm, ⟨0, _⟩ => ⟨S8x10000x128, .f32⟩
  | .hbm, ⟨1, _⟩ => ⟨S160000x2, .i32⟩
  | .hbm, ⟨2, _⟩ => ⟨S8x160000, .f32⟩
  | .hbm, ⟨3, _⟩ => ⟨S128x128, .f32⟩
  | .hbm, ⟨4, _⟩ => ⟨S128x1, .f32⟩
  | .hbm, ⟨5, _⟩ => ⟨S128x128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S160000x1, .i32⟩
  | .hbm, ⟨10, _⟩ => ⟨S160000, .i32⟩
  | .hbm, ⟨11, _⟩ => ⟨S160000x1, .i32⟩
  | .hbm, ⟨12, _⟩ => ⟨S160000, .i32⟩
  | .hbm, ⟨13, _⟩ => ⟨S_, .i32⟩
  | .hbm, ⟨14, _⟩ => ⟨S_, .f32⟩
  | .hbm, ⟨15, _⟩ => ⟨S8x10240x128, .f32⟩
  | .hbm, ⟨16, _⟩ => ⟨S1x128, .f32⟩
  | .hbm, ⟨17, _⟩ => ⟨S10240x1024, .bf16⟩
  | .hbm, ⟨18, _⟩ => ⟨S10240x1024, .f32⟩
  | .hbm, ⟨19, _⟩ => ⟨S_, .f32⟩
  | .hbm, ⟨20, _⟩ => ⟨S10240x10240, .f32⟩
  | .hbm, ⟨21, _⟩ => ⟨S_, .i32⟩
  | .hbm, ⟨22, _⟩ => ⟨S160000, .i32⟩
  | .hbm, ⟨23, _⟩ => ⟨S160000, .i1⟩
  | .hbm, ⟨24, _⟩ => ⟨S_, .i32⟩
  | .hbm, ⟨25, _⟩ => ⟨S160000, .i32⟩
  | .hbm, ⟨26, _⟩ => ⟨S160000, .i32⟩
  | .hbm, ⟨27, _⟩ => ⟨S160000, .i32⟩
  | .hbm, ⟨28, _⟩ => ⟨S_, .i32⟩
  | .hbm, ⟨29, _⟩ => ⟨S160000, .i32⟩
  | .hbm, ⟨30, _⟩ => ⟨S160000, .i1⟩
  | .hbm, ⟨31, _⟩ => ⟨S_, .i32⟩
  | .hbm, ⟨32, _⟩ => ⟨S160000, .i32⟩
  | .hbm, ⟨33, _⟩ => ⟨S160000, .i32⟩
  | .hbm, ⟨34, _⟩ => ⟨S160000, .i32⟩
  | .hbm, ⟨35, _⟩ => ⟨S160000x1, .i32⟩
  | .hbm, ⟨36, _⟩ => ⟨S160000x1, .i32⟩
  | .hbm, ⟨37, _⟩ => ⟨S160000x2, .i32⟩
  | .hbm, ⟨38, _⟩ => ⟨S_, .f32⟩
  | .hbm, ⟨39, _⟩ => ⟨S160000, .f32⟩
  | .hbm, ⟨40, _⟩ => ⟨S10240x10240, .f32⟩
  | .hbm, ⟨41, _⟩ => ⟨S10240x10240, .bf16⟩
  | .hbm, ⟨42, _⟩ => ⟨S160000x8, .f32⟩
  | .hbm, ⟨43, _⟩ => ⟨S_, .f32⟩
  | .hbm, ⟨44, _⟩ => ⟨S10000x8, .f32⟩
  | .hbm, ⟨45, _⟩ => ⟨S160000x1, .i32⟩
  | .hbm, ⟨46, _⟩ => ⟨S10000x8, .f32⟩
  | .hbm, ⟨47, _⟩ => ⟨S_, .i32⟩
  | .hbm, ⟨48, _⟩ => ⟨S_, .f32⟩
  | .hbm, ⟨49, _⟩ => ⟨S10240x8, .f32⟩
  | .hbm, ⟨50, _⟩ => ⟨S128, .f32⟩
  | .hbm, ⟨51, _⟩ => ⟨S1x128, .f32⟩
  | .hbm, ⟨52, _⟩ => ⟨S10240x1024, .f32⟩
  | .hbm, ⟨53, _⟩ => ⟨S1x128, .f32⟩
  | .hbm, ⟨54, _⟩ => ⟨S1x128, .f32⟩
  | .hbm, ⟨55, _⟩ => ⟨S_, .f32⟩
  | .hbm, ⟨56, _⟩ => ⟨S1x128, .f32⟩
  | .hbm, ⟨57, _⟩ => ⟨S1x128, .f32⟩
  | .hbm, ⟨58, _⟩ => ⟨S_, .f32⟩
  | .hbm, ⟨59, _⟩ => ⟨S1x128, .f32⟩
  | .hbm, ⟨60, _⟩ => ⟨S1x128, .f32⟩
  | .hbm, ⟨61, _⟩ => ⟨S1x128, .f32⟩
  | .hbm, ⟨62, _⟩ => ⟨S1x128, .f32⟩
  | .hbm, ⟨63, _⟩ => ⟨S_, .f32⟩
  | .hbm, ⟨64, _⟩ => ⟨S1x128, .f32⟩
  | .hbm, ⟨65, _⟩ => ⟨S1x128, .f32⟩
  | .hbm, ⟨66, _⟩ => ⟨S1x128, .f32⟩
  | .hbm, ⟨67, _⟩ => ⟨S1x128, .f32⟩
  | .hbm, ⟨68, _⟩ => ⟨S8x10000x128, .f32⟩
  | .local _ .vmem, ⟨0, _⟩ => ⟨S1x1280x128, .f32⟩
  | .local _ .vmem, ⟨1, _⟩ => ⟨S1x1280x128, .f32⟩
  | .local _ .vmem, ⟨2, _⟩ => ⟨S128x128, .f32⟩
  | .local _ .vmem, ⟨3, _⟩ => ⟨S128x128, .f32⟩
  | .local _ .vmem, ⟨4, _⟩ => ⟨S1x128, .f32⟩
  | .local _ .vmem, ⟨5, _⟩ => ⟨S1280x128, .bf16⟩
  | .local _ .vmem, ⟨6, _⟩ => ⟨S1280x128, .bf16⟩
  | .local _ .vmem, ⟨7, _⟩ => ⟨S1280x128, .f32⟩
  | .local _ .vmem, ⟨8, _⟩ => ⟨S1280x128, .f32⟩
  | .local _ .vmem, ⟨9, _⟩ => ⟨S1024x1280, .bf16⟩
  | .local _ .vmem, ⟨10, _⟩ => ⟨S1024x1280, .bf16⟩
  | .local _ .vmem, ⟨11, _⟩ => ⟨S1280x1024, .bf16⟩
  | .local _ .vmem, ⟨12, _⟩ => ⟨S1280x1024, .bf16⟩
  | .local _ .vmem, ⟨13, _⟩ => ⟨S1024x1024, .f32⟩
  | .local _ .vmem, ⟨14, _⟩ => ⟨S1024x1024, .f32⟩
  | .local _ .vmem, ⟨15, _⟩ => ⟨S1024x8, .f32⟩
  | .local _ .vmem, ⟨16, _⟩ => ⟨S1024x8, .f32⟩
  | .local _ .vmem, ⟨17, _⟩ => ⟨S1x128, .f32⟩
  | .local _ .vmem, ⟨18, _⟩ => ⟨S1024x1024, .f32⟩
  | .local _ .vmem, ⟨19, _⟩ => ⟨S1024x1024, .f32⟩
  | .local _ .vmem, ⟨20, _⟩ => ⟨S1024x1024, .f32⟩
  | .local _ .vmem, ⟨21, _⟩ => ⟨S2000x1024, .f32⟩
  | .local _ .vmem, ⟨22, _⟩ => ⟨S2000x1024, .f32⟩
  | .local _ .vmem, ⟨23, _⟩ => ⟨S1x128, .f32⟩
  | .local _ .vmem, ⟨24, _⟩ => ⟨S1x128, .f32⟩
  | .local _ .vmem, ⟨25, _⟩ => ⟨S2000x128, .f32⟩
  | .local _ .vmem, ⟨26, _⟩ => ⟨S2000x128, .f32⟩
  | .local _ .vmem, ⟨27, _⟩ => ⟨S1x128, .f32⟩
  | .local _ .vmem, ⟨28, _⟩ => ⟨S1x128, .f32⟩
  | .local _ .vmem, ⟨29, _⟩ => ⟨S1x128, .f32⟩
  | .local _ .vmem, ⟨30, _⟩ => ⟨S1x128, .f32⟩
  | .local _ .vmem, ⟨31, _⟩ => ⟨S1x2000x128, .f32⟩
  | .local _ .vmem, ⟨32, _⟩ => ⟨S1x2000x128, .f32⟩
  | _, _ => ⟨S8x10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_call0_v0 : Ref sig .tc := ⟨.hbm, 14, rfl⟩
abbrev main_v4 : Ref sig .tc := ⟨.hbm, 15, rfl⟩
abbrev main_v5 : Ref sig .tc := ⟨.hbm, 16, rfl⟩
abbrev main_v6_0 : Ref sig .tc := ⟨.hbm, 17, rfl⟩
abbrev main_v6_1 : Ref sig .tc := ⟨.hbm, 18, rfl⟩
abbrev main_cst : Ref sig .tc := ⟨.hbm, 19, rfl⟩
abbrev main_v7 : Ref sig .tc := ⟨.hbm, 20, rfl⟩
abbrev main_c_0 : Ref sig .tc := ⟨.hbm, 21, rfl⟩
abbrev main_v8 : Ref sig .tc := ⟨.hbm, 22, rfl⟩
abbrev main_v9 : Ref sig .tc := ⟨.hbm, 23, rfl⟩
abbrev main_c_1 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_c_2 : Ref sig .tc := ⟨.hbm, 28, rfl⟩
abbrev main_v13 : Ref sig .tc := ⟨.hbm, 29, rfl⟩
abbrev main_v14 : Ref sig .tc := ⟨.hbm, 30, rfl⟩
abbrev main_c_3 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_4 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst_5 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_c_6 : Ref sig .tc := ⟨.hbm, 47, rfl⟩
abbrev main_call1_v0 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32_0 : Ref sig .tc := ⟨.hbm, 53, rfl⟩
abbrev main_v32_1 : Ref sig .tc := ⟨.hbm, 54, rfl⟩
abbrev main_cst_7 : Ref sig .tc := ⟨.hbm, 55, rfl⟩
abbrev main_v33 : Ref sig .tc := ⟨.hbm, 56, rfl⟩
abbrev main_v34 : Ref sig .tc := ⟨.hbm, 57, rfl⟩
abbrev main_cst_8 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_cst_9 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc1_scratch0 : Ref sig .tc := ⟨.vmem, 20, rfl⟩
abbrev cc2_stg0_0 : Ref sig .tc := ⟨.vmem, 21, rfl⟩
abbrev cc2_stg0_1 : Ref sig .tc := ⟨.vmem, 22, rfl⟩
abbrev cc2_stg1_0 : Ref sig .tc := ⟨.vmem, 23, rfl⟩
abbrev cc2_stg2_0 : Ref sig .tc := ⟨.vmem, 24, rfl⟩
abbrev cc3_stg0_0 : Ref sig .tc := ⟨.vmem, 25, rfl⟩
abbrev cc3_stg0_1 : Ref sig .tc := ⟨.vmem, 26, rfl⟩
abbrev cc3_stg1_0 : Ref sig .tc := ⟨.vmem, 27, rfl⟩
abbrev cc3_stg2_0 : Ref sig .tc := ⟨.vmem, 28, rfl⟩
abbrev cc3_stg3_0 : Ref sig .tc := ⟨.vmem, 29, rfl⟩
abbrev cc3_stg4_0 : Ref sig .tc := ⟨.vmem, 30, rfl⟩
abbrev cc3_stg5_0 : Ref sig .tc := ⟨.vmem, 31, rfl⟩
abbrev cc3_stg5_1 : Ref sig .tc := ⟨.vmem, 32, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem3_1 : DmaSem sig := 16
abbrev cc1_sem4_0 : DmaSem sig := 17
abbrev cc1_sem5_0 : DmaSem sig := 18
abbrev cc1_sem5_1 : DmaSem sig := 19
abbrev cc2_sem0_0 : DmaSem sig := 20
abbrev cc2_sem0_1 : DmaSem sig := 21
abbrev cc2_sem1_0 : DmaSem sig := 22
abbrev cc2_sem2_0 : DmaSem sig := 23
abbrev cc3_sem0_0 : DmaSem sig := 24
abbrev cc3_sem0_1 : DmaSem sig := 25
abbrev cc3_sem1_0 : DmaSem sig := 26
abbrev cc3_sem2_0 : DmaSem sig := 27
abbrev cc3_sem3_0 : DmaSem sig := 28
abbrev cc3_sem4_0 : DmaSem sig := 29
abbrev cc3_sem5_0 : DmaSem sig := 30
abbrev cc3_sem5_1 : DmaSem sig := 31

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1x1280x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1280x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1280x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨2, ![10, 8], ![false, false]⟩

def k1_cond2 (i : grid1.Coords) : BitVec 1 :=
  let arg1 : BitVec 32 := BitVec.ofNat 32 (i 1).val
  let c7_i32 : BitVec 32 := 7#32
  let v13 : BitVec 1 := Scalar.cmpi .eq arg1 c7_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x1280 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1280x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1024x8 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S1024x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S2000x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev grid3 : Pipeline.Grid := ⟨2, ![8, 5], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false, false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false, false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false, false]

abbrev stage3_5 : Fin 2 → Memref sig .tc .vmem S1x2000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true, true]

class Facts₀ : Prop where
  slices_S160000x2_S160000x1_0_0 : S160000x2.Slices ![0, 0] S160000x1
  shapeCasts_S160000x1_S160000 : S160000x1.ShapeCasts S160000
  slices_S160000x2_S160000x1_0_1 : S160000x2.Slices ![0, 1] S160000x1
  pads_S8x10000x128_S8x10240x128_000_02400_000 : S8x10000x128.Pads (![0, 0, 0] : Fin 3 → Nat) ![0, 240, 0] ![0, 0, 0] S8x10240x128
  h_S_ : 0 < S_.numel
  shapeCasts_S128_S1x128 : S128.ShapeCasts S1x128
  inb_S1x1280x128_S1x1280x128_0_0_0 : ∀ a, (![0, 0, 0] : Fin 3 → Nat) a + S1x1280x128.size a ≤ S1x1280x128.size a
  h_S1x1280x128 : 0 < S1x1280x128.numel
  shapeCasts_S1x1280x128_S1280x128 : S1x1280x128.ShapeCasts S1280x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  transposes_S128x128_p1_0_S128x128 : S128x128.Transposes [1, 0] S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1280x128 : S1x128.Broadcasts S1280x128
  inb_S1280x128_S1280x128_0_0 : ∀ a, (![0, 0] : Fin 2 → Nat) a + S1280x128.size a ≤ S1280x128.size a
  h_S1280x128 : 0 < S1280x128.numel
  packedbf16_S1280x128_S1280x128_0_0 : (Rect.unit (s := S1280x128) ![0, 0] S1280x128.size inb_S1280x128_S1280x128_0_0).PackedRows (EltTy.packing .bf16)
  bcast_S_S10240x10240 : S_.BroadcastsInDim S10240x10240 (![] : Fin 0 → Fin S10240x10240.rank)
  bcast_S_S160000 : S_.BroadcastsInDim S160000 (![] : Fin 0 → Fin S160000.rank)
  bcast_S160000_S160000x1_0 : S160000.BroadcastsInDim S160000x1 (![0] : Fin 1 → Fin S160000x1.rank)
  concatenates_S160000x1_S160000x1_S160000x2_d1 : Shape.Concatenates [S160000x1, S160000x1] S160000x2 1
  transposes_S8x160000_S160000x8_1_0 : S8x160000.Transposes [1, 0] S160000x8
  bcast_S_S10000x8 : S_.BroadcastsInDim S10000x8 (![] : Fin 0 → Fin S10000x8.rank)
  pads_S10000x8_S10240x8_02400_000 : S10000x8.Pads (![0, 0] : Fin 2 → Nat) ![240, 0] ![0, 0] S10240x8
  shapeCasts_S128x1_S128 : S128x1.ShapeCasts S128
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x1280_S1024x1280_0_0 : ∀ a, (![0, 0] : Fin 2 → Nat) a + S1024x1280.size a ≤ S1024x1280.size a
  h_S1024x1280 : 0 < S1024x1280.numel
  shapeCasts_S1024x1280_S1024x1280 : S1024x1280.ShapeCasts S1024x1280
  inb_S1280x1024_S1280x1024_0_0 : ∀ a, (![0, 0] : Fin 2 → Nat) a + S1280x1024.size a ≤ S1280x1024.size a
  h_S1280x1024 : 0 < S1280x1024.numel
  shapeCasts_S1280x1024_S1280x1024 : S1280x1024.ShapeCasts S1280x1024
  inb_S1024x8_S1024x8_0_0 : ∀ a, (![0, 0] : Fin 2 → Nat) a + S1024x8.size a ≤ S1024x8.size a
  h_S1024x8 : 0 < S1024x8.numel
  shapeCasts_S1024x8_S1024x8 : S1024x8.ShapeCasts S1024x8
  slices_S1024x1024_o0_0_S1024x128 : S1024x1024.Slices ![0, 0] S1024x128
  slices_S1024x8_o0_0_S1024x1 : S1024x8.Slices ![0, 0] S1024x1
  broadcasts_S1024x1_S1024x128 : S1024x1.Broadcasts S1024x128
  broadcasts_S1x128_S1024x128 : S1x128.Broadcasts S1024x128
  inb_S1024x1024_S1024x128_0_0 : ∀ a, (![0, 0] : Fin 2 → Nat) a + S1024x128.size a ≤ S1024x1024.size a
  h_S1024x128 : 0 < S1024x128.numel
  slices_S1024x1024_o0_128_S1024x128 : S1024x1024.Slices ![0, 128] S1024x128
  slices_S1024x8_o0_1_S1024x1 : S1024x8.Slices ![0, 1] S1024x1
  inb_S1024x1024_S1024x128_0_128 : ∀ a, (![0, 128] : Fin 2 → Nat) a + S1024x128.size a ≤ S1024x1024.size a
  slices_S1024x1024_o0_256_S1024x128 : S1024x1024.Slices ![0, 256] S1024x128
  slices_S1024x8_o0_2_S1024x1 : S1024x8.Slices ![0, 2] S1024x1
  inb_S1024x1024_S1024x128_0_256 : ∀ a, (![0, 256] : Fin 2 → Nat) a + S1024x128.size a ≤ S1024x1024.size a
  slices_S1024x1024_o0_384_S1024x128 : S1024x1024.Slices ![0, 384] S1024x128
  slices_S1024x8_o0_3_S1024x1 : S1024x8.Slices ![0, 3] S1024x1
  inb_S1024x1024_S1024x128_0_384 : ∀ a, (![0, 384] : Fin 2 → Nat) a + S1024x128.size a ≤ S1024x1024.size a
  slices_S1024x1024_o0_512_S1024x128 : S1024x1024.Slices ![0, 512] S1024x128
  slices_S1024x8_o0_4_S1024x1 : S1024x8.Slices ![0, 4] S1024x1
  inb_S1024x1024_S1024x128_0_512 : ∀ a, (![0, 512] : Fin 2 → Nat) a + S1024x128.size a ≤ S1024x1024.size a
  slices_S1024x1024_o0_640_S1024x128 : S1024x1024.Slices ![0, 640] S1024x128
  slices_S1024x8_o0_5_S1024x1 : S1024x8.Slices ![0, 5] S1024x1
  inb_S1024x1024_S1024x128_0_640 : ∀ a, (![0, 640] : Fin 2 → Nat) a + S1024x128.size a ≤ S1024x1024.size a
  slices_S1024x1024_o0_768_S1024x128 : S1024x1024.Slices ![0, 768] S1024x128
  slices_S1024x8_o0_6_S1024x1 : S1024x8.Slices ![0, 6] S1024x1
  inb_S1024x1024_S1024x128_0_768 : ∀ a, (![0, 768] : Fin 2 → Nat) a + S1024x128.size a ≤ S1024x1024.size a
  slices_S1024x1024_o0_896_S1024x128 : S1024x1024.Slices ![0, 896] S1024x128
  slices_S1024x8_o0_7_S1024x1 : S1024x8.Slices ![0, 7] S1024x1
  inb_S1024x1024_S1024x128_0_896 : ∀ a, (![0, 896] : Fin 2 → Nat) a + S1024x128.size a ≤ S1024x1024.size a
  inb_S2000x1024_S2000x1024_0_0 : ∀ a, (![0, 0] : Fin 2 → Nat) a + S2000x1024.size a ≤ S2000x1024.size a
  h_S2000x1024 : 0 < S2000x1024.numel
  shapeCasts_S2000x1024_S2000x1024 : S2000x1024.ShapeCasts S2000x1024
  slices_S2000x1024_o0_0_S2000x128 : S2000x1024.Slices ![0, 0] S2000x128
  reduces_S2000x128_S128 : S2000x128.Reduces [0] S128
  slices_S2000x1024_o0_128_S2000x128 : S2000x1024.Slices ![0, 128] S2000x128
  slices_S2000x1024_o0_256_S2000x128 : S2000x1024.Slices ![0, 256] S2000x128
  slices_S2000x1024_o0_384_S2000x128 : S2000x1024.Slices ![0, 384] S2000x128
  slices_S2000x1024_o0_512_S2000x128 : S2000x1024.Slices ![0, 512] S2000x128
  slices_S2000x1024_o0_640_S2000x128 : S2000x1024.Slices ![0, 640] S2000x128
  slices_S2000x1024_o0_768_S2000x128 : S2000x1024.Slices ![0, 768] S2000x128
  slices_S2000x1024_o0_896_S2000x128 : S2000x1024.Slices ![0, 896] S2000x128
  bcast_S_S1x128 : S_.BroadcastsInDim S1x128 (![] : Fin 0 → Fin S1x128.rank)
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  broadcasts_S1x128_S2000x128 : S1x128.Broadcasts S2000x128
  inb_S1x2000x128_S1x2000x128_0_0_0 : ∀ a, (![0, 0, 0] : Fin 3 → Nat) a + S1x2000x128.size a ≤ S1x2000x128.size a
  h_S1x2000x128 : 0 < S1x2000x128.numel
  shapeCasts_S1x2000x128_S2000x128 : S1x2000x128.ShapeCasts S2000x128
  shapeCasts_S2000x128_S1x2000x128 : S2000x128.ShapeCasts S1x2000x128
  dot_S1280x128_S128x128_S1280x128_1_0_0_1_n_n_wf : DotDims.WF S1280x128 S128x128 S1280x128 [1] [0] [0] [1] [] []
  scatter_S10240x10240_S160000x2_S160000_n_01_01_1_wf : ScatterDims.WF S10240x10240 S160000x2 S160000 [] [0, 1] [0, 1] 1
  scatter_S10000x8_S160000x1_S160000x8_1_0_0_1_wf : ScatterDims.WF S10000x8 S160000x1 S160000x8 [1] [0] [0] 1
  dot_S1024x1280_S1280x1024_S1024x1024_1_0_0_1_n_n_wf : DotDims.WF S1024x1280 S1280x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1280x128.size a ≤ S8x10240x128.size a
  hwx0_0 : ∀ i : grid0.Coords, EltTy.bits .f32 = 32 ∨ (Rect.block (s := S8x10240x128) S1x1280x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1280x128.size a ≤ S10240x1024.size a
  hwx0_4 : ∀ i : grid0.Coords, EltTy.bits .bf16 = 32 ∨ (Rect.block (s := S10240x1024) S1280x128.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1280x128.size a ≤ S10240x1024.size a
  hwx0_5 : ∀ i : grid0.Coords, EltTy.bits .f32 = 32 ∨ (Rect.block (s := S10240x1024) S1280x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1280.size a ≤ S10240x10240.size a
  hwx1_0 : ∀ i : grid1.Coords, EltTy.bits .bf16 = 32 ∨ (Rect.block (s := S10240x10240) S1024x1280.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1280x1024.size a ≤ S10240x1024.size a
  hwx1_1 : ∀ i : grid1.Coords, EltTy.bits .bf16 = 32 ∨ (Rect.block (s := S10240x1024) S1280x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1024.size a ≤ S10240x1024.size a
  hwx1_2 : ∀ i : grid1.Coords, EltTy.bits .f32 = 32 ∨ (Rect.block (s := S10240x1024) S1024x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x8.size a ≤ S10240x8.size a
  hwx1_3 : ∀ i : grid1.Coords, EltTy.bits .f32 = 32 ∨ (Rect.block (s := S10240x8) S1024x8.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1024x1024.size a ≤ S10240x1024.size a
  hwx1_5 : ∀ i : grid1.Coords, EltTy.bits .f32 = 32 ∨ (Rect.block (s := S10240x1024) S1024x1024.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hstart2_0 : ∀ (i : grid2.Coords) a, cc2_transform_0 i a * S2000x1024.size a < S10240x1024.size a
  hwx2_0 : ∀ i : grid2.Coords, EltTy.bits .f32 = 32 ∨ (Rect.unit (s := S10240x1024) (fun a => cc2_transform_0 i a * S2000x1024.size a) (fun a => (Pipeline.Clip.of (cc2_transform_0 i a) (S2000x1024.size a) (S10240x1024.size a)).extent (S2000x1024.size a)) fun a => Pipeline.Clip.inb (Pipeline.Clip.ok_of (hstart2_0 i a))).WholeWords (EltTy.packing .f32)
  hwxs2_0 : ∀ i : grid2.Coords, EltTy.bits .f32 = 32 ∨ (Rect.unit (s := S2000x1024) (fun _ => 0) (fun a => (Pipeline.Clip.of (cc2_transform_0 i a) (S2000x1024.size a) (S10240x1024.size a)).extent (S2000x1024.size a)) fun a => (Nat.zero_add _).trans_le (Pipeline.Clip.extent_le (Pipeline.Clip.ok_of (hstart2_0 i a)))).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hstart3_0 : ∀ (i : grid3.Coords) a, cc3_transform_0 i a * S2000x128.size a < S10240x1024.size a
  hwx3_0 : ∀ i : grid3.Coords, EltTy.bits .f32 = 32 ∨ (Rect.unit (s := S10240x1024) (fun a => cc3_transform_0 i a * S2000x128.size a) (fun a => (Pipeline.Clip.of (cc3_transform_0 i a) (S2000x128.size a) (S10240x1024.size a)).extent (S2000x128.size a)) fun a => Pipeline.Clip.inb (Pipeline.Clip.ok_of (hstart3_0 i a))).WholeWords (EltTy.packing .f32)
  hwxs3_0 : ∀ i : grid3.Coords, EltTy.bits .f32 = 32 ∨ (Rect.unit (s := S2000x128) (fun _ => 0) (fun a => (Pipeline.Clip.of (cc3_transform_0 i a) (S2000x128.size a) (S10240x1024.size a)).extent (S2000x128.size a)) fun a => (Nat.zero_add _).trans_le (Pipeline.Clip.extent_le (Pipeline.Clip.ok_of (hstart3_0 i a)))).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S1x2000x128.size a ≤ S8x10000x128.size a
  hwx3_5 : ∀ i : grid3.Coords, EltTy.bits .f32 = 32 ∨ (Rect.block (s := S8x10000x128) S1x2000x128.size (cc3_transform_5 i) (hinb3_5 i)).WholeWords (EltTy.packing .f32)

variable [Facts₀]

def dot_S1280x128_S128x128_S1280x128_1_0_0_1_n_n : DotDims S1280x128 S128x128 S1280x128 where
  lhsContracting := [1]
  rhsContracting := [0]
  lhsNonContracting := [0]
  rhsNonContracting := [1]
  lhsBatch := []
  rhsBatch := []
  wf := dot_S1280x128_S128x128_S1280x128_1_0_0_1_n_n_wf
def scatter_S10240x10240_S160000x2_S160000_n_01_01_1 : ScatterDims S10240x10240 S160000x2 S160000 where
  updateWindowDims := []
  insertedWindowDims := [0, 1]
  scatterDimsToOperandDims := [0, 1]
  indexVectorDim := 1
  wf := scatter_S10240x10240_S160000x2_S160000_n_01_01_1_wf
def scatter_S10000x8_S160000x1_S160000x8_1_0_0_1 : ScatterDims S10000x8 S160000x1 S160000x8 where
  updateWindowDims := [1]
  insertedWindowDims := [0]
  scatterDimsToOperandDims := [0]
  indexVectorDim := 1
  wf := scatter_S10000x8_S160000x1_S160000x8_1_0_0_1_wf
def dot_S1024x1280_S1280x1024_S1024x1024_1_0_0_1_n_n : DotDims S1024x1280 S1280x1024 S1024x1024 where
  lhsContracting := [1]
  rhsContracting := [0]
  lhsNonContracting := [0]
  rhsNonContracting := [1]
  lhsBatch := []
  rhsBatch := []
  wf := dot_S1024x1280_S1280x1024_S1024x1024_1_0_0_1_n_n_wf

abbrev win0_0 : Pipeline.Window sig grid0 :=
  Pipeline.Window.ofSpec (Memref.whole main_v4) S1x1280x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6_0) S1280x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v6_1) S1280x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v23) S1024x1280.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6_0) S1280x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v6_1) S1024x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v28) S1024x8.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v30) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v31) S1024x1024.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun _ => false | 5 => fun i => !(k1_cond2 i == 1#1) | ⟨_ + 6, h⟩ => absurd h (Nat.not_lt.2 (Nat.le_add_left _ _))

abbrev win2_0 : Pipeline.Window sig grid2 :=
  Pipeline.Window.ofSpecClip (Memref.whole main_v31) S2000x1024.size cc2_transform_0 reads2_0 false false 2 stage2_0 sem2_0
    hrank2 hreads2_0 hstart2_0 nbuf2_0 (Memref.isWhole_whole _) hwx2_0 hwxs2_0 hstage2_0

abbrev win2_1 : Pipeline.Window sig grid2 :=
  Pipeline.Window.ofSpec (Memref.whole main_v32_0) S1x128.size cc2_transform_1 reads2_1 true true 1 stage2_1 sem2_1
    hrank2 hreads2_1 hinb2_1 nbuf2_1 (Memref.isWhole_whole _) hwx2_1 hstage2_1

abbrev win2_2 : Pipeline.Window sig grid2 :=
  Pipeline.Window.ofSpec (Memref.whole main_v32_1) S1x128.size cc2_transform_2 reads2_2 true true 1 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpecClip (Memref.whole main_v31) S2000x128.size cc3_transform_0 reads3_0 false false 2 stage3_0 sem3_0
    hrank3 hreads3_0 hstart3_0 nbuf3_0 (Memref.isWhole_whole _) hwx3_0 hwxs3_0 hstage3_0

abbrev win3_1 : Pipeline.Window sig grid3 :=
  Pipeline.Window.ofSpec (Memref.whole main_v34) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v40) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v41) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v42) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v43) S1x2000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S8x10000x128 : Shape := ⟨3, ![8, 10000, 128]⟩
abbrev S160000x2 : Shape := ⟨2, ![160000, 2]⟩
abbrev S8x160000 : Shape := ⟨2, ![8, 160000]⟩
abbrev S128x128 : Shape := ⟨2, ![128, 128]⟩
abbrev S128x1 : Shape := ⟨2, ![128, 1]⟩
abbrev S128 : Shape := ⟨1, ![128]⟩
abbrev S160000x1 : Shape := ⟨2, ![160000, 1]⟩
abbrev S160000 : Shape := ⟨1, ![160000]⟩
abbrev S1x1x128 : Shape := ⟨3, ![1, 1, 128]⟩
abbrev S_ : Shape := ⟨0, ![]⟩
abbrev S8x160000x128 : Shape := ⟨3, ![8, 160000, 128]⟩
abbrev S8x160000x1 : Shape := ⟨3, ![8, 160000, 1]⟩

abbrev nBuf : Space → Nat
  | .hbm => 93
  | .vmem => 0
  | .smem => 0
  | _ => 0

abbrev bufTy : (tb : Table) → Fin (tcTables nBuf tb) → BufTy
  | .hbm, ⟨0, _⟩ => ⟨S8x10000x128, .f32⟩
  | .hbm, ⟨1, _⟩ => ⟨S160000x2, .i32⟩
  | .hbm, ⟨2, _⟩ => ⟨S8x160000, .f32⟩
  | .hbm, ⟨3, _⟩ => ⟨S128x128, .f32⟩
  | .hbm, ⟨4, _⟩ => ⟨S128x1, .f32⟩
  | .hbm, ⟨5, _⟩ => ⟨S128x128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S160000x1, .i32⟩
  | .hbm, ⟨10, _⟩ => ⟨S160000, .i32⟩
  | .hbm, ⟨11, _⟩ => ⟨S160000x1, .i32⟩
  | .hbm, ⟨12, _⟩ => ⟨S160000, .i32⟩
  | .hbm, ⟨13, _⟩ => ⟨S8x10000x128, .f32⟩
  | .hbm, ⟨14, _⟩ => ⟨S1x1x128, .f32⟩
  | .hbm, ⟨15, _⟩ => ⟨S8x10000x128, .f32⟩
  | .hbm, ⟨16, _⟩ => ⟨S8x10000x128, .f32⟩
  | .hbm, ⟨17, _⟩ => ⟨S8x10000x128, .f32⟩
  | .hbm, ⟨18, _⟩ => ⟨S_, .i32⟩
  | .hbm, ⟨19, _⟩ => ⟨S160000, .i32⟩
  | .hbm, ⟨20, _⟩ => ⟨S160000, .i1⟩
  | .hbm, ⟨21, _⟩ => ⟨S_, .i32⟩
  | .hbm, ⟨22, _⟩ => ⟨S160000, .i32⟩
  | .hbm, ⟨23, _⟩ => ⟨S160000, .i32⟩
  | .hbm, ⟨24, _⟩ => ⟨S160000, .i32⟩
  | .hbm, ⟨25, _⟩ => ⟨S160000x1, .i32⟩
  | .hbm, ⟨26, _⟩ => ⟨S8x160000x128, .f32⟩
  | .hbm, ⟨27, _⟩ => ⟨S8x160000x1, .f32⟩
  | .hbm, ⟨28, _⟩ => ⟨S128, .f32⟩
  | .hbm, ⟨29, _⟩ => ⟨S1x1x128, .f32⟩
  | .hbm, ⟨30, _⟩ => ⟨S8x160000x128, .f32⟩
  | .hbm, ⟨31, _⟩ => ⟨S8x160000x128, .f32⟩
  | .hbm, ⟨32, _⟩ => ⟨S8x160000x128, .f32⟩
  | .hbm, ⟨33, _⟩ => ⟨S8x160000x128, .f32⟩
  | .hbm, ⟨34, _⟩ => ⟨S_, .f32⟩
  | .hbm, ⟨35, _⟩ => ⟨S8x10000x128, .f32⟩
  | .hbm, ⟨36, _⟩ => ⟨S_, .i32⟩
  | .hbm, ⟨37, _⟩ => ⟨S160000, .i32⟩
  | .hbm, ⟨38, _⟩ => ⟨S160000, .i1⟩
  | .hbm, ⟨39, _⟩ => ⟨S_, .i32⟩
  | .hbm, ⟨40, _⟩ => ⟨S160000, .i32⟩
  | .hbm, ⟨41, _⟩ => ⟨S160000, .i32⟩
  | .hbm, ⟨42, _⟩ => ⟨S160000, .i32⟩
  | .hbm, ⟨43, _⟩ => ⟨S160000x1, .i32⟩
  | .hbm, ⟨44, _⟩ => ⟨S8x10000x128, .f32⟩
  | .hbm, ⟨45, _⟩ => ⟨S8x10000x128, .f32⟩
  | .hbm, ⟨46, _⟩ => ⟨S_, .f32⟩
  | .hbm, ⟨47, _⟩ => ⟨S128, .f32⟩
  | .hbm, ⟨48, _⟩ => ⟨S_, .f32⟩
  | .hbm, ⟨49, _⟩ => ⟨S128, .f32⟩
  | .hbm, ⟨50, _⟩ => ⟨S128, .f32⟩
  | .hbm, ⟨51, _⟩ => ⟨S_, .i32⟩
  | .hbm, ⟨52, _⟩ => ⟨S_, .f32⟩
  | .hbm, ⟨53, _⟩ => ⟨S128, .f32⟩
  | .hbm, ⟨54, _⟩ => ⟨S1x1x128, .f32⟩
  | .hbm, ⟨55, _⟩ => ⟨S_, .f32⟩
  | .hbm, ⟨56, _⟩ => ⟨S1x1x128, .f32⟩
  | .hbm, ⟨57, _⟩ => ⟨S1x1x128, .f32⟩
  | .hbm, ⟨58, _⟩ => ⟨S8x10000x128, .f32⟩
  | .hbm, ⟨59, _⟩ => ⟨S8x10000x128, .f32⟩
  | .hbm, ⟨60, _⟩ => ⟨S8x10000x128, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S128, .f32⟩
  | .hbm, ⟨66, _⟩ => ⟨S128, .f32⟩
  | .hbm, ⟨67, _⟩ => ⟨S128, .f32⟩
  | .hbm, ⟨68, _⟩ => ⟨S_, .f32⟩
  | .hbm, ⟨69, _⟩ => ⟨S_, .i1⟩
  | .hbm, ⟨70, _⟩ => ⟨S_, .f32⟩
  | .hbm, ⟨71, _⟩ => ⟨S_, .f32⟩
  | .hbm, ⟨72, _⟩ => ⟨S128, .f32⟩
  | .hbm, ⟨73, _⟩ => ⟨S128, .f32⟩
  | .hbm, ⟨74, _⟩ => ⟨S1x1x128, .f32⟩
  | .hbm, ⟨75, _⟩ => ⟨S8x10000x128, .f32⟩
  | .hbm, ⟨76, _⟩ => ⟨S8x10000x128, .f32⟩
  | .hbm, ⟨77, _⟩ => ⟨S_, .f32⟩
  | .hbm, ⟨78, _⟩ => ⟨S128, .f32⟩
  | .hbm, ⟨79, _⟩ => ⟨S128, .f32⟩
  | .hbm, ⟨80, _⟩ => ⟨S128, .f32⟩
  | .hbm, ⟨81, _⟩ => ⟨S1x1x128, .f32⟩
  | .hbm, ⟨82, _⟩ => ⟨S8x10000x128, .f32⟩
  | .hbm, ⟨83, _⟩ => ⟨S8x10000x128, .f32⟩
  | .hbm, ⟨84, _⟩ => ⟨S1x1x128, .f32⟩
  | .hbm, ⟨85, _⟩ => ⟨S8x10000x128, .f32⟩
  | .hbm, ⟨86, _⟩ => ⟨S8x10000x128, .f32⟩
  | .hbm, ⟨87, _⟩ => ⟨S1x1x128, .f32⟩
  | .hbm, ⟨88, _⟩ => ⟨S8x10000x128, .f32⟩
  | .hbm, ⟨89, _⟩ => ⟨S8x10000x128, .f32⟩
  | .hbm, ⟨90, _⟩ => ⟨S_, .f32⟩
  | .hbm, ⟨91, _⟩ => ⟨S8x10000x128, .f32⟩
  | .hbm, ⟨92, _⟩ => ⟨S8x10000x128, .f32⟩
  | _, _ => ⟨S8x10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c : Ref sig .tc := ⟨.hbm, 18, rfl⟩
abbrev main_v9 : Ref sig .tc := ⟨.hbm, 19, rfl⟩
abbrev main_v10 : Ref sig .tc := ⟨.hbm, 20, rfl⟩
abbrev main_c_0 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst : Ref sig .tc := ⟨.hbm, 34, rfl⟩
abbrev main_v23 : Ref sig .tc := ⟨.hbm, 35, rfl⟩
abbrev main_c_1 : Ref sig .tc := ⟨.hbm, 36, rfl⟩
abbrev main_v24 : Ref sig .tc := ⟨.hbm, 37, rfl⟩
abbrev main_v25 : Ref sig .tc := ⟨.hbm, 38, rfl⟩
abbrev main_c_2 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_3 : Ref sig .tc := ⟨.hbm, 46, rfl⟩
abbrev main_v32 : Ref sig .tc := ⟨.hbm, 47, rfl⟩
abbrev main_cst_4 : Ref sig .tc := ⟨.hbm, 48, rfl⟩
abbrev main_v33 : Ref sig .tc := ⟨.hbm, 49, rfl⟩
abbrev main_v34 : Ref sig .tc := ⟨.hbm, 50, rfl⟩
abbrev main_c_5 : Ref sig .tc := ⟨.hbm, 51, rfl⟩
abbrev main_call0_cst : Ref sig .tc := ⟨.hbm, 52, rfl⟩
abbrev main_call0_v0 : Ref sig .tc := ⟨.hbm, 53, rfl⟩
abbrev main_call0_v1 : Ref sig .tc := ⟨.hbm, 54, rfl⟩
abbrev main_call0_cst_0 : Ref sig .tc := ⟨.hbm, 55, rfl⟩
abbrev main_call0_v2 : Ref sig .tc := ⟨.hbm, 56, rfl⟩
abbrev main_call0_v3 : Ref sig .tc := ⟨.hbm, 57, rfl⟩
abbrev main_call0_v4 : Ref sig .tc := ⟨.hbm, 58, rfl⟩
abbrev main_call0_v5 : Ref sig .tc := ⟨.hbm, 59, rfl⟩
abbrev main_call0_v6 : Ref sig .tc := ⟨.hbm, 60, rfl⟩
abbrev main_call0_v7 : Ref sig .tc := ⟨.hbm, 61, rfl⟩
abbrev main_call0_cst_1 : Ref sig .tc := ⟨.hbm, 62, rfl⟩
abbrev main_call0_v8 : Ref sig .tc := ⟨.hbm, 63, rfl⟩
abbrev main_call0_cst_2 : Ref sig .tc := ⟨.hbm, 64, rfl⟩
abbrev main_call0_v9 : Ref sig .tc := ⟨.hbm, 65, rfl⟩
abbrev main_call0_v10 : Ref sig .tc := ⟨.hbm, 66, rfl⟩
abbrev main_call0_v11 : Ref sig .tc := ⟨.hbm, 67, rfl⟩
abbrev main_call0_cst_3 : Ref sig .tc := ⟨.hbm, 68, rfl⟩
abbrev main_call0_v12 : Ref sig .tc := ⟨.hbm, 69, rfl⟩
abbrev main_call0_cst_4 : Ref sig .tc := ⟨.hbm, 70, rfl⟩
abbrev main_call0_call0_v0 : Ref sig .tc := ⟨.hbm, 71, rfl⟩
abbrev main_call0_call0_v1 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_cst_6 : Ref sig .tc := ⟨.hbm, 77, rfl⟩
abbrev main_v39 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_call1_cst : Ref sig .tc := ⟨.hbm, 90, rfl⟩
abbrev main_call1_v0 : Ref sig .tc := ⟨.hbm, 91, rfl⟩
abbrev main_v51 : Ref sig .tc := ⟨.hbm, 92, rfl⟩

abbrev nD : Nat := 1
abbrev τ : Topo := Topo.v7x

variable {F : FTy → Type} [FloatOps F]

class Facts₀ : Prop where
  slices_S160000x2_S160000x1_0_0 : S160000x2.Slices ![0, 0] S160000x1
  shapeCasts_S160000x1_S160000 : S160000x1.ShapeCasts S160000
  slices_S160000x2_S160000x1_0_1 : S160000x2.Slices ![0, 1] S160000x1
  bcast_S128_S1x1x128_2 : S128.BroadcastsInDim S1x1x128 (![2] : Fin 1 → Fin S1x1x128.rank)
  bcast_S1x1x128_S8x10000x128_0_1_2 : S1x1x128.BroadcastsInDim S8x10000x128 (![0, 1, 2] : Fin 3 → Fin S8x10000x128.rank)
  bcast_S_S160000 : S_.BroadcastsInDim S160000 (![] : Fin 0 → Fin S160000.rank)
  bcast_S160000_S160000x1_0 : S160000.BroadcastsInDim S160000x1 (![0] : Fin 1 → Fin S160000x1.rank)
  bcast_S8x160000_S8x160000x1_0_1 : S8x160000.BroadcastsInDim S8x160000x1 (![0, 1] : Fin 2 → Fin S8x160000x1.rank)
  shapeCasts_S128x1_S128 : S128x1.ShapeCasts S128
  bcast_S8x160000x1_S8x160000x128_0_1_2 : S8x160000x1.BroadcastsInDim S8x160000x128 (![0, 1, 2] : Fin 3 → Fin S8x160000x128.rank)
  bcast_S1x1x128_S8x160000x128_0_1_2 : S1x1x128.BroadcastsInDim S8x160000x128 (![0, 1, 2] : Fin 3 → Fin S8x160000x128.rank)
  bcast_S_S8x10000x128 : S_.BroadcastsInDim S8x10000x128 (![] : Fin 0 → Fin S8x10000x128.rank)
  reducesTo_S8x10000x128_S128_d0_1 : S8x10000x128.ReducesTo [0, 1] S128
  h_S_ : 0 < S_.numel
  bcast_S_S128 : S_.BroadcastsInDim S128 (![] : Fin 0 → Fin S128.rank)
  bcast_S_S1x1x128 : S_.BroadcastsInDim S1x1x128 (![] : Fin 0 → Fin S1x1x128.rank)
  dot_S8x10000x128_S128x128_S8x10000x128_2_1_01_0_n_n_wf : DotDims.WF S8x10000x128 S128x128 S8x10000x128 [2] [1] [0, 1] [0] [] []
  gather_S8x10000x128_S160000x1_S8x160000x128_02_1_n_n_1_1_81128_wf : GatherDims.WF S8x10000x128 S160000x1 S8x160000x128 [0, 2] [1] [] [1] [] 1 ![8, 1, 128]
  scatter_S8x10000x128_S160000x1_S8x160000x128_02_1_1_1_wf : ScatterDims.WF S8x10000x128 S160000x1 S8x160000x128 [0, 2] [1] [1] 1

variable [Facts₀]

def dot_S8x10000x128_S128x128_S8x10000x128_2_1_01_0_n_n : DotDims S8x10000x128 S128x128 S8x10000x128 where
  lhsContracting := [2]
  rhsContracting := [1]
  lhsNonContracting := [0, 1]
  rhsNonContracting := [0]
  lhsBatch := []
  rhsBatch := []
  wf := dot_S8x10000x128_S128x128_S8x10000x128_2_1_01_0_n_n_wf
def gather_S8x10000x128_S160000x1_S8x160000x128_02_1_n_n_1_1_81128 : GatherDims S8x10000x128 S160000x1 S8x160000x128 where
  offsetDims := [0, 2]
  collapsedSliceDims := [1]
  operandBatchingDims := []
  startIndicesBatchingDims := []
  startIndexMap := [1]
  indexVectorDim := 1
  sliceSizes := ![8, 1, 128]
  wf := gather_S8x10000x128_S160000x1_S8x160000x128_02_1_n_n_1_1_81128_wf
def scatter_S8x10000x128_S160000x1_S8x160000x128_02_1_1_1 : ScatterDims S8x10000x128 S160000x1 S8x160000x128 where
  updateWindowDims := [0, 2]
  insertedWindowDims := [1]
  scatterDimsToOperandDims := [1]
  indexVectorDim := 1
  wf := scatter_S8x10000x128_S160000x1_S8x160000x128_02_1_1_1_wf

class Facts : Prop extends Facts₀ where

variable [Facts]
-- ==== Proof.KI.R0.lean ====
/- Region 0 of @main: custom call 0, the node transform (grid 8 x 8), at a parameter `V` — the core's buffer
   contents when the region is entered. Four input windows (the node-feature block, two weight matrices, the bias
   row) are loaded whole; the body multiplies the bf16-rounded feature block by each bf16-rounded transposed weight
   matrix into a zero accumulator, stores the first product rounded to bf16 into output window 4 and the second
   product plus the broadcast bias row into output window 5, each store covering its whole staging buffer. Here:
   each window's block at a point, what the body leaves in each output buffer as the canonical contents of its one
   store, the body's triple, the proof data, and the body obligation at every point. -/
import proofs.«421049_j39367670235755_2_alg».proof.Proof.Gen.KernelIdeal.Launch
import proofs.«421049_j39367670235755_2_alg».proof.Proof.Gen.KernelIdeal.Skeleton
import proofs.«421049_j39367670235755_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s and whose body leaves the block in place: unfetched, the block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The same of input window 1 (one block, fetched once). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- The same of input window 2 (one block, fetched once). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- The same of input window 3 (one block, fetched once). -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and store is of a whole staging buffer -/

abbrev r0_0 : Rect S1x1280x128 := Rect.unit (s := S1x1280x128) ![0, 0, 0] S1x1280x128.size inb_S1x1280x128_S1x1280x128_0_0_0
abbrev r0_1 : Rect S128x128 := Rect.unit (s := S128x128) ![0, 0] S128x128.size inb_S128x128_S128x128_0_0
abbrev r0_2 : Rect S1x128 := Rect.unit (s := S1x128) ![0, 0] S1x128.size inb_S1x128_S1x128_0_0
abbrev r0_3 : Rect S1280x128 := Rect.unit (s := S1280x128) ![0, 0] S1280x128.size inb_S1280x128_S1280x128_0_0

/-! ## What the body leaves in each output window's buffer -/

/-- Window 4's staging buffer after the body, from the blocks of windows 0 and 1: its one store as a piece. -/
def out0_4 (x0 : Vec F S1x1280x128 .f32) (x1 : Vec F S128x128 .f32) : Vec F S1280x128 .bf16 :=
  View.canon [⟨r0_3, k0_pay3 (View.ld x0 r0_0) (View.ld x1 r0_1)⟩]

/-- Window 5's staging buffer after the body, from the blocks of windows 0, 2 and 3: its one store as a piece. -/
def out0_5 (x0 : Vec F S1x1280x128 .f32) (x2 : Vec F S128x128 .f32) (x3 : Vec F S1x128 .f32) : Vec F S1280x128 .f32 :=
  View.canon [⟨r0_3, k0_pay2 (View.ld x0 r0_0) (View.ld x2 r0_1) (View.ld x3 r0_2)⟩]

/-- The one store tiles the bf16 buffer, so it covers it. -/
theorem cover0_4 (p0 : Vec F S1280x128 .bf16) (y : S1280x128.Idx) :
    ∃ pc ∈ ([⟨r0_3, p0⟩] : List (View.Piece (Elt F) S1280x128 .bf16)), y ∈ pc.1.set :=
  View.cover_of_tiled [⟨r0_3, p0⟩] S1280x128.size (by rfl) y

/-- The one store tiles the f32 buffer, so it covers it. -/
theorem cover0_5 (p0 : Vec F S1280x128 .f32) (y : S1280x128.Idx) :
    ∃ pc ∈ ([⟨r0_3, p0⟩] : List (View.Piece (Elt F) S1280x128 .f32)), y ∈ pc.1.set :=
  View.cover_of_tiled [⟨r0_3, p0⟩] S1280x128.size (by rfl) y

/-! ## The body's triple -/

set_option maxHeartbeats 1000000 in
/-- The kernel body on whole staging memrefs, the inputs' at read contents `xW` and the outputs' at anything, runs to
    the continuation holding the inputs' as they were and each output's at `out0_W` of the inputs'. -/
theorem sound_kernel0 (c : Dev nD) (E : Set ℕ) (i : grid0.Coords)
    (arg2 : Memref sig .tc .vmem S1x1280x128 .f32) (harg2 : arg2.IsWhole) (arg3 : Memref sig .tc .vmem S128x128 .f32) (harg3 : arg3.IsWhole)
    (arg4 : Memref sig .tc .vmem S128x128 .f32) (harg4 : arg4.IsWhole) (arg5 : Memref sig .tc .vmem S1x128 .f32) (harg5 : arg5.IsWhole)
    (arg6 : Memref sig .tc .vmem S1280x128 .bf16) (harg6 : arg6.IsWhole) (arg7 : Memref sig .tc .vmem S1280x128 .f32) (harg7 : arg7.IsWhole)
    (x0 : Vec F S1x1280x128 .f32) (x1 : Vec F S128x128 .f32) (x2 : Vec F S128x128 .f32) (x3 : Vec F S1x128 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (out0_4 x0 x1)
            ∗ owns (c : Thread nD τ) arg7 fullShare (out0_5 x0 x2 x3)) -∗ K ⟨⟩))
      ⊢ wp frame (wpE (defs₀ (F := F)) Variants.none c none) E (cc0__node_transform_kernel i arg2 harg2 arg3 harg3 arg4 harg4 arg5 harg5 arg6 harg6 arg7 harg7) K := by
  simp only [cc0__node_transform_kernel_eq_skeleton]; unfold cc0__node_transform_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover0_4 _)
  iexists _; isplitr
  swap; · iexact H5
  ipureintro
  exact View.read_writes_eq_canon _ _ _ (cover0_5 _)

/-! ## The pipeline's proof data -/

/-- The proof data of pipeline 0 on core `c`: the arrays as the region finds them (`V`); after the body at
    point `t` each input's buffer at its block and each output's at `out0_W` of the input blocks; the invariant the
    scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t)
    | ⟨5, _⟩ => out0_5 (iblk0 V c 0 t) (iblk0 V c 2 t) (iblk0 V c 3 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) := by dsimp only [dat0]
theorem after0_5 (c : Dev nD) (t : Fin cfg0.N) : (dat0 V c).after 5 t = out0_5 (iblk0 V c 0 t) (iblk0 V c 2 t) (iblk0 V c 3 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' memrefs hold their blocks, so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ (grid0.coords t) _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! ## The invariant at the region's ends -/

/-- Entering: the invariant at point 0 is the class's, as given. -/
theorem hin0 (c : Dev nD) : Pipeline.ΦA spec0 c ⊢ (dat0 V c).Φ 0 := by
  rw [show (dat0 V c).Φ 0 = Pipeline.ΦA spec0 c from rfl]

/-- Leaving: the invariant after the last point is the class's, as returned. -/
theorem hout0 (c : Dev nD) : (dat0 V c).Φ (Fin.last cfg0.N) ⊢ Pipeline.ΦA spec0 c := by
  rw [show (dat0 V c).Φ (Fin.last cfg0.N) = Pipeline.ΦA spec0 c from rfl]

end Cert.KernelIdeal.Hand

end
-- ==== Proof.KI.R1.lean ====
import proofs.«421049_j39367670235755_2_alg».proof.Proof.Gen.KernelIdeal.Launch
import proofs.«421049_j39367670235755_2_alg».proof.Proof.Gen.KernelIdeal.Skeleton
import proofs.«421049_j39367670235755_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

/-! # Region 1 (aggregation and combination): the frame half at the entry contents `V`

The grid is (i, k) = (10, 8). At every point the body adds the product of window 0's block (1024 × 1280) and window 1's
block (1280 × 1024) into a 1024 × 1024 scratch accumulator that it carries along k; where k = 0 it stores zeros into the
accumulator first; where k = 7 it then stores the output block from the accumulator and the blocks of windows 2, 3
and 4, one slab of 128 lanes at a time. At the other points the output window is idle and is not written back.

Three control cases by k, a triple each (`sound_kernel1_A`, `_B`, `_C`) with the contents stated explicitly: the
accumulator after point `n` is `sc1 V c n hn` (`sc1_A`, `sc1_B`), the output block where it is stored is `out1_5`
(the canonical contents of its eight slab stores). The region invariant `PhiS1` names the accumulator's contents from
the second point on. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not, for any proof data
    whose array is `V`'s and whose body leaves the block in place: the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions, in closed form over the grid -/

/-- The condition of the body's first conditional (the grid's inner coordinate is 0: the scratch is zeroed). -/
abbrev cond1_0 (i : grid1.Coords) : Prop := (Scalar.cmpi .ne (Scalar.extui (Scalar.cmpi .eq (BitVec.ofNat 32 (i 1).val) 0#32)) 0#32) = 1#1
/-- It holds at the points ≡ 0 (mod 8). -/
theorem hcond1_0 : ∀ t : Fin cfg1.N, cond1_0 (grid1.coords t) ↔ t.val % 8 = 0 :=
  (by decide +kernel : ∀ t : Fin grid1.N, cond1_0 (grid1.coords t) ↔ t.val % 8 = 0)
/-- The condition of the body's second conditional (the inner coordinate is 7: the output block is stored). -/
abbrev cond1_1 (i : grid1.Coords) : Prop := k1_cond2 i = 1#1
/-- It holds at the points ≡ 7 (mod 8). -/
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl
theorem liveAt1_4 : ∀ t : Fin cfg1.N, cfg1.idle 4 (grid1.coords t) = false := fun _ => rfl
/-- Where the output block is not stored, window 5 is idle -/
theorem idleAt1_5 : ∀ t : Fin cfg1.N, ¬cond1_1 (grid1.coords t) → cfg1.idle 5 (grid1.coords t) = true := by decide +kernel
/-- and not written back; -/
theorem noFlush1_5 : ∀ t : Fin cfg1.N, ¬cond1_1 (grid1.coords t) → (cfg1.win 5).flush t = false := by decide +kernel
/-- where it is stored the window is live. -/
theorem liveAt1_5 : ∀ t : Fin cfg1.N, cond1_1 (grid1.coords t) → cfg1.idle 5 (grid1.coords t) = false := by decide +kernel

/-! ## The body's accesses -/

theorem hz2 : (![0, 0] : Fin 2 → ℕ) = fun _ => 0 := by funext a; fin_cases a <;> rfl

/-- The eight column slabs of the output block, 128 lanes each. -/
abbrev r1_o0 : Rect S1024x1024 := Rect.unit (s := S1024x1024) ![0, 0] S1024x128.size inb_S1024x1024_S1024x128_0_0
abbrev r1_o1 : Rect S1024x1024 := Rect.unit (s := S1024x1024) ![0, 128] S1024x128.size inb_S1024x1024_S1024x128_0_128
abbrev r1_o2 : Rect S1024x1024 := Rect.unit (s := S1024x1024) ![0, 256] S1024x128.size inb_S1024x1024_S1024x128_0_256
abbrev r1_o3 : Rect S1024x1024 := Rect.unit (s := S1024x1024) ![0, 384] S1024x128.size inb_S1024x1024_S1024x128_0_384
abbrev r1_o4 : Rect S1024x1024 := Rect.unit (s := S1024x1024) ![0, 512] S1024x128.size inb_S1024x1024_S1024x128_0_512
abbrev r1_o5 : Rect S1024x1024 := Rect.unit (s := S1024x1024) ![0, 640] S1024x128.size inb_S1024x1024_S1024x128_0_640
abbrev r1_o6 : Rect S1024x1024 := Rect.unit (s := S1024x1024) ![0, 768] S1024x128.size inb_S1024x1024_S1024x128_0_768
abbrev r1_o7 : Rect S1024x1024 := Rect.unit (s := S1024x1024) ![0, 896] S1024x128.size inb_S1024x1024_S1024x128_0_896

/-! ## What the body leaves in the output block when it stores it -/

/-- The output block after the body at a point that stores it, from the scratch `sc` as that point leaves it and the
    blocks of windows 2, 3, 4: its eight slab stores as pieces, last first. -/
def out1_5 (sc x2 : Vec F S1024x1024 .f32) (x3 : Vec F S1024x8 .f32) (x4 : Vec F S1x128 .f32) : Vec F S1024x1024 .f32 :=
  View.canon [⟨r1_o7, k1_pay6 (k1_pay7 sc x2) (k1_pay8 x3) (k1_pay9 x4)⟩, ⟨r1_o6, k1_pay5 (k1_pay7 sc x2) (k1_pay8 x3) (k1_pay9 x4)⟩,
    ⟨r1_o5, k1_pay4 (k1_pay7 sc x2) (k1_pay8 x3) (k1_pay9 x4)⟩, ⟨r1_o4, k1_pay3 (k1_pay14 sc x2) (k1_pay15 x3) (k1_pay16 x4)⟩,
    ⟨r1_o3, k1_pay13 sc x2 x3 x4⟩, ⟨r1_o2, k1_pay12 sc x2 x3 x4⟩, ⟨r1_o1, k1_pay11 sc x2 x3 x4⟩, ⟨r1_o0, k1_pay10 sc x2 x3 x4⟩]

/-- The eight slabs tile the block (checked by evaluation), so they cover it. -/
theorem cover1_5 (p7 p6 p5 p4 p3 p2 p1 p0 : Vec F S1024x128 .f32) (y : S1024x1024.Idx) :
    ∃ pc ∈ ([⟨r1_o7, p7⟩, ⟨r1_o6, p6⟩, ⟨r1_o5, p5⟩, ⟨r1_o4, p4⟩, ⟨r1_o3, p3⟩, ⟨r1_o2, p2⟩, ⟨r1_o1, p1⟩, ⟨r1_o0, p0⟩] : List (View.Piece (Elt F) S1024x1024 .f32)), y ∈ pc.1.set :=
  View.cover_of_tiledL [⟨r1_o7, p7⟩, ⟨r1_o6, p6⟩, ⟨r1_o5, p5⟩, ⟨r1_o4, p4⟩, ⟨r1_o3, p3⟩, ⟨r1_o2, p2⟩, ⟨r1_o1, p1⟩, ⟨r1_o0, p0⟩] S1024x128.size (by sl_kernel_rfl) y

/-! ## The body's triple, case by case -/

set_option maxHeartbeats 2000000 in
/-- The inner coordinate is 0: the scratch is zeroed, then the product of the two blocks is added into it. -/
theorem sound_kernel1_A (c : Dev nD) (E : Set ℕ) (i : grid1.Coords) (arg2 : Memref sig .tc .vmem S1024x1280 .bf16) (harg2 : arg2.IsWhole) (arg3 : Memref sig .tc .vmem S1280x1024 .bf16) (harg3 : arg3.IsWhole) (arg4 : Memref sig .tc .vmem S1024x1024 .f32) (harg4 : arg4.IsWhole) (arg5 : Memref sig .tc .vmem S1024x8 .f32) (harg5 : arg5.IsWhole) (arg6 : Memref sig .tc .vmem S1x128 .f32) (harg6 : arg6.IsWhole) (arg7 : Memref sig .tc .vmem S1024x1024 .f32) (harg7 : arg7.IsWhole) (arg8 : Memref sig .tc .vmem S1024x1024 .f32) (harg8 : arg8.IsWhole) (hc0 : cond1_0 i) (hc1 : ¬cond1_1 i)
    (x0 : Vec F S1024x1280 .bf16) (x1 : Vec F S1280x1024 .bf16) (x2 : Vec F S1024x1024 .f32) (x3 : Vec F S1024x8 .f32) (x4 : Vec F S1x128 .f32) (xi5 : Vec F S1024x1024 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare (k1_pay2 (k1_pay1 (F := F)) x0 x1)) -∗ K ⟨⟩))
      ⊢ wp frame (wpE (defs₀ (F := F)) Variants.none c none) E (cc1__agg_combine_kernel i arg2 harg2 arg3 harg3 arg4 harg4 arg5 harg5 arg6 harg6 arg7 harg7 arg8 harg8) K := by
  simp only [cc1__agg_combine_kernel_eq_skeleton]; unfold cc1__agg_combine_kernel_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d8, %f8, -, H8⟩, Hk⟩
  subst hf0 hf1 hf2 hf3 hf4 hf5
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H8
  ipureintro
  rw [View.read_writes_eq_canon _ _ _ (fun y => ⟨_, List.mem_cons_self, View.mem_set_unit_zero hz2 inb_S1024x1024_S1024x1024_0_0 y⟩),
    View.canon_cons_unit_zero (S := S1024x1024) hz2]
  sl_unfold_run_names
  rw [View.readCov_unit_zero (S := S1024x1024) _ hz2]
  simp only [View.readAt_eq_ld, View.ld_unit_zero (S := S1024x1280) hz2, View.ld_unit_zero (S := S1280x1024) hz2]

set_option maxHeartbeats 2000000 in
/-- The inner coordinate is strictly between 0 and 7: the product is added into the scratch as the point before left it. -/
theorem sound_kernel1_B (c : Dev nD) (E : Set ℕ) (i : grid1.Coords) (arg2 : Memref sig .tc .vmem S1024x1280 .bf16) (harg2 : arg2.IsWhole) (arg3 : Memref sig .tc .vmem S1280x1024 .bf16) (harg3 : arg3.IsWhole) (arg4 : Memref sig .tc .vmem S1024x1024 .f32) (harg4 : arg4.IsWhole) (arg5 : Memref sig .tc .vmem S1024x8 .f32) (harg5 : arg5.IsWhole) (arg6 : Memref sig .tc .vmem S1x128 .f32) (harg6 : arg6.IsWhole) (arg7 : Memref sig .tc .vmem S1024x1024 .f32) (harg7 : arg7.IsWhole) (arg8 : Memref sig .tc .vmem S1024x1024 .f32) (harg8 : arg8.IsWhole) (hc0 : ¬cond1_0 i) (hc1 : ¬cond1_1 i)
    (x0 : Vec F S1024x1280 .bf16) (x1 : Vec F S1280x1024 .bf16) (x2 : Vec F S1024x1024 .f32) (x3 : Vec F S1024x8 .f32) (x4 : Vec F S1x128 .f32) (xi5 : Vec F S1024x1024 .f32) (xs : Vec F S1024x1024 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare (k1_pay2 xs x0 x1)) -∗ K ⟨⟩))
      ⊢ wp frame (wpE (defs₀ (F := F)) Variants.none c none) E (cc1__agg_combine_kernel i arg2 harg2 arg3 harg3 arg4 harg4 arg5 harg5 arg6 harg6 arg7 harg7 arg8 harg8) K := by
  simp only [cc1__agg_combine_kernel_eq_skeleton]; unfold cc1__agg_combine_kernel_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f8, %hf8, H8⟩, Hk⟩
  subst hf0 hf1 hf2 hf3 hf4 hf5 hf8
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H8
  ipureintro
  rw [View.read_writes_eq_canon _ _ _ (fun y => ⟨_, List.mem_cons_self, View.mem_set_unit_zero hz2 inb_S1024x1024_S1024x1024_0_0 y⟩),
    View.canon_cons_unit_zero (S := S1024x1024) hz2]
  sl_unfold_run_names
  simp only [View.readAt_eq_ld, View.ld_unit_zero (S := S1024x1024) hz2, View.ld_unit_zero (S := S1024x1280) hz2, View.ld_unit_zero (S := S1280x1024) hz2]

set_option maxHeartbeats 4000000 in
/-- The inner coordinate is 7: the last product is added into the scratch, and the output block is stored from it and
    the blocks of windows 2, 3, 4, one 128-lane slab at a time. -/
theorem sound_kernel1_C (c : Dev nD) (E : Set ℕ) (i : grid1.Coords) (arg2 : Memref sig .tc .vmem S1024x1280 .bf16) (harg2 : arg2.IsWhole) (arg3 : Memref sig .tc .vmem S1280x1024 .bf16) (harg3 : arg3.IsWhole) (arg4 : Memref sig .tc .vmem S1024x1024 .f32) (harg4 : arg4.IsWhole) (arg5 : Memref sig .tc .vmem S1024x8 .f32) (harg5 : arg5.IsWhole) (arg6 : Memref sig .tc .vmem S1x128 .f32) (harg6 : arg6.IsWhole) (arg7 : Memref sig .tc .vmem S1024x1024 .f32) (harg7 : arg7.IsWhole) (arg8 : Memref sig .tc .vmem S1024x1024 .f32) (harg8 : arg8.IsWhole) (hc0 : ¬cond1_0 i) (hc1 : cond1_1 i)
    (x0 : Vec F S1024x1280 .bf16) (x1 : Vec F S1280x1024 .bf16) (x2 : Vec F S1024x1024 .f32) (x3 : Vec F S1024x8 .f32) (x4 : Vec F S1x128 .f32) (xs : Vec F S1024x1024 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (out1_5 (k1_pay2 xs x0 x1) x2 x3 x4) ∗ owns (c : Thread nD τ) arg8 fullShare (k1_pay2 xs x0 x1)) -∗ K ⟨⟩))
      ⊢ wp frame (wpE (defs₀ (F := F)) Variants.none c none) E (cc1__agg_combine_kernel i arg2 harg2 arg3 harg3 arg4 harg4 arg5 harg5 arg6 harg6 arg7 harg7 arg8 harg8) K := by
  simp only [cc1__agg_combine_kernel_eq_skeleton]; unfold cc1__agg_combine_kernel_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f8, %hf8, H8⟩, Hk⟩
  subst hf0 hf1 hf2 hf3 hf4 hf8
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    unfold out1_5
    rw [View.read_writes_eq_canon _ _ _ (cover1_5 _ _ _ _ _ _ _ _)]
    sl_unfold_run_names
    simp only [View.readCov_unit_zero (S := S1024x1024) _ hz2, View.readAt_eq_ld, View.ld_unit_zero (S := S1024x1024) hz2,
      View.ld_unit_zero (S := S1024x1280) hz2, View.ld_unit_zero (S := S1280x1024) hz2, View.ld_unit_zero (S := S1024x8) hz2,
      View.ld_unit_zero (S := S1x128) hz2]
  iexists _; isplitr
  swap; · iexact H8
  ipureintro
  sl_unfold_run_names
  rw [View.read_writes_eq_canon _ _ _ (fun y => ⟨_, List.mem_cons_self, View.mem_set_unit_zero hz2 inb_S1024x1024_S1024x1024_0_0 y⟩),
    View.canon_cons_unit_zero (S := S1024x1024) hz2]
  simp only [View.readAt_eq_ld, View.ld_unit_zero (S := S1024x1024) hz2, View.ld_unit_zero (S := S1024x1280) hz2, View.ld_unit_zero (S := S1280x1024) hz2]

/-! ## The scratch, point by point -/

/-- What the scratch accumulator holds after the body at position `n`: at a point whose inner coordinate is 0 the
    product of the point's two blocks added to zeros; at any other point that product added to what the point before left. -/
def sc1 (c : Dev nD) : (n : ℕ) → n < cfg1.N → Vec F S1024x1024 .f32
  | 0, hn => k1_pay2 (k1_pay1 (F := F)) (iblk1 V c 0 ⟨0, hn⟩) (iblk1 V c 1 ⟨0, hn⟩)
  | n + 1, hn =>
    if (n + 1) % 8 = 0 then k1_pay2 (k1_pay1 (F := F)) (iblk1 V c 0 ⟨n + 1, hn⟩) (iblk1 V c 1 ⟨n + 1, hn⟩)
    else k1_pay2 (sc1 c n (Nat.lt_of_succ_lt hn)) (iblk1 V c 0 ⟨n + 1, hn⟩) (iblk1 V c 1 ⟨n + 1, hn⟩)

/-- At a point whose inner coordinate is 0. -/
theorem sc1_A (c : Dev nD) (t : Fin cfg1.N) (h0 : t.val % 8 = 0) :
    sc1 V c t.val t.isLt = k1_pay2 (k1_pay1 (F := F)) (iblk1 V c 0 t) (iblk1 V c 1 t) := by
  obtain ⟨n, hn⟩ := t
  cases n with
  | zero => rfl
  | succ n => exact (if_pos h0).trans rfl

/-- At any other point: over what the point before left. -/
theorem sc1_B (c : Dev nD) (t : Fin cfg1.N) (h0 : ¬t.val % 8 = 0) :
    sc1 V c t.val t.isLt = k1_pay2 (sc1 V c (t.val - 1) (Nat.lt_of_le_of_lt (Nat.sub_le _ _) t.isLt)) (iblk1 V c 0 t) (iblk1 V c 1 t) := by
  obtain ⟨n, hn⟩ := t
  cases n with
  | zero => exact absurd (Nat.zero_mod _) h0
  | succ n => exact (if_neg h0).trans rfl

/-! ## The region invariant -/

/-- The scratch accumulator: a whole scoped buffer of the kernel's own, passed beside the windows. -/
abbrev scM1 : Memref sig .tc .vmem S1024x1024 .f32 := Memref.whole cc1_scratch0

/-- The class's invariant with the scratch accumulator set apart as a memref owned at some contents, the other scoped
    buffers left unopened. -/
theorem PhiA1_eq (c : Dev nD) :
    (Pipeline.ΦA spec1 c : sProp 𝕄)
      = iprop(iprop((∃ d, owns (c : Thread nD τ) scM1 fullShare d) ∗ Pipeline.scopedRestBut (Ix := Unit) (Name := ℕ) (U := UR sig nD τ) (Lvl := ℕ) (Val := Elt F) spec1 c [cc1_scratch0]) ∗ (∃ r, prngReg c r)) := by
  unfold Pipeline.ΦA; rw [Pipeline.scopedRest_split_of_list spec1 c [cc1_scratch0] (by decide) (by decide)]
  simp only [Idealize.SL.BI.bigSepL_singleton, scM1, owns_whole]; try rfl

/-- The region invariant before position `n`: before the first point the class's (every scoped buffer at anything);
    afterwards the same with the scratch accumulator at what the point before left in it. -/
def PhiS1 (c : Dev nD) : (n : ℕ) → n ≤ cfg1.N → sProp 𝕄
  | 0, _ => Pipeline.ΦA spec1 c
  | n + 1, hn => iprop(iprop(owns (c : Thread nD τ) scM1 fullShare (sc1 V c n hn) ∗ Pipeline.scopedRestBut (Ix := Unit) (Name := ℕ) (U := UR sig nD τ) (Lvl := ℕ) (Val := Elt F) spec1 c [cc1_scratch0]) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1 fullShare (sc1 V c n hn) ∗ Pipeline.scopedRestBut (Ix := Unit) (Name := ℕ) (U := UR sig nD τ) (Lvl := ℕ) (Val := Elt F) spec1 c [cc1_scratch0]) ∗ (∃ r, prngReg c r)) := rfl

theorem PhiS1_pos (c : Dev nD) (n : ℕ) (h : n ≤ cfg1.N) (hz : n ≠ 0) :
    PhiS1 V c n h = iprop(iprop(owns (c : Thread nD τ) scM1 fullShare (sc1 V c (n - 1) (by omega)) ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

/-! ## The pipeline's proof data -/

/-- The proof data of pipeline 1 on core `c`: the arrays as the region finds them (`V`); after the body at point `t`
    each input's buffer at its block and the output's at `out1_5` of the scratch as the point leaves it and the blocks
    of windows 2, 3, 4 (consulted only where the block is written back); the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (sc1 V c t.val t.isLt) (iblk1 V c 2 t) (iblk1 V c 3 t) (iblk1 V c 4 t)
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = out1_5 (sc1 V c t.val t.isLt) (iblk1 V c 2 t) (iblk1 V c 3 t) (iblk1 V c 4 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 4800000 in
/-- The body at any point: the inputs' memrefs hold their blocks; the closed forms say which case the point is in; the
    invariant hands the body the scratch accumulator at what the point before left (at anything at the first point) and
    takes it back at this point's contents; the output window is handed back untouched where the block is not stored. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  have hN : t.val < 80 := lt_of_lt_of_eq t.isLt (show cfg1.N = 80 from N_1)
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  rw [show (dat1 V c).leavesExact 2 t = owns (c : Thread nD τ) (st1_2 t) fullShare ((dat1 V c).after 2 t) from by
    unfold Dat.leavesExact; rw [liveAt1_2 t], after1_2]
  rw [show (dat1 V c).leavesExact 3 t = owns (c : Thread nD τ) (st1_3 t) fullShare ((dat1 V c).after 3 t) from by
    unfold Dat.leavesExact; rw [liveAt1_3 t], after1_3]
  rw [show (dat1 V c).leavesExact 4 t = owns (c : Thread nD τ) (st1_4 t) fullShare ((dat1 V c).after 4 t) from by
    unfold Dat.leavesExact; rw [liveAt1_4 t], after1_4]
  by_cases h1 : t.val % 8 = 7
  · have h0 : ¬t.val % 8 = 0 := by omega
    have hz : t.val ≠ 0 := by omega
    rw [show (dat1 V c).leavesExact 5 t = owns (c : Thread nD τ) (st1_5 t) fullShare ((dat1 V c).after 5 t) from by
      unfold Dat.leavesExact; rw [liveAt1_5 t ((hcond1_1 t).mpr h1)], after1_5]
    rw [sc1_B V c t h0]
    rw [PhiS1_castSucc V c t, PhiS1_pos V c _ _ hz]
    iintro ⟨⟨⟨HS, HR⟩, Hg⟩, Ho, ⟨%d0, H0⟩, ⟨%d1, H1⟩, ⟨%d2, H2⟩, ⟨%d3, H3⟩, ⟨%d4, H4⟩, ⟨%d5, H5⟩⟩
    iapply (sound_kernel1_C c Set.univ (grid1.coords t) _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) _ _)
    isplitl [H0]; · iexact H0
    isplitl [H1]; · iexact H1
    isplitl [H2]; · iexact H2
    isplitl [H3]; · iexact H3
    isplitl [H4]; · iexact H4
    isplitl [H5]; · iexists _; iexact H5
    isplitl [HS]; · iexact HS
    iintro ⟨H0, H1, H2, H3, H4, H5, HS⟩
    isplitl [HS HR Hg]
    · isplitl [HS HR]
      · isplitl [HS]; · iexact HS
        iexact HR
      iexact Hg
    isplitl [Ho]; · iexact Ho
    isplitl [H0]; · iexact H0
    isplitl [H1]; · iexact H1
    isplitl [H2]; · iexact H2
    isplitl [H3]; · iexact H3
    isplitl [H4]; · iexact H4
    iexact H5
  · rw [Dat.leavesExact_idle (dat1 V c) 5 t (idleAt1_5 t (fun h => h1 ((hcond1_1 t).mp h))) (noFlush1_5 t (fun h => h1 ((hcond1_1 t).mp h)))]
    by_cases h0 : t.val % 8 = 0
    · rw [sc1_A V c t h0]
      by_cases hz : t.val = 0
      · rw [PhiS1_castSucc V c t, PhiS1_zero V c _ _ hz, PhiA1_eq]
        iintro ⟨⟨⟨HS, HR⟩, Hg⟩, Ho, ⟨%d0, H0⟩, ⟨%d1, H1⟩, ⟨%d2, H2⟩, ⟨%d3, H3⟩, ⟨%d4, H4⟩, ⟨%d5, H5⟩⟩
        iapply (sound_kernel1_A c Set.univ (grid1.coords t) _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) _ _)
        isplitl [H0]; · iexact H0
        isplitl [H1]; · iexact H1
        isplitl [H2]; · iexact H2
        isplitl [H3]; · iexact H3
        isplitl [H4]; · iexact H4
        isplitl [H5]; · iexact H5
        isplitl [HS]; · iexact HS
        iintro ⟨H0, H1, H2, H3, H4, H5, HS⟩
        isplitl [HS HR Hg]
        · isplitl [HS HR]
          · isplitl [HS]; · iexact HS
            iexact HR
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
      · rw [PhiS1_castSucc V c t, PhiS1_pos V c _ _ hz]
        iintro ⟨⟨⟨HS, HR⟩, Hg⟩, Ho, ⟨%d0, H0⟩, ⟨%d1, H1⟩, ⟨%d2, H2⟩, ⟨%d3, H3⟩, ⟨%d4, H4⟩, ⟨%d5, H5⟩⟩
        iapply (sound_kernel1_A c Set.univ (grid1.coords t) _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) _ _)
        isplitl [H0]; · iexact H0
        isplitl [H1]; · iexact H1
        isplitl [H2]; · iexact H2
        isplitl [H3]; · iexact H3
        isplitl [H4]; · iexact H4
        isplitl [H5]; · iexact H5
        isplitl [HS]; · iexists _; iexact HS
        iintro ⟨H0, H1, H2, H3, H4, H5, HS⟩
        isplitl [HS HR Hg]
        · isplitl [HS HR]
          · isplitl [HS]; · iexact HS
            iexact HR
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
    · have hz : t.val ≠ 0 := fun e => h0 (by rw [e])
      rw [sc1_B V c t h0]
      rw [PhiS1_castSucc V c t, PhiS1_pos V c _ _ hz]
      iintro ⟨⟨⟨HS, HR⟩, Hg⟩, Ho, ⟨%d0, H0⟩, ⟨%d1, H1⟩, ⟨%d2, H2⟩, ⟨%d3, H3⟩, ⟨%d4, H4⟩, ⟨%d5, H5⟩⟩
      iapply (sound_kernel1_B c Set.univ (grid1.coords t) _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) _ _ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class's back: the scratch's named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS, HR⟩, Hg⟩
  isplitl [HS HR]
  · isplitl [HS]
    · iexists _; iexact HS
    iexact HR
  iexact Hg

/-- The same after the last point. -/
theorem hout1 (c : Dev nD) : (dat1 V c).Φ (Fin.last cfg1.N) ⊢ Pipeline.ΦA spec1 c :=
  Phi_out1 V c _ (by rw [Fin.val_last]; have : cfg1.N = 80 := N_1; omega)

end Cert.KernelIdeal.Hand

end
-- ==== Proof.KI.R2.lean ====
import proofs.«421049_j39367670235755_2_alg».proof.Proof.Gen.KernelIdeal.Launch
import proofs.«421049_j39367670235755_2_alg».proof.Proof.Gen.KernelIdeal.Skeleton
import proofs.«421049_j39367670235755_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 2: the batch-norm statistics, at the entry contents `V` -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- No block of the input overhangs its array: five blocks of 2000 rows lie inside 10240 rows. -/
theorem clip2_0 : ∀ (t : Fin cfg2.N) (a : Fin (cfg2.win 0).shape.rank), (cfg2.win 0).clip (cfg2.grid.coords t) a = none :=
  (by decide +kernel : ∀ (t : Fin grid2.N) (a : Fin win2_0.shape.rank), win2_0.clip (grid2.coords t) a = none)

/-- The input block at point `t` as contents of the (2000, 1024) staging buffer: every index of the buffer is
    one the fetch fills. -/
def xin2 (c : Dev nD) (t : Fin cfg2.N) : Vec F S2000x1024 .f32 :=
  (cfg2.win 0).fill (cfg2.grid.coords t) (fun _ => @Classical.arbitrary _ (Elt.nonempty F _)) (iblk2 V c 0 t)

/-- One point's update of the running column sums: the eight slabs of 128 columns, left to right. -/
def acc2_1 (x : Vec F S2000x1024 .f32) (a : Vec F S1x128 .f32) : Vec F S1x128 .f32 :=
  k2_pay3 (k2_pay7 x) (k2_pay28 (k2_pay7 x) (k2_pay25 (k2_pay7 x) (k2_pay22 (k2_pay20 (k2_pay7 x)) (k2_pay21
    (k2_pay18 (k2_pay7 x) (k2_pay15 (k2_pay7 x) (k2_pay12 x (k2_pay9 x a))))))))

/-- One point's update of the running column sums of squares: the same slabs, squared. -/
def acc2_2 (x : Vec F S2000x1024 .f32) (b : Vec F S1x128 .f32) : Vec F S1x128 .f32 :=
  k2_pay4 (k2_pay7 x) (k2_pay1 (k2_pay27 (k2_pay7 x)) (k2_pay26 (k2_pay7 x) (k2_pay23 (k2_pay20 (k2_pay7 x))
    (k2_pay19 (k2_pay7 x) (k2_pay16 (k2_pay7 x) (k2_pay13 x (k2_pay10 x b)))))))

/-- What the two outputs' staging buffers hold after the body at point `n`: reset to zero at the first point,
    then one update per point over what the point before left (the buffers are not written back between). -/
def outs2 (c : Dev nD) : (n : ℕ) → n < cfg2.N → Vec F S1x128 .f32 × Vec F S1x128 .f32
  | 0, hn => (acc2_1 (xin2 V c ⟨0, hn⟩) k2_pay5, acc2_2 (xin2 V c ⟨0, hn⟩) k2_pay6)
  | n + 1, hn => (acc2_1 (xin2 V c ⟨n + 1, hn⟩) (outs2 c n (Nat.lt_of_succ_lt hn)).1,
      acc2_2 (xin2 V c ⟨n + 1, hn⟩) (outs2 c n (Nat.lt_of_succ_lt hn)).2)

theorem outs2_zero (c : Dev nD) (hn : 0 < cfg2.N) :
    outs2 V c 0 hn = (acc2_1 (xin2 V c ⟨0, hn⟩) k2_pay5, acc2_2 (xin2 V c ⟨0, hn⟩) k2_pay6) := rfl

theorem outs2_succ (c : Dev nD) (n : ℕ) (hn : n + 1 < cfg2.N) :
    outs2 V c (n + 1) hn = (acc2_1 (xin2 V c ⟨n + 1, hn⟩) (outs2 V c n (Nat.lt_of_succ_lt hn)).1,
      acc2_2 (xin2 V c ⟨n + 1, hn⟩) (outs2 V c n (Nat.lt_of_succ_lt hn)).2) := rfl

/-- The input block's staging contents, read at an index of the part the fetch fills: the block there. -/
theorem xin2_xinj (c : Dev nD) (t : Fin cfg2.N) (j : ((cfg2.win 0).xblock (cfg2.grid.coords t)).Idx) :
    xin2 V c t ((cfg2.win 0).xinj (cfg2.grid.coords t) j) = iblk2 V c 0 t j :=
  (cfg2.win 0).fill_xinj _ _ _ j

/-- Every index of the staging buffer is in the part the fetch fills. -/
theorem moved2_0 (t : Fin cfg2.N) (j : (cfg2.win 0).block.Idx) : (cfg2.win 0).moved (cfg2.grid.coords t) j = true :=
  ((cfg2.win 0).moved_iff _ j).mpr fun a => by
    have := (j a).isLt; unfold Window.xsize; rw [clip2_0 t a]; exact this

/-- So the staging contents at any index are the block at the same coordinates. -/
theorem xin2_apply (c : Dev nD) (t : Fin cfg2.N) (j : (cfg2.win 0).block.Idx) :
    xin2 V c t j = iblk2 V c 0 t fun a => ⟨(j a).val, ((cfg2.win 0).moved_iff _ j).mp (moved2_0 t j) a⟩ := by
  unfold xin2 Window.fill; rw [dif_pos (moved2_0 t j)]

/-! ## The body's branch condition -/

/-- The condition of the body's one conditional (the reset), from the grid coordinates. -/
abbrev cond2_0 (i : grid2.Coords) : Prop := (Scalar.cmpi .ne (Scalar.extui (Scalar.cmpi .eq (BitVec.ofNat 32 (i 0).val) 0#32)) 0#32) = 1#1
/-- It holds at the first point only. -/
theorem hcond2_0 : ∀ t : Fin cfg2.N, cond2_0 (grid2.coords t) ↔ t.val % 5 = 0 :=
  (by decide +kernel : ∀ t : Fin grid2.N, cond2_0 (grid2.coords t) ↔ t.val % 5 = 0)

/-! ## Whole-buffer stores read back -/

theorem hz2 : (![0, 0] : Fin 2 → Nat) = fun _ => 0 := funext fun a => by fin_cases a <;> rfl

/-- A load of the whole buffer after a last store of the whole buffer reads that store's payload, whatever was
    stored before. -/
theorem readCov_cons_unit_zero2 {sig' : RefSig} {κ : Kind} {sp : Space} {S : Shape} {e : EltTy} {Val : EltTy → Type} [∀ e, Nonempty (Val e)]
    (v : View sig' κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  rw [View.readCov_eq_canon_ld _ _ _ (fun y => ⟨_, List.mem_cons_self, View.mem_set_unit_zero h inb y⟩),
    View.canon_cons_unit_zero h, View.ld_unit_zero h]

/-- The buffer after a last store of the whole buffer reads that store's payload. -/
theorem read_writes_cons_unit_zero2 {sig' : RefSig} {κ : Kind} {sp : Space} {S : Shape} {e : EltTy} {Val : EltTy → Type} [∀ e, Nonempty (Val e)]
    (v : View sig' κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon _ _ _ (fun y => ⟨_, List.mem_cons_self, View.mem_set_unit_zero h inb y⟩),
    View.canon_cons_unit_zero h]

/-! ## The body's triple, case by case -/

set_option maxHeartbeats 4000000 in
/-- The body at the first point, on whole staging memrefs, the input's holding its block and the outputs' anything:
    it leaves the input as it was and each sum at one update of zero. -/
theorem sound_kernel2_A (c : Dev nD) (E : Set ℕ) (i : grid2.Coords) (arg1 : Memref sig .tc .vmem S2000x1024 .f32) (harg1 : arg1.IsWhole)
    (arg2 : Memref sig .tc .vmem S1x128 .f32) (harg2 : arg2.IsWhole) (arg3 : Memref sig .tc .vmem S1x128 .f32) (harg3 : arg3.IsWhole)
    (hc0 : cond2_0 i) (x0 : Vec F S2000x1024 .f32) (K : PUnit → sProp 𝕄) :
    iprop(owns (c : Thread nD τ) arg1 fullShare x0 ∗ (∃ d, owns (c : Thread nD τ) arg2 fullShare d) ∗ (∃ d, owns (c : Thread nD τ) arg3 fullShare d)
        ∗ (iprop(owns (c : Thread nD τ) arg1 fullShare x0 ∗ owns (c : Thread nD τ) arg2 fullShare (acc2_1 x0 k2_pay5)
            ∗ owns (c : Thread nD τ) arg3 fullShare (acc2_2 x0 k2_pay6)) -∗ K ⟨⟩))
      ⊢ wp frame (wpE (defs₀ (F := F)) Variants.none c none) E (cc2__bn_stats_kernel i arg1 harg1 arg2 harg2 arg3 harg3) K := by
  simp only [cc2__bn_stats_kernel_eq_skeleton]; unfold cc2__bn_stats_kernel_skel
  simp only [k2_part1_eq_skeleton, k2_part2_eq_skeleton, k2_part3_eq_skeleton]
  unfold owns
  iintro ⟨⟨%f0, %hf0, H0⟩, ⟨%d1, %f1, -, H1⟩, ⟨%d2, %f2, -, H2⟩, Hk⟩
  obtain rfl := harg1.eq_unread hf0
  sl_exec (disch := first | exact hc0)
  sl_step
  iapply Hk
  isplitl [H0]
  · iexists _; isplitr; · ipureintro; exact harg1.read_unread _
    iexact H0
  isplitl [H1]
  · iexists _; isplitr
    swap; · iexact H1
    ipureintro
    sl_unfold_words
    rw [read_writes_cons_unit_zero2 (S := S1x128) _ _ hz2]
    simp only [readCov_cons_unit_zero2 (S := S1x128) _ hz2, View.readAt_eq_ld, harg1.read_unread,
      View.ld_unit_zero (S := S2000x1024) hz2]
    rfl
  · iexists _; isplitr
    swap; · iexact H2
    ipureintro
    sl_unfold_words
    rw [read_writes_cons_unit_zero2 (S := S1x128) _ _ hz2]
    simp only [readCov_cons_unit_zero2 (S := S1x128) _ hz2, View.readAt_eq_ld, harg1.read_unread,
      View.ld_unit_zero (S := S2000x1024) hz2]
    rfl

set_option maxHeartbeats 4000000 in
/-- The body at a later point, on whole staging memrefs holding the input block and the two running sums: it
    leaves the input as it was and each sum updated once. -/
theorem sound_kernel2_B (c : Dev nD) (E : Set ℕ) (i : grid2.Coords) (arg1 : Memref sig .tc .vmem S2000x1024 .f32) (harg1 : arg1.IsWhole)
    (arg2 : Memref sig .tc .vmem S1x128 .f32) (harg2 : arg2.IsWhole) (arg3 : Memref sig .tc .vmem S1x128 .f32) (harg3 : arg3.IsWhole)
    (hc0 : ¬cond2_0 i) (x0 : Vec F S2000x1024 .f32) (xo1 xo2 : Vec F S1x128 .f32) (K : PUnit → sProp 𝕄) :
    iprop(owns (c : Thread nD τ) arg1 fullShare x0 ∗ owns (c : Thread nD τ) arg2 fullShare xo1 ∗ owns (c : Thread nD τ) arg3 fullShare xo2
        ∗ (iprop(owns (c : Thread nD τ) arg1 fullShare x0 ∗ owns (c : Thread nD τ) arg2 fullShare (acc2_1 x0 xo1)
            ∗ owns (c : Thread nD τ) arg3 fullShare (acc2_2 x0 xo2)) -∗ K ⟨⟩))
      ⊢ wp frame (wpE (defs₀ (F := F)) Variants.none c none) E (cc2__bn_stats_kernel i arg1 harg1 arg2 harg2 arg3 harg3) K := by
  simp only [cc2__bn_stats_kernel_eq_skeleton]; unfold cc2__bn_stats_kernel_skel
  simp only [k2_part1_eq_skeleton, k2_part2_eq_skeleton, k2_part3_eq_skeleton]
  unfold owns
  iintro ⟨⟨%f0, %hf0, H0⟩, ⟨%f1, %hf1, H1⟩, ⟨%f2, %hf2, H2⟩, Hk⟩
  obtain rfl := harg1.eq_unread hf0; obtain rfl := harg2.eq_unread hf1; obtain rfl := harg3.eq_unread hf2
  sl_exec (disch := first | exact hc0)
  sl_step
  iapply Hk
  isplitl [H0]
  · iexists _; isplitr; · ipureintro; exact harg1.read_unread _
    iexact H0
  isplitl [H1]
  · iexists _; isplitr
    swap; · iexact H1
    ipureintro
    sl_unfold_words
    rw [read_writes_cons_unit_zero2 (S := S1x128) _ _ hz2]
    simp only [readCov_cons_unit_zero2 (S := S1x128) _ hz2, View.readAt_eq_ld, harg1.read_unread, harg2.read_unread,
      View.ld_unit_zero (S := S2000x1024) hz2, View.ld_unit_zero (S := S1x128) hz2]
    rfl
  · iexists _; isplitr
    swap; · iexact H2
    ipureintro
    sl_unfold_words
    rw [read_writes_cons_unit_zero2 (S := S1x128) _ _ hz2]
    simp only [readCov_cons_unit_zero2 (S := S1x128) _ hz2, View.readAt_eq_ld, harg1.read_unread, harg3.read_unread,
      View.ld_unit_zero (S := S2000x1024) hz2, View.ld_unit_zero (S := S1x128) hz2]
    rfl

/-! ## What the outputs hold, by the case of the point -/

/-- At the first point: one update of zero. -/
theorem outs2_A (c : Dev nD) (t : Fin cfg2.N) (h0 : t.val = 0) :
    outs2 V c t.val t.isLt = (acc2_1 (xin2 V c t) k2_pay5, acc2_2 (xin2 V c t) k2_pay6) := by
  obtain ⟨n, hn⟩ := t
  obtain rfl : n = 0 := h0
  rfl

/-- At a later point: one update of what the point before left. -/
theorem outs2_B (c : Dev nD) (t : Fin cfg2.N) (h0 : t.val ≠ 0) :
    outs2 V c t.val t.isLt = (acc2_1 (xin2 V c t) (outs2 V c (t.val - 1) (Nat.lt_of_le_of_lt (Nat.sub_le _ _) t.isLt)).1,
      acc2_2 (xin2 V c t) (outs2 V c (t.val - 1) (Nat.lt_of_le_of_lt (Nat.sub_le _ _) t.isLt)).2) := by
  obtain ⟨n, hn⟩ := t
  cases n with
  | zero => exact absurd rfl h0
  | succ n => rfl

/-! ## The pipeline's proof data -/

/-- The proof data of the region on core `c`: the arrays as the region finds them; after the body at point `t` the
    input's buffer at its block and the outputs' at `outs2`; the invariant the scoped rest and the generator
    register, untouched; nothing owed; full shares. -/
def dat2 (c : Dev nD) : Dat τ (Elt F) Unit ℕ (UR sig nD τ) ℕ cfg2 c where
  A w := V c (Pipeline.arrRef spec2 w)
  after w t := match w with
    | ⟨0, _⟩ => xin2 V c t
    | ⟨1, _⟩ => (outs2 V c t.val t.isLt).1
    | ⟨2, _⟩ => (outs2 V c t.val t.isLt).2
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = xin2 V c t := by dsimp only [dat2]
theorem after2_1 (c : Dev nD) (t : Fin cfg2.N) : (dat2 V c).after 1 t = (outs2 V c t.val t.isLt).1 := by dsimp only [dat2]
theorem after2_2 (c : Dev nD) (t : Fin cfg2.N) : (dat2 V c).after 2 t = (outs2 V c t.val t.isLt).2 := by dsimp only [dat2]

/-- The input's current staging buffer holds its block at every point: it is fetched at every point, and the
    fetch, cutting nothing, fills all of the buffer. -/
theorem before2_0 (c : Dev nD) (t : Fin cfg2.N) (d) : (dat2 V c).before 0 t d = xin2 V c t := by
  rw [(dat2 V c).before_fetched 0 t (fetch2_0 t) d]
  unfold Dat.fetched Dat.blockOf xin2 iblk2
  rw [A_eq2]
  exact Pipeline.fill_of_clip_none 0 _ (clip2_0 t) _ _ _

/-- At a later point each output's staging buffer holds what the body left at the point before: the buffer was
    not written back between, the window is live and uncut. -/
theorem before2_1_B (c : Dev nD) (t : Fin cfg2.N) (h0 : t.val ≠ 0) (d) :
    (dat2 V c).before 1 t d = (outs2 V c (t.val - 1) (Nat.lt_of_le_of_lt (Nat.sub_le _ _) t.isLt)).1 := by
  have hN : t.val < 5 := lt_of_lt_of_eq t.isLt (show cfg2.N = 5 from N_2)
  rw [Dat.before_out_kept _ 1 rfl t h0 (Bool.eq_false_iff.mpr fun h => by have := (flush2_1 _).mp h; dsimp only at this; omega)
    (fun _ => rfl) (fun _ _ => rfl)]
  dsimp only [dat2]

theorem before2_2_B (c : Dev nD) (t : Fin cfg2.N) (h0 : t.val ≠ 0) (d) :
    (dat2 V c).before 2 t d = (outs2 V c (t.val - 1) (Nat.lt_of_le_of_lt (Nat.sub_le _ _) t.isLt)).2 := by
  have hN : t.val < 5 := lt_of_lt_of_eq t.isLt (show cfg2.N = 5 from N_2)
  rw [Dat.before_out_kept _ 2 rfl t h0 (Bool.eq_false_iff.mpr fun h => by have := (flush2_2 _).mp h; dsimp only at this; omega)
    (fun _ => rfl) (fun _ _ => rfl)]
  dsimp only [dat2]

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

set_option maxHeartbeats 800000 in
/-- The body at any point: the input's memref holds its block; the point is the first or a later one; at a later
    one each output's memref holds what the point before left; so that case's triple applies; the invariant
    passes through unread; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0]
  rw [show (dat2 V c).Φ t.succ = (dat2 V c).Φ t.castSucc from rfl,
    show (dat2 V c).owesAt () t.succ = (dat2 V c).owesAt () t.castSucc from rfl,
    after2_0, after2_1, after2_2]
  have hN : t.val < 5 := lt_of_lt_of_eq t.isLt (show cfg2.N = 5 from N_2)
  by_cases h0 : t.val = 0
  · rw [outs2_A V c t h0]
    iintro ⟨HΦ, Ho, ⟨%d0, H0⟩, ⟨%d1, H1⟩, ⟨%d2, H2⟩⟩
    iapply (sound_kernel2_A c Set.univ (grid2.coords t) _ _ _ _ _ _ ((hcond2_0 t).mpr (by omega)) (xin2 V c t) _)
    isplitl [H0]; · iexact H0
    isplitl [H1]; · iexists _; iexact H1
    isplitl [H2]; · iexists _; iexact H2
    iintro ⟨H0, H1, H2⟩
    isplitl [HΦ]; · iexact HΦ
    isplitl [Ho]; · iexact Ho
    isplitl [H0]; · iexact H0
    isplitl [H1]; · iexact H1
    iexact H2
  · rw [outs2_B V c t h0]
    simp only [before2_1_B V c t h0, before2_2_B V c t h0]
    iintro ⟨HΦ, Ho, ⟨%d0, H0⟩, ⟨%d1, H1⟩, ⟨%d2, H2⟩⟩
    iapply (sound_kernel2_B c Set.univ (grid2.coords t) _ _ _ _ _ _ (fun h => h0 (by have := (hcond2_0 t).mp h; omega)) (xin2 V c t) _ _ _)
    isplitl [H0]; · iexact H0
    isplitl [H1]; · iexact H1
    isplitl [H2]; · iexact H2
    iintro ⟨H0, H1, H2⟩
    isplitl [HΦ]; · iexact HΦ
    isplitl [Ho]; · iexact Ho
    isplitl [H0]; · iexact H0
    isplitl [H1]; · iexact H1
    iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

/-! ## The invariant at the region's ends -/

theorem hin2 (c : Dev nD) : Pipeline.ΦA spec2 c ⊢ (dat2 V c).Φ 0 := by
  dsimp only [dat2]; exact .rfl

theorem hout2 (c : Dev nD) : (dat2 V c).Φ (Fin.last cfg2.N) ⊢ Pipeline.ΦA spec2 c := by
  dsimp only [dat2]; exact .rfl

end Cert.KernelIdeal.Hand

end
-- ==== Proof.KI.R3.lean ====
/-
  Region 3 of the kernel program (custom call 3, the normalise-and-clamp kernel, grid 8 × 5) at a parameter V, the
  core's buffer contents when the region is entered: each window's block at a point, what the body leaves in the
  output window's staging buffer, the body's triple, the proof data and the body obligation.
  Window 0 reads block (vi, b) of a (10240, 1024) array in blocks of (2000, 128): the five row blocks end at row
  10000, inside the array, so no transfer is cut, though the window is stated in the form that allows a cut.
-/
import proofs.«421049_j39367670235755_2_alg».proof.Proof.Gen.KernelIdeal.Launch
import proofs.«421049_j39367670235755_2_alg».proof.Proof.Gen.KernelIdeal.Skeleton
import proofs.«421049_j39367670235755_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window w's block at point t, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- No transfer of window 0 is cut, on either axis, at any point. -/
theorem clip3_0 : ∀ (t : Fin cfg3.N) (a : Fin 2), (cfg3.win 0).clip (cfg3.grid.coords t) a = none :=
  (by decide +kernel : ∀ (t : Fin grid3.N) (a : Fin 2), win3_0.clip (grid3.coords t) a = none)

/-- So every index of window 0's block is moved by its transfer. -/
theorem moved3_0 (t : Fin cfg3.N) (j : (cfg3.win 0).block.Idx) : (cfg3.win 0).moved (cfg3.grid.coords t) j = true :=
  ((cfg3.win 0).moved_iff _ j).mpr fun a => by
    show (j a).val < ((cfg3.win 0).clip (cfg3.grid.coords t) a).extent ((cfg3.win 0).size a)
    rw [clip3_0 t a]; exact (j a).isLt

/-- Window 0's staging buffer once its block at point t has been fetched: the block, on all of the buffer. -/
def blk3_0 (c : Dev nD) (t : Fin cfg3.N) : (cfg3.win 0).block.Idx → Elt F (cfg3.win 0).elt :=
  fun j => iblk3 V c 0 t fun a => ⟨(j a).val, ((cfg3.win 0).moved_iff _ j).mp (moved3_0 t j) a⟩

/-- A fetch of the block fills all of the buffer, whatever it held. -/
theorem fill3_0 (c : Dev nD) (t : Fin cfg3.N) (d : (cfg3.win 0).block.Idx → Elt F (cfg3.win 0).elt) :
    (cfg3.win 0).fill (cfg3.grid.coords t) d (iblk3 V c 0 t) = blk3_0 V c t := by
  funext j
  unfold Pipeline.Window.fill blk3_0
  rw [dif_pos (moved3_0 t j)]

/-- The part of the filled buffer that a transfer moves is the block. -/
theorem cut3_0 (c : Dev nD) (t : Fin cfg3.N) : (cfg3.win 0).cut (cfg3.grid.coords t) (blk3_0 V c t) = iblk3 V c 0 t := by
  funext j; rfl

/-- Input window 0's current staging buffer holds its block at every point, fetched there or not, for any proof data
    whose array is V's and whose body leaves the block in place: unfetched, the block index has not moved, and no
    transfer is cut. -/
theorem before3_0_of {c : Dev nD} (dat : Dat τ (Elt F) Unit ℕ (UR sig nD τ) ℕ cfg3 c) (hA : dat.A 0 = V c (Pipeline.arrRef spec3 0))
    (hafter : ∀ t, dat.after 0 t = blk3_0 V c t) (t : Fin cfg3.N) (d) : dat.before 0 t d = blk3_0 V c t :=
  (dat.before_in_eq_fetched 0 rfl (fun _ => rfl)
      (fun t t' _ => funext fun a => (clip3_0 t a).trans (clip3_0 t' a).symm)
      (fun t => by rw [hafter, cut3_0]; unfold Dat.blockOf iblk3; rw [hA]) t d).trans
    (by
      unfold Dat.fetched
      rw [show dat.blockOf 0 t = iblk3 V c 0 t from by unfold Dat.blockOf iblk3; rw [hA]]
      exact fill3_0 V c t d)

/-- Input windows 1 to 4 (one row of 128 each, the whole array, never cut, never idle) hold their block at every point. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses -/

abbrev r3_0 : Rect S2000x128 := Rect.unit (s := S2000x128) ![0, 0] S2000x128.size inb_S2000x128_S2000x128_0_0
abbrev r3_1 : Rect S1x128 := Rect.unit (s := S1x128) ![0, 0] S1x128.size inb_S1x128_S1x128_0_0
abbrev r3_5 : Rect S1x2000x128 := Rect.unit (s := S1x2000x128) ![0, 0, 0] S1x2000x128.size inb_S1x2000x128_S1x2000x128_0_0_0

/-! ## What the body leaves in the output window's buffer -/

/-- Window 5's staging buffer after the body, from the input windows' blocks: its one store, of the payload of the
    five values loaded. -/
def out3_5 (x0 : Vec F S2000x128 .f32) (x1 x2 x3 x4 : Vec F S1x128 .f32) : Vec F S1x2000x128 .f32 :=
  View.canon [⟨r3_5, k3_pay1 (View.ld x0 r3_0) (View.ld x1 r3_1) (View.ld x2 r3_1) (View.ld x3 r3_1) (View.ld x4 r3_1)⟩]

/-- The store is of the whole buffer, so it covers it. -/
theorem cover3_5 (p0 : Vec F S1x2000x128 .f32) (y : S1x2000x128.Idx) :
    ∃ pc ∈ ([⟨r3_5, p0⟩] : List (View.Piece (Elt F) S1x2000x128 .f32)), y ∈ pc.1.set :=
  View.cover_of_tiled [⟨r3_5, p0⟩] S1x2000x128.size (by rfl) y

/-! ## The body's triple -/

set_option maxHeartbeats 1000000 in
/-- The kernel body on whole staging memrefs, the inputs' at contents xW and the output's at anything, runs to the
    continuation holding the inputs' as they were and the output's at out3_5 of the inputs'. -/
theorem sound_kernel3 (c : Dev nD) (E : Set ℕ) (i : grid3.Coords)
    (arg0 : Memref sig .tc .vmem S2000x128 .f32) (harg0 : arg0.IsWhole) (arg1 : Memref sig .tc .vmem S1x128 .f32) (harg1 : arg1.IsWhole)
    (arg2 : Memref sig .tc .vmem S1x128 .f32) (harg2 : arg2.IsWhole) (arg3 : Memref sig .tc .vmem S1x128 .f32) (harg3 : arg3.IsWhole)
    (arg4 : Memref sig .tc .vmem S1x128 .f32) (harg4 : arg4.IsWhole) (arg5 : Memref sig .tc .vmem S1x2000x128 .f32) (harg5 : arg5.IsWhole)
    (x0 : Vec F S2000x128 .f32) (x1 x2 x3 x4 : Vec F S1x128 .f32) (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare x4
            ∗ owns (c : Thread nD τ) arg5 fullShare (out3_5 x0 x1 x2 x3 x4)) -∗ K ⟨⟩))
      ⊢ wp frame (wpE (defs₀ (F := F)) Variants.none c none) E (cc3__bn_relu_kernel i arg0 harg0 arg1 harg1 arg2 harg2 arg3 harg3 arg4 harg4 arg5 harg5) K := by
  simp only [cc3__bn_relu_kernel_eq_skeleton]; unfold cc3__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover3_5 _)

/-! ## The pipeline's proof data -/

/-- The proof data of pipeline 3 on core c: the arrays as the region finds them; after the body at point t each
    input's buffer at its block and the output's at out3_5 of the input blocks; the invariant the scoped rest and
    the generator register, untouched; nothing owed; full shares. -/
def dat3 (c : Dev nD) : Dat τ (Elt F) Unit ℕ (UR sig nD τ) ℕ cfg3 c where
  A w := V c (Pipeline.arrRef spec3 w)
  after w t := match w with
    | ⟨0, _⟩ => blk3_0 V c t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (blk3_0 V c t) (iblk3 V c 1 t) (iblk3 V c 2 t) (iblk3 V c 3 t) (iblk3 V c 4 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = blk3_0 V c t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) :
    (dat3 V c).after 5 t = out3_5 (blk3_0 V c t) (iblk3 V c 1 t) (iblk3 V c 2 t) (iblk3 V c 3 t) (iblk3 V c 4 t) := by dsimp only [dat3]

/-- Each input's current staging buffer holds its block at every point, fetched there or not. -/
theorem before3_0 (c : Dev nD) (t : Fin cfg3.N) (d) : (dat3 V c).before 0 t d = blk3_0 V c t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-! ## The body obligation, at a generic point -/

/-- What the body is called with at point t, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

/-- The body at any point: the inputs' memrefs hold their blocks, so the body's triple applies; the invariant and the
    core's owed tallies pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ _ _ _ _ _ _ _ _ _ _ _ _ _ (blk3_0 V c t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation3 (c : Dev nD) : BodyObligation (dat3 (F := F) V c) (defs₀ (F := F)) Variants.none () Set.univ := fun t => by
  rw [bigSep_W3, bigSep_W3]
  exact sound_body3 V c t

/-! ## The invariant at the region's two ends -/

/-- The invariant is the same at every point: the scoped rest and the generator register. -/
theorem hin3 (c : Dev nD) : Pipeline.ΦA spec3 c ⊢ (dat3 V c).Φ 0 := .rfl

theorem hout3 (c : Dev nD) : (dat3 V c).Φ (Fin.last cfg3.N) ⊢ Pipeline.ΦA spec3 c := .rfl

end Cert.KernelIdeal.Hand

end
-- ==== Proof.KI.Run.lean ====
/-
  The whole program's run: @main is eleven items — host operations, the node transform, host operations, the
  aggregation, the statistics, host operations, the normalisation. Each core's unscoped buffers are followed from the
  launch memory through every item: a stretch of host operations applies its operations in order; a kernel region
  leaves each of its arrays at what its write-backs produce and every other buffer untouched. The launch over these
  eleven segments ends with every unscoped buffer read back at the last contents.
-/
import proofs.«421049_j39367670235755_2_alg».proof.Proof.Gen.KernelIdeal.Regions
import proofs.«421049_j39367670235755_2_alg».proof.Proof.KI.R0
import proofs.«421049_j39367670235755_2_alg».proof.Proof.KI.R1
import proofs.«421049_j39367670235755_2_alg».proof.Proof.KI.R2
import proofs.«421049_j39367670235755_2_alg».proof.Proof.KI.R3

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- The contents region 0 is entered with, read at the core's references. -/
abbrev E3 : (c : Dev nD) → (b : Ref sig .tc) → Buf (Elt F) ((c : Thread nD τ).loc b) := fun c b => V3 m c b

/-- After region 0: its arrays at what the write-backs leave, every other buffer as the region was entered. -/
def W4 (c : Dev nD) : Valuation τ sig (Elt F) :=
  Pipeline.withArrays spec0 c (V3 m c) fun w => (dat0 (E3 m) c).arrAt w cfg0.N
theorem W4_arr (c : Dev nD) (w : Fin cfg0.W) :
    W4 m c (Proc.devRef .tc (Pipeline.arrRef spec0 w)) = (dat0 (E3 m) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m c (Proc.devRef .tc b) = V3 m c (Proc.devRef .tc b) := by
  unfold W4; exact Pipeline.withArrays_of_ne spec0 c _ _ b hb
theorem hF0 (c : Dev nD) (w : Fin cfg0.W) : (dat0 (E3 m) c).arrAt w cfg0.N = (fun b : Ref sig .tc => W4 m c b) (Pipeline.arrRef spec0 w) :=
  (W4_arr m c w).symm
theorem hrest0 (c : Dev nD) : ∀ b, b ∉ Finset.univ.image (Pipeline.arrRef spec0) → (fun b : Ref sig .tc => W4 m c b) b = E3 m c b :=
  fun b hb => W4_of_ne m c b fun w e => hb (Finset.mem_image.mpr ⟨w, Finset.mem_univ _, e⟩)

/-- After the three host stretches between regions 0 and 1. -/
abbrev W5 : Dev nD → Valuation τ sig (Elt F) := fun c => StableHlo.after hostOps1 (W4 m c)
abbrev W6 : Dev nD → Valuation τ sig (Elt F) := fun c => StableHlo.after hostOps1_1 (W5 m c)
abbrev W7 : Dev nD → Valuation τ sig (Elt F) := fun c => StableHlo.after hostOps1_2 (W6 m c)
abbrev E7 : (c : Dev nD) → (b : Ref sig .tc) → Buf (Elt F) ((c : Thread nD τ).loc b) := fun c b => W7 m c b

/-- After region 1: its arrays at what the write-backs leave, every other buffer as the region was entered. -/
def W8 (c : Dev nD) : Valuation τ sig (Elt F) :=
  Pipeline.withArrays spec1 c (W7 m c) fun w => (dat1 (E7 m) c).arrAt w cfg1.N
theorem W8_arr (c : Dev nD) (w : Fin cfg1.W) :
    W8 m c (Proc.devRef .tc (Pipeline.arrRef spec1 w)) = (dat1 (E7 m) c).arrAt w cfg1.N := by
  unfold W8; exact Pipeline.withArrays_arr spec1 launch1.win.arr_inj c _ _ w
theorem W8_of_ne (c : Dev nD) (b : Ref sig .tc) (hb : ∀ w, Pipeline.arrRef spec1 w ≠ b) :
    W8 m c (Proc.devRef .tc b) = W7 m c (Proc.devRef .tc b) := by
  unfold W8; exact Pipeline.withArrays_of_ne spec1 c _ _ b hb
theorem hF1 (c : Dev nD) (w : Fin cfg1.W) : (dat1 (E7 m) c).arrAt w cfg1.N = (fun b : Ref sig .tc => W8 m c b) (Pipeline.arrRef spec1 w) :=
  (W8_arr m c w).symm
theorem hrest1 (c : Dev nD) : ∀ b, b ∉ Finset.univ.image (Pipeline.arrRef spec1) → (fun b : Ref sig .tc => W8 m c b) b = E7 m c b :=
  fun b hb => W8_of_ne m c b fun w e => hb (Finset.mem_image.mpr ⟨w, Finset.mem_univ _, e⟩)

abbrev E8 : (c : Dev nD) → (b : Ref sig .tc) → Buf (Elt F) ((c : Thread nD τ).loc b) := fun c b => W8 m c b

/-- After region 2: its arrays at what the write-backs leave, every other buffer as the region was entered. -/
def W9 (c : Dev nD) : Valuation τ sig (Elt F) :=
  Pipeline.withArrays spec2 c (W8 m c) fun w => (dat2 (E8 m) c).arrAt w cfg2.N
theorem W9_arr (c : Dev nD) (w : Fin cfg2.W) :
    W9 m c (Proc.devRef .tc (Pipeline.arrRef spec2 w)) = (dat2 (E8 m) c).arrAt w cfg2.N := by
  unfold W9; exact Pipeline.withArrays_arr spec2 launch2.win.arr_inj c _ _ w
theorem W9_of_ne (c : Dev nD) (b : Ref sig .tc) (hb : ∀ w, Pipeline.arrRef spec2 w ≠ b) :
    W9 m c (Proc.devRef .tc b) = W8 m c (Proc.devRef .tc b) := by
  unfold W9; exact Pipeline.withArrays_of_ne spec2 c _ _ b hb
theorem hF2 (c : Dev nD) (w : Fin cfg2.W) : (dat2 (E8 m) c).arrAt w cfg2.N = (fun b : Ref sig .tc => W9 m c b) (Pipeline.arrRef spec2 w) :=
  (W9_arr m c w).symm
theorem hrest2 (c : Dev nD) : ∀ b, b ∉ Finset.univ.image (Pipeline.arrRef spec2) → (fun b : Ref sig .tc => W9 m c b) b = E8 m c b :=
  fun b hb => W9_of_ne m c b fun w e => hb (Finset.mem_image.mpr ⟨w, Finset.mem_univ _, e⟩)

abbrev W10 : Dev nD → Valuation τ sig (Elt F) := fun c => StableHlo.after hostOps3 (W9 m c)
abbrev E10 : (c : Dev nD) → (b : Ref sig .tc) → Buf (Elt F) ((c : Thread nD τ).loc b) := fun c b => W10 m c b

/-- After region 3: its arrays at what the write-backs leave, every other buffer as the region was entered. -/
def W11 (c : Dev nD) : Valuation τ sig (Elt F) :=
  Pipeline.withArrays spec3 c (W10 m c) fun w => (dat3 (E10 m) c).arrAt w cfg3.N
theorem W11_arr (c : Dev nD) (w : Fin cfg3.W) :
    W11 m c (Proc.devRef .tc (Pipeline.arrRef spec3 w)) = (dat3 (E10 m) c).arrAt w cfg3.N := by
  unfold W11; exact Pipeline.withArrays_arr spec3 launch3.win.arr_inj c _ _ w
theorem W11_of_ne (c : Dev nD) (b : Ref sig .tc) (hb : ∀ w, Pipeline.arrRef spec3 w ≠ b) :
    W11 m c (Proc.devRef .tc b) = W10 m c (Proc.devRef .tc b) := by
  unfold W11; exact Pipeline.withArrays_of_ne spec3 c _ _ b hb
theorem hF3 (c : Dev nD) (w : Fin cfg3.W) : (dat3 (E10 m) c).arrAt w cfg3.N = (fun b : Ref sig .tc => W11 m c b) (Pipeline.arrRef spec3 w) :=
  (W11_arr m c w).symm
theorem hrest3 (c : Dev nD) : ∀ b, b ∉ Finset.univ.image (Pipeline.arrRef spec3) → (fun b : Ref sig .tc => W11 m c b) b = E10 m c b :=
  fun b hb => W11_of_ne m c b fun w e => hb (Finset.mem_image.mpr ⟨w, Finset.mem_univ _, e⟩)

/-! ## What each item leaves untouched -/

/-- Region 0 changes only its output arrays: every other buffer — an input array it reads, or one it does not touch —
    holds after it what it held before. -/
theorem W4_keep (c : Dev nD) (b : Ref sig .tc) (h0 : b ≠ main_v6_0) (h1 : b ≠ main_v6_1) :
    W4 m c (Proc.devRef .tc b) = V3 m c (Proc.devRef .tc b) := by
  by_cases hb : ∃ w, Pipeline.arrRef spec0 w = b
  · obtain ⟨w, rfl⟩ := hb
    rw [W4_arr]
    match w with
    | ⟨0, _⟩ => exact ((dat0 (E3 m) c).arrAt_in 0 rfl _).trans (A_eq0 (E3 m) c 0)
    | ⟨1, _⟩ => exact ((dat0 (E3 m) c).arrAt_in 1 rfl _).trans (A_eq0 (E3 m) c 1)
    | ⟨2, _⟩ => exact ((dat0 (E3 m) c).arrAt_in 2 rfl _).trans (A_eq0 (E3 m) c 2)
    | ⟨3, _⟩ => exact ((dat0 (E3 m) c).arrAt_in 3 rfl _).trans (A_eq0 (E3 m) c 3)
    | ⟨4, _⟩ => exact absurd rfl h0
    | ⟨5, _⟩ => exact absurd rfl h1
  · exact W4_of_ne m c b fun w e => hb ⟨w, e⟩

theorem W5_of (c : Dev nD) (r : Ref sig .tc) (h : r ∉ hostOps1_W) : W5 m c r = W4 m c r :=
  StableHlo.after_of_writes_sub hostOps1 _ hostOps1_writes h

theorem W6_of (c : Dev nD) (r : Ref sig .tc) (h : r ∉ hostOps1_1_W) : W6 m c r = W5 m c r :=
  StableHlo.after_of_writes_sub hostOps1_1 _ hostOps1_1_writes h

theorem W7_of (c : Dev nD) (r : Ref sig .tc) (h : r ∉ hostOps1_2_W) : W7 m c r = W6 m c r :=
  StableHlo.after_of_writes_sub hostOps1_2 _ hostOps1_2_writes h

/-- Region 1 changes only its output arrays: every other buffer — an input array it reads, or one it does not touch —
    holds after it what it held before. -/
theorem W8_keep (c : Dev nD) (b : Ref sig .tc) (h0 : b ≠ main_v31) :
    W8 m c (Proc.devRef .tc b) = W7 m c (Proc.devRef .tc b) := by
  by_cases hb : ∃ w, Pipeline.arrRef spec1 w = b
  · obtain ⟨w, rfl⟩ := hb
    rw [W8_arr]
    match w with
    | ⟨0, _⟩ => exact ((dat1 (E7 m) c).arrAt_in 0 rfl _).trans (A_eq1 (E7 m) c 0)
    | ⟨1, _⟩ => exact ((dat1 (E7 m) c).arrAt_in 1 rfl _).trans (A_eq1 (E7 m) c 1)
    | ⟨2, _⟩ => exact ((dat1 (E7 m) c).arrAt_in 2 rfl _).trans (A_eq1 (E7 m) c 2)
    | ⟨3, _⟩ => exact ((dat1 (E7 m) c).arrAt_in 3 rfl _).trans (A_eq1 (E7 m) c 3)
    | ⟨4, _⟩ => exact ((dat1 (E7 m) c).arrAt_in 4 rfl _).trans (A_eq1 (E7 m) c 4)
    | ⟨5, _⟩ => exact absurd rfl h0
  · exact W8_of_ne m c b fun w e => hb ⟨w, e⟩

/-- Region 2 changes only its output arrays: every other buffer — an input array it reads, or one it does not touch —
    holds after it what it held before. -/
theorem W9_keep (c : Dev nD) (b : Ref sig .tc) (h0 : b ≠ main_v32_0) (h1 : b ≠ main_v32_1) :
    W9 m c (Proc.devRef .tc b) = W8 m c (Proc.devRef .tc b) := by
  by_cases hb : ∃ w, Pipeline.arrRef spec2 w = b
  · obtain ⟨w, rfl⟩ := hb
    rw [W9_arr]
    match w with
    | ⟨0, _⟩ => exact ((dat2 (E8 m) c).arrAt_in 0 rfl _).trans (A_eq2 (E8 m) c 0)
    | ⟨1, _⟩ => exact absurd rfl h0
    | ⟨2, _⟩ => exact absurd rfl h1
  · exact W9_of_ne m c b fun w e => hb ⟨w, e⟩

theorem W10_of (c : Dev nD) (r : Ref sig .tc) (h : r ∉ hostOps3_W) : W10 m c r = W9 m c r :=
  StableHlo.after_of_writes_sub hostOps3 _ hostOps3_writes h

/-- Region 3 changes only its output arrays: every other buffer — an input array it reads, or one it does not touch —
    holds after it what it held before. -/
theorem W11_keep (c : Dev nD) (b : Ref sig .tc) (h0 : b ≠ main_v43) :
    W11 m c (Proc.devRef .tc b) = W10 m c (Proc.devRef .tc b) := by
  by_cases hb : ∃ w, Pipeline.arrRef spec3 w = b
  · obtain ⟨w, rfl⟩ := hb
    rw [W11_arr]
    match w with
    | ⟨0, _⟩ => exact ((dat3 (E10 m) c).arrAt_in 0 rfl _).trans (A_eq3 (E10 m) c 0)
    | ⟨1, _⟩ => exact ((dat3 (E10 m) c).arrAt_in 1 rfl _).trans (A_eq3 (E10 m) c 1)
    | ⟨2, _⟩ => exact ((dat3 (E10 m) c).arrAt_in 2 rfl _).trans (A_eq3 (E10 m) c 2)
    | ⟨3, _⟩ => exact ((dat3 (E10 m) c).arrAt_in 3 rfl _).trans (A_eq3 (E10 m) c 3)
    | ⟨4, _⟩ => exact ((dat3 (E10 m) c).arrAt_in 4 rfl _).trans (A_eq3 (E10 m) c 4)
    | ⟨5, _⟩ => exact absurd rfl h0
  · exact W11_of_ne m c b fun w e => hb ⟨w, e⟩

/-! ## No item writes an argument -/

theorem W11_main_arg0 (c : Dev nD) : W11 m c main_arg0 = m ((c : Thread nD τ).loc main_arg0) :=
  (W11_keep m c main_arg0 (by decide)).trans <| (W10_of m c main_arg0 (by decide)).trans <| (W9_keep m c main_arg0 (by decide) (by decide)).trans <| (W8_keep m c main_arg0 (by decide)).trans <| (W7_of m c main_arg0 (by decide)).trans <| (W6_of m c main_arg0 (by decide)).trans <| (W5_of m c main_arg0 (by decide)).trans <| (W4_keep m c main_arg0 (by decide) (by decide)).trans <| (V3_of m c main_arg0 (by decide)).trans <| (V2_of m c main_arg0 (by decide)).trans <| (V1_of m c main_arg0 (by decide)).trans rfl

theorem W11_main_arg1 (c : Dev nD) : W11 m c main_arg1 = m ((c : Thread nD τ).loc main_arg1) :=
  (W11_keep m c main_arg1 (by decide)).trans <| (W10_of m c main_arg1 (by decide)).trans <| (W9_keep m c main_arg1 (by decide) (by decide)).trans <| (W8_keep m c main_arg1 (by decide)).trans <| (W7_of m c main_arg1 (by decide)).trans <| (W6_of m c main_arg1 (by decide)).trans <| (W5_of m c main_arg1 (by decide)).trans <| (W4_keep m c main_arg1 (by decide) (by decide)).trans <| (V3_of m c main_arg1 (by decide)).trans <| (V2_of m c main_arg1 (by decide)).trans <| (V1_of m c main_arg1 (by decide)).trans rfl

theorem W11_main_arg2 (c : Dev nD) : W11 m c main_arg2 = m ((c : Thread nD τ).loc main_arg2) :=
  (W11_keep m c main_arg2 (by decide)).trans <| (W10_of m c main_arg2 (by decide)).trans <| (W9_keep m c main_arg2 (by decide) (by decide)).trans <| (W8_keep m c main_arg2 (by decide)).trans <| (W7_of m c main_arg2 (by decide)).trans <| (W6_of m c main_arg2 (by decide)).trans <| (W5_of m c main_arg2 (by decide)).trans <| (W4_keep m c main_arg2 (by decide) (by decide)).trans <| (V3_of m c main_arg2 (by decide)).trans <| (V2_of m c main_arg2 (by decide)).trans <| (V1_of m c main_arg2 (by decide)).trans rfl

theorem W11_main_arg3 (c : Dev nD) : W11 m c main_arg3 = m ((c : Thread nD τ).loc main_arg3) :=
  (W11_keep m c main_arg3 (by decide)).trans <| (W10_of m c main_arg3 (by decide)).trans <| (W9_keep m c main_arg3 (by decide) (by decide)).trans <| (W8_keep m c main_arg3 (by decide)).trans <| (W7_of m c main_arg3 (by decide)).trans <| (W6_of m c main_arg3 (by decide)).trans <| (W5_of m c main_arg3 (by decide)).trans <| (W4_keep m c main_arg3 (by decide) (by decide)).trans <| (V3_of m c main_arg3 (by decide)).trans <| (V2_of m c main_arg3 (by decide)).trans <| (V1_of m c main_arg3 (by decide)).trans rfl

theorem W11_main_arg4 (c : Dev nD) : W11 m c main_arg4 = m ((c : Thread nD τ).loc main_arg4) :=
  (W11_keep m c main_arg4 (by decide)).trans <| (W10_of m c main_arg4 (by decide)).trans <| (W9_keep m c main_arg4 (by decide) (by decide)).trans <| (W8_keep m c main_arg4 (by decide)).trans <| (W7_of m c main_arg4 (by decide)).trans <| (W6_of m c main_arg4 (by decide)).trans <| (W5_of m c main_arg4 (by decide)).trans <| (W4_keep m c main_arg4 (by decide) (by decide)).trans <| (V3_of m c main_arg4 (by decide)).trans <| (V2_of m c main_arg4 (by decide)).trans <| (V1_of m c main_arg4 (by decide)).trans rfl

theorem W11_main_arg5 (c : Dev nD) : W11 m c main_arg5 = m ((c : Thread nD τ).loc main_arg5) :=
  (W11_keep m c main_arg5 (by decide)).trans <| (W10_of m c main_arg5 (by decide)).trans <| (W9_keep m c main_arg5 (by decide) (by decide)).trans <| (W8_keep m c main_arg5 (by decide)).trans <| (W7_of m c main_arg5 (by decide)).trans <| (W6_of m c main_arg5 (by decide)).trans <| (W5_of m c main_arg5 (by decide)).trans <| (W4_keep m c main_arg5 (by decide) (by decide)).trans <| (V3_of m c main_arg5 (by decide)).trans <| (V2_of m c main_arg5 (by decide)).trans <| (V1_of m c main_arg5 (by decide)).trans rfl

theorem W11_main_arg6 (c : Dev nD) : W11 m c main_arg6 = m ((c : Thread nD τ).loc main_arg6) :=
  (W11_keep m c main_arg6 (by decide)).trans <| (W10_of m c main_arg6 (by decide)).trans <| (W9_keep m c main_arg6 (by decide) (by decide)).trans <| (W8_keep m c main_arg6 (by decide)).trans <| (W7_of m c main_arg6 (by decide)).trans <| (W6_of m c main_arg6 (by decide)).trans <| (W5_of m c main_arg6 (by decide)).trans <| (W4_keep m c main_arg6 (by decide) (by decide)).trans <| (V3_of m c main_arg6 (by decide)).trans <| (V2_of m c main_arg6 (by decide)).trans <| (V1_of m c main_arg6 (by decide)).trans rfl

theorem W11_main_arg7 (c : Dev nD) : W11 m c main_arg7 = m ((c : Thread nD τ).loc main_arg7) :=
  (W11_keep m c main_arg7 (by decide)).trans <| (W10_of m c main_arg7 (by decide)).trans <| (W9_keep m c main_arg7 (by decide) (by decide)).trans <| (W8_keep m c main_arg7 (by decide)).trans <| (W7_of m c main_arg7 (by decide)).trans <| (W6_of m c main_arg7 (by decide)).trans <| (W5_of m c main_arg7 (by decide)).trans <| (W4_keep m c main_arg7 (by decide) (by decide)).trans <| (V3_of m c main_arg7 (by decide)).trans <| (V2_of m c main_arg7 (by decide)).trans <| (V1_of m c main_arg7 (by decide)).trans rfl

theorem W11_main_arg8 (c : Dev nD) : W11 m c main_arg8 = m ((c : Thread nD τ).loc main_arg8) :=
  (W11_keep m c main_arg8 (by decide)).trans <| (W10_of m c main_arg8 (by decide)).trans <| (W9_keep m c main_arg8 (by decide) (by decide)).trans <| (W8_keep m c main_arg8 (by decide)).trans <| (W7_of m c main_arg8 (by decide)).trans <| (W6_of m c main_arg8 (by decide)).trans <| (W5_of m c main_arg8 (by decide)).trans <| (W4_keep m c main_arg8 (by decide) (by decide)).trans <| (V3_of m c main_arg8 (by decide)).trans <| (V2_of m c main_arg8 (by decide)).trans <| (V1_of m c main_arg8 (by decide)).trans rfl

/-! ## The proof data family and the thread state -/

/-- Every region's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (E3 m) c
  | ⟨1, _⟩ => fun c => dat1 (E7 m) c
  | ⟨2, _⟩ => fun c => dat2 (E8 m) c
  | ⟨3, _⟩ => fun c => dat3 (E10 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A stretch of host operations as a segment from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped reference of the core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at the last contents, the generator register. -/
abbrev Tₙ (c : Dev nD) : sProp 𝕄 := iprop(StableHlo.held (c : Thread nD τ) (Pipeline.ucRefs τ sig) (W11 m c) ∗ ∃ r, prngReg c r)

/-! ## The regions as segments -/

set_option backward.isDefEq.respectTransparency.types false in
/-- Region 0 over the thread state: entered with every unscoped buffer at the contents before it, left with them at
    the contents after it; its arrays are split out of the unscoped buffers at entry and put back at their final
    contents at exit; the generator register goes into the region's invariant and comes back; nothing is owed. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E3 m) c).loose
  hwaits := Pipeline.hwaits_of_owed_zero _ _ _ _ L lv 0 fun _ _ => rfl
  pre c := iprop(StableHlo.held (c : Thread nD τ) (Pipeline.ucRefs τ sig) (V3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec0 c (E3 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : iprop((∃ r, prngReg c r) ∗ Pipeline.prefHeld (pcfgs (F := F) 0).pre c (fun _ => fullShare) (adm (F := F) 0).1 ∗ Pipeline.scopedRest spec0 c)
        ⊢ (Pipeline.ΦA spec0 c : sProp 𝕄) := by
      unfold Pipeline.ΦA
      iintro ⟨Hp, -, Hr⟩
      isplitl [Hr]; · iexact Hr
      iexact Hp
    exact h.trans (hin0 (E3 m) c)
  hout c := by
    have h : (Pipeline.ΦA spec0 c : sProp 𝕄)
        ⊢ iprop((∃ r, prngReg c r) ∗ Pipeline.ownSems0 (fun k : PEmpty => k.elim) c ∗ Pipeline.scopedRest spec0 c) := by
      rw [Pipeline.ownSems0_none]; unfold Pipeline.ΦA
      iintro ⟨Hr, Hp⟩
      isplitl [Hp]; · iexact Hp
      isplitr; · iempintro
      iexact Hr
    exact (hout0 (E3 m) c).trans h
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E3 m c) (fun b => W4 m c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at the contents before it, left with them at
    the contents after it; its arrays are split out of the unscoped buffers at entry and put back at their final
    contents at exit; the generator register goes into the region's invariant and comes back; nothing is owed. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E7 m) c).loose
  hwaits := Pipeline.hwaits_of_owed_zero _ _ _ _ L lv 1 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec1 c (E7 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : iprop((∃ r, prngReg c r) ∗ Pipeline.prefHeld (pcfgs (F := F) 1).pre c (fun _ => fullShare) (adm (F := F) 1).1 ∗ Pipeline.scopedRest spec1 c)
        ⊢ (Pipeline.ΦA spec1 c : sProp 𝕄) := by
      unfold Pipeline.ΦA
      iintro ⟨Hp, -, Hr⟩
      isplitl [Hr]; · iexact Hr
      iexact Hp
    exact h.trans (hin1 (E7 m) c)
  hout c := by
    have h : (Pipeline.ΦA spec1 c : sProp 𝕄)
        ⊢ iprop((∃ r, prngReg c r) ∗ Pipeline.ownSems0 (fun k : PEmpty => k.elim) c ∗ Pipeline.scopedRest spec1 c) := by
      rw [Pipeline.ownSems0_none]; unfold Pipeline.ΦA
      iintro ⟨Hr, Hp⟩
      isplitl [Hp]; · iexact Hp
      isplitr; · iempintro
      iexact Hr
    exact (hout1 (E7 m) c).trans h
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E7 m c) (fun b => W8 m c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at the contents before it, left with them at
    the contents after it; its arrays are split out of the unscoped buffers at entry and put back at their final
    contents at exit; the generator register goes into the region's invariant and comes back; nothing is owed. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (E8 m) c).loose
  hwaits := Pipeline.hwaits_of_owed_zero _ _ _ _ L lv 2 fun _ _ => rfl
  pre c := iprop(StableHlo.held (c : Thread nD τ) (Pipeline.ucRefs τ sig) (W8 m c) ∗ R c)
  post c := iprop(StableHlo.held (c : Thread nD τ) (Pipeline.ucRefs τ sig) (W9 m c) ∗ R c)
  X c := iprop(∃ r, prngReg c r)
  Y c := iprop(∃ r, prngReg c r)
  Z c := Pipeline.unscopedRest (Ix := Unit) (Name := ℕ) (U := UR sig nD τ) (Lvl := ℕ) spec2 c (E8 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (E8 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : iprop((∃ r, prngReg c r) ∗ Pipeline.prefHeld (pcfgs (F := F) 2).pre c (fun _ => fullShare) (adm (F := F) 2).1 ∗ Pipeline.scopedRest spec2 c)
        ⊢ (Pipeline.ΦA spec2 c : sProp 𝕄) := by
      unfold Pipeline.ΦA
      iintro ⟨Hp, -, Hr⟩
      isplitl [Hr]; · iexact Hr
      iexact Hp
    exact h.trans (hin2 (E8 m) c)
  hout c := by
    have h : (Pipeline.ΦA spec2 c : sProp 𝕄)
        ⊢ iprop((∃ r, prngReg c r) ∗ Pipeline.ownSems0 (fun k : PEmpty => k.elim) c ∗ Pipeline.scopedRest spec2 c) := by
      rw [Pipeline.ownSems0_none]; unfold Pipeline.ΦA
      iintro ⟨Hr, Hp⟩
      isplitl [Hp]; · iexact Hp
      isplitr; · iempintro
      iexact Hr
    exact (hout2 (E8 m) c).trans h
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (E8 m c) (fun b => W9 m c b) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered with every unscoped buffer at the contents before it, left with them at
    the contents after it; its arrays are split out of the unscoped buffers at entry and put back at their final
    contents at exit; the generator register goes into the region's invariant and comes back; nothing is owed. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (E10 m) c).loose
  hwaits := Pipeline.hwaits_of_owed_zero _ _ _ _ L lv 3 fun _ _ => rfl
  pre c := iprop(StableHlo.held (c : Thread nD τ) (Pipeline.ucRefs τ sig) (W10 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (E10 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (E10 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : iprop((∃ r, prngReg c r) ∗ Pipeline.prefHeld (pcfgs (F := F) 3).pre c (fun _ => fullShare) (adm (F := F) 3).1 ∗ Pipeline.scopedRest spec3 c)
        ⊢ (Pipeline.ΦA spec3 c : sProp 𝕄) := by
      unfold Pipeline.ΦA
      iintro ⟨Hp, -, Hr⟩
      isplitl [Hr]; · iexact Hr
      iexact Hp
    exact h.trans (hin3 (E10 m) c)
  hout c := by
    have h : (Pipeline.ΦA spec3 c : sProp 𝕄)
        ⊢ iprop((∃ r, prngReg c r) ∗ Pipeline.ownSems0 (fun k : PEmpty => k.elim) c ∗ Pipeline.scopedRest spec3 c) := by
      rw [Pipeline.ownSems0_none]; unfold Pipeline.ΦA
      iintro ⟨Hr, Hp⟩
      isplitl [Hp]; · iexact Hp
      isplitr; · iempintro
      iexact Hr
    exact (hout3 (E10 m) c).trans h
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (E10 m c) (fun b => W11 m c b) ((pdats m 3 c).arrAt · cfg3.N) (hF3 m c) (hrest3 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's eleven segments in order. -/
abbrev segs : List (Pipeline.Seg (pcfgs (F := F)) adm (pdats m) () defs₀ 𝒱₀ L lv) :=
  [ .host (hseg hostOps0 hostOps0_sub hostOps0_fresh (V0 m)),
    .host (hseg hostOps0_1 hostOps0_1_sub hostOps0_1_fresh (V1 m)),
    .host (hseg hostOps0_2 hostOps0_2_sub hostOps0_2_fresh (V2 m)),
    .region (reg0 m),
    .host (hseg hostOps1 hostOps1_sub hostOps1_fresh (W4 m)),
    .host (hseg hostOps1_1 hostOps1_1_sub hostOps1_1_fresh (W5 m)),
    .host (hseg hostOps1_2 hostOps1_2_sub hostOps1_2_fresh (W6 m)),
    .region (reg1 m),
    .region (reg2 m),
    .host (hseg hostOps3 hostOps3_sub hostOps3_fresh (W9 m)),
    .region (reg3 m) ]
/-- @main is the run of the segments. -/
theorem main_run (c : Dev nD) : main (F := F) c = Pipeline.Seg.run (segs m) := (main_chain c).trans (by chain_rfl)

set_option backward.isDefEq.respectTransparency.types false in
/-- From any memory with zero counters every weakly fair execution of @main terminates, nothing faulting, and every
    final state holds every unscoped buffer of every core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W11 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m c b)
    (hfin := fun c s' => by
      iintro ⟨⟨Hh, -⟩, HSI⟩
      unfold StableHlo.held
      imodintro
      iapply (pointsTo_read_all (Pipeline.ucRefs τ sig) (fun b => (((c : Thread nD τ)).1, b)) (W11 m c) s')
      isplitl [Hh] <;> iassumption)
    (hQ := fun s h c => h c)

end Cert.KernelIdeal.Hand

end
-- ==== Proof.KI.Spec.lean ====
/-
  The mathematics of the claim, free of any program: one edge-conditioned graph-convolution layer followed by
  batch normalisation (batch statistics) and a ReLU, over the extended reals, written twice —
  once in the arrangement the tiled kernels compute (`kernelOut`: padded node rows, the edge aggregation as a
  product with the (destination, source) multiplicity matrix, the statistics as a sum and a sum of squares) and
  once in the arrangement of the plain reference (`refOut`: a gather of transformed source rows, a scatter-add
  onto destination rows, the variance as the mean squared deviation). Arrays are functions of explicit
  coordinates; `b` is the batch, `v`, `u` nodes, `e` an edge, `f` an input feature, `o` an output channel.
-/
import Idealize.ShloMosaic.PureOps.Ideal
import Idealize.ShloMosaic.PureOps.Ideal.Laws

noncomputable section

namespace Cert.Spec

open Idealize.ShloMosaic

/-- Column of the batch-folded layout: batch `b`, channel `o` sit at column `b · 128 + o` of 1024. -/
def col (b : Fin 8) (o : Fin 128) : Fin 1024 := ⟨b.val * 128 + o.val, by omega⟩

/-- A node below 10000 as a row of the padded (10240-row) arrays. -/
def row (v : Fin 10000) : Fin 10240 := ⟨v.val, by omega⟩

/-- The arguments, as functions of coordinates. `src e`, `dst e` are the two columns of the edge list read as naturals. -/
structure Args where
  x : Fin 8 → Fin 10000 → Fin 128 → EReal
  src : Fin 160000 → ℕ
  dst : Fin 160000 → ℕ
  ea : Fin 8 → Fin 160000 → EReal
  wn : Fin 128 → Fin 128 → EReal
  we : Fin 128 → EReal
  ws : Fin 128 → Fin 128 → EReal
  bs : Fin 128 → EReal
  g : Fin 128 → EReal
  be : Fin 128 → EReal

/-- An extended real that is a real number. -/
def IsReal (z : EReal) : Prop := ∃ r : ℝ, z = (r : EReal)

/-- Every float argument is a real number. -/
structure Args.Finite (a : Args) : Prop where
  x : ∀ b v f, IsReal (a.x b v f)
  ea : ∀ b e, IsReal (a.ea b e)
  wn : ∀ o f, IsReal (a.wn o f)
  we : ∀ o, IsReal (a.we o)
  ws : ∀ o f, IsReal (a.ws o f)
  bs : ∀ o, IsReal (a.bs o)
  g : ∀ o, IsReal (a.g o)
  be : ∀ o, IsReal (a.be o)

/-- The two literals both programs carry: the count 80000 = 8 · 10000 and the variance offset. -/
def n80000 : EReal := Ideal.ofBits .f32 0x479C4000#32
def eps : EReal := Ideal.ofBits .f32 0x3727C5AC#32

/-- Normalise, scale, shift, clamp at zero: `max (((h − mean) · rsqrt (var + eps)) · g + be) 0`. -/
def bn (h mean var g be : EReal) : EReal :=
  max ((((h - mean) * Ideal.rsqrt (var + eps)) * g) + be) 0

/-! ## The kernels' arrangement -/

/-- The node features with 240 zero rows appended. -/
def xpad (x : Fin 8 → Fin 10000 → Fin 128 → EReal) (b : Fin 8) (v : Fin 10240) (f : Fin 128) : EReal :=
  if h : v.val < 10000 then x b ⟨v.val, h⟩ f else 0

/-- A linear map of each node's features, in the folded layout's coordinates: `∑ f, xp b v f · w o f`. -/
def lin (xp : Fin 8 → Fin 10240 → Fin 128 → EReal) (w : Fin 128 → Fin 128 → EReal)
    (v : Fin 10240) (b : Fin 8) (o : Fin 128) : EReal :=
  ∑ f : Fin 128, xp b v f * w o f

/-- The same with a bias per channel added. -/
def linb (xp : Fin 8 → Fin 10240 → Fin 128 → EReal) (w : Fin 128 → Fin 128 → EReal) (bs : Fin 128 → EReal)
    (v : Fin 10240) (b : Fin 8) (o : Fin 128) : EReal :=
  lin xp w v b o + bs o

/-- The multiplicity matrix: how many edges run from `u` to `v`. -/
def Amat (src dst : Fin 160000 → ℕ) (v u : Fin 10240) : EReal :=
  ∑ e : Fin 160000, if dst e = v.val ∧ src e = u.val then (1 : EReal) else 0

/-- The edge attributes summed per destination node and batch, zero on the 240 padding rows. -/
def Sseg (dst : Fin 160000 → ℕ) (ea : Fin 8 → Fin 160000 → EReal) (v : Fin 10240) (b : Fin 8) : EReal :=
  if v.val < 10000 then ∑ e : Fin 160000, if dst e = v.val then ea b e else 0 else 0

/-- The aggregation as a matrix product over all 10240 source rows. -/
def agg (A : Fin 10240 → Fin 10240 → EReal) (xn : Fin 10240 → Fin 8 → Fin 128 → EReal)
    (v : Fin 10240) (b : Fin 8) (o : Fin 128) : EReal :=
  ∑ u : Fin 10240, A v u * xn u b o

/-- The combined pre-normalisation activations: `(agg + hs) + sp · we`. -/
def hbo (A : Fin 10240 → Fin 10240 → EReal) (xn hs : Fin 10240 → Fin 8 → Fin 128 → EReal)
    (sp : Fin 10240 → Fin 8 → EReal) (we : Fin 128 → EReal) (v : Fin 10240) (b : Fin 8) (o : Fin 128) : EReal :=
  (agg A xn v b o + hs v b o) + sp v b * we o

/-- Per channel: the sum, and the sum of squares, over the 10000 real rows and the 8 batches. -/
def sumH (h : Fin 10240 → Fin 8 → Fin 128 → EReal) (o : Fin 128) : EReal :=
  ∑ v : Fin 10000, ∑ b : Fin 8, h (row v) b o
def sumsqH (h : Fin 10240 → Fin 8 → Fin 128 → EReal) (o : Fin 128) : EReal :=
  ∑ v : Fin 10000, ∑ b : Fin 8, h (row v) b o * h (row v) b o

/-- Mean and variance from the two sums: `s / 80000` and `max (ss / 80000 − mean²) 0`. -/
def meanK (s : EReal) : EReal := Ideal.div s n80000
def varK (s ss : EReal) : EReal := max (Ideal.div ss n80000 - meanK s * meanK s) 0

/-- The activations the kernels compute, before normalisation. -/
def hK (a : Args) : Fin 10240 → Fin 8 → Fin 128 → EReal :=
  hbo (Amat a.src a.dst) (lin (xpad a.x) a.wn) (linb (xpad a.x) a.ws a.bs) (Sseg a.dst a.ea) a.we

/-- The kernels' result. -/
def kernelOut (a : Args) (b : Fin 8) (v : Fin 10000) (o : Fin 128) : EReal :=
  bn (hK a (row v) b o) (meanK (sumH (hK a) o)) (varK (sumH (hK a) o) (sumsqH (hK a) o)) (a.g o) (a.be o)

/-! ## The reference's arrangement -/

/-- A linear map of each node's features: `∑ f, x b v f · w o f`. -/
def linR (x : Fin 8 → Fin 10000 → Fin 128 → EReal) (w : Fin 128 → Fin 128 → EReal)
    (b : Fin 8) (v : Fin 10000) (o : Fin 128) : EReal :=
  ∑ f : Fin 128, x b v f * w o f

/-- The message of edge `e`: the transformed source row plus the edge attribute times the edge weight. -/
def msg (a : Args) (b : Fin 8) (e : Fin 160000) (o : Fin 128) : EReal :=
  (if h : a.src e < 10000 then linR a.x a.wn b ⟨a.src e, h⟩ o else 0) + a.ea b e * a.we o

/-- The activations the reference computes: the self term plus the messages of the edges that end at `v`. -/
def hR (a : Args) (b : Fin 8) (v : Fin 10000) (o : Fin 128) : EReal :=
  (linR a.x a.ws b v o + a.bs o) + ∑ e : Fin 160000, if a.dst e = v.val then msg a b e o else 0

/-- Mean and (biased) variance over batch and nodes. -/
def meanR (a : Args) (o : Fin 128) : EReal := Ideal.div (∑ b : Fin 8, ∑ v : Fin 10000, hR a b v o) n80000
def varR (a : Args) (o : Fin 128) : EReal :=
  Ideal.div (∑ b : Fin 8, ∑ v : Fin 10000, (hR a b v o - meanR a o) * (hR a b v o - meanR a o)) n80000

/-- The reference's result. -/
def refOut (a : Args) (b : Fin 8) (v : Fin 10000) (o : Fin 128) : EReal :=
  bn (hR a b v o) (meanR a o) (varR a o) (a.g o) (a.be o)

end Cert.Spec

end
-- ==== Proof.KI.R0Val.lean ====
/- Region 0 (the node transform) read at an index, at the ideal values. The body's two payloads at a row and a column
   of the block: a rounding is the identity, a product into the zero accumulator is the sum over the 128 features, the
   transposed weight matrix read at (f, o) is the matrix at (o, f), the bias row is broadcast over the block's rows.
   Point t = (b, vi) of the 8 x 8 grid reads rows vi·1280 … of batch b of the padded features and writes block (vi, b)
   of each (10240, 1024) output: row vi·1280 + p, column b·128 + q. The 64 blocks tile each output, so after the
   region entry (v, b·128 + o) of the first output is ∑ f, x b v f · wn o f and of the second ∑ f, x b v f · ws o f + bias o. -/
import proofs.«421049_j39367670235755_2_alg».proof.Proof.KI.R0
import proofs.«421049_j39367670235755_2_alg».proof.Proof.KI.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.HandVal

open Cert.KernelIdeal Cert.KernelIdeal.Gen Cert.KernelIdeal.Hand Cert.Spec
open Idealize.ShloMosaic Idealize.ShloMosaic.TcCoe Idealize.ShloMosaic.ValueIdx
open Idealize.ShloMosaic.Pipeline (Dat)

-- the core's buffer contents when the region is entered
variable (V : (c : Dev nD) → (b : Ref sig .tc) → Buf (Elt Ideal) ((c : Thread nD τ).loc b))

namespace R0

/-! ## The block product at an index -/

/-- On the left operand's row axis the operand index is the output's row. -/
theorem lhs_dot_S1280x128_S128x128_S1280x128_1_0_0_1_n_n_0 (j : S1280x128.Idx) (k : dot_S1280x128_S128x128_S1280x128_1_0_0_1_n_n.contr.Idx) :
    (dot_S1280x128_S128x128_S1280x128_1_0_0_1_n_n.lhsIdx j k (0 : Fin S1280x128.rank)).val = (j 0).val := by
  unfold DotDims.lhsIdx
  rw [dif_neg (show ¬(0 : Fin S1280x128.rank) ∈ dot_S1280x128_S128x128_S1280x128_1_0_0_1_n_n.lhsBatch by decide),
    dif_pos (show (0 : Fin S1280x128.rank) ∈ dot_S1280x128_S128x128_S1280x128_1_0_0_1_n_n.lhsNonContracting by decide)]
  rfl

/-- On the left operand's column axis it is the contraction position's one coordinate. -/
theorem lhs_dot_S1280x128_S128x128_S1280x128_1_0_0_1_n_n_1 (j : S1280x128.Idx) (k : dot_S1280x128_S128x128_S1280x128_1_0_0_1_n_n.contr.Idx) :
    (dot_S1280x128_S128x128_S1280x128_1_0_0_1_n_n.lhsIdx j k (1 : Fin S1280x128.rank)).val = (k ⟨0, by decide⟩).val :=
  dot_S1280x128_S128x128_S1280x128_1_0_0_1_n_n.lhsIdx_val_of_single (cl := (1 : Fin S1280x128.rank)) rfl j k

/-- On the right operand's row axis it is the contraction position's one coordinate. -/
theorem rhs_dot_S1280x128_S128x128_S1280x128_1_0_0_1_n_n_0 (j : S1280x128.Idx) (k : dot_S1280x128_S128x128_S1280x128_1_0_0_1_n_n.contr.Idx) :
    (dot_S1280x128_S128x128_S1280x128_1_0_0_1_n_n.rhsIdx j k (0 : Fin S128x128.rank)).val = (k ⟨0, by decide⟩).val :=
  dot_S1280x128_S128x128_S1280x128_1_0_0_1_n_n.rhsIdx_val_of_single (cr := (0 : Fin S128x128.rank)) rfl j k

/-- On the right operand's column axis it is the output's column. -/
theorem rhs_dot_S1280x128_S128x128_S1280x128_1_0_0_1_n_n_1 (j : S1280x128.Idx) (k : dot_S1280x128_S128x128_S1280x128_1_0_0_1_n_n.contr.Idx) :
    (dot_S1280x128_S128x128_S1280x128_1_0_0_1_n_n.rhsIdx j k (1 : Fin S128x128.rank)).val = (j 1).val := by
  unfold DotDims.rhsIdx
  rw [dif_neg (show ¬(1 : Fin S128x128.rank) ∈ dot_S1280x128_S128x128_S1280x128_1_0_0_1_n_n.rhsBatch by decide),
    dif_pos (show (1 : Fin S128x128.rank) ∈ dot_S1280x128_S128x128_S1280x128_1_0_0_1_n_n.rhsNonContracting by decide)]
  rfl

/-- A 1280 x 128 block times a 128 x 128 matrix into the zero accumulator, at row `p` and column `q`: the sum over the
    contracted coordinate of the products of the entries. -/
theorem mm_apply {φ₁ φ₂ : FTy} (A : FVec Ideal S1280x128 φ₁) (B : FVec Ideal S128x128 φ₂) (p : Fin 1280) (q : Fin 128) :
    matmul dot_S1280x128_S128x128_S1280x128_1_0_0_1_n_n none A B (constant (F := Ideal) S1280x128 .f32 0x00000000#32) (ix2 p q)
      = ∑ k : Fin 128, A (ix2 p k) * B (ix2 k q) := by
  show FloatOps.matmul _ none A B _ (ix2 p q) = _
  rw [Ideal.matmul_constant_zero_apply,
    ← Equiv.sum_comp (contrEquiv1 dot_S1280x128_S128x128_S1280x128_1_0_0_1_n_n 128 rfl rfl).symm]
  refine Finset.sum_congr rfl fun k _ => ?_
  have hk := contrEquiv1_symm_val dot_S1280x128_S128x128_S1280x128_1_0_0_1_n_n 128 rfl rfl k
  have hl : dot_S1280x128_S128x128_S1280x128_1_0_0_1_n_n.lhsIdx (ix2 p q) ((contrEquiv1 _ 128 rfl rfl).symm k) = ix2 p k := by
    funext ax; apply Fin.ext
    match ax with
    | ⟨0, _⟩ => exact lhs_dot_S1280x128_S128x128_S1280x128_1_0_0_1_n_n_0 _ _
    | ⟨1, _⟩ => exact (lhs_dot_S1280x128_S128x128_S1280x128_1_0_0_1_n_n_1 _ _).trans hk
  have hr : dot_S1280x128_S128x128_S1280x128_1_0_0_1_n_n.rhsIdx (ix2 p q) ((contrEquiv1 _ 128 rfl rfl).symm k) = ix2 k q := by
    funext ax; apply Fin.ext
    match ax with
    | ⟨0, _⟩ => exact (rhs_dot_S1280x128_S128x128_S1280x128_1_0_0_1_n_n_0 _ _).trans hk
    | ⟨1, _⟩ => exact rhs_dot_S1280x128_S128x128_S1280x128_1_0_0_1_n_n_1 _ _
  rw [hl, hr]

/-! ## The two payloads at an index -/

/-- The first product, rounded (the identity here): at row `p`, column `q` the sum over the features of the block's
    row `p` against row `q` of the weight matrix (its transpose's column). -/
theorem pay3_apply (x0 : Vec Ideal S1x1280x128 .f32) (x1 : Vec Ideal S128x128 .f32) (p : Fin 1280) (q : Fin 128) :
    k0_pay3 x0 x1 (ix2 p q) = ∑ f : Fin 128, x0 (ix3 (0 : Fin 1) p f) * x1 (ix2 q f) := by
  unfold k0_pay3 k0_pay1
  rw [truncf_apply, mm_apply]
  refine Finset.sum_congr rfl fun f _ => ?_
  rw [truncf_apply, shapeCast_1ab_ab_apply, transpose_ix2_apply, truncf_apply]

/-- The second product plus the bias row broadcast over the block's rows. -/
theorem pay2_apply (x0 : Vec Ideal S1x1280x128 .f32) (x2 : Vec Ideal S128x128 .f32) (x3 : Vec Ideal S1x128 .f32) (p : Fin 1280) (q : Fin 128) :
    k0_pay2 x0 x2 x3 (ix2 p q) = (∑ f : Fin 128, x0 (ix3 (0 : Fin 1) p f) * x2 (ix2 q f)) + x3 (ix2 (0 : Fin 1) q) := by
  unfold k0_pay2 k0_pay1
  rw [addf_apply, mm_apply, broadcastTo_1b_ab_apply, shapeCast_self, shapeCast_self]
  congr 1
  refine Finset.sum_congr rfl fun f _ => ?_
  rw [truncf_apply, shapeCast_1ab_ab_apply, transpose_ix2_apply, truncf_apply]

/-! ## From blocks to the arrays -/

/-- The four arrays the body reads, as the region finds them, at their literal shapes. -/
abbrev xA (c : Dev nD) : S8x10240x128.Idx → EReal := V c main_v4
abbrev w1A (c : Dev nD) : S128x128.Idx → EReal := V c main_arg3
abbrev w2A (c : Dev nD) : S128x128.Idx → EReal := V c main_arg5
abbrev bA (c : Dev nD) : S1x128.Idx → EReal := V c main_v5

theorem hz2 : (![0, 0] : Fin 2 → Nat) = fun _ => 0 := funext fun a => match a with | ⟨0, _⟩ => rfl | ⟨1, _⟩ => rfl
theorem hz3 : (![0, 0, 0] : Fin 3 → Nat) = fun _ => 0 := funext fun a => match a with | ⟨0, _⟩ => rfl | ⟨1, _⟩ => rfl | ⟨2, _⟩ => rfl

/-- The batch and the channel of a column of the folded layout: column k = b·128 + o. -/
def bOf (k : Fin 1024) : Fin 8 := ⟨k.val / 128, Nat.div_lt_of_lt_mul k.isLt⟩
def oOf (k : Fin 1024) : Fin 128 := ⟨k.val % 128, Nat.mod_lt _ (by decide)⟩
theorem bOf_col (b : Fin 8) (o : Fin 128) : bOf (col b o) = b := Fin.ext (by show (b.val * 128 + o.val) / 128 = b.val; omega)
theorem oOf_col (b : Fin 8) (o : Fin 128) : oOf (col b o) = o := Fin.ext (by show (b.val * 128 + o.val) % 128 = o.val; omega)

/-- What the first output ends holding: entry (v, k) is the linear map of node v's features of batch `bOf k` at channel `oOf k`. -/
def G4 (c : Dev nD) : S10240x1024.Idx → EReal := fun i =>
  lin (fun b v f => (V c main_v4 : S8x10240x128.Idx → EReal) (ix3 b v f)) (fun o f => (V c main_arg3 : S128x128.Idx → EReal) (ix2 o f))
    (i 0) (bOf (i 1)) (oOf (i 1))

/-- What the second output ends holding: the same with the other weight matrix, plus the bias of the channel. -/
def G5 (c : Dev nD) : S10240x1024.Idx → EReal := fun i =>
  linb (fun b v f => (V c main_v4 : S8x10240x128.Idx → EReal) (ix3 b v f)) (fun o f => (V c main_arg5 : S128x128.Idx → EReal) (ix2 o f))
    (fun o => (V c main_v5 : S1x128.Idx → EReal) (ix2 (0 : Fin 1) o)) (i 0) (bOf (i 1)) (oOf (i 1))

/-- The printed index maps, decided over the 64 points: the feature window's block is (batch, row block, 0) where the
    outputs' is (row block, batch); the weight and bias windows stay at block 0; both coordinates are below 8. -/
theorem idx_facts0 : ∀ t : Fin cfg0.N,
    win0_0.index t (0 : Fin 3) = win0_4.index t (1 : Fin 2)
    ∧ win0_0.index t (1 : Fin 3) = win0_4.index t (0 : Fin 2)
    ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_5.index t (0 : Fin 2) = win0_4.index t (0 : Fin 2) ∧ win0_5.index t (1 : Fin 2) = win0_4.index t (1 : Fin 2)
    ∧ win0_4.index t (0 : Fin 2) ≤ 7 ∧ win0_4.index t (1 : Fin 2) ≤ 7 :=
  (by decide +kernel : ∀ t : Fin grid0.N, _)

/-- Every block of either output is some point's. -/
theorem idx_onto4 : ∀ (q0 : Fin 8) (q1 : Fin 8), ∃ t : Fin cfg0.N, win0_4.index t = ![q0.val, q1.val] :=
  (by decide +kernel : ∀ (q0 : Fin 8) (q1 : Fin 8), ∃ t : Fin grid0.N, win0_4.index t = ![q0.val, q1.val])

/-- The feature block's entry (0, p, f) at point t is the padded features at batch and row of the output block's entry (p, q). -/
theorem x_at (c : Dev nD) (t : Fin cfg0.N) (p : Fin 1280) (q f : Fin 128) :
    (V c main_v4 : S8x10240x128.Idx → EReal) (((cfg0.win 0).blk t).view.emb (ix3 (0 : Fin 1) p f))
      = (V c main_v4 : S8x10240x128.Idx → EReal) (ix3 (bOf ((((cfg0.win 4).blk t).view.emb (ix2 p q)) 1)) ((((cfg0.win 4).blk t).view.emb (ix2 p q)) 0) f) := by
  obtain ⟨e0, e1, e2, e3, e4, e5, e6, e7, e8, e9, e10, e11, e12⟩ := idx_facts0 t
  refine congrArg _ ?_
  funext a; apply Fin.ext
  have hp : p.val < 1280 := p.isLt
  have hq : q.val < 128 := q.isLt
  match a with
  | ⟨0, _⟩ => show win0_0.index t (0 : Fin 3) * 1 + 1 * 0 = (win0_4.index t (1 : Fin 2) * 128 + 1 * q.val) / 128; omega
  | ⟨1, _⟩ => show win0_0.index t (1 : Fin 3) * 1280 + 1 * p.val = win0_4.index t (0 : Fin 2) * 1280 + 1 * p.val; omega
  | ⟨2, _⟩ => show win0_0.index t (2 : Fin 3) * 128 + 1 * f.val = f.val; omega

/-- A weight window's entry (q, f) at point t is the matrix at the channel of the output block's entry (p, q). -/
theorem w1_at (c : Dev nD) (t : Fin cfg0.N) (p : Fin 1280) (q f : Fin 128) :
    (V c main_arg3 : S128x128.Idx → EReal) (((cfg0.win 1).blk t).view.emb (ix2 q f))
      = (V c main_arg3 : S128x128.Idx → EReal) (ix2 (oOf ((((cfg0.win 4).blk t).view.emb (ix2 p q)) 1)) f) := by
  obtain ⟨e0, e1, e2, e3, e4, e5, e6, e7, e8, e9, e10, e11, e12⟩ := idx_facts0 t
  refine congrArg _ ?_
  funext a; apply Fin.ext
  have hq : q.val < 128 := q.isLt
  match a with
  | ⟨0, _⟩ => show win0_1.index t (0 : Fin 2) * 128 + 1 * q.val = (win0_4.index t (1 : Fin 2) * 128 + 1 * q.val) % 128; omega
  | ⟨1, _⟩ => show win0_1.index t (1 : Fin 2) * 128 + 1 * f.val = f.val; omega

theorem w2_at (c : Dev nD) (t : Fin cfg0.N) (p : Fin 1280) (q f : Fin 128) :
    (V c main_arg5 : S128x128.Idx → EReal) (((cfg0.win 2).blk t).view.emb (ix2 q f))
      = (V c main_arg5 : S128x128.Idx → EReal) (ix2 (oOf ((((cfg0.win 4).blk t).view.emb (ix2 p q)) 1)) f) := by
  obtain ⟨e0, e1, e2, e3, e4, e5, e6, e7, e8, e9, e10, e11, e12⟩ := idx_facts0 t
  refine congrArg _ ?_
  funext a; apply Fin.ext
  have hq : q.val < 128 := q.isLt
  match a with
  | ⟨0, _⟩ => show win0_2.index t (0 : Fin 2) * 128 + 1 * q.val = (win0_4.index t (1 : Fin 2) * 128 + 1 * q.val) % 128; omega
  | ⟨1, _⟩ => show win0_2.index t (1 : Fin 2) * 128 + 1 * f.val = f.val; omega

/-- The bias window's entry (0, q) at point t is the bias at the channel of the output block's entry (p, q). -/
theorem b_at (c : Dev nD) (t : Fin cfg0.N) (p : Fin 1280) (q : Fin 128) :
    (V c main_v5 : S1x128.Idx → EReal) (((cfg0.win 3).blk t).view.emb (ix2 (0 : Fin 1) q))
      = (V c main_v5 : S1x128.Idx → EReal) (ix2 (0 : Fin 1) (oOf ((((cfg0.win 4).blk t).view.emb (ix2 p q)) 1))) := by
  obtain ⟨e0, e1, e2, e3, e4, e5, e6, e7, e8, e9, e10, e11, e12⟩ := idx_facts0 t
  refine congrArg _ ?_
  funext a; apply Fin.ext
  have hq : q.val < 128 := q.isLt
  match a with
  | ⟨0, _⟩ => show win0_3.index t (0 : Fin 2) * 1 + 1 * 0 = 0; omega
  | ⟨1, _⟩ => show win0_3.index t (1 : Fin 2) * 128 + 1 * q.val = (win0_4.index t (1 : Fin 2) * 128 + 1 * q.val) % 128; omega

/-- The second output's block at point t sits where the first's does. -/
theorem emb5_eq (t : Fin cfg0.N) (j : S1280x128.Idx) : ((cfg0.win 5).blk t).view.emb j = ((cfg0.win 4).blk t).view.emb j := by
  obtain ⟨e0, e1, e2, e3, e4, e5, e6, e7, e8, e9, e10, e11, e12⟩ := idx_facts0 t
  funext a; apply Fin.ext
  match a with
  | ⟨0, _⟩ => show win0_5.index t (0 : Fin 2) * 1280 + 1 * (j 0).val = win0_4.index t (0 : Fin 2) * 1280 + 1 * (j 0).val; omega
  | ⟨1, _⟩ => show win0_5.index t (1 : Fin 2) * 128 + 1 * (j 1).val = win0_4.index t (1 : Fin 2) * 128 + 1 * (j 1).val; omega

/-- What point t writes back of the first output is block t of `G4`. -/
theorem flushed4_eq (c : Dev nD) (t : Fin cfg0.N) :
    (dat0 V c).flushed 4 t = ((cfg0.win 4).blk t).view.read (Elt Ideal) (G4 V c) := by
  show (cfg0.win 4).cut (grid0.coords t) ((dat0 V c).after 4 t) = _
  rw [after0_4]
  unfold out0_4
  rw [View.canon_unit_zero hz2]
  simp only [View.ld_unit_zero (S := S1x1280x128) hz3, View.ld_unit_zero (S := S128x128) hz2]
  funext j
  obtain ⟨p, q, rfl⟩ : ∃ (p : Fin 1280) (q : Fin 128), j = ix2 p q := ⟨j 0, j 1, eq_ix2 j⟩
  refine (pay3_apply _ _ p q).trans ?_
  show ∑ f : Fin 128, xA V c (((cfg0.win 0).blk t).view.emb (ix3 (0 : Fin 1) p f)) * w1A V c (((cfg0.win 1).blk t).view.emb (ix2 q f))
      = G4 V c (((cfg0.win 4).blk t).view.emb (ix2 p q))
  unfold G4 lin
  exact Finset.sum_congr rfl fun f _ => congrArg₂ (· * ·) (x_at V c t p q f) (w1_at V c t p q f)

/-- What point t writes back of the second output is block t of `G5`. -/
theorem flushed5_eq (c : Dev nD) (t : Fin cfg0.N) :
    (dat0 V c).flushed 5 t = ((cfg0.win 5).blk t).view.read (Elt Ideal) (G5 V c) := by
  show (cfg0.win 5).cut (grid0.coords t) ((dat0 V c).after 5 t) = _
  rw [after0_5]
  unfold out0_5
  rw [View.canon_unit_zero hz2]
  simp only [View.ld_unit_zero (S := S1x1280x128) hz3, View.ld_unit_zero (S := S128x128) hz2, View.ld_unit_zero (S := S1x128) hz2]
  funext j
  obtain ⟨p, q, rfl⟩ : ∃ (p : Fin 1280) (q : Fin 128), j = ix2 p q := ⟨j 0, j 1, eq_ix2 j⟩
  refine (pay2_apply _ _ _ p q).trans ?_
  show (∑ f : Fin 128, xA V c (((cfg0.win 0).blk t).view.emb (ix3 (0 : Fin 1) p f)) * w2A V c (((cfg0.win 2).blk t).view.emb (ix2 q f)))
        + bA V c (((cfg0.win 3).blk t).view.emb (ix2 (0 : Fin 1) q))
      = G5 V c (((cfg0.win 5).blk t).view.emb (ix2 p q))
  rw [emb5_eq t (ix2 p q)]
  unfold G5 linb lin
  exact congrArg₂ (· + ·) (Finset.sum_congr rfl fun f _ => congrArg₂ (· * ·) (x_at V c t p q f) (w2_at V c t p q f)) (b_at V c t p q)

/-- An index of an output is in point t's block iff each coordinate is in the block's range on its axis. -/
theorem mem_blk4 (t : Fin cfg0.N) (i : S10240x1024.Idx) :
    i ∈ ((cfg0.win 4).blk t).view.set ↔ ∀ a : Fin 2, win0_4.index t a * S1280x128.size a ≤ (i a).val ∧ (i a).val < win0_4.index t a * S1280x128.size a + S1280x128.size a := by
  show i ∈ ((View.whole main_v6_0).slice (win0_4.rect t)).set ↔ _
  rw [View.set_slice_whole, Rect.mem_set_unit]
  exact Iff.rfl

theorem mem_blk5 (t : Fin cfg0.N) (i : S10240x1024.Idx) :
    i ∈ ((cfg0.win 5).blk t).view.set ↔ ∀ a : Fin 2, win0_5.index t a * S1280x128.size a ≤ (i a).val ∧ (i a).val < win0_5.index t a * S1280x128.size a + S1280x128.size a := by
  show i ∈ ((View.whole main_v6_1).slice (win0_5.rect t)).set ↔ _
  rw [View.set_slice_whole, Rect.mem_set_unit]
  exact Iff.rfl

/-- The 64 blocks tile the first output: row r is in row block r / 1280, column k in column block k / 128. -/
theorem cover4 (i : S10240x1024.Idx) : ∃ t : Fin cfg0.N, (cfg0.win 4).flush t = true ∧ i ∈ ((cfg0.win 4).blk t).view.set := by
  have hi0 : (i 0).val < 10240 := (i 0).isLt
  have hi1 : (i 1).val < 1024 := (i 1).isLt
  obtain ⟨t, ht⟩ := idx_onto4 ⟨(i 0).val / 1280, by omega⟩ ⟨(i 1).val / 128, by omega⟩
  have q0 : win0_4.index t (0 : Fin 2) = (i 0).val / 1280 := congrFun ht 0
  have q1 : win0_4.index t (1 : Fin 2) = (i 1).val / 128 := congrFun ht 1
  refine ⟨t, flush0_4 t, ?_⟩
  rw [mem_blk4]
  intro a
  match a with
  | ⟨0, _⟩ => show win0_4.index t (0 : Fin 2) * 1280 ≤ (i 0).val ∧ (i 0).val < win0_4.index t (0 : Fin 2) * 1280 + 1280; omega
  | ⟨1, _⟩ => show win0_4.index t (1 : Fin 2) * 128 ≤ (i 1).val ∧ (i 1).val < win0_4.index t (1 : Fin 2) * 128 + 128; omega

/-- and the second likewise. -/
theorem cover5 (i : S10240x1024.Idx) : ∃ t : Fin cfg0.N, (cfg0.win 5).flush t = true ∧ i ∈ ((cfg0.win 5).blk t).view.set := by
  have hi0 : (i 0).val < 10240 := (i 0).isLt
  have hi1 : (i 1).val < 1024 := (i 1).isLt
  obtain ⟨t, ht⟩ := idx_onto4 ⟨(i 0).val / 1280, by omega⟩ ⟨(i 1).val / 128, by omega⟩
  have q0 : win0_4.index t (0 : Fin 2) = (i 0).val / 1280 := congrFun ht 0
  have q1 : win0_4.index t (1 : Fin 2) = (i 1).val / 128 := congrFun ht 1
  obtain ⟨e0, e1, e2, e3, e4, e5, e6, e7, e8, e9, e10, e11, e12⟩ := idx_facts0 t
  refine ⟨t, flush0_5 t, ?_⟩
  rw [mem_blk5]
  intro a
  match a with
  | ⟨0, _⟩ => show win0_5.index t (0 : Fin 2) * 1280 ≤ (i 0).val ∧ (i 0).val < win0_5.index t (0 : Fin 2) * 1280 + 1280; omega
  | ⟨1, _⟩ => show win0_5.index t (1 : Fin 2) * 128 ≤ (i 1).val ∧ (i 1).val < win0_5.index t (1 : Fin 2) * 128 + 128; omega

end R0

open R0

/-! ## The two outputs after the region -/

/-- The first output after the region, entry (v, b·128 + o): node v's features of batch b against row o of the first
    weight matrix. -/
theorem final0_4 (c : Dev nD) (v : Fin 10240) (b : Fin 8) (o : Fin 128) :
    (dat0 (F := Ideal) V c).arrAt 4 cfg0.N (ix2 v (col b o))
      = lin (fun b v f => (V c main_v4 : S8x10240x128.Idx → EReal) (ix3 b v f)) (fun o f => (V c main_arg3 : S128x128.Idx → EReal) (ix2 o f)) v b o := by
  rw [(dat0 V c).arrAt_eq_of_cover 4 (G4 V c) (fun t _ => flushed4_eq V c t) (cover4)]
  show lin _ _ v (bOf (col b o)) (oOf (col b o)) = _
  rw [bOf_col, oOf_col]

/-- The second output after the region, entry (v, b·128 + o): the same against the second weight matrix, plus the bias of channel o. -/
theorem final0_5 (c : Dev nD) (v : Fin 10240) (b : Fin 8) (o : Fin 128) :
    (dat0 (F := Ideal) V c).arrAt 5 cfg0.N (ix2 v (col b o))
      = linb (fun b v f => (V c main_v4 : S8x10240x128.Idx → EReal) (ix3 b v f)) (fun o f => (V c main_arg5 : S128x128.Idx → EReal) (ix2 o f))
          (fun o => (V c main_v5 : S1x128.Idx → EReal) (ix2 (0 : Fin 1) o)) v b o := by
  rw [(dat0 V c).arrAt_eq_of_cover 5 (G5 V c) (fun t _ => flushed5_eq V c t) (cover5)]
  show linb _ _ _ v (bOf (col b o)) (oOf (col b o)) = _
  rw [bOf_col, oOf_col]

end Cert.KernelIdeal.HandVal

end
-- ==== Proof.LibKeepdims.lean ====
/-
  The column forms a `jnp.sum(…, axis=1, keepdims=True)` kernel meets, read at an index, for any extents:
  a vector `[a]` viewed as a column `[a, 1]`; a column `[a, 1]` broadcast along its rows to `[a, b]`; and, at the
  extended reals, a lane sum of an `[a, b]` array over its second axis as the plain sum over the row.
-/
import Idealize.ShloMosaic.Lib.Pipeline.Value
import Idealize.ShloMosaic.Lib.ValueIdx
import Idealize.ShloMosaic.PureOps.Ideal.Laws

noncomputable section

namespace Idealize.ShloMosaic.Keepdims

open Idealize.ShloMosaic Idealize.ShloMosaic.ValueIdx

variable {α : Type}

/-- An `[a]` array cast to the column `[a, 1]` reads, at `(r, u)`, the operand at `r`, whatever the unit coordinate. -/
theorem shapeCast_a_a1_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column `[a, 1]` broadcast to `[a, b]` reads, at `(r, c)`, the column at row `r`. -/
theorem broadcastTo_a1_ab_apply {a b : ℕ} (v : (⟨2, ![a, 1]⟩ : Shape).Idx → α) (h : (⟨2, ![a, 1]⟩ : Shape).Broadcasts ⟨2, ![a, b]⟩)
    (r : Fin a) (c : Fin b) : broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

/-- At the extended reals a lane sum of an `[a, b]` array over its second axis, from the zero accumulator, reads at row
    `r` as the sum of the row. -/
theorem laneSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (r : Fin a) :
    multiReduction .add [1] ⟨1, ![a]⟩ src acc h hφ hacc (ix1 r) = ∑ k : Fin b, src (ix2 r k) := by
  refine (Ideal.multiReduction_add_single src acc h hφ hacc (ix1 r)).trans ?_
  refine Finset.sum_congr rfl fun k _ => ?_
  refine congrArg src (funext fun ax => Fin.ext ?_)
  rw [Shape.Reduces.lift_val]
  match ax with
  | ⟨0, _⟩ => rfl
  | ⟨1, _⟩ => rfl

end Idealize.ShloMosaic.Keepdims

end
-- ==== Proof.KI.R1Val.lean ====
/-
  Region 1 (aggregation and combination) at the extended reals: after the region its output array holds, index by
  index, the combined activations `hbo` of the arrays the region finds — the product of the multiplicity matrix with
  the transformed features, accumulated over eight blocks of 1280 source rows, plus the self term, plus the
  edge-attribute sums times the edge weights. The accumulator after each point is a partial sum over the source blocks
  met so far (by recursion on the point); the last point of a row block stores eight column slabs, which together are
  one function of the block index; the row blocks cover the array.
-/
import proofs.«421049_j39367670235755_2_alg».proof.Proof.KI.R1
import proofs.«421049_j39367670235755_2_alg».proof.Proof.KI.Spec
import proofs.«421049_j39367670235755_2_alg».proof.Proof.LibKeepdims
import Idealize.ShloMosaic.Lib.Pipeline.Value
import Idealize.ShloMosaic.Lib.ValueIdx
import Idealize.ShloMosaic.PureOps.Ideal.Laws

set_option maxRecDepth 16384

noncomputable section

namespace Cert.KernelIdeal.HandVal

open Idealize.ShloMosaic Idealize.ShloMosaic.ValueIdx Idealize.ShloMosaic.TcCoe Idealize.SL.Sem
open Idealize.ShloMosaic.Pipeline (Dat)
open Cert.KernelIdeal Cert.KernelIdeal.Gen Cert.KernelIdeal.Hand Cert.Spec

namespace R1

/-! ## The payloads at an index -/

/-- The block the reset stores is zero everywhere. -/
theorem pay1_apply (j : S1024x1024.Idx) : (k1_pay1 (F := Ideal)) j = 0 := by
  unfold k1_pay1
  rw [shapeCast_self]
  exact Ideal.ofBits_zero_f32

/-- The left operand of the product at output `(r, j)` and contraction position `u` is at `(r, u)`. -/
theorem lhsIdx_D1 (r j : Fin 1024) (u : Fin 1280) :
    dot_S1024x1280_S1280x1024_S1024x1024_1_0_0_1_n_n.lhsIdx (ix2 r j)
      ((contrEquiv1 dot_S1024x1280_S1280x1024_S1024x1024_1_0_0_1_n_n 1280 rfl rfl).symm u) = ix2 r u := by
  have c2 := contrEquiv1_symm_val dot_S1024x1280_S1280x1024_S1024x1024_1_0_0_1_n_n 1280 rfl rfl u
  funext ax; apply Fin.ext
  match ax with
  | ⟨0, _⟩ => simp [DotDims.lhsIdx, dot_S1024x1280_S1280x1024_S1024x1024_1_0_0_1_n_n]; rfl
  | ⟨1, _⟩ => simp [DotDims.lhsIdx, dot_S1024x1280_S1280x1024_S1024x1024_1_0_0_1_n_n]; exact c2

/-- The right operand is at `(u, j)`. -/
theorem rhsIdx_D1 (r j : Fin 1024) (u : Fin 1280) :
    dot_S1024x1280_S1280x1024_S1024x1024_1_0_0_1_n_n.rhsIdx (ix2 r j)
      ((contrEquiv1 dot_S1024x1280_S1280x1024_S1024x1024_1_0_0_1_n_n 1280 rfl rfl).symm u) = ix2 u j := by
  have c2 := contrEquiv1_symm_val dot_S1024x1280_S1280x1024_S1024x1024_1_0_0_1_n_n 1280 rfl rfl u
  funext ax; apply Fin.ext
  match ax with
  | ⟨0, _⟩ => simp [DotDims.rhsIdx, dot_S1024x1280_S1280x1024_S1024x1024_1_0_0_1_n_n]; exact c2
  | ⟨1, _⟩ => simp [DotDims.rhsIdx, dot_S1024x1280_S1280x1024_S1024x1024_1_0_0_1_n_n]; rfl

/-- One accumulation step at an index: the accumulator plus the row of the left block against the column of the right. -/
theorem pay2_apply (acc : Vec Ideal S1024x1024 .f32) (a : Vec Ideal S1024x1280 .bf16) (x : Vec Ideal S1280x1024 .bf16)
    (r j : Fin 1024) :
    k1_pay2 acc a x (ix2 r j) = acc (ix2 r j) + ∑ u : Fin 1280, a (ix2 r u) * x (ix2 u j) := by
  unfold k1_pay2
  simp only [shapeCast_self]
  rw [addf_apply]
  refine congrArg (acc (ix2 r j) + ·) ?_
  refine (Ideal.matmul_constant_zero_apply (φ₁ := .bf16) (φ₂ := .bf16)
    dot_S1024x1280_S1280x1024_S1024x1024_1_0_0_1_n_n none a x (ix2 r j)).trans ?_
  rw [← Equiv.sum_comp (contrEquiv1 dot_S1024x1280_S1280x1024_S1024x1024_1_0_0_1_n_n 1280 rfl rfl).symm]
  refine Finset.sum_congr rfl fun u _ => ?_
  rw [lhsIdx_D1, rhsIdx_D1]

/-- A 128-column slab of a 1024-column block, read at `(r, o)`, is the block at column `off + o`. -/
theorem slab_apply (off : ℕ) (x : S1024x1024.Idx → EReal) (h : S1024x1024.Slices ![0, off] S1024x128)
    (r : Fin 1024) (o : Fin 128) (q : Fin 1024) (hq : q.val = off + o.val) :
    extractStridedSlice S1024x128 ![0, off] x h (ix2 r o) = x (ix2 r q) :=
  extractStridedSlice_apply _ x h _ _ fun a => by
    match a with
    | ⟨0, _⟩ => show r.val = 0 + r.val; omega
    | ⟨1, _⟩ => exact hq

/-- One column of an 8-column block, read at `(r, ·)`, is the block at that column. -/
theorem column_apply (off : ℕ) (s : S1024x8.Idx → EReal) (h : S1024x8.Slices ![0, off] S1024x1)
    (r : Fin 1024) (u : Fin 1) (b : Fin 8) (hb : b.val = off) :
    extractStridedSlice S1024x1 ![0, off] s h (ix2 r u) = s (ix2 r b) :=
  extractStridedSlice_apply _ s h _ _ fun a => by
    match a with
    | ⟨0, _⟩ => show r.val = 0 + r.val; omega
    | ⟨1, _⟩ => show b.val = off + u.val; omega

/-- A row `[1, 128]` broadcast down 1024 rows reads, at `(r, o)`, the row at `o`. -/
theorem rowBroadcast_apply (w : S1x128.Idx → EReal) (h : S1x128.Broadcasts S1024x128) (r : Fin 1024) (o : Fin 128) :
    broadcastTo S1024x128 w h (ix2 r o) = w (ix2 0 o) := by
  refine broadcastTo_apply w h (ix2 r o) (ix2 0 o) fun a => ?_
  match a with
  | ⟨0, _⟩ => rfl
  | ⟨1, _⟩ => rfl

/-- The value the last point of a row block stores at `(r, b · 128 + o)`: `(sc + hs) + sp · we`. -/
def slabVal (sc hs : Vec Ideal S1024x1024 .f32) (s : Vec Ideal S1024x8 .f32) (we : Vec Ideal S1x128 .f32)
    (r : Fin 1024) (b : Fin 8) (o : Fin 128) : EReal :=
  (sc (ix2 r (col b o)) + hs (ix2 r (col b o))) + s (ix2 r b) * we (ix2 0 o)

section Slabs
variable (sc hs : Vec Ideal S1024x1024 .f32) (s : Vec Ideal S1024x8 .f32) (we : Vec Ideal S1x128 .f32)
  (r : Fin 1024) (o : Fin 128)

theorem pay7_apply (y : S1024x1024.Idx) : k1_pay7 sc hs y = sc y + hs y := by
  unfold k1_pay7
  rw [shapeCast_self]
  rfl

theorem pay10_apply : k1_pay10 sc hs s we (ix2 r o) = slabVal sc hs s we r 0 o := by
  unfold k1_pay10 k1_pay8 k1_pay9 slabVal
  simp only [shapeCast_self]
  rw [addf_apply, mulf_apply, slab_apply 0 _ _ r o (col 0 o) (by show 0 * 128 + o.val = 0 + o.val; omega), pay7_apply,
    Keepdims.broadcastTo_a1_ab_apply, column_apply 0 _ _ r 0 0 rfl, rowBroadcast_apply]

theorem pay11_apply : k1_pay11 sc hs s we (ix2 r o) = slabVal sc hs s we r 1 o := by
  unfold k1_pay11 k1_pay8 k1_pay9 slabVal
  simp only [shapeCast_self]
  rw [addf_apply, mulf_apply, slab_apply 128 _ _ r o (col 1 o) (by show 1 * 128 + o.val = 128 + o.val; omega), pay7_apply,
    Keepdims.broadcastTo_a1_ab_apply, column_apply 1 _ _ r 0 1 rfl, rowBroadcast_apply]

theorem pay12_apply : k1_pay12 sc hs s we (ix2 r o) = slabVal sc hs s we r 2 o := by
  unfold k1_pay12 k1_pay8 k1_pay9 slabVal
  simp only [shapeCast_self]
  rw [addf_apply, mulf_apply, slab_apply 256 _ _ r o (col 2 o) (by show 2 * 128 + o.val = 256 + o.val; omega), pay7_apply,
    Keepdims.broadcastTo_a1_ab_apply, column_apply 2 _ _ r 0 2 rfl, rowBroadcast_apply]

theorem pay13_apply : k1_pay13 sc hs s we (ix2 r o) = slabVal sc hs s we r 3 o := by
  unfold k1_pay13 k1_pay8 k1_pay9 slabVal
  simp only [shapeCast_self]
  rw [addf_apply, mulf_apply, slab_apply 384 _ _ r o (col 3 o) (by show 3 * 128 + o.val = 384 + o.val; omega), pay7_apply,
    Keepdims.broadcastTo_a1_ab_apply, column_apply 3 _ _ r 0 3 rfl, rowBroadcast_apply]

theorem pay3_apply : k1_pay3 (k1_pay14 sc hs) (k1_pay15 s) (k1_pay16 we) (ix2 r o) = slabVal sc hs s we r 4 o := by
  unfold k1_pay3 k1_pay14 k1_pay15 k1_pay16 k1_pay8 k1_pay9 slabVal
  simp only [shapeCast_self]
  rw [addf_apply, mulf_apply, slab_apply 512 _ _ r o (col 4 o) (by show 4 * 128 + o.val = 512 + o.val; omega), pay7_apply,
    Keepdims.broadcastTo_a1_ab_apply, column_apply 4 _ _ r 0 4 rfl, rowBroadcast_apply]

theorem pay4_apply : k1_pay4 (k1_pay7 sc hs) (k1_pay8 s) (k1_pay9 we) (ix2 r o) = slabVal sc hs s we r 5 o := by
  unfold k1_pay4 k1_pay8 k1_pay9 slabVal
  simp only [shapeCast_self]
  rw [addf_apply, mulf_apply, slab_apply 640 _ _ r o (col 5 o) (by show 5 * 128 + o.val = 640 + o.val; omega), pay7_apply,
    Keepdims.broadcastTo_a1_ab_apply, column_apply 5 _ _ r 0 5 rfl, rowBroadcast_apply]

theorem pay5_apply : k1_pay5 (k1_pay7 sc hs) (k1_pay8 s) (k1_pay9 we) (ix2 r o) = slabVal sc hs s we r 6 o := by
  unfold k1_pay5 k1_pay8 k1_pay9 slabVal
  simp only [shapeCast_self]
  rw [addf_apply, mulf_apply, slab_apply 768 _ _ r o (col 6 o) (by show 6 * 128 + o.val = 768 + o.val; omega), pay7_apply,
    Keepdims.broadcastTo_a1_ab_apply, column_apply 6 _ _ r 0 6 rfl, rowBroadcast_apply]

theorem pay6_apply : k1_pay6 (k1_pay7 sc hs) (k1_pay8 s) (k1_pay9 we) (ix2 r o) = slabVal sc hs s we r 7 o := by
  unfold k1_pay6 k1_pay8 k1_pay9 slabVal
  simp only [shapeCast_self]
  rw [addf_apply, mulf_apply, slab_apply 896 _ _ r o (col 7 o) (by show 7 * 128 + o.val = 896 + o.val; omega), pay7_apply,
    Keepdims.broadcastTo_a1_ab_apply, column_apply 7 _ _ r 0 7 rfl, rowBroadcast_apply]

end Slabs

/-- Eight blocks of 1280 are the 10240 source rows: a sum block by block is the sum over all rows. -/
theorem sum_blocks {M : Type*} [AddCommMonoid M] (f : Fin 10240 → M) :
    ∑ k : Fin 8, ∑ u : Fin 1280, f ⟨k.val * 1280 + u.val, by have := k.isLt; have := u.isLt; omega⟩ = ∑ v : Fin 10240, f v := by
  rw [← Fintype.sum_prod_type
    (f := fun x : Fin 8 × Fin 1280 => f ⟨x.1.val * 1280 + x.2.val, by have := x.1.isLt; have := x.2.isLt; omega⟩)]
  refine Fintype.sum_equiv (finProdFinEquiv (m := 8) (n := 1280)) _ _ fun x => congrArg f (Fin.ext ?_)
  show x.1.val * 1280 + x.2.val = x.2.val + 1280 * x.1.val
  omega

/-! ## The stored block at an index -/

section Block
variable (sc x2 : Vec Ideal S1024x1024 .f32) (x3 : Vec Ideal S1024x8 .f32) (x4 : Vec Ideal S1x128 .f32)

/-- The stored block as one function of its index: column `q` is slab `q / 128`, lane `q % 128`. -/
def blockVal : S1024x1024.Idx → EReal := fun y =>
  slabVal sc x2 x3 x4 (y 0) ⟨(y 1).val / 128, by have h : (y 1).val < 1024 := (y 1).isLt; omega⟩
    ⟨(y 1).val % 128, Nat.mod_lt _ (by norm_num)⟩

theorem blockVal_at (y : S1024x1024.Idx) (r : Fin 1024) (b : Fin 8) (o : Fin 128) (h0 : (y 0).val = r.val)
    (h1 : (y 1).val = b.val * 128 + o.val) : blockVal sc x2 x3 x4 y = slabVal sc x2 x3 x4 r b o := by
  unfold blockVal
  have e0 : (y 0 : Fin 1024) = r := Fin.ext h0
  have e1 : (⟨(y 1).val / 128, by have h : (y 1).val < 1024 := (y 1).isLt; omega⟩ : Fin 8) = b :=
    Fin.ext (by show (y 1).val / 128 = b.val; have := o.isLt; omega)
  have e2 : (⟨(y 1).val % 128, Nat.mod_lt _ (by norm_num)⟩ : Fin 128) = o :=
    Fin.ext (by show (y 1).val % 128 = o.val; have := o.isLt; omega)
  rw [e0, e1, e2]

/-- The block a storing point leaves, at `(r, b · 128 + o)`. -/
theorem out1_5_apply (r : Fin 1024) (b : Fin 8) (o : Fin 128) :
    out1_5 sc x2 x3 x4 (ix2 r (col b o)) = slabVal sc x2 x3 x4 r b o := by
  unfold out1_5
  rw [View.canon_apply_of_pieces (blockVal sc x2 x3 x4) _ ?_ (ix2 r (col b o)) (cover1_5 _ _ _ _ _ _ _ _ _)]
  · exact blockVal_at sc x2 x3 x4 _ r b o rfl rfl
  · intro p hp x
    simp only [List.mem_cons, List.not_mem_nil, or_false] at hp
    rcases hp with rfl | rfl | rfl | rfl | rfl | rfl | rfl | rfl
    · obtain ⟨p', q', rfl⟩ : ∃ (p' : Fin 1024) (q' : Fin 128), x = ix2 p' q' := ⟨x 0, x 1, eq_ix2 x⟩
      exact (pay6_apply sc x2 x3 x4 p' q').trans (blockVal_at sc x2 x3 x4 _ p' 7 q'
        (by show 0 + 1 * p'.val = p'.val; omega) (by show 896 + 1 * q'.val = 7 * 128 + q'.val; omega)).symm
    · obtain ⟨p', q', rfl⟩ : ∃ (p' : Fin 1024) (q' : Fin 128), x = ix2 p' q' := ⟨x 0, x 1, eq_ix2 x⟩
      exact (pay5_apply sc x2 x3 x4 p' q').trans (blockVal_at sc x2 x3 x4 _ p' 6 q'
        (by show 0 + 1 * p'.val = p'.val; omega) (by show 768 + 1 * q'.val = 6 * 128 + q'.val; omega)).symm
    · obtain ⟨p', q', rfl⟩ : ∃ (p' : Fin 1024) (q' : Fin 128), x = ix2 p' q' := ⟨x 0, x 1, eq_ix2 x⟩
      exact (pay4_apply sc x2 x3 x4 p' q').trans (blockVal_at sc x2 x3 x4 _ p' 5 q'
        (by show 0 + 1 * p'.val = p'.val; omega) (by show 640 + 1 * q'.val = 5 * 128 + q'.val; omega)).symm
    · obtain ⟨p', q', rfl⟩ : ∃ (p' : Fin 1024) (q' : Fin 128), x = ix2 p' q' := ⟨x 0, x 1, eq_ix2 x⟩
      exact (pay3_apply sc x2 x3 x4 p' q').trans (blockVal_at sc x2 x3 x4 _ p' 4 q'
        (by show 0 + 1 * p'.val = p'.val; omega) (by show 512 + 1 * q'.val = 4 * 128 + q'.val; omega)).symm
    · obtain ⟨p', q', rfl⟩ : ∃ (p' : Fin 1024) (q' : Fin 128), x = ix2 p' q' := ⟨x 0, x 1, eq_ix2 x⟩
      exact (pay13_apply sc x2 x3 x4 p' q').trans (blockVal_at sc x2 x3 x4 _ p' 3 q'
        (by show 0 + 1 * p'.val = p'.val; omega) (by show 384 + 1 * q'.val = 3 * 128 + q'.val; omega)).symm
    · obtain ⟨p', q', rfl⟩ : ∃ (p' : Fin 1024) (q' : Fin 128), x = ix2 p' q' := ⟨x 0, x 1, eq_ix2 x⟩
      exact (pay12_apply sc x2 x3 x4 p' q').trans (blockVal_at sc x2 x3 x4 _ p' 2 q'
        (by show 0 + 1 * p'.val = p'.val; omega) (by show 256 + 1 * q'.val = 2 * 128 + q'.val; omega)).symm
    · obtain ⟨p', q', rfl⟩ : ∃ (p' : Fin 1024) (q' : Fin 128), x = ix2 p' q' := ⟨x 0, x 1, eq_ix2 x⟩
      exact (pay11_apply sc x2 x3 x4 p' q').trans (blockVal_at sc x2 x3 x4 _ p' 1 q'
        (by show 0 + 1 * p'.val = p'.val; omega) (by show 128 + 1 * q'.val = 1 * 128 + q'.val; omega)).symm
    · obtain ⟨p', q', rfl⟩ : ∃ (p' : Fin 1024) (q' : Fin 128), x = ix2 p' q' := ⟨x 0, x 1, eq_ix2 x⟩
      exact (pay10_apply sc x2 x3 x4 p' q').trans (blockVal_at sc x2 x3 x4 _ p' 0 q'
        (by show 0 + 1 * p'.val = p'.val; omega) (by show 0 + 1 * q'.val = 0 * 128 + q'.val; omega)).symm

end Block

/-! ## The windows' blocks at an index -/

/-- The printed index maps over the grid: point `t` is row block `t / 8`, source block `t % 8`. -/
theorem idx_facts1 : ∀ t : Fin cfg1.N,
    win1_0.index t (0 : Fin 2) = t.val / 8 ∧ win1_0.index t (1 : Fin 2) = t.val % 8
    ∧ win1_1.index t (0 : Fin 2) = t.val % 8 ∧ win1_1.index t (1 : Fin 2) = 0
    ∧ win1_2.index t (0 : Fin 2) = t.val / 8 ∧ win1_2.index t (1 : Fin 2) = 0
    ∧ win1_3.index t (0 : Fin 2) = t.val / 8 ∧ win1_3.index t (1 : Fin 2) = 0
    ∧ win1_4.index t (0 : Fin 2) = 0 ∧ win1_4.index t (1 : Fin 2) = 0
    ∧ win1_5.index t (0 : Fin 2) = t.val / 8 ∧ win1_5.index t (1 : Fin 2) = 0 :=
  (by decide +kernel : ∀ t : Fin grid1.N, _)

section Reads
variable (V : (c : Dev nD) → (b : Ref sig .tc) → Buf (Elt Ideal) ((c : Thread nD τ).loc b)) (c : Dev nD) (t : Fin cfg1.N)

theorem t_lt (t : Fin cfg1.N) : t.val < 80 := lt_of_lt_of_eq t.isLt N_1

/-- Row `r` of row block `t / 8`. -/
def rowOf (t : Fin cfg1.N) (r : Fin 1024) : Fin 10240 := ⟨t.val / 8 * 1024 + r.val, by have := t_lt t; have := r.isLt; omega⟩
/-- Source row `u` of source block `t % 8`. -/
def srcOf (t : Fin cfg1.N) (u : Fin 1280) : Fin 10240 := ⟨t.val % 8 * 1280 + u.val, by have := u.isLt; omega⟩

theorem iblk1_0_apply (r : Fin 1024) (u : Fin 1280) :
    iblk1 V c 0 t (ix2 r u) = (V c main_v23 : S10240x10240.Idx → EReal) (ix2 (rowOf t r) (srcOf t u)) := by
  obtain ⟨e0, e1, -⟩ := idx_facts1 t
  unfold iblk1
  rw [View.read_apply]
  show (V c main_v23 : S10240x10240.Idx → EReal) _ = _
  refine congrArg _ (funext fun a => Fin.ext ?_)
  match a with
  | ⟨0, _⟩ => show win1_0.index t (0 : Fin 2) * 1024 + 1 * r.val = t.val / 8 * 1024 + r.val; rw [e0]; omega
  | ⟨1, _⟩ => show win1_0.index t (1 : Fin 2) * 1280 + 1 * u.val = t.val % 8 * 1280 + u.val; rw [e1]; omega

theorem iblk1_1_apply (u : Fin 1280) (j : Fin 1024) :
    iblk1 V c 1 t (ix2 u j) = (V c main_v6_0 : S10240x1024.Idx → EReal) (ix2 (srcOf t u) j) := by
  obtain ⟨-, -, e0, e1, -⟩ := idx_facts1 t
  unfold iblk1
  rw [View.read_apply]
  show (V c main_v6_0 : S10240x1024.Idx → EReal) _ = _
  refine congrArg _ (funext fun a => Fin.ext ?_)
  match a with
  | ⟨0, _⟩ => show win1_1.index t (0 : Fin 2) * 1280 + 1 * u.val = t.val % 8 * 1280 + u.val; rw [e0]; omega
  | ⟨1, _⟩ => show win1_1.index t (1 : Fin 2) * 1024 + 1 * j.val = j.val; rw [e1]; omega

theorem iblk1_2_apply (r j : Fin 1024) :
    iblk1 V c 2 t (ix2 r j) = (V c main_v6_1 : S10240x1024.Idx → EReal) (ix2 (rowOf t r) j) := by
  obtain ⟨-, -, -, -, e0, e1, -⟩ := idx_facts1 t
  unfold iblk1
  rw [View.read_apply]
  show (V c main_v6_1 : S10240x1024.Idx → EReal) _ = _
  refine congrArg _ (funext fun a => Fin.ext ?_)
  match a with
  | ⟨0, _⟩ => show win1_2.index t (0 : Fin 2) * 1024 + 1 * r.val = t.val / 8 * 1024 + r.val; rw [e0]; omega
  | ⟨1, _⟩ => show win1_2.index t (1 : Fin 2) * 1024 + 1 * j.val = j.val; rw [e1]; omega

theorem iblk1_3_apply (r : Fin 1024) (b : Fin 8) :
    iblk1 V c 3 t (ix2 r b) = (V c main_v28 : S10240x8.Idx → EReal) (ix2 (rowOf t r) b) := by
  obtain ⟨-, -, -, -, -, -, e0, e1, -⟩ := idx_facts1 t
  unfold iblk1
  rw [View.read_apply]
  show (V c main_v28 : S10240x8.Idx → EReal) _ = _
  refine congrArg _ (funext fun a => Fin.ext ?_)
  match a with
  | ⟨0, _⟩ => show win1_3.index t (0 : Fin 2) * 1024 + 1 * r.val = t.val / 8 * 1024 + r.val; rw [e0]; omega
  | ⟨1, _⟩ => show win1_3.index t (1 : Fin 2) * 8 + 1 * b.val = b.val; rw [e1]; omega

theorem iblk1_4_apply (z : Fin 1) (o : Fin 128) :
    iblk1 V c 4 t (ix2 z o) = (V c main_v30 : S1x128.Idx → EReal) (ix2 0 o) := by
  obtain ⟨-, -, -, -, -, -, -, -, e0, e1, -⟩ := idx_facts1 t
  unfold iblk1
  rw [View.read_apply]
  show (V c main_v30 : S1x128.Idx → EReal) _ = _
  refine congrArg _ (funext fun a => Fin.ext ?_)
  match a with
  | ⟨0, _⟩ => show win1_4.index t (0 : Fin 2) * 1 + 1 * z.val = 0; rw [e0]; omega
  | ⟨1, _⟩ => show win1_4.index t (1 : Fin 2) * 128 + 1 * o.val = o.val; rw [e1]; omega

end Reads

/-! ## The accumulator is the aggregation over the source blocks met so far -/

section Accumulator
variable (V : (c : Dev nD) → (b : Ref sig .tc) → Buf (Elt Ideal) ((c : Thread nD τ).loc b)) (c : Dev nD)

/-- The multiplicity matrix and the transformed features as the region finds them, by coordinates. -/
def arrA (v u : Fin 10240) : EReal := (V c main_v23 : S10240x10240.Idx → EReal) (ix2 v u)
def arrX (u : Fin 10240) (j : Fin 1024) : EReal := (V c main_v6_0 : S10240x1024.Idx → EReal) (ix2 u j)

/-- Source block `k` of the aggregation at row `v`, folded column `j` (zero past the eighth block). -/
def aggBlock (v : Fin 10240) (j : Fin 1024) (k : ℕ) : EReal :=
  if h : k < 8 then ∑ u : Fin 1280,
    arrA V c v ⟨k * 1280 + u.val, by have := u.isLt; omega⟩ * arrX V c ⟨k * 1280 + u.val, by have := u.isLt; omega⟩ j
  else 0

/-- The product of the two blocks point `t` reads is source block `t % 8` of the aggregation. -/
theorem step (t : Fin cfg1.N) (r j : Fin 1024) (a : Vec Ideal S1024x1280 .bf16) (x : Vec Ideal S1280x1024 .bf16)
    (ha : a = iblk1 V c 0 t) (hx : x = iblk1 V c 1 t) :
    ∑ u : Fin 1280, a (ix2 r u) * x (ix2 u j) = aggBlock V c (rowOf t r) j (t.val % 8) := by
  subst ha hx
  unfold aggBlock
  rw [dif_pos (Nat.mod_lt _ (by norm_num))]
  refine Finset.sum_congr rfl fun u _ => ?_
  rw [iblk1_0_apply, iblk1_1_apply]
  rfl

/-- After point `n` the accumulator holds, on its row block, the source blocks `0 … n % 8` of the aggregation. -/
theorem sc1_apply : ∀ (n : ℕ) (h : n < cfg1.N) (r j : Fin 1024),
    sc1 V c n h (ix2 r j) = ∑ k ∈ Finset.range (n % 8 + 1), aggBlock V c (rowOf ⟨n, h⟩ r) j k
  | 0, h, r, j => by
    have e := sc1_A V c ⟨0, h⟩ rfl
    rw [show sc1 V c 0 h = _ from e, pay2_apply, pay1_apply, zero_add, step V c ⟨0, h⟩ r j _ _ rfl rfl]
    exact (Finset.sum_range_one _).symm
  | n + 1, h, r, j => by
    by_cases h0 : (n + 1) % 8 = 0
    · have e := sc1_A V c ⟨n + 1, h⟩ h0
      rw [show sc1 V c (n + 1) h = _ from e, pay2_apply, pay1_apply, zero_add, step V c ⟨n + 1, h⟩ r j _ _ rfl rfl]
      show aggBlock V c _ j ((n + 1) % 8) = ∑ k ∈ Finset.range ((n + 1) % 8 + 1), _
      rw [h0]
      exact (Finset.sum_range_one _).symm
    · have e := sc1_B V c ⟨n + 1, h⟩ h0
      rw [show sc1 V c (n + 1) h = _ from e, pay2_apply, step V c ⟨n + 1, h⟩ r j _ _ rfl rfl]
      show sc1 V c n _ (ix2 r j) + aggBlock V c _ j ((n + 1) % 8) = _
      rw [sc1_apply n (Nat.lt_of_succ_lt h) r j]
      have hm : (n + 1) % 8 = n % 8 + 1 := by omega
      have hrow : rowOf ⟨n, Nat.lt_of_succ_lt h⟩ r = rowOf ⟨n + 1, h⟩ r :=
        Fin.ext (by show n / 8 * 1024 + r.val = (n + 1) / 8 * 1024 + r.val; have : (n + 1) / 8 = n / 8 := by omega
                    rw [this])
      rw [hrow, hm]
      exact (Finset.sum_range_succ _ _).symm

/-- All eight source blocks are the aggregation over the 10240 source rows. -/
theorem agg_full (v : Fin 10240) (j : Fin 1024) :
    ∑ k ∈ Finset.range 8, aggBlock V c v j k = ∑ u : Fin 10240, arrA V c v u * arrX V c u j := by
  rw [Finset.sum_range, ← sum_blocks]
  refine Finset.sum_congr rfl fun k _ => ?_
  unfold aggBlock
  rw [dif_pos k.isLt]

end Accumulator

/-! ## The output array -/

section Final
variable (V : (c : Dev nD) → (b : Ref sig .tc) → Buf (Elt Ideal) ((c : Thread nD τ).loc b)) (c : Dev nD)

/-- The whole output array in the folded layout: column `q` is batch `q / 128`, channel `q % 128`. -/
def G1 : S10240x1024.Idx → EReal := fun i =>
  hbo (fun v u => (V c main_v23 : S10240x10240.Idx → EReal) (ix2 v u))
    (fun v b o => (V c main_v6_0 : S10240x1024.Idx → EReal) (ix2 v (col b o)))
    (fun v b o => (V c main_v6_1 : S10240x1024.Idx → EReal) (ix2 v (col b o)))
    (fun v b => (V c main_v28 : S10240x8.Idx → EReal) (ix2 v b))
    (fun o => (V c main_v30 : S1x128.Idx → EReal) (ix2 0 o))
    (i 0) ⟨(i 1).val / 128, by have h : (i 1).val < 1024 := (i 1).isLt; omega⟩ ⟨(i 1).val % 128, Nat.mod_lt _ (by norm_num)⟩

theorem G1_at (i : S10240x1024.Idx) (v : Fin 10240) (b : Fin 8) (o : Fin 128) (h0 : (i 0).val = v.val)
    (h1 : (i 1).val = b.val * 128 + o.val) :
    G1 V c i = hbo (fun v u => (V c main_v23 : S10240x10240.Idx → EReal) (ix2 v u))
      (fun v b o => (V c main_v6_0 : S10240x1024.Idx → EReal) (ix2 v (col b o)))
      (fun v b o => (V c main_v6_1 : S10240x1024.Idx → EReal) (ix2 v (col b o)))
      (fun v b => (V c main_v28 : S10240x8.Idx → EReal) (ix2 v b))
      (fun o => (V c main_v30 : S1x128.Idx → EReal) (ix2 0 o)) v b o := by
  unfold G1
  have e0 : (i 0 : Fin 10240) = v := Fin.ext h0
  have e1 : (⟨(i 1).val / 128, by have h : (i 1).val < 1024 := (i 1).isLt; omega⟩ : Fin 8) = b :=
    Fin.ext (by show (i 1).val / 128 = b.val; have := o.isLt; omega)
  have e2 : (⟨(i 1).val % 128, Nat.mod_lt _ (by norm_num)⟩ : Fin 128) = o :=
    Fin.ext (by show (i 1).val % 128 = o.val; have := o.isLt; omega)
  rw [e0, e1, e2]

/-- What a storing point writes back is its row block of the whole-array function. -/
theorem flushed1_5_eq (t : Fin cfg1.N) (hf : (cfg1.win 5).flush t = true) :
    (dat1 (F := Ideal) V c).flushed 5 t = ((cfg1.win 5).blk t).view.read (Elt Ideal) (G1 V c) := by
  have h7 : t.val % 8 = 7 := (flush1_5 t).mp hf
  have h8 : t.val % 8 + 1 = 8 := by omega
  obtain ⟨-, -, -, -, -, -, -, -, -, -, e0, e1⟩ := idx_facts1 t
  show (cfg1.win 5).cut (grid1.coords t) ((dat1 (F := Ideal) V c).after 5 t) = _
  rw [after1_5]
  funext y
  obtain ⟨r, q, rfl⟩ : ∃ (r : Fin 1024) (q : Fin 1024), y = ix2 r q := ⟨y 0, y 1, eq_ix2 y⟩
  obtain ⟨b, o, rfl⟩ : ∃ (b : Fin 8) (o : Fin 128), q = col b o :=
    ⟨⟨q.val / 128, by have := q.isLt; omega⟩, ⟨q.val % 128, Nat.mod_lt _ (by norm_num)⟩,
      Fin.ext (by show q.val = q.val / 128 * 128 + q.val % 128; omega)⟩
  rw [View.read_apply]
  show out1_5 (F := Ideal) _ _ _ _ (ix2 r (col b o)) = G1 V c _
  rw [out1_5_apply, G1_at V c _ (rowOf t r) b o
    (by show win1_5.index t (0 : Fin 2) * 1024 + 1 * r.val = t.val / 8 * 1024 + r.val; rw [e0]; omega)
    (by show win1_5.index t (1 : Fin 2) * 1024 + 1 * (b.val * 128 + o.val) = b.val * 128 + o.val; rw [e1]; omega)]
  unfold slabVal hbo agg
  rw [sc1_apply, h8, agg_full, iblk1_2_apply, iblk1_3_apply, iblk1_4_apply]
  rfl

/-- Every index of the output array is in the block of the last point of its row block. -/
theorem cover1 (i : S10240x1024.Idx) :
    ∃ t : Fin cfg1.N, (cfg1.win 5).flush t = true ∧ i ∈ ((cfg1.win 5).blk t).view.set := by
  have hi0 : (i 0).val < 10240 := (i 0).isLt
  have hi1 : (i 1).val < 1024 := (i 1).isLt
  have ht : (i 0).val / 1024 * 8 + 7 < cfg1.N := lt_of_lt_of_eq (by omega : (i 0).val / 1024 * 8 + 7 < 80) N_1.symm
  obtain ⟨-, -, -, -, -, -, -, -, -, -, e0, e1⟩ := idx_facts1 ⟨(i 0).val / 1024 * 8 + 7, ht⟩
  refine ⟨⟨(i 0).val / 1024 * 8 + 7, ht⟩, (flush1_5 _).mpr (by show ((i 0).val / 1024 * 8 + 7) % 8 = 7; omega), ?_⟩
  show i ∈ ((View.whole main_v31).slice (win1_5.rect ⟨(i 0).val / 1024 * 8 + 7, ht⟩)).set
  rw [View.set_slice_whole, Rect.mem_set_unit]
  intro a
  match a with
  | ⟨0, _⟩ =>
    show win1_5.index ⟨(i 0).val / 1024 * 8 + 7, ht⟩ (0 : Fin 2) * 1024 ≤ (i 0).val
      ∧ (i 0).val < win1_5.index ⟨(i 0).val / 1024 * 8 + 7, ht⟩ (0 : Fin 2) * 1024 + 1024
    rw [e0]
    show ((i 0).val / 1024 * 8 + 7) / 8 * 1024 ≤ (i 0).val ∧ (i 0).val < ((i 0).val / 1024 * 8 + 7) / 8 * 1024 + 1024
    omega
  | ⟨1, _⟩ =>
    show win1_5.index ⟨(i 0).val / 1024 * 8 + 7, ht⟩ (1 : Fin 2) * 1024 ≤ (i 1).val
      ∧ (i 1).val < win1_5.index ⟨(i 0).val / 1024 * 8 + 7, ht⟩ (1 : Fin 2) * 1024 + 1024
    rw [e1]
    omega

end Final

end R1

open R1

section
variable (V : (c : Dev nD) → (b : Ref sig .tc) → Buf (Elt Ideal) ((c : Thread nD τ).loc b)) (c : Dev nD)

/-- After the region the output array holds, index by index, the combined activations. -/
theorem final1_5 (v : Fin 10240) (b : Fin 8) (o : Fin 128) :
    ((dat1 (F := Ideal) V c).arrAt 5 cfg1.N : S10240x1024.Idx → EReal) (ix2 v (col b o))
      = hbo (fun v u => (V c main_v23 : S10240x10240.Idx → EReal) (ix2 v u))
          (fun v b o => (V c main_v6_0 : S10240x1024.Idx → EReal) (ix2 v (col b o)))
          (fun v b o => (V c main_v6_1 : S10240x1024.Idx → EReal) (ix2 v (col b o)))
          (fun v b => (V c main_v28 : S10240x8.Idx → EReal) (ix2 v b))
          (fun o => (V c main_v30 : S1x128.Idx → EReal) (ix2 0 o)) v b o := by
  rw [(dat1 (F := Ideal) V c).arrAt_eq_of_cover 5 (G1 V c) (flushed1_5_eq V c) cover1]
  exact G1_at V c _ v b o rfl rfl

end

end Cert.KernelIdeal.HandVal

end
-- ==== Proof.KI.R2Val.lean ====
/-
  Region 2 (the batch-normalisation statistics), read as values over the extended reals: after the region the two
  (1, 128) result arrays hold, per output channel, the sum and the sum of squares of the activations over the 10000
  real node rows and the 8 batches.

  Each grid point takes a (2000, 1024) block of the activations (2000 node rows, 8 batches of 128 channels side by
  side), cuts it into its eight 128-column slabs and adds each slab's column sums (for the second array, the column
  sums of its squares) onto a running row. First every step is read at an entry (0, o): the running entry plus
  `∑ r : Fin 2000` of the block at (r, col b o). Eight steps make one point: the running entry plus
  `∑ b : Fin 8, ∑ r : Fin 2000`. The rows start from zero at the first point, so by induction on the point the rows
  after point n hold the contributions of points 0 … n; five blocks of 2000 rows are the 10000 rows. The arrays are
  written back once, after the last point, by a block that is the whole array.
-/
import proofs.«421049_j39367670235755_2_alg».proof.Proof.Gen.KernelIdeal.Launch
import proofs.«421049_j39367670235755_2_alg».proof.Proof.Gen.KernelIdeal.Skeleton
import proofs.«421049_j39367670235755_2_alg».proof.Proof.Gen.KernelIdeal.Points
import proofs.«421049_j39367670235755_2_alg».proof.Proof.KI.Spec
import proofs.«421049_j39367670235755_2_alg».proof.Proof.KI.R2
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.KernelIdeal.HandVal

open Idealize.ShloMosaic Idealize.ShloMosaic.TcCoe Idealize.SL.Sem Idealize.ShloMosaic.ValueIdx
open Idealize.ShloMosaic.Pipeline (Dat Cfg Window)
open Cert.KernelIdeal Cert.KernelIdeal.Gen Cert.KernelIdeal.Hand Cert.Spec

namespace R2

/-! ## One accumulation step, read at an entry -/

/-- A column sum over the 2000 rows of a slab, laid as one row and added to a running row. -/
theorem accStep (x : FVec Ideal S2000x128 .f32) (a : Vec Ideal S1x128 .f32) (o : Fin 128) :
    addf (shapeCast S1x128 a shapeCasts_S1x128_S1x128)
        (shapeCast S1x128 (multiReduction .add [0] S128 x 0x00000000#32 reduces_S2000x128_S128 (.inl rfl) rfl)
          shapeCasts_S128_S1x128) (ix2 (0 : Fin 1) o)
      = a (ix2 (0 : Fin 1) o) + ∑ r : Fin 2000, x (ix2 r o) := by
  rw [addf_apply, shapeCast_self, shapeCast_a_1a_apply]
  refine congrArg (a (ix2 (0 : Fin 1) o) + ·) ?_
  refine (Ideal.multiReduction_add_single x _ reduces_S2000x128_S128 (.inl rfl) rfl (ix1 o)).trans ?_
  refine Finset.sum_congr rfl fun r _ => congrArg x (funext fun d => ?_)
  match d with
  | ⟨0, _⟩ => exact Fin.ext rfl
  | ⟨1, _⟩ => exact Fin.ext rfl

/-- The same with the squares of the slab's entries. -/
theorem accStepSq (x : FVec Ideal S2000x128 .f32) (a : Vec Ideal S1x128 .f32) (o : Fin 128) :
    addf (shapeCast S1x128 a shapeCasts_S1x128_S1x128)
        (shapeCast S1x128 (multiReduction .add [0] S128 (mulf x x) 0x00000000#32 reduces_S2000x128_S128 (.inl rfl) rfl)
          shapeCasts_S128_S1x128) (ix2 (0 : Fin 1) o)
      = a (ix2 (0 : Fin 1) o) + ∑ r : Fin 2000, x (ix2 r o) * x (ix2 r o) :=
  accStep (mulf x x) a o

/-- A 128-column slab of the 1024-column block at column offset `off`, read at (r, o): the block at (r, off + o). -/
theorem slab_apply (off : ℕ) (h : S2000x1024.Slices ![0, off] S2000x128) (v : FVec Ideal S2000x1024 .f32)
    (r : Fin 2000) (o : Fin 128) (c : Fin 1024) (hc : c.val = off + o.val) :
    extractStridedSlice S2000x128 ![0, off] v h (ix2 r o) = v (ix2 r c) :=
  extractStridedSlice_apply ![0, off] v h (ix2 r o) (ix2 r c) (fun a => by
    match a with
    | ⟨0, _⟩ => show r.val = 0 + r.val; omega
    | ⟨1, _⟩ => exact hc)

theorem col_val (b : Fin 8) (o : Fin 128) : (col b o).val = b.val * 128 + o.val := rfl

/-! The eight slabs of one block: slab `b` at (r, o) is the block at (r, col b o). -/
theorem pay7_eq (v3 : Vec Ideal S2000x1024 .f32) : k2_pay7 v3 = v3 := shapeCast_self v3 _
theorem pay8_apply (v3 : Vec Ideal S2000x1024 .f32) (r : Fin 2000) (o : Fin 128) :
    k2_pay8 v3 (ix2 r o) = v3 (ix2 r (col 0 o)) := by
  unfold k2_pay8; rw [pay7_eq]; exact slab_apply 0 _ v3 r o _ (by rw [col_val]; simp)
theorem pay11_apply (v3 : Vec Ideal S2000x1024 .f32) (r : Fin 2000) (o : Fin 128) :
    k2_pay11 v3 (ix2 r o) = v3 (ix2 r (col 1 o)) := by
  unfold k2_pay11; rw [pay7_eq]; exact slab_apply 128 _ v3 r o _ (by rw [col_val]; simp)
theorem pay14_apply (v4 : FVec Ideal S2000x1024 .f32) (r : Fin 2000) (o : Fin 128) :
    k2_pay14 v4 (ix2 r o) = v4 (ix2 r (col 2 o)) :=
  slab_apply 256 slices_S2000x1024_o0_256_S2000x128 v4 r o _ (by rw [col_val]; simp)
theorem pay17_apply (v4 : FVec Ideal S2000x1024 .f32) (r : Fin 2000) (o : Fin 128) :
    k2_pay17 v4 (ix2 r o) = v4 (ix2 r (col 3 o)) :=
  slab_apply 384 slices_S2000x1024_o0_384_S2000x128 v4 r o _ (by rw [col_val]; simp)
theorem pay20_apply (v4 : FVec Ideal S2000x1024 .f32) (r : Fin 2000) (o : Fin 128) :
    k2_pay20 v4 (ix2 r o) = v4 (ix2 r (col 4 o)) :=
  slab_apply 512 slices_S2000x1024_o0_512_S2000x128 v4 r o _ (by rw [col_val]; simp)
theorem pay24_apply (v4 : FVec Ideal S2000x1024 .f32) (r : Fin 2000) (o : Fin 128) :
    k2_pay24 v4 (ix2 r o) = v4 (ix2 r (col 5 o)) :=
  slab_apply 640 slices_S2000x1024_o0_640_S2000x128 v4 r o _ (by rw [col_val]; simp)
theorem pay27_apply (v4 : FVec Ideal S2000x1024 .f32) (r : Fin 2000) (o : Fin 128) :
    k2_pay27 v4 (ix2 r o) = v4 (ix2 r (col 6 o)) :=
  slab_apply 768 slices_S2000x1024_o0_768_S2000x128 v4 r o _ (by rw [col_val]; simp)
theorem pay2_apply (v4 : FVec Ideal S2000x1024 .f32) (r : Fin 2000) (o : Fin 128) :
    k2_pay2 v4 (ix2 r o) = v4 (ix2 r (col 7 o)) :=
  slab_apply 896 slices_S2000x1024_o0_896_S2000x128 v4 r o _ (by rw [col_val]; simp)

/-! The accumulation steps at (0, o): the running row plus the slab's column sum. -/
theorem pay9_apply (v3 : Vec Ideal S2000x1024 .f32) (a : Vec Ideal S1x128 .f32) (o : Fin 128) :
    k2_pay9 v3 a (ix2 (0 : Fin 1) o) = a (ix2 (0 : Fin 1) o) + ∑ r : Fin 2000, v3 (ix2 r (col 0 o)) :=
  (accStep (k2_pay8 v3) a o).trans (congrArg (a (ix2 (0 : Fin 1) o) + ·) (Finset.sum_congr rfl fun r _ => pay8_apply v3 r o))
theorem pay12_apply (v3 : Vec Ideal S2000x1024 .f32) (a : Vec Ideal S1x128 .f32) (o : Fin 128) :
    k2_pay12 v3 a (ix2 (0 : Fin 1) o) = a (ix2 (0 : Fin 1) o) + ∑ r : Fin 2000, v3 (ix2 r (col 1 o)) :=
  (accStep (k2_pay11 v3) a o).trans (congrArg (a (ix2 (0 : Fin 1) o) + ·) (Finset.sum_congr rfl fun r _ => pay11_apply v3 r o))
theorem pay15_apply (v4 : FVec Ideal S2000x1024 .f32) (a : Vec Ideal S1x128 .f32) (o : Fin 128) :
    k2_pay15 v4 a (ix2 (0 : Fin 1) o) = a (ix2 (0 : Fin 1) o) + ∑ r : Fin 2000, v4 (ix2 r (col 2 o)) :=
  (accStep (k2_pay14 v4) a o).trans (congrArg (a (ix2 (0 : Fin 1) o) + ·) (Finset.sum_congr rfl fun r _ => pay14_apply v4 r o))
theorem pay18_apply (v4 : FVec Ideal S2000x1024 .f32) (a : Vec Ideal S1x128 .f32) (o : Fin 128) :
    k2_pay18 v4 a (ix2 (0 : Fin 1) o) = a (ix2 (0 : Fin 1) o) + ∑ r : Fin 2000, v4 (ix2 r (col 3 o)) :=
  (accStep (k2_pay17 v4) a o).trans (congrArg (a (ix2 (0 : Fin 1) o) + ·) (Finset.sum_congr rfl fun r _ => pay17_apply v4 r o))
theorem pay22_apply (v4 : FVec Ideal S2000x1024 .f32) (a : Vec Ideal S1x128 .f32) (o : Fin 128) :
    k2_pay22 (k2_pay20 v4) (k2_pay21 a) (ix2 (0 : Fin 1) o) = a (ix2 (0 : Fin 1) o) + ∑ r : Fin 2000, v4 (ix2 r (col 4 o)) :=
  (accStep (k2_pay20 v4) a o).trans (congrArg (a (ix2 (0 : Fin 1) o) + ·) (Finset.sum_congr rfl fun r _ => pay20_apply v4 r o))
theorem pay25_apply (v4 : FVec Ideal S2000x1024 .f32) (a : Vec Ideal S1x128 .f32) (o : Fin 128) :
    k2_pay25 v4 a (ix2 (0 : Fin 1) o) = a (ix2 (0 : Fin 1) o) + ∑ r : Fin 2000, v4 (ix2 r (col 5 o)) :=
  (accStep (k2_pay24 v4) a o).trans (congrArg (a (ix2 (0 : Fin 1) o) + ·) (Finset.sum_congr rfl fun r _ => pay24_apply v4 r o))
theorem pay28_apply (v4 : FVec Ideal S2000x1024 .f32) (a : Vec Ideal S1x128 .f32) (o : Fin 128) :
    k2_pay28 v4 a (ix2 (0 : Fin 1) o) = a (ix2 (0 : Fin 1) o) + ∑ r : Fin 2000, v4 (ix2 r (col 6 o)) :=
  (accStep (k2_pay27 v4) a o).trans (congrArg (a (ix2 (0 : Fin 1) o) + ·) (Finset.sum_congr rfl fun r _ => pay27_apply v4 r o))
theorem pay3_apply (v4 : FVec Ideal S2000x1024 .f32) (a : Vec Ideal S1x128 .f32) (o : Fin 128) :
    k2_pay3 v4 a (ix2 (0 : Fin 1) o) = a (ix2 (0 : Fin 1) o) + ∑ r : Fin 2000, v4 (ix2 r (col 7 o)) :=
  (accStep (k2_pay2 v4) a o).trans (congrArg (a (ix2 (0 : Fin 1) o) + ·) (Finset.sum_congr rfl fun r _ => pay2_apply v4 r o))

/-! The same for the sums of squares. -/
theorem pay10_apply (v3 : Vec Ideal S2000x1024 .f32) (a : Vec Ideal S1x128 .f32) (o : Fin 128) :
    k2_pay10 v3 a (ix2 (0 : Fin 1) o) = a (ix2 (0 : Fin 1) o) + ∑ r : Fin 2000, v3 (ix2 r (col 0 o)) * v3 (ix2 r (col 0 o)) :=
  (accStepSq (k2_pay8 v3) a o).trans (congrArg (a (ix2 (0 : Fin 1) o) + ·) (Finset.sum_congr rfl fun r _ => by rw [pay8_apply]))
theorem pay13_apply (v3 : Vec Ideal S2000x1024 .f32) (a : Vec Ideal S1x128 .f32) (o : Fin 128) :
    k2_pay13 v3 a (ix2 (0 : Fin 1) o) = a (ix2 (0 : Fin 1) o) + ∑ r : Fin 2000, v3 (ix2 r (col 1 o)) * v3 (ix2 r (col 1 o)) :=
  (accStepSq (k2_pay11 v3) a o).trans (congrArg (a (ix2 (0 : Fin 1) o) + ·) (Finset.sum_congr rfl fun r _ => by rw [pay11_apply]))
theorem pay16_apply (v4 : FVec Ideal S2000x1024 .f32) (a : Vec Ideal S1x128 .f32) (o : Fin 128) :
    k2_pay16 v4 a (ix2 (0 : Fin 1) o) = a (ix2 (0 : Fin 1) o) + ∑ r : Fin 2000, v4 (ix2 r (col 2 o)) * v4 (ix2 r (col 2 o)) :=
  (accStepSq (k2_pay14 v4) a o).trans (congrArg (a (ix2 (0 : Fin 1) o) + ·) (Finset.sum_congr rfl fun r _ => by rw [pay14_apply]))
theorem pay19_apply (v4 : FVec Ideal S2000x1024 .f32) (a : Vec Ideal S1x128 .f32) (o : Fin 128) :
    k2_pay19 v4 a (ix2 (0 : Fin 1) o) = a (ix2 (0 : Fin 1) o) + ∑ r : Fin 2000, v4 (ix2 r (col 3 o)) * v4 (ix2 r (col 3 o)) :=
  (accStepSq (k2_pay17 v4) a o).trans (congrArg (a (ix2 (0 : Fin 1) o) + ·) (Finset.sum_congr rfl fun r _ => by rw [pay17_apply]))
theorem pay23_apply (v4 : FVec Ideal S2000x1024 .f32) (a : Vec Ideal S1x128 .f32) (o : Fin 128) :
    k2_pay23 (k2_pay20 v4) a (ix2 (0 : Fin 1) o) = a (ix2 (0 : Fin 1) o) + ∑ r : Fin 2000, v4 (ix2 r (col 4 o)) * v4 (ix2 r (col 4 o)) :=
  (accStepSq (k2_pay20 v4) a o).trans (congrArg (a (ix2 (0 : Fin 1) o) + ·) (Finset.sum_congr rfl fun r _ => by rw [pay20_apply]))
theorem pay26_apply (v4 : FVec Ideal S2000x1024 .f32) (a : Vec Ideal S1x128 .f32) (o : Fin 128) :
    k2_pay26 v4 a (ix2 (0 : Fin 1) o) = a (ix2 (0 : Fin 1) o) + ∑ r : Fin 2000, v4 (ix2 r (col 5 o)) * v4 (ix2 r (col 5 o)) :=
  (accStepSq (k2_pay24 v4) a o).trans (congrArg (a (ix2 (0 : Fin 1) o) + ·) (Finset.sum_congr rfl fun r _ => by rw [pay24_apply]))
theorem pay1_apply (v4 : FVec Ideal S2000x1024 .f32) (a : Vec Ideal S1x128 .f32) (o : Fin 128) :
    k2_pay1 (k2_pay27 v4) a (ix2 (0 : Fin 1) o) = a (ix2 (0 : Fin 1) o) + ∑ r : Fin 2000, v4 (ix2 r (col 6 o)) * v4 (ix2 r (col 6 o)) :=
  (accStepSq (k2_pay27 v4) a o).trans (congrArg (a (ix2 (0 : Fin 1) o) + ·) (Finset.sum_congr rfl fun r _ => by rw [pay27_apply]))
theorem pay4_apply (v4 : FVec Ideal S2000x1024 .f32) (a : Vec Ideal S1x128 .f32) (o : Fin 128) :
    k2_pay4 v4 a (ix2 (0 : Fin 1) o) = a (ix2 (0 : Fin 1) o) + ∑ r : Fin 2000, v4 (ix2 r (col 7 o)) * v4 (ix2 r (col 7 o)) :=
  (accStepSq (k2_pay2 v4) a o).trans (congrArg (a (ix2 (0 : Fin 1) o) + ·) (Finset.sum_congr rfl fun r _ => by rw [pay2_apply]))

/-- The two reset rows are zero. -/
theorem pay5_apply (o : Fin 128) : (k2_pay5 (F := Ideal)) (ix2 (0 : Fin 1) o) = 0 := Ideal.ofBits_zero_f32
theorem pay6_apply (o : Fin 128) : (k2_pay6 (F := Ideal)) (ix2 (0 : Fin 1) o) = 0 := Ideal.ofBits_zero_f32

/-- One point adds, per channel, the block's entries over its 2000 rows and 8 batches. -/
theorem acc2_1_apply (x : Vec Ideal S2000x1024 .f32) (a : Vec Ideal S1x128 .f32) (o : Fin 128) :
    acc2_1 x a (ix2 (0 : Fin 1) o) = a (ix2 (0 : Fin 1) o) + ∑ b : Fin 8, ∑ r : Fin 2000, x (ix2 r (col b o)) := by
  unfold acc2_1
  rw [pay7_eq, pay3_apply, pay28_apply, pay25_apply, pay22_apply, pay18_apply, pay15_apply, pay12_apply, pay9_apply,
    Fin.sum_univ_eight]
  simp only [add_assoc]

theorem acc2_2_apply (x : Vec Ideal S2000x1024 .f32) (a : Vec Ideal S1x128 .f32) (o : Fin 128) :
    acc2_2 x a (ix2 (0 : Fin 1) o)
      = a (ix2 (0 : Fin 1) o) + ∑ b : Fin 8, ∑ r : Fin 2000, x (ix2 r (col b o)) * x (ix2 r (col b o)) := by
  unfold acc2_2
  rw [pay7_eq, pay4_apply, pay1_apply, pay26_apply, pay23_apply, pay19_apply, pay16_apply, pay13_apply, pay10_apply,
    Fin.sum_univ_eight]
  simp only [add_assoc]

variable (V : (c : Dev nD) → (b : Ref sig .tc) → Buf (Elt Ideal) ((c : Thread nD τ).loc b))

theorem N2 : cfg2.N = 5 := N_2

/-! ## The input block of a point, read at an index -/

/-- Point `t` takes block (t, 0). -/
theorem index2_0 (t : Fin cfg2.N) : win2_0.index t 0 = t.val ∧ win2_0.index t 1 = 0 := by
  rcases fin_N2 t with rfl | rfl | rfl | rfl | rfl <;> decide +kernel

/-- Row `r` of point `t`'s block is row `2000 t + r` of the array. -/
theorem xin2_at (c : Dev nD) (t : Fin cfg2.N) (r : Fin 2000) (k : Fin 1024) (hr : 2000 * t.val + r.val < 10240) :
    (xin2 V c t : S2000x1024.Idx → EReal) (ix2 r k) = (V c main_v31 : S10240x1024.Idx → EReal) (ix2 ⟨2000 * t.val + r.val, hr⟩ k) := by
  rw [xin2_apply]
  unfold iblk2
  rw [View.read_apply]
  show (V c main_v31 : S10240x1024.Idx → EReal) _ = _
  congr 1
  funext a
  apply Fin.ext
  match a with
  | ⟨0, _⟩ => show win2_0.index t 0 * 2000 + 1 * r.val = 2000 * t.val + r.val; rw [(index2_0 t).1]; omega
  | ⟨1, _⟩ => show win2_0.index t 1 * 1024 + 1 * k.val = k.val; rw [(index2_0 t).2]; omega

/-- The activations as a function of coordinates, in the specification's arrangement. -/
abbrev hfun (c : Dev nD) : Fin 10240 → Fin 8 → Fin 128 → EReal :=
  fun v b o => (V c main_v31 : S10240x1024.Idx → EReal) (ix2 v (col b o))

/-- Node `2000 i + r` of the 10000 real nodes. -/
def node (i : Fin 5) (r : Fin 2000) : Fin 10000 := ⟨2000 * i.val + r.val, by omega⟩

theorem xin2_node (c : Dev nD) (n : ℕ) (hn : n < cfg2.N) (h5 : n < 5) (r : Fin 2000) (b : Fin 8) (o : Fin 128) :
    (xin2 V c ⟨n, hn⟩ : S2000x1024.Idx → EReal) (ix2 r (col b o)) = hfun V c (row (node ⟨n, h5⟩ r)) b o :=
  xin2_at V c ⟨n, hn⟩ r (col b o) (by show 2000 * n + r.val < 10240; omega)

/-! ## The running sums after point `n` -/

/-- What one point adds to the sum of channel `o`: its 2000 rows over the 8 batches. -/
def ptS (c : Dev nD) (o : Fin 128) (i : Fin 5) : EReal := ∑ b : Fin 8, ∑ r : Fin 2000, hfun V c (row (node i r)) b o
/-- … and to the sum of squares. -/
def ptQ (c : Dev nD) (o : Fin 128) (i : Fin 5) : EReal :=
  ∑ b : Fin 8, ∑ r : Fin 2000, hfun V c (row (node i r)) b o * hfun V c (row (node i r)) b o

/-- After point `n` the two rows hold the contributions of points `0 … n`. -/
theorem outs2_apply (c : Dev nD) (o : Fin 128) : ∀ (n : ℕ) (hn : n < cfg2.N) (h5 : n < 5),
    ((outs2 V c n hn).1 : S1x128.Idx → EReal) (ix2 (0 : Fin 1) o) = ∑ i : Fin (n + 1), ptS V c o ⟨i.val, by omega⟩
    ∧ ((outs2 V c n hn).2 : S1x128.Idx → EReal) (ix2 (0 : Fin 1) o) = ∑ i : Fin (n + 1), ptQ V c o ⟨i.val, by omega⟩
  | 0, hn, h5 => by
    rw [outs2_zero]
    dsimp only
    constructor
    · rw [acc2_1_apply, pay5_apply, zero_add, Fin.sum_univ_one]
      exact Finset.sum_congr rfl fun b _ => Finset.sum_congr rfl fun r _ => xin2_node V c 0 hn h5 r b o
    · rw [acc2_2_apply, pay6_apply, zero_add, Fin.sum_univ_one]
      exact Finset.sum_congr rfl fun b _ => Finset.sum_congr rfl fun r _ => by rw [xin2_node V c 0 hn h5 r b o]; rfl
  | n + 1, hn, h5 => by
    obtain ⟨ih1, ih2⟩ := outs2_apply c o n (Nat.lt_of_succ_lt hn) (Nat.lt_of_succ_lt h5)
    rw [outs2_succ]
    dsimp only
    constructor
    · rw [acc2_1_apply, ih1, Fin.sum_univ_castSucc (n := n + 1)]
      refine congrArg₂ (· + ·) rfl ?_
      exact Finset.sum_congr rfl fun b _ => Finset.sum_congr rfl fun r _ => xin2_node V c (n + 1) hn h5 r b o
    · rw [acc2_2_apply, ih2, Fin.sum_univ_castSucc (n := n + 1)]
      refine congrArg₂ (· + ·) rfl ?_
      exact Finset.sum_congr rfl fun b _ => Finset.sum_congr rfl fun r _ => by rw [xin2_node V c (n + 1) hn h5 r b o]; rfl

/-! ## Five blocks of 2000 rows are the 10000 rows -/

theorem sum_nodes (g : Fin 10000 → EReal) : ∑ v : Fin 10000, g v = ∑ i : Fin 5, ∑ r : Fin 2000, g (node i r) := by
  rw [← Equiv.sum_comp (finProdFinEquiv (m := 5) (n := 2000)) g, Fintype.sum_prod_type]
  refine Finset.sum_congr rfl fun i _ => Finset.sum_congr rfl fun r _ => congrArg g (Fin.ext ?_)
  show r.val + 2000 * i.val = 2000 * i.val + r.val
  omega

theorem sumH_eq (c : Dev nD) (o : Fin 128) : sumH (hfun V c) o = ∑ i : Fin 5, ptS V c o i := by
  unfold sumH ptS
  rw [sum_nodes]
  exact Finset.sum_congr rfl fun i _ => Finset.sum_comm

theorem sumsqH_eq (c : Dev nD) (o : Fin 128) : sumsqH (hfun V c) o = ∑ i : Fin 5, ptQ V c o i := by
  unfold sumsqH ptQ
  rw [sum_nodes]
  exact Finset.sum_congr rfl fun i _ => Finset.sum_comm

/-! ## The write-back: the last point's block is the whole (1, 128) array -/

theorem lt4 : 4 < cfg2.N := by rw [N2]; omega

/-- Both outputs keep block (0, 0) at every point, -/
theorem index2_1 (t : Fin cfg2.N) (a : Fin 2) : win2_1.index t a = 0 := by
  rcases fin_N2 t with rfl | rfl | rfl | rfl | rfl <;> revert a <;> decide +kernel
theorem index2_2 (t : Fin cfg2.N) (a : Fin 2) : win2_2.index t a = 0 := by
  rcases fin_N2 t with rfl | rfl | rfl | rfl | rfl <;> revert a <;> decide +kernel
/-- so the block starts at the array's origin, -/
theorem off2_1 (t : Fin cfg2.N) : (fun a => win2_1.index t a * main_v32_0.ty.shape.size a) = fun _ => 0 :=
  funext fun a => by rw [index2_1]; exact Nat.zero_mul _
theorem off2_2 (t : Fin cfg2.N) : (fun a => win2_2.index t a * main_v32_1.ty.shape.size a) = fun _ => 0 :=
  funext fun a => by rw [index2_2]; exact Nat.zero_mul _
/-- and it has the array's extents. -/
theorem xsize2_1 (t : Fin cfg2.N) (a : Fin 2) : win2_1.xsize (grid2.coords t) a = S1x128.size a := by
  rcases fin_N2 t with rfl | rfl | rfl | rfl | rfl <;> revert a <;> decide +kernel
theorem xsize2_2 (t : Fin cfg2.N) (a : Fin 2) : win2_2.xsize (grid2.coords t) a = S1x128.size a := by
  rcases fin_N2 t with rfl | rfl | rfl | rfl | rfl <;> revert a <;> decide +kernel

/-- What the two arrays end holding: the rows after the last point. -/
def res1 (c : Dev nD) : Buf (Elt Ideal) ((c : Thread nD τ).loc main_v32_0) := (outs2 V c 4 lt4).1
def res2 (c : Dev nD) : Buf (Elt Ideal) ((c : Thread nD τ).loc main_v32_1) := (outs2 V c 4 lt4).2

/-- Only the last point writes back. -/
theorem flush_last1 (t : Fin cfg2.N) (hf : (cfg2.win 1).flush t = true) : t = ⟨4, lt4⟩ :=
  Fin.ext (by have h := (flush2_1 t).mp hf; have h' : t.val < 5 := lt_of_lt_of_eq t.isLt N2; show t.val = 4; omega)
theorem flush_last2 (t : Fin cfg2.N) (hf : (cfg2.win 2).flush t = true) : t = ⟨4, lt4⟩ :=
  Fin.ext (by have h := (flush2_2 t).mp hf; have h' : t.val < 5 := lt_of_lt_of_eq t.isLt N2; show t.val = 4; omega)

/-- The one write-back of the sums writes the row after the last point: a block of the array's extents at its
    origin, read off contents of the array's shape, is those contents. -/
theorem flushed2_1 (c : Dev nD) (t : Fin cfg2.N) (hf : (cfg2.win 1).flush t = true) :
    (dat2 V c).flushed 1 t = ((cfg2.win 1).blk t).view.read (Elt Ideal) (res1 V c) := by
  obtain rfl := flush_last1 t hf
  refine Eq.trans ?_ (Memref.read_access_unit_zero (Elt Ideal) main_v32_0 (off2_1 ⟨4, lt4⟩)
    (fun a => le_of_eq (by rw [congrFun (off2_1 ⟨4, lt4⟩) a, Nat.zero_add])) (res1 V c)).symm
  show (cfg2.win 1).cut (cfg2.grid.coords ⟨4, lt4⟩) ((dat2 V c).after 1 ⟨4, lt4⟩) = _
  rw [after2_1]
  rfl

theorem flushed2_2 (c : Dev nD) (t : Fin cfg2.N) (hf : (cfg2.win 2).flush t = true) :
    (dat2 V c).flushed 2 t = ((cfg2.win 2).blk t).view.read (Elt Ideal) (res2 V c) := by
  obtain rfl := flush_last2 t hf
  refine Eq.trans ?_ (Memref.read_access_unit_zero (Elt Ideal) main_v32_1 (off2_2 ⟨4, lt4⟩)
    (fun a => le_of_eq (by rw [congrFun (off2_2 ⟨4, lt4⟩) a, Nat.zero_add])) (res2 V c)).symm
  show (cfg2.win 2).cut (cfg2.grid.coords ⟨4, lt4⟩) ((dat2 V c).after 2 ⟨4, lt4⟩) = _
  rw [after2_2]
  rfl

/-- That block covers the array. -/
theorem cover2_1 (c : Dev nD) (i : ((cfg2.win 1).arr.view.loc (c.tc : Thread nD τ)).2.ty.Idx) :
    ∃ t : Fin cfg2.N, (cfg2.win 1).flush t = true ∧ i ∈ ((cfg2.win 1).blk t).view.set :=
  ⟨⟨4, lt4⟩, (flush2_1 _).mpr rfl, by
    show i ∈ ((View.whole main_v32_0).slice (win2_1.rect ⟨4, lt4⟩)).set
    rw [View.set_slice_whole, Rect.mem_set_unit]
    intro a
    have hi : (i a : ℕ) < S1x128.size a := (i a).isLt
    show win2_1.index ⟨4, lt4⟩ a * win2_1.size a ≤ (i a : ℕ)
      ∧ (i a : ℕ) < win2_1.index ⟨4, lt4⟩ a * win2_1.size a + win2_1.xsize (grid2.coords ⟨4, lt4⟩) a
    rw [index2_1, xsize2_1]; omega⟩

theorem cover2_2 (c : Dev nD) (i : ((cfg2.win 2).arr.view.loc (c.tc : Thread nD τ)).2.ty.Idx) :
    ∃ t : Fin cfg2.N, (cfg2.win 2).flush t = true ∧ i ∈ ((cfg2.win 2).blk t).view.set :=
  ⟨⟨4, lt4⟩, (flush2_2 _).mpr rfl, by
    show i ∈ ((View.whole main_v32_1).slice (win2_2.rect ⟨4, lt4⟩)).set
    rw [View.set_slice_whole, Rect.mem_set_unit]
    intro a
    have hi : (i a : ℕ) < S1x128.size a := (i a).isLt
    show win2_2.index ⟨4, lt4⟩ a * win2_2.size a ≤ (i a : ℕ)
      ∧ (i a : ℕ) < win2_2.index ⟨4, lt4⟩ a * win2_2.size a + win2_2.xsize (grid2.coords ⟨4, lt4⟩) a
    rw [index2_2, xsize2_2]; omega⟩

end R2

open R2

variable (V : (c : Dev nD) → (b : Ref sig .tc) → Buf (Elt Ideal) ((c : Thread nD τ).loc b))

/-! ## The two arrays after the region -/

/-- The sums' array ends holding, per channel, the sum of the activations over the 10000 nodes and 8 batches. -/
theorem final2_1 (c : Dev nD) (o : Fin 128) :
    (dat2 (F := Ideal) V c).arrAt 1 cfg2.N (ix2 0 o) = sumH (fun v b o => V c main_v31 (ix2 v (col b o))) o := by
  rw [(dat2 V c).arrAt_eq_of_cover 1 (res1 V c) (flushed2_1 V c) (cover2_1 c)]
  unfold res1
  exact ((outs2_apply V c o 4 lt4 (by omega)).1).trans (sumH_eq V c o).symm

/-- … and the squares' array the sum of their squares. -/
theorem final2_2 (c : Dev nD) (o : Fin 128) :
    (dat2 (F := Ideal) V c).arrAt 2 cfg2.N (ix2 0 o) = sumsqH (fun v b o => V c main_v31 (ix2 v (col b o))) o := by
  rw [(dat2 V c).arrAt_eq_of_cover 2 (res2 V c) (flushed2_2 V c) (cover2_2 c)]
  unfold res2
  exact ((outs2_apply V c o 4 lt4 (by omega)).2).trans (sumsqH_eq V c o).symm

end Cert.KernelIdeal.HandVal

end
-- ==== Proof.KI.R3Val.lean ====
/-
  What region 3 (the normalise-and-clamp kernel, grid 8 × 5) leaves in its output array, index by index: batch b, node v,
  channel o of the result is the normalisation of the activation at padded row v, folded column b · 128 + o, by the
  channel's mean, variance, scale and shift rows.
-/
import proofs.«421049_j39367670235755_2_alg».proof.Proof.KI.R3
import proofs.«421049_j39367670235755_2_alg».proof.Proof.KI.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HandVal

open Cert.KernelIdeal Cert.KernelIdeal.Gen Cert.KernelIdeal.Hand Cert.Spec
open Idealize.ShloMosaic Idealize.ShloMosaic.TcCoe Idealize.SL.Sem Idealize.ShloMosaic.ValueIdx
open Idealize.ShloMosaic.Pipeline (Dat)

/-! ## The payload at an index -/

/-- One row of 128 spread over the 2000 rows of a block (through the two casts the kernel puts before the spread). -/
abbrev spread (x : Vec Ideal S1x128 .f32) : FVec Ideal S2000x128 .f32 :=
  broadcastTo S2000x128 (shapeCast S1x128 (shapeCast S1x128 x shapeCasts_S1x128_S1x128) shapeCasts_S1x128_S1x128) broadcasts_S1x128_S2000x128

/-- The payload is this tree of pointwise operations of the loaded block, the four spread rows and two constants,
    cast to the output block's shape. -/
theorem pay3_eq (x0 : Vec Ideal S2000x128 .f32) (x1 x2 x3 x4 : Vec Ideal S1x128 .f32) :
    k3_pay1 x0 x1 x2 x3 x4 = shapeCast S1x2000x128
      (maximumf (addf (mulf (mulf (subf (shapeCast S2000x128 x0 shapeCasts_S2000x128_S2000x128) (spread x1))
          (rsqrt (addf (spread x2) (broadcast S2000x128 (Scalar.ofBits .f32 0x3727C5AC#32))))) (spread x3)) (spread x4))
        (broadcast S2000x128 (Scalar.ofBits .f32 0x00000000#32))) shapeCasts_S2000x128_S1x2000x128 := rfl

/-- A spread row read at (r, o) is the row at o. -/
theorem spread_apply (x : Vec Ideal S1x128 .f32) (r : Fin 2000) (o : Fin 128) : spread x (ix2 r o) = x (ix2 (0 : Fin 1) o) := by
  unfold spread
  rw [shapeCast_self, shapeCast_self]
  exact broadcastTo_1b_ab_apply _ _ r o

/-- The payload at (u, r, o): the normalisation of the block's entry at (r, o) by the four rows' entries at o. -/
theorem pay3_apply (x0 : Vec Ideal S2000x128 .f32) (x1 x2 x3 x4 : Vec Ideal S1x128 .f32) (u : Fin 1) (r : Fin 2000) (o : Fin 128) :
    k3_pay1 x0 x1 x2 x3 x4 (ix3 u r o)
      = bn (x0 (ix2 r o)) (x1 (ix2 (0 : Fin 1) o)) (x2 (ix2 (0 : Fin 1) o)) (x3 (ix2 (0 : Fin 1) o)) (x4 (ix2 (0 : Fin 1) o)) := by
  rw [pay3_eq]
  refine (shapeCast_ab_1ab_apply _ _ u r o).trans ?_
  show max ((((shapeCast S2000x128 x0 shapeCasts_S2000x128_S2000x128 (ix2 r o) - spread x1 (ix2 r o))
      * Ideal.rsqrt (spread x2 (ix2 r o) + Ideal.ofBits .f32 0x3727C5AC#32)) * spread x3 (ix2 r o)) + spread x4 (ix2 r o))
      (Ideal.ofBits .f32 0x00000000#32) = _
  rw [shapeCast_self, spread_apply, spread_apply, spread_apply, spread_apply, Ideal.ofBits_zero_f32]
  rfl

-- the core's buffer contents when the region is entered
variable (V : (c : Dev nD) → (b : Ref sig .tc) → Buf (Elt Ideal) ((c : Thread nD τ).loc b))

/-! ## The arrays the region reads, over their literal index types -/

/-- The activations (padded rows, folded columns), and the four rows of 128: mean, variance, scale, shift. -/
abbrev actArr (c : Dev nD) : S10240x1024.Idx → EReal := V c main_v31
abbrev meanArr (c : Dev nD) : S1x128.Idx → EReal := V c main_v34
abbrev varArr (c : Dev nD) : S1x128.Idx → EReal := V c main_v40
abbrev scaleArr (c : Dev nD) : S1x128.Idx → EReal := V c main_v41
abbrev shiftArr (c : Dev nD) : S1x128.Idx → EReal := V c main_v42

/-- What the output array ends holding, as one function of those arrays. -/
abbrev normArr (c : Dev nD) : S8x10000x128.Idx → EReal := fun i =>
  bn (actArr V c (ix2 (row (i 1)) (col (i 0) (i 2)))) (meanArr V c (ix2 (0 : Fin 1) (i 2))) (varArr V c (ix2 (0 : Fin 1) (i 2)))
    (scaleArr V c (ix2 (0 : Fin 1) (i 2))) (shiftArr V c (ix2 (0 : Fin 1) (i 2)))

/-! ## The index maps, decided over the grid -/

theorem zeros2 : (![0, 0] : Fin 2 → Nat) = fun _ => 0 := funext fun a => by fin_cases a <;> rfl
theorem zeros3 : (![0, 0, 0] : Fin 3 → Nat) = fun _ => 0 := funext fun a => by fin_cases a <;> rfl

/-- Window 0's block (row, column) index is the output's (node-block, batch) index swapped; the output's channel
    block index is 0; the four rows' windows sit at block (0, 0). -/
theorem idx_facts3 : ∀ t : Fin cfg3.N,
    win3_0.index t (0 : Fin 2) = win3_5.index t (1 : Fin 3) ∧ win3_0.index t (1 : Fin 2) = win3_5.index t (0 : Fin 3)
    ∧ win3_5.index t (0 : Fin 3) < 8 ∧ win3_5.index t (1 : Fin 3) < 5 ∧ win3_5.index t (2 : Fin 3) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0 :=
  (by decide +kernel : ∀ t : Fin grid3.N, _)

/-- Every (batch, node-block) pair is some point's output block. -/
theorem idx_onto3 : ∀ (q0 : Fin 8) (q1 : Fin 5), ∃ t : Fin cfg3.N, win3_5.index t = ![q0.val, q1.val, 0] :=
  (by decide +kernel : ∀ (q0 : Fin 8) (q1 : Fin 5), ∃ t : Fin grid3.N, win3_5.index t = ![q0.val, q1.val, 0])

/-! ## The input blocks at an index -/

/-- Window 0's block at point t read at (r, o) is the activation array at row (row block) · 2000 + r and column
    (column block) · 128 + o. -/
theorem blk3_0_apply (c : Dev nD) (t : Fin cfg3.N) (r : Fin 2000) (o : Fin 128) (i : S10240x1024.Idx)
    (h0 : (i 0).val = win3_0.index t (0 : Fin 2) * 2000 + r.val) (h1 : (i 1).val = win3_0.index t (1 : Fin 2) * 128 + o.val) :
    (blk3_0 V c t : S2000x128.Idx → EReal) (ix2 r o) = actArr V c i := by
  show actArr V c (((cfg3.win 0).blk t).view.emb _) = actArr V c i
  refine congrArg _ (funext fun a => Fin.ext ?_)
  match a with
  | ⟨0, _⟩ => show win3_0.index t (0 : Fin 2) * 2000 + 1 * r.val = (i 0).val; omega
  | ⟨1, _⟩ => show win3_0.index t (1 : Fin 2) * 128 + 1 * o.val = (i 1).val; omega

/-- Each row window's block is its whole one-row array. -/
theorem iblk3_1_apply (c : Dev nD) (t : Fin cfg3.N) (o : Fin 128) :
    (iblk3 V c 1 t : S1x128.Idx → EReal) (ix2 (0 : Fin 1) o) = meanArr V c (ix2 (0 : Fin 1) o) := by
  obtain ⟨-, -, -, -, -, e0, e1, -⟩ := idx_facts3 t
  show meanArr V c (((cfg3.win 1).blk t).view.emb (ix2 (0 : Fin 1) o)) = _
  refine congrArg _ (funext fun a => Fin.ext ?_)
  match a with
  | ⟨0, _⟩ => show win3_1.index t (0 : Fin 2) * 1 + 1 * 0 = 0; omega
  | ⟨1, _⟩ => show win3_1.index t (1 : Fin 2) * 128 + 1 * o.val = o.val; omega
theorem iblk3_2_apply (c : Dev nD) (t : Fin cfg3.N) (o : Fin 128) :
    (iblk3 V c 2 t : S1x128.Idx → EReal) (ix2 (0 : Fin 1) o) = varArr V c (ix2 (0 : Fin 1) o) := by
  obtain ⟨-, -, -, -, -, -, -, e0, e1, -⟩ := idx_facts3 t
  show varArr V c (((cfg3.win 2).blk t).view.emb (ix2 (0 : Fin 1) o)) = _
  refine congrArg _ (funext fun a => Fin.ext ?_)
  match a with
  | ⟨0, _⟩ => show win3_2.index t (0 : Fin 2) * 1 + 1 * 0 = 0; omega
  | ⟨1, _⟩ => show win3_2.index t (1 : Fin 2) * 128 + 1 * o.val = o.val; omega
theorem iblk3_3_apply (c : Dev nD) (t : Fin cfg3.N) (o : Fin 128) :
    (iblk3 V c 3 t : S1x128.Idx → EReal) (ix2 (0 : Fin 1) o) = scaleArr V c (ix2 (0 : Fin 1) o) := by
  obtain ⟨-, -, -, -, -, -, -, -, -, e0, e1, -⟩ := idx_facts3 t
  show scaleArr V c (((cfg3.win 3).blk t).view.emb (ix2 (0 : Fin 1) o)) = _
  refine congrArg _ (funext fun a => Fin.ext ?_)
  match a with
  | ⟨0, _⟩ => show win3_3.index t (0 : Fin 2) * 1 + 1 * 0 = 0; omega
  | ⟨1, _⟩ => show win3_3.index t (1 : Fin 2) * 128 + 1 * o.val = o.val; omega
theorem iblk3_4_apply (c : Dev nD) (t : Fin cfg3.N) (o : Fin 128) :
    (iblk3 V c 4 t : S1x128.Idx → EReal) (ix2 (0 : Fin 1) o) = shiftArr V c (ix2 (0 : Fin 1) o) := by
  obtain ⟨-, -, -, -, -, -, -, -, -, -, -, e0, e1⟩ := idx_facts3 t
  show shiftArr V c (((cfg3.win 4).blk t).view.emb (ix2 (0 : Fin 1) o)) = _
  refine congrArg _ (funext fun a => Fin.ext ?_)
  match a with
  | ⟨0, _⟩ => show win3_4.index t (0 : Fin 2) * 1 + 1 * 0 = 0; omega
  | ⟨1, _⟩ => show win3_4.index t (1 : Fin 2) * 128 + 1 * o.val = o.val; omega

/-! ## What a point writes back -/

/-- What point t writes back to the output array is block t of normArr. -/
theorem flushed3_5_eq (c : Dev nD) (t : Fin cfg3.N) :
    (dat3 (F := Ideal) V c).flushed 5 t = ((cfg3.win 5).blk t).view.read (Elt Ideal) (normArr V c) := by
  show (cfg3.win 5).cut (grid3.coords t) ((dat3 V c).after 5 t) = _
  rw [after3_5]
  unfold out3_5
  rw [View.canon_unit_zero zeros3]
  simp only [View.ld_unit_zero (S := S2000x128) zeros2, View.ld_unit_zero (S := S1x128) zeros2]
  obtain ⟨e0, e1, l0, l1, e2, -⟩ := idx_facts3 t
  show (k3_pay1 (blk3_0 V c t) (iblk3 V c 1 t) (iblk3 V c 2 t) (iblk3 V c 3 t) (iblk3 V c 4 t) : S1x2000x128.Idx → EReal) = _
  funext j
  obtain ⟨u, r, o, rfl⟩ : ∃ (u : Fin 1) (r : Fin 2000) (o : Fin 128), j = ix3 u r o := ⟨j 0, j 1, j 2, eq_ix3 j⟩
  refine (pay3_apply _ _ _ _ _ u r o).trans ?_
  have hu : u.val = 0 := by omega
  have hr : r.val < 2000 := r.isLt
  have ho : o.val < 128 := o.isLt
  -- the array index under (u, r, o) of the output's block at t
  have k0 : ((((cfg3.win 5).blk t).view.emb (ix3 u r o) : S8x10000x128.Idx) 0).val = win3_5.index t (0 : Fin 3) * 1 + 1 * u.val := rfl
  have k1 : ((((cfg3.win 5).blk t).view.emb (ix3 u r o) : S8x10000x128.Idx) 1).val = win3_5.index t (1 : Fin 3) * 2000 + 1 * r.val := rfl
  have k2 : ((((cfg3.win 5).blk t).view.emb (ix3 u r o) : S8x10000x128.Idx) 2).val = win3_5.index t (2 : Fin 3) * 128 + 1 * o.val := rfl
  have ko : (((cfg3.win 5).blk t).view.emb (ix3 u r o) : S8x10000x128.Idx) 2 = o := Fin.ext (by rw [k2]; omega)
  show bn _ _ _ _ _ = normArr V c (((cfg3.win 5).blk t).view.emb (ix3 u r o))
  have h0 := blk3_0_apply V c t r o
    (ix2 (row ((((cfg3.win 5).blk t).view.emb (ix3 u r o) : S8x10000x128.Idx) 1))
      (col ((((cfg3.win 5).blk t).view.emb (ix3 u r o) : S8x10000x128.Idx) 0) ((((cfg3.win 5).blk t).view.emb (ix3 u r o) : S8x10000x128.Idx) 2)))
    (by show ((((cfg3.win 5).blk t).view.emb (ix3 u r o) : S8x10000x128.Idx) 1).val = _; rw [k1]; omega)
    (by show ((((cfg3.win 5).blk t).view.emb (ix3 u r o) : S8x10000x128.Idx) 0).val * 128 + ((((cfg3.win 5).blk t).view.emb (ix3 u r o) : S8x10000x128.Idx) 2).val = _; rw [k0, k2]; omega)
  have h1 := (iblk3_1_apply V c t o).trans (congrArg (fun z => meanArr V c (ix2 (0 : Fin 1) z)) ko.symm)
  have h2 := (iblk3_2_apply V c t o).trans (congrArg (fun z => varArr V c (ix2 (0 : Fin 1) z)) ko.symm)
  have h3 := (iblk3_3_apply V c t o).trans (congrArg (fun z => scaleArr V c (ix2 (0 : Fin 1) z)) ko.symm)
  have h4 := (iblk3_4_apply V c t o).trans (congrArg (fun z => shiftArr V c (ix2 (0 : Fin 1) z)) ko.symm)
  exact congr (congr (congr (congr (congrArg bn h0) h1) h2) h3) h4

/-! ## The blocks cover the array -/

/-- An index of the array is in point t's block iff each coordinate is in the block's range on its axis. -/
theorem mem_blk3_5 (t : Fin cfg3.N) (i : S8x10000x128.Idx) :
    i ∈ ((cfg3.win 5).blk t).view.set ↔ ∀ a : Fin 3, win3_5.index t a * S1x2000x128.size a ≤ (i a).val ∧ (i a).val < win3_5.index t a * S1x2000x128.size a + S1x2000x128.size a := by
  show i ∈ ((View.whole main_v43).slice (win3_5.rect t)).set ↔ _
  rw [View.set_slice_whole, Rect.mem_set_unit]
  exact Iff.rfl

/-- Every index of the output array is in the block of the point at (its batch, its node / 2000). -/
theorem covered3_5 (i : S8x10000x128.Idx) :
    ∃ t : Fin cfg3.N, (cfg3.win 5).flush t = true ∧ i ∈ ((cfg3.win 5).blk t).view.set := by
  have hi0 : (i 0).val < 8 := (i 0).isLt
  have hi1 : (i 1).val < 10000 := (i 1).isLt
  have hi2 : (i 2).val < 128 := (i 2).isLt
  obtain ⟨t, ht⟩ := idx_onto3 ⟨(i 0).val, hi0⟩ ⟨(i 1).val / 2000, by omega⟩
  have q0 : win3_5.index t (0 : Fin 3) = (i 0).val := congrFun ht 0
  have q1 : win3_5.index t (1 : Fin 3) = (i 1).val / 2000 := congrFun ht 1
  have q2 : win3_5.index t (2 : Fin 3) = 0 := congrFun ht 2
  refine ⟨t, flush3_5 t, ?_⟩
  rw [mem_blk3_5]
  intro a
  match a with
  | ⟨0, _⟩ => show win3_5.index t (0 : Fin 3) * 1 ≤ (i 0).val ∧ (i 0).val < win3_5.index t (0 : Fin 3) * 1 + 1; omega
  | ⟨1, _⟩ => show win3_5.index t (1 : Fin 3) * 2000 ≤ (i 1).val ∧ (i 1).val < win3_5.index t (1 : Fin 3) * 2000 + 2000; omega
  | ⟨2, _⟩ => show win3_5.index t (2 : Fin 3) * 128 ≤ (i 2).val ∧ (i 2).val < win3_5.index t (2 : Fin 3) * 128 + 128; omega

/-! ## The array after the region -/

/-- The output array after the region, at batch b, node v, channel o. -/
theorem final3_5 (c : Dev nD) (b : Fin 8) (v : Fin 10000) (o : Fin 128) :
    (dat3 (F := Ideal) V c).arrAt 5 cfg3.N (ix3 b v o)
      = bn (V c main_v31 (ix2 (row v) (col b o))) (V c main_v34 (ix2 0 o)) (V c main_v40 (ix2 0 o)) (V c main_v41 (ix2 0 o)) (V c main_v42 (ix2 0 o)) := by
  rw [(dat3 V c).arrAt_eq_of_cover 5 (normArr V c) (fun t _ => flushed3_5_eq V c t) (covered3_5)]

end Cert.KernelIdeal.HandVal

end
-- ==== Proof.LibScatterAddPairs.lean ====
/- The accumulating scatter of scalar updates into a matrix: operand [N, M], start indices [n, 2], updates [n], no window axis; both operand axes are inserted and named, in order, by the two components of the index vector. Update e lands on entry (i, j) exactly when its two start indices, read signed, equal i and j; a pair outside the operand lands nowhere. So the scatter-add read at (i, j) is the operand there plus the sum of the updates whose index pair is (i, j). -/
import Idealize.ShloMosaic.PureOps.Ideal
import Idealize.ShloMosaic.Lib.ValueIdx

noncomputable section

open scoped BigOperators

namespace Cert.LibScatterAddPairs

open Idealize.ShloMosaic Idealize.ShloMosaic.ValueIdx

/-- An axis of a rank-2 shape is axis 0 or axis 1. -/
theorem axis2_cases {N M : Nat} (a : Fin (⟨2, ![N, M]⟩ : Shape).rank) : a = 0 ∨ a = 1 := by
  match a with
  | ⟨0, _⟩ => exact Or.inl rfl
  | ⟨1, _⟩ => exact Or.inr rfl

/-- The dimension numbers of a scatter of scalars at index pairs. -/
abbrev pairsDims (N M n : Nat) (wf : ScatterDims.WF ⟨2, ![N, M]⟩ ⟨2, ![n, 2]⟩ ⟨1, ![n]⟩ [] [0, 1] [0, 1] 1) :
    ScatterDims ⟨2, ![N, M]⟩ ⟨2, ![n, 2]⟩ ⟨1, ![n]⟩ where
  updateWindowDims := []
  insertedWindowDims := [0, 1]
  scatterDimsToOperandDims := [0, 1]
  indexVectorDim := 1
  wf := wf

section Pairs
variable {N M n w : Nat} (wf : ScatterDims.WF ⟨2, ![N, M]⟩ ⟨2, ![n, 2]⟩ ⟨1, ![n]⟩ [] [0, 1] [0, 1] 1)
  (e : Fin n) (idx : IVec ⟨2, ![n, 2]⟩ w)

/-- On axis 0 the window of update e starts at the first component of its index pair, read signed. -/
theorem pairs_start0 : (pairsDims N M n wf).start (ix1 e) idx 0 = (idx (ix2 e (0 : Fin 2))).toInt := by
  unfold ScatterDims.start
  rw [dif_pos (show (0 : Fin 2) ∈ (pairsDims N M n wf).scatterDimsToOperandDims from List.mem_cons_self)]
  have hsi : (pairsDims N M n wf).siIdx (ix1 e) ⟨List.idxOf (0 : Fin 2) (pairsDims N M n wf).scatterDimsToOperandDims,
      List.idxOf_lt_length_iff.2 List.mem_cons_self⟩ = ix2 e (0 : Fin 2) := by
    funext b; refine Fin.ext ?_
    match b with
    | ⟨0, _⟩ => rfl
    | ⟨1, _⟩ => rfl
  rw [hsi]

/-- On axis 1 the window of update e starts at the second component of its index pair, read signed. -/
theorem pairs_start1 : (pairsDims N M n wf).start (ix1 e) idx 1 = (idx (ix2 e (1 : Fin 2))).toInt := by
  unfold ScatterDims.start
  have hmem : (1 : Fin 2) ∈ (pairsDims N M n wf).scatterDimsToOperandDims :=
    List.mem_cons_of_mem _ (List.mem_singleton.mpr rfl)
  rw [dif_pos hmem]
  have hsi : (pairsDims N M n wf).siIdx (ix1 e) ⟨List.idxOf (1 : Fin 2) (pairsDims N M n wf).scatterDimsToOperandDims,
      List.idxOf_lt_length_iff.2 hmem⟩ = ix2 e (1 : Fin 2) := by
    funext b; refine Fin.ext ?_
    match b with
    | ⟨0, _⟩ => rfl
    | ⟨1, _⟩ => rfl
  rw [hsi]

/-- There is no window axis: the window coordinate is 0 on both axes. -/
theorem pairs_window (a : Fin 2) : (pairsDims N M n wf).window (ix1 e) a = 0 := by
  unfold ScatterDims.window
  rw [dif_neg]
  rcases axis2_cases (N := N) (M := M) a with rfl | rfl <;>
    simp [ScatterDims.sKept, Shape.kept, List.mem_filter, List.mem_finRange]

/-- Update e lands on (i, j) exactly when its index pair, read signed, is (i, j). -/
theorem pairs_resultIdx?_eq_some_iff (i : Fin N) (j : Fin M) :
    (pairsDims N M n wf).resultIdx? (ix1 e) idx = some (ix2 i j)
      ↔ ((idx (ix2 e (0 : Fin 2))).toInt = (i.val : ℤ) ∧ (idx (ix2 e (1 : Fin 2))).toInt = (j.val : ℤ)) := by
  unfold ScatterDims.resultIdx?
  have hs0 : (pairsDims N M n wf).start (ix1 e) idx 0 + ((pairsDims N M n wf).window (ix1 e) 0 : ℤ)
      = (idx (ix2 e (0 : Fin 2))).toInt := by
    rw [pairs_start0, pairs_window]; simp
  have hs1 : (pairsDims N M n wf).start (ix1 e) idx 1 + ((pairsDims N M n wf).window (ix1 e) 1 : ℤ)
      = (idx (ix2 e (1 : Fin 2))).toInt := by
    rw [pairs_start1, pairs_window]; simp
  constructor
  · intro h
    split at h
    · rename_i hall
      have q := Option.some.inj h
      have h0 := congrArg Fin.val (congrFun q 0)
      have h1 := congrArg Fin.val (congrFun q 1)
      change ((pairsDims N M n wf).start (ix1 e) idx 0 + ((pairsDims N M n wf).window (ix1 e) 0 : ℤ)).toNat
        = i.val at h0
      change ((pairsDims N M n wf).start (ix1 e) idx 1 + ((pairsDims N M n wf).window (ix1 e) 1 : ℤ)).toNat
        = j.val at h1
      have hp0 := (hall 0).1
      have hp1 := (hall 1).1
      rw [hs0] at h0 hp0
      rw [hs1] at h1 hp1
      exact ⟨by omega, by omega⟩
    · exact absurd h (by simp)
  · rintro ⟨h0, h1⟩
    have hall : ∀ a, 0 ≤ (pairsDims N M n wf).start (ix1 e) idx a + ((pairsDims N M n wf).window (ix1 e) a : ℤ) ∧
        (pairsDims N M n wf).start (ix1 e) idx a + ((pairsDims N M n wf).window (ix1 e) a : ℤ)
          < ((⟨2, ![N, M]⟩ : Shape).size a : ℤ) := by
      intro a
      rcases axis2_cases a with rfl | rfl
      · rw [hs0, h0]
        have := i.isLt
        constructor
        · omega
        · change (i.val : ℤ) < (N : ℤ); omega
      · rw [hs1, h1]
        have := j.isLt
        constructor
        · omega
        · change (j.val : ℤ) < (M : ℤ); omega
    rw [dif_pos hall]
    congr 1
    funext a
    refine Fin.ext ?_
    rcases axis2_cases a with rfl | rfl
    · change ((pairsDims N M n wf).start (ix1 e) idx 0 + ((pairsDims N M n wf).window (ix1 e) 0 : ℤ)).toNat = i.val
      rw [hs0, h0]; simp
    · change ((pairsDims N M n wf).start (ix1 e) idx 1 + ((pairsDims N M n wf).window (ix1 e) 1 : ℤ)).toNat = j.val
      rw [hs1, h1]; simp

end Pairs

/-- THE PAIR SCATTER-ADD READ AT (i, j): the operand there plus the sum of the updates whose index pair, read
    signed, is (i, j). -/
theorem scatterAdd_pairs_apply {N M n w : Nat} {φ : FTy} (d : ScatterDims ⟨2, ![N, M]⟩ ⟨2, ![n, 2]⟩ ⟨1, ![n]⟩)
    (hu : d.updateWindowDims = []) (hi : d.insertedWindowDims = [0, 1]) (hs : d.scatterDimsToOperandDims = [0, 1])
    (hv : d.indexVectorDim = 1)
    (x : FVec Ideal ⟨2, ![N, M]⟩ φ) (idx : IVec ⟨2, ![n, 2]⟩ w) (upd : FVec Ideal ⟨1, ![n]⟩ φ) (i : Fin N) (j : Fin M) :
    Host.scatterAdd d x idx upd (ix2 i j)
      = x (ix2 i j) + ∑ e ∈ Finset.univ.filter (fun e : Fin n =>
          (idx (ix2 e (0 : Fin 2))).toInt = (i.val : ℤ) ∧ (idx (ix2 e (1 : Fin 2))).toInt = (j.val : ℤ)), upd (ix1 e) := by
  obtain ⟨uw, iw, sd, iv, wf⟩ := d
  dsimp only at hu hi hs hv
  subst hu hi hs hv
  unfold Host.scatterAdd
  rw [Ideal.hostScatterAdd_def]
  unfold Ideal.hostScatterAdd
  congr 1
  symm
  refine Finset.sum_bij (fun e _ => ix1 e) ?_ ?_ ?_ ?_
  · intro e he
    simp only [Finset.mem_filter, Finset.mem_univ, true_and] at he ⊢
    exact (pairs_resultIdx?_eq_some_iff wf e idx i j).2 he
  · intro e _ e' _ hee
    exact congrFun hee 0
  · intro p hp
    simp only [Finset.mem_filter, Finset.mem_univ, true_and] at hp
    rw [eq_ix1 p] at hp ⊢
    exact ⟨p 0, Finset.mem_filter.2 ⟨Finset.mem_univ _, (pairs_resultIdx?_eq_some_iff wf (p 0) idx i j).1 hp⟩, rfl⟩
  · intro e _
    rfl

/-- The same as a sum over every update, each counted when its index pair is (i, j). -/
theorem scatterAdd_pairs_apply_ite {N M n w : Nat} {φ : FTy} (d : ScatterDims ⟨2, ![N, M]⟩ ⟨2, ![n, 2]⟩ ⟨1, ![n]⟩)
    (hu : d.updateWindowDims = []) (hi : d.insertedWindowDims = [0, 1]) (hs : d.scatterDimsToOperandDims = [0, 1])
    (hv : d.indexVectorDim = 1)
    (x : FVec Ideal ⟨2, ![N, M]⟩ φ) (idx : IVec ⟨2, ![n, 2]⟩ w) (upd : FVec Ideal ⟨1, ![n]⟩ φ) (i : Fin N) (j : Fin M) :
    Host.scatterAdd d x idx upd (ix2 i j)
      = x (ix2 i j) + ∑ e : Fin n,
          if (idx (ix2 e (0 : Fin 2))).toInt = (i.val : ℤ) ∧ (idx (ix2 e (1 : Fin 2))).toInt = (j.val : ℤ)
          then upd (ix1 e) else 0 := by
  rw [scatterAdd_pairs_apply d hu hi hs hv, Finset.sum_filter]

end Cert.LibScatterAddPairs

end
-- ==== Proof.KI.Host.lean ====
/-
  The host stages of the kernel-side program read at an index, over the extended reals, for an arbitrary valuation
  `W` of the buffers a stretch starts from: the node features padded with 240 zero rows, the bias, edge-weight, scale
  and shift vectors stood up as one row, the two columns of the edge list, the (destination, source) multiplicity
  matrix as a scatter of ones onto zeros, and the mean and variance rows from the sum and the sum of squares.
-/
import proofs.«421049_j39367670235755_2_alg».proof.Proof.Gen.KernelIdeal.Launch
import proofs.«421049_j39367670235755_2_alg».proof.Proof.Gen.KernelIdeal.Regions
import Idealize.ShloMosaic.Lib.StableHlo.Run
import Idealize.ShloMosaic.Lib.ValueIdx
import Idealize.ShloMosaic.Lib.ValueLayout
import Idealize.ShloMosaic.Lib.KernelVsHost
import Idealize.ShloMosaic.Lib.IdealHost
import proofs.«421049_j39367670235755_2_alg».proof.Proof.KI.Spec
import proofs.«421049_j39367670235755_2_alg».proof.Proof.LibScatterAddPairs

set_option maxRecDepth 16384

noncomputable section

namespace Cert.KernelIdeal.HandVal

open Idealize.ShloMosaic Idealize.ShloMosaic.TcCoe Idealize.ShloMosaic.ValueIdx
open Cert.KernelIdeal Cert.KernelIdeal.Gen

variable (W : Valuation τ sig (Elt Ideal))

/-! ## Two shape casts by coordinates -/

/-- An `[a, 1]` array cast to `[a]` reads, at `i`, the operand at `(i, 0)`. -/
private theorem shapeCast_a1_a_apply {α : Type} {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-! ## The first stretch: the two columns of the edge list -/

/-- Column 0 of the edge list, flattened. -/
theorem v1_apply (e : Fin 160000) :
    (StableHlo.after (hostOps0 (F := Ideal)) W main_v1 : S160000.Idx → BitVec 32) (ix1 e)
      = (W main_arg1 : S160000x2.Idx → BitVec 32) (ix2 e (0 : Fin 2)) := by
  show StableHlo.after hostOps0 W (Proc.devRef .tc main_v1) (ix1 e) = _
  after_results
  show shapeCast S160000 (extractStridedSlice S160000x1 ![0, 0] (W (Proc.devRef .tc main_arg1)) slices_S160000x2_S160000x1_0_0)
      shapeCasts_S160000x1_S160000 (ix1 e) = _
  rw [shapeCast_a1_a_apply]
  exact slice2_axis1_apply 0 _ _ e (0 : Fin 1) (0 : Fin 2) rfl

/-- Column 1 of the edge list, flattened. -/
theorem v3_apply (e : Fin 160000) :
    (StableHlo.after (hostOps0 (F := Ideal)) W main_v3 : S160000.Idx → BitVec 32) (ix1 e)
      = (W main_arg1 : S160000x2.Idx → BitVec 32) (ix2 e (1 : Fin 2)) := by
  show StableHlo.after hostOps0 W (Proc.devRef .tc main_v3) (ix1 e) = _
  after_results
  show shapeCast S160000 (extractStridedSlice S160000x1 ![0, 1] (W (Proc.devRef .tc main_arg1)) slices_S160000x2_S160000x1_0_1)
      shapeCasts_S160000x1_S160000 (ix1 e) = _
  rw [shapeCast_a1_a_apply]
  exact slice2_axis1_apply 1 _ _ e (0 : Fin 1) (1 : Fin 2) rfl

/-- The first stretch leaves the zero word in `main_c`. -/
theorem c_after0 : (StableHlo.after (hostOps0 (F := Ideal)) W main_c : S_.Idx → BitVec 32) = constantI S_ 32 0#32 := by
  show StableHlo.after hostOps0 W (Proc.devRef .tc main_c) = _
  after_results

/-! ## The padded node features -/

/-- The word zero converts to the extended real zero. -/
private theorem sitofp_zero_word : (FloatOps.sitofp (F := Ideal) .f32 (0#32 : BitVec 32) : EReal) = 0 := by
  show (((0#32 : BitVec 32).toInt : ℝ) : EReal) = 0
  simp

/-- The node features padded with 240 zero rows, given the zero word in `main_c`. -/
theorem v4_apply (hc : (W main_c : S_.Idx → BitVec 32) ix0 = 0#32) (b : Fin 8) (v : Fin 10240) (f : Fin 128) :
    (StableHlo.after (hostOps0_1 (F := Ideal)) W main_v4 : S8x10240x128.Idx → EReal) (ix3 b v f)
      = Cert.Spec.xpad (fun b v f => (W main_arg0 : S8x10000x128.Idx → EReal) (ix3 b v f)) b v f := by
  show StableHlo.after hostOps0_1 W (Proc.devRef .tc main_v4) (ix3 b v f) = _
  after_results
  simp only [StableHlo.TRef.ofBuf, StableHlo.TRef.toBuf, cast_eq]
  unfold Cert.Spec.xpad
  by_cases h : v.val < 10000
  · rw [dif_pos h]
    refine pad_apply_of_inside _ _ _ _ _ _ _ (ix3 b v f) (ix3 b (⟨v.val, h⟩ : Fin 10000) f) fun a => ?_
    match a with
    | ⟨0, _⟩ => show b.val = 0 + b.val * (0 + 1); omega
    | ⟨1, _⟩ => show v.val = 0 + v.val * (0 + 1); omega
    | ⟨2, _⟩ => show f.val = 0 + f.val * (0 + 1); omega
  · rw [dif_neg h]
    refine (pad_apply_of_not_inside _ _ _ _ _ _ _ (ix3 b v f) (1 : Fin 3) ?_).trans ?_
    · rintro ⟨_, _, h3⟩
      have h3' : (v.val - 0) / (0 + 1) < 10000 := h3
      simp at h3'
      exact h h3'
    · rw [eq_ix0 (Shape.Idx.first h_S_), sitofp_apply, hc]
      exact sitofp_zero_word

/-- The same from the launch side of the first stretch. -/
theorem v4_apply' (b : Fin 8) (v : Fin 10240) (f : Fin 128) :
    (StableHlo.after (hostOps0_1 (F := Ideal)) (StableHlo.after (hostOps0 (F := Ideal)) W) main_v4 : S8x10240x128.Idx → EReal) (ix3 b v f)
      = Cert.Spec.xpad (fun b v f => (W main_arg0 : S8x10000x128.Idx → EReal) (ix3 b v f)) b v f := by
  have h0 : (StableHlo.after (hostOps0 (F := Ideal)) W main_arg0 : S8x10000x128.Idx → EReal) = W main_arg0 :=
    StableHlo.after_of_writes_sub hostOps0 W hostOps0_writes (r := main_arg0) (by decide)
  rw [v4_apply (StableHlo.after (hostOps0 (F := Ideal)) W) (by rw [c_after0]; rfl) b v f, h0]

/-! ## Three reshapes -/

/-- The self bias as one row. -/
theorem v5_apply (o : Fin 128) :
    (StableHlo.after (hostOps0_2 (F := Ideal)) W main_v5 : S1x128.Idx → EReal) (ix2 (0 : Fin 1) o)
      = (W main_arg6 : S128.Idx → EReal) (ix1 o) := by
  show StableHlo.after hostOps0_2 W (Proc.devRef .tc main_v5) (ix2 (0 : Fin 1) o) = _
  after_results
  exact shapeCast_a_1a_apply _ _ _ _

/-- The edge weight column as one row. -/
theorem v30_apply (o : Fin 128) :
    (StableHlo.after (hostOps1_2 (F := Ideal)) W main_v30 : S1x128.Idx → EReal) (ix2 (0 : Fin 1) o)
      = (W main_arg4 : S128x1.Idx → EReal) (ix2 o (0 : Fin 1)) := by
  show StableHlo.after hostOps1_2 W (Proc.devRef .tc main_v30) (ix2 (0 : Fin 1) o) = _
  after_results
  show shapeCast S1x128 (shapeCast S128 (W (Proc.devRef .tc main_arg4)) shapeCasts_S128x1_S128) shapeCasts_S128_S1x128 (ix2 (0 : Fin 1) o) = _
  rw [shapeCast_a_1a_apply, shapeCast_a1_a_apply]

/-! ## The statistics' host stage -/

/-- The mean row. -/
theorem v34_apply (o : Fin 128) :
    (StableHlo.after (hostOps3 (F := Ideal)) W main_v34 : S1x128.Idx → EReal) (ix2 (0 : Fin 1) o)
      = Cert.Spec.meanK ((W main_v32_0 : S1x128.Idx → EReal) (ix2 (0 : Fin 1) o)) := by
  show StableHlo.after hostOps3 W (Proc.devRef .tc main_v34) (ix2 (0 : Fin 1) o) = _
  after_results
  rw [hostDivf_apply, broadcastInDim_scalar_apply]
  rfl

/-- The variance row. -/
theorem v40_apply (o : Fin 128) :
    (StableHlo.after (hostOps3 (F := Ideal)) W main_v40 : S1x128.Idx → EReal) (ix2 (0 : Fin 1) o)
      = Cert.Spec.varK ((W main_v32_0 : S1x128.Idx → EReal) (ix2 (0 : Fin 1) o))
          ((W main_v32_1 : S1x128.Idx → EReal) (ix2 (0 : Fin 1) o)) := by
  show StableHlo.after hostOps3 W (Proc.devRef .tc main_v40) (ix2 (0 : Fin 1) o) = _
  after_results
  rw [maximumf_apply, subf_apply, mulf_apply, hostDivf_apply, hostDivf_apply]
  rw [broadcastInDim_scalar_apply, broadcastInDim_scalar_apply]
  simp only [constant_apply, Ideal.ofBits_zero_f32]
  rfl

/-- The scale as one row. -/
theorem v41_apply (o : Fin 128) :
    (StableHlo.after (hostOps3 (F := Ideal)) W main_v41 : S1x128.Idx → EReal) (ix2 (0 : Fin 1) o)
      = (W main_arg7 : S128.Idx → EReal) (ix1 o) := by
  show StableHlo.after hostOps3 W (Proc.devRef .tc main_v41) (ix2 (0 : Fin 1) o) = _
  after_results
  exact shapeCast_a_1a_apply _ _ _ _

/-- The shift as one row. -/
theorem v42_apply (o : Fin 128) :
    (StableHlo.after (hostOps3 (F := Ideal)) W main_v42 : S1x128.Idx → EReal) (ix2 (0 : Fin 1) o)
      = (W main_arg8 : S128.Idx → EReal) (ix1 o) := by
  show StableHlo.after hostOps3 W (Proc.devRef .tc main_v42) (ix2 (0 : Fin 1) o) = _
  after_results
  exact shapeCast_a_1a_apply _ _ _ _

/-! ## Words that are not negative -/

/-- A word that is not negative, read signed, is not below the zero word. -/
private theorem cmpi_slt_zero (x : BitVec 32) (h : 0 ≤ x.toInt) : IntOp.cmpi .slt x 0#32 = 0#1 := by
  unfold IntOp.cmpi
  have hs : x.slt 0#32 = false := by
    rw [BitVec.slt]
    simp only [BitVec.toInt_zero, decide_eq_false_iff_not, not_lt]
    exact h
  simp only [hs]
  rfl

/-- The wrap-around of a word that is not negative leaves it. -/
private theorem wrap_id (x y : BitVec 32) (h : 0 ≤ x.toInt) : Scalar.select (IntOp.cmpi .slt x 0#32) y x = x := by
  rw [cmpi_slt_zero x h]
  exact select_zero _ _

/-- A word that is not negative reads the same signed and unsigned. -/
private theorem toInt_eq_natCast_of_nonneg (x : BitVec 32) (h : 0 ≤ x.toInt) (n : ℕ) : x.toInt = (n : ℤ) ↔ x.toNat = n := by
  have hc := BitVec.toInt_eq_toNat_cond x
  have hw := x.isLt
  split at hc <;> omega

/-! ## The pair of index columns -/

/-- A flat index column wrapped around 10240 and stood up as `[160000, 1]`. -/
private abbrev wrapCol (x : IVec S160000 32) : IVec S160000x1 32 :=
  broadcastInDim S160000x1 ![0] bcast_S160000_S160000x1_0
    (select (cmpi .slt x (broadcastInDim S160000 ![] bcast_S_S160000 (constantI S_ 32 0#32)))
      (addi x (broadcastInDim S160000 ![] bcast_S_S160000 (constantI S_ 32 10240#32))) x)

/-- The wrapped column reads, at an edge whose word is not negative, that word. -/
private theorem wrapCol_apply (x : IVec S160000 32) (e : Fin 160000) (h : 0 ≤ (x (ix1 e)).toInt) :
    wrapCol x (ix2 e (0 : Fin 1)) = x (ix1 e) := by
  unfold wrapCol
  rw [broadcastInDim_apply _ _ _ (ix2 e (0 : Fin 1)) (ix1 e) (fun a => by
    match a with
    | ⟨0, _⟩ => rfl)]
  rw [select_apply]
  show Scalar.select (IntOp.cmpi .slt (x (ix1 e)) (broadcastInDim S160000 ![] bcast_S_S160000 (constantI S_ 32 0#32) (ix1 e))) _ (x (ix1 e)) = _
  rw [broadcastInDim_scalar_apply, constantI_apply]
  exact wrap_id _ _ h

/-- Two `[160000, 1]` columns side by side: column 0 is the first. -/
private theorem pairCols_apply0 (a b : IVec S160000x1 32) (e : Fin 160000) :
    concatenate S160000x2 1 [⟨S160000x1, a⟩, ⟨S160000x1, b⟩] concatenates_S160000x1_S160000x1_S160000x2_d1 (ix2 e (0 : Fin 2))
      = a (ix2 e (0 : Fin 1)) :=
  concatenate_pair_apply_left (1 : Fin 2) a b _ (ix2 e (0 : Fin 2)) rfl (ix2 e (0 : Fin 1)) fun c => by
    match c with
    | ⟨0, _⟩ => rfl
    | ⟨1, _⟩ => rfl

/-- … and column 1 is the second. -/
private theorem pairCols_apply1 (a b : IVec S160000x1 32) (e : Fin 160000) :
    concatenate S160000x2 1 [⟨S160000x1, a⟩, ⟨S160000x1, b⟩] concatenates_S160000x1_S160000x1_S160000x2_d1 (ix2 e (1 : Fin 2))
      = b (ix2 e (0 : Fin 1)) :=
  concatenate_pair_apply_right (1 : Fin 2) a b _ (ix2 e (1 : Fin 2)) rfl rfl (ix2 e (0 : Fin 1))
    (fun c hc => by
      match c with
      | ⟨0, _⟩ => rfl
      | ⟨1, _⟩ => exact absurd rfl hc)
    rfl

/-! ## The multiplicity matrix -/

/-- Ones scattered onto zeros at the pairs (column `A`, column `B`), then narrowed: when the two columns read the index
    words `x3`, `x1` and those are not negative, entry `(v, u)` counts the edges whose pair is `(v, u)`. -/
private theorem amat_of_pairs (A B : IVec S160000x1 32) (x1 x3 : IVec S160000 32)
    (hA : ∀ e : Fin 160000, A (ix2 e (0 : Fin 1)) = x3 (ix1 e)) (hB : ∀ e : Fin 160000, B (ix2 e (0 : Fin 1)) = x1 (ix1 e))
    (h1 : ∀ e, 0 ≤ (x1 (ix1 e)).toInt) (h3 : ∀ e, 0 ≤ (x3 (ix1 e)).toInt) (v u : Fin 10240) :
    (truncf .bf16 (Host.scatterAdd scatter_S10240x10240_S160000x2_S160000_n_01_01_1
        (broadcastInDim S10240x10240 ![] bcast_S_S10240x10240 (constant (F := Ideal) S_ .f32 0x00000000#32))
        (concatenate S160000x2 1 [⟨S160000x1, A⟩, ⟨S160000x1, B⟩] concatenates_S160000x1_S160000x1_S160000x2_d1)
        (broadcastInDim S160000 ![] bcast_S_S160000 (constant (F := Ideal) S_ .f32 0x3F800000#32)))
      bitsLt_bf16_f32 : FVec Ideal S10240x10240 .bf16) (ix2 v u)
      = Cert.Spec.Amat (fun e => (x1 (ix1 e)).toNat) (fun e => (x3 (ix1 e)).toNat) v u := by
  rw [truncf_apply]
  rw [Cert.LibScatterAddPairs.scatterAdd_pairs_apply_ite _ rfl rfl rfl rfl]
  rw [broadcastInDim_scalar_apply, constant_apply, Ideal.ofBits_zero_f32, zero_add]
  unfold Cert.Spec.Amat
  refine Finset.sum_congr rfl fun e _ => ?_
  beta_reduce
  rw [pairCols_apply0, pairCols_apply1, hA e, hB e]
  rw [broadcastInDim_scalar_apply, constant_apply, Ideal.ofBits_one_f32]
  refine if_congr ?_ rfl rfl
  rw [toInt_eq_natCast_of_nonneg _ (h3 e), toInt_eq_natCast_of_nonneg _ (h1 e)]

set_option maxHeartbeats 1000000 in
/-- The multiplicity matrix: entry `(v, u)` counts the edges from `u` to `v`, for edge words in `[0, 10000)`. -/
theorem v23_apply
    (h1 : ∀ e : Fin 160000, 0 ≤ ((W main_v1 : S160000.Idx → BitVec 32) (ix1 e)).toInt
      ∧ ((W main_v1 : S160000.Idx → BitVec 32) (ix1 e)).toInt < 10000)
    (h3 : ∀ e : Fin 160000, 0 ≤ ((W main_v3 : S160000.Idx → BitVec 32) (ix1 e)).toInt
      ∧ ((W main_v3 : S160000.Idx → BitVec 32) (ix1 e)).toInt < 10000)
    (v u : Fin 10240) :
    (StableHlo.after (hostOps1 (F := Ideal)) W main_v23 : S10240x10240.Idx → EReal) (ix2 v u)
      = Cert.Spec.Amat (fun e => ((W main_v1 : S160000.Idx → BitVec 32) (ix1 e)).toNat)
          (fun e => ((W main_v3 : S160000.Idx → BitVec 32) (ix1 e)).toNat) v u := by
  show StableHlo.after hostOps1 W (Proc.devRef .tc main_v23) (ix2 v u) = _
  after_results_simp
  refine amat_of_pairs _ _ (W (Proc.devRef .tc main_v1)) (W (Proc.devRef .tc main_v3)) (fun e => ?_) (fun e => ?_)
    (fun e => (h1 e).1) (fun e => (h3 e).1) v u
  · after_results_simp
    exact wrapCol_apply _ e (h3 e).1
  · after_results_simp
    exact wrapCol_apply _ e (h1 e).1

end Cert.KernelIdeal.HandVal

end
-- ==== Proof.LibScatterAddRows.lean ====
/- The accumulating scatter of whole rows: operand [N, C] (or [N, A, B]), start indices [n, 1], updates [n, C] (or [n, A, B]); the operand's axis 0 is inserted and named by the one component of the index vector, the other axes are the update window. Update row j lands on operand row i exactly when its start index, read signed, equals i; a row outside [0, N) lands nowhere. -/
import Idealize.ShloMosaic.PureOps.Ideal
import Idealize.ShloMosaic.Lib.ValueIdx

noncomputable section

open scoped BigOperators

namespace Cert.LibScatterAddRows

open Idealize.ShloMosaic Idealize.ShloMosaic.ValueIdx

/-! ## One window axis -/

/-- An axis of a rank-2 shape is axis 0 or axis 1. -/
theorem axis2_cases {N C : Nat} (a : Fin (⟨2, ![N, C]⟩ : Shape).rank) : a = 0 ∨ a = 1 := by
  match a with
  | ⟨0, _⟩ => exact Or.inl rfl
  | ⟨1, _⟩ => exact Or.inr rfl

/-- The dimension numbers of a scatter of whole rows, one window axis. -/
abbrev rows2Dims (N n C : Nat) (wf : ScatterDims.WF ⟨2, ![N, C]⟩ ⟨2, ![n, 1]⟩ ⟨2, ![n, C]⟩ [1] [0] [0] 1) :
    ScatterDims ⟨2, ![N, C]⟩ ⟨2, ![n, 1]⟩ ⟨2, ![n, C]⟩ where
  updateWindowDims := [1]
  insertedWindowDims := [0]
  scatterDimsToOperandDims := [0]
  indexVectorDim := 1
  wf := wf

section Rows2
variable {N n C w : Nat} (wf : ScatterDims.WF ⟨2, ![N, C]⟩ ⟨2, ![n, 1]⟩ ⟨2, ![n, C]⟩ [1] [0] [0] 1)
  (j : Fin n) (c : Fin C) (idx : IVec ⟨2, ![n, 1]⟩ w)

/-- On the inserted axis the window of update (j, c) starts at row j's start index, read signed. -/
theorem rows2_start0 : (rows2Dims N n C wf).start (ix2 j c) idx 0 = (idx (ix2 j (0 : Fin 1))).toInt := by
  unfold ScatterDims.start
  rw [dif_pos (show (0 : Fin 2) ∈ (rows2Dims N n C wf).scatterDimsToOperandDims from List.mem_singleton.mpr rfl)]
  have hsi : (rows2Dims N n C wf).siIdx (ix2 j c) ⟨List.idxOf (0 : Fin 2) (rows2Dims N n C wf).scatterDimsToOperandDims,
      List.idxOf_lt_length_iff.2 (List.mem_singleton.mpr rfl)⟩ = ix2 j (0 : Fin 1) := by
    funext b; refine Fin.ext ?_
    match b with
    | ⟨0, _⟩ => rfl
    | ⟨1, _⟩ => rfl
  rw [hsi]

/-- On the window axis the start is 0. -/
theorem rows2_start1 : (rows2Dims N n C wf).start (ix2 j c) idx 1 = 0 := by
  unfold ScatterDims.start
  rw [dif_neg]
  simp

/-- The inserted axis has window coordinate 0. -/
theorem rows2_window0 : (rows2Dims N n C wf).window (ix2 j c) 0 = 0 := by
  unfold ScatterDims.window
  rw [dif_neg]
  simp [ScatterDims.sKept, Shape.kept, List.mem_filter, List.mem_finRange]

/-- The window axis has the update's column as window coordinate. -/
theorem rows2_window1 : (rows2Dims N n C wf).window (ix2 j c) 1 = c.val := by
  unfold ScatterDims.window
  rw [dif_pos (by simp [ScatterDims.sKept, Shape.kept, List.mem_filter, List.mem_finRange])]
  rfl

/-- Update (j, c) lands on (i, c') exactly when row j's start index, read signed, is i and the columns agree. -/
theorem rows2_resultIdx?_eq_some_iff (i : Fin N) (c' : Fin C) :
    (rows2Dims N n C wf).resultIdx? (ix2 j c) idx = some (ix2 i c')
      ↔ ((idx (ix2 j (0 : Fin 1))).toInt = (i.val : ℤ) ∧ c = c') := by
  unfold ScatterDims.resultIdx?
  have hs0 : (rows2Dims N n C wf).start (ix2 j c) idx 0 + ((rows2Dims N n C wf).window (ix2 j c) 0 : ℤ)
      = (idx (ix2 j (0 : Fin 1))).toInt := by
    rw [rows2_start0, rows2_window0]; simp
  have hs1 : (rows2Dims N n C wf).start (ix2 j c) idx 1 + ((rows2Dims N n C wf).window (ix2 j c) 1 : ℤ)
      = (c.val : ℤ) := by
    rw [rows2_start1, rows2_window1]; simp
  constructor
  · intro h
    split at h
    · rename_i hall
      have e := Option.some.inj h
      have h0 := congrArg Fin.val (congrFun e 0)
      have h1 := congrArg Fin.val (congrFun e 1)
      change ((rows2Dims N n C wf).start (ix2 j c) idx 0 + ((rows2Dims N n C wf).window (ix2 j c) 0 : ℤ)).toNat
        = i.val at h0
      change ((rows2Dims N n C wf).start (ix2 j c) idx 1 + ((rows2Dims N n C wf).window (ix2 j c) 1 : ℤ)).toNat
        = c'.val at h1
      have hp := (hall 0).1
      rw [hs0] at h0 hp
      rw [hs1] at h1
      exact ⟨by omega, Fin.ext (by omega)⟩
    · exact absurd h (by simp)
  · rintro ⟨h, rfl⟩
    have hall : ∀ a, 0 ≤ (rows2Dims N n C wf).start (ix2 j c) idx a + ((rows2Dims N n C wf).window (ix2 j c) a : ℤ) ∧
        (rows2Dims N n C wf).start (ix2 j c) idx a + ((rows2Dims N n C wf).window (ix2 j c) a : ℤ)
          < ((⟨2, ![N, C]⟩ : Shape).size a : ℤ) := by
      intro a
      rcases axis2_cases a with rfl | rfl
      · rw [hs0, h]
        have := i.isLt
        constructor
        · omega
        · change (i.val : ℤ) < (N : ℤ); omega
      · rw [hs1]
        have := c.isLt
        constructor
        · omega
        · change (c.val : ℤ) < (C : ℤ); omega
    rw [dif_pos hall]
    congr 1
    funext a
    refine Fin.ext ?_
    rcases axis2_cases a with rfl | rfl
    · change ((rows2Dims N n C wf).start (ix2 j c) idx 0 + ((rows2Dims N n C wf).window (ix2 j c) 0 : ℤ)).toNat = i.val
      rw [hs0, h]; simp
    · change ((rows2Dims N n C wf).start (ix2 j c) idx 1 + ((rows2Dims N n C wf).window (ix2 j c) 1 : ℤ)).toNat = c.val
      rw [hs1]; simp

end Rows2

/-- THE ROW SCATTER-ADD READ AT (i, c), one window axis: the operand there plus the sum, over the update rows whose
    start index is i, of the update at column c. -/
theorem scatterAdd_rows2_apply {N n C w : Nat} {φ : FTy} (d : ScatterDims ⟨2, ![N, C]⟩ ⟨2, ![n, 1]⟩ ⟨2, ![n, C]⟩)
    (hu : d.updateWindowDims = [1]) (hi : d.insertedWindowDims = [0]) (hs : d.scatterDimsToOperandDims = [0])
    (hv : d.indexVectorDim = 1)
    (x : FVec Ideal ⟨2, ![N, C]⟩ φ) (idx : IVec ⟨2, ![n, 1]⟩ w) (upd : FVec Ideal ⟨2, ![n, C]⟩ φ) (i : Fin N) (c : Fin C) :
    Host.scatterAdd d x idx upd (ix2 i c)
      = x (ix2 i c) + ∑ j ∈ Finset.univ.filter (fun j : Fin n => (idx (ix2 j (0 : Fin 1))).toInt = (i.val : ℤ)), upd (ix2 j c) := by
  obtain ⟨uw, iw, sd, iv, wf⟩ := d
  dsimp only at hu hi hs hv
  subst hu hi hs hv
  unfold Host.scatterAdd
  rw [Ideal.hostScatterAdd_def]
  unfold Ideal.hostScatterAdd
  congr 1
  symm
  refine Finset.sum_bij (fun j _ => ix2 j c) ?_ ?_ ?_ ?_
  · intro j hj
    simp only [Finset.mem_filter, Finset.mem_univ, true_and] at hj ⊢
    exact (rows2_resultIdx?_eq_some_iff wf j c idx i c).2 ⟨hj, rfl⟩
  · intro j _ j' _ hjj
    exact congrFun hjj 0
  · intro p hp
    simp only [Finset.mem_filter, Finset.mem_univ, true_and] at hp
    rw [eq_ix2 p] at hp ⊢
    obtain ⟨h0, h1⟩ := (rows2_resultIdx?_eq_some_iff wf (p 0) (p 1) idx i c).1 hp
    exact ⟨p 0, Finset.mem_filter.2 ⟨Finset.mem_univ _, h0⟩, congrArg (ix2 (p 0)) h1.symm⟩
  · intro j _
    rfl

/-! ## Two window axes -/

/-- An axis of a rank-3 shape is axis 0, 1 or 2. -/
theorem axis3_cases {N A B : Nat} (a : Fin (⟨3, ![N, A, B]⟩ : Shape).rank) : a = 0 ∨ a = 1 ∨ a = 2 := by
  match a with
  | ⟨0, _⟩ => exact Or.inl rfl
  | ⟨1, _⟩ => exact Or.inr (Or.inl rfl)
  | ⟨2, _⟩ => exact Or.inr (Or.inr rfl)

/-- The dimension numbers of a scatter of whole rows, two window axes. -/
abbrev rows3Dims (N n A B : Nat)
    (wf : ScatterDims.WF ⟨3, ![N, A, B]⟩ ⟨2, ![n, 1]⟩ ⟨3, ![n, A, B]⟩ [1, 2] [0] [0] 1) :
    ScatterDims ⟨3, ![N, A, B]⟩ ⟨2, ![n, 1]⟩ ⟨3, ![n, A, B]⟩ where
  updateWindowDims := [1, 2]
  insertedWindowDims := [0]
  scatterDimsToOperandDims := [0]
  indexVectorDim := 1
  wf := wf

section Rows3
variable {N n A B w : Nat} (wf : ScatterDims.WF ⟨3, ![N, A, B]⟩ ⟨2, ![n, 1]⟩ ⟨3, ![n, A, B]⟩ [1, 2] [0] [0] 1)
  (j : Fin n) (a : Fin A) (b : Fin B) (idx : IVec ⟨2, ![n, 1]⟩ w)

/-- On the inserted axis the window of update (j, a, b) starts at row j's start index, read signed. -/
theorem rows3_start0 : (rows3Dims N n A B wf).start (ix3 j a b) idx 0 = (idx (ix2 j (0 : Fin 1))).toInt := by
  unfold ScatterDims.start
  rw [dif_pos (show (0 : Fin 3) ∈ (rows3Dims N n A B wf).scatterDimsToOperandDims from List.mem_singleton.mpr rfl)]
  have hsi : (rows3Dims N n A B wf).siIdx (ix3 j a b)
      ⟨List.idxOf (0 : Fin 3) (rows3Dims N n A B wf).scatterDimsToOperandDims,
        List.idxOf_lt_length_iff.2 (List.mem_singleton.mpr rfl)⟩ = ix2 j (0 : Fin 1) := by
    funext e; refine Fin.ext ?_
    match e with
    | ⟨0, _⟩ => rfl
    | ⟨1, _⟩ => rfl
  rw [hsi]

/-- On the first window axis the start is 0. -/
theorem rows3_start1 : (rows3Dims N n A B wf).start (ix3 j a b) idx 1 = 0 := by
  unfold ScatterDims.start
  rw [dif_neg]
  simp

/-- On the second window axis the start is 0. -/
theorem rows3_start2 : (rows3Dims N n A B wf).start (ix3 j a b) idx 2 = 0 := by
  unfold ScatterDims.start
  rw [dif_neg]
  simp

/-- The inserted axis has window coordinate 0. -/
theorem rows3_window0 : (rows3Dims N n A B wf).window (ix3 j a b) 0 = 0 := by
  unfold ScatterDims.window
  rw [dif_neg]
  simp [ScatterDims.sKept, Shape.kept, List.mem_filter, List.mem_finRange]

/-- The first window axis has the update's second coordinate as window coordinate. -/
theorem rows3_window1 : (rows3Dims N n A B wf).window (ix3 j a b) 1 = a.val := by
  unfold ScatterDims.window
  rw [dif_pos (by simp [ScatterDims.sKept, Shape.kept, List.mem_filter, List.mem_finRange])]
  rfl

/-- The second window axis has the update's third coordinate as window coordinate. -/
theorem rows3_window2 : (rows3Dims N n A B wf).window (ix3 j a b) 2 = b.val := by
  unfold ScatterDims.window
  rw [dif_pos (by simp [ScatterDims.sKept, Shape.kept, List.mem_filter, List.mem_finRange])]
  rfl

/-- Update (j, a, b) lands on (i, a', b') exactly when row j's start index, read signed, is i and the window
    coordinates agree. -/
theorem rows3_resultIdx?_eq_some_iff (i : Fin N) (a' : Fin A) (b' : Fin B) :
    (rows3Dims N n A B wf).resultIdx? (ix3 j a b) idx = some (ix3 i a' b')
      ↔ ((idx (ix2 j (0 : Fin 1))).toInt = (i.val : ℤ) ∧ a = a' ∧ b = b') := by
  unfold ScatterDims.resultIdx?
  have hs0 : (rows3Dims N n A B wf).start (ix3 j a b) idx 0 + ((rows3Dims N n A B wf).window (ix3 j a b) 0 : ℤ)
      = (idx (ix2 j (0 : Fin 1))).toInt := by
    rw [rows3_start0, rows3_window0]; simp
  have hs1 : (rows3Dims N n A B wf).start (ix3 j a b) idx 1 + ((rows3Dims N n A B wf).window (ix3 j a b) 1 : ℤ)
      = (a.val : ℤ) := by
    rw [rows3_start1, rows3_window1]; simp
  have hs2 : (rows3Dims N n A B wf).start (ix3 j a b) idx 2 + ((rows3Dims N n A B wf).window (ix3 j a b) 2 : ℤ)
      = (b.val : ℤ) := by
    rw [rows3_start2, rows3_window2]; simp
  constructor
  · intro h
    split at h
    · rename_i hall
      have e := Option.some.inj h
      have h0 := congrArg Fin.val (congrFun e 0)
      have h1 := congrArg Fin.val (congrFun e 1)
      have h2 := congrArg Fin.val (congrFun e 2)
      change ((rows3Dims N n A B wf).start (ix3 j a b) idx 0 + ((rows3Dims N n A B wf).window (ix3 j a b) 0 : ℤ)).toNat
        = i.val at h0
      change ((rows3Dims N n A B wf).start (ix3 j a b) idx 1 + ((rows3Dims N n A B wf).window (ix3 j a b) 1 : ℤ)).toNat
        = a'.val at h1
      change ((rows3Dims N n A B wf).start (ix3 j a b) idx 2 + ((rows3Dims N n A B wf).window (ix3 j a b) 2 : ℤ)).toNat
        = b'.val at h2
      have hp := (hall 0).1
      rw [hs0] at h0 hp
      rw [hs1] at h1
      rw [hs2] at h2
      exact ⟨by omega, Fin.ext (by omega), Fin.ext (by omega)⟩
    · exact absurd h (by simp)
  · rintro ⟨h, rfl, rfl⟩
    have hall : ∀ e, 0 ≤ (rows3Dims N n A B wf).start (ix3 j a b) idx e + ((rows3Dims N n A B wf).window (ix3 j a b) e : ℤ) ∧
        (rows3Dims N n A B wf).start (ix3 j a b) idx e + ((rows3Dims N n A B wf).window (ix3 j a b) e : ℤ)
          < ((⟨3, ![N, A, B]⟩ : Shape).size e : ℤ) := by
      intro e
      rcases axis3_cases e with rfl | rfl | rfl
      · rw [hs0, h]
        have := i.isLt
        constructor
        · omega
        · change (i.val : ℤ) < (N : ℤ); omega
      · rw [hs1]
        have := a.isLt
        constructor
        · omega
        · change (a.val : ℤ) < (A : ℤ); omega
      · rw [hs2]
        have := b.isLt
        constructor
        · omega
        · change (b.val : ℤ) < (B : ℤ); omega
    rw [dif_pos hall]
    congr 1
    funext e
    refine Fin.ext ?_
    rcases axis3_cases e with rfl | rfl | rfl
    · change ((rows3Dims N n A B wf).start (ix3 j a b) idx 0 + ((rows3Dims N n A B wf).window (ix3 j a b) 0 : ℤ)).toNat = i.val
      rw [hs0, h]; simp
    · change ((rows3Dims N n A B wf).start (ix3 j a b) idx 1 + ((rows3Dims N n A B wf).window (ix3 j a b) 1 : ℤ)).toNat = a.val
      rw [hs1]; simp
    · change ((rows3Dims N n A B wf).start (ix3 j a b) idx 2 + ((rows3Dims N n A B wf).window (ix3 j a b) 2 : ℤ)).toNat = b.val
      rw [hs2]; simp

end Rows3

/-- The same with two window axes. -/
theorem scatterAdd_rows3_apply {N n A B w : Nat} {φ : FTy} (d : ScatterDims ⟨3, ![N, A, B]⟩ ⟨2, ![n, 1]⟩ ⟨3, ![n, A, B]⟩)
    (hu : d.updateWindowDims = [1, 2]) (hi : d.insertedWindowDims = [0]) (hs : d.scatterDimsToOperandDims = [0])
    (hv : d.indexVectorDim = 1)
    (x : FVec Ideal ⟨3, ![N, A, B]⟩ φ) (idx : IVec ⟨2, ![n, 1]⟩ w) (upd : FVec Ideal ⟨3, ![n, A, B]⟩ φ)
    (i : Fin N) (a : Fin A) (b : Fin B) :
    Host.scatterAdd d x idx upd (ix3 i a b)
      = x (ix3 i a b) + ∑ j ∈ Finset.univ.filter (fun j : Fin n => (idx (ix2 j (0 : Fin 1))).toInt = (i.val : ℤ)), upd (ix3 j a b) := by
  obtain ⟨uw, iw, sd, iv, wf⟩ := d
  dsimp only at hu hi hs hv
  subst hu hi hs hv
  unfold Host.scatterAdd
  rw [Ideal.hostScatterAdd_def]
  unfold Ideal.hostScatterAdd
  congr 1
  symm
  refine Finset.sum_bij (fun j _ => ix3 j a b) ?_ ?_ ?_ ?_
  · intro j hj
    simp only [Finset.mem_filter, Finset.mem_univ, true_and] at hj ⊢
    exact (rows3_resultIdx?_eq_some_iff wf j a b idx i a b).2 ⟨hj, rfl, rfl⟩
  · intro j _ j' _ hjj
    exact congrFun hjj 0
  · intro p hp
    simp only [Finset.mem_filter, Finset.mem_univ, true_and] at hp
    rw [eq_ix3 p] at hp ⊢
    obtain ⟨h0, h1, h2⟩ := (rows3_resultIdx?_eq_some_iff wf (p 0) (p 1) (p 2) idx i a b).1 hp
    exact ⟨p 0, Finset.mem_filter.2 ⟨Finset.mem_univ _, h0⟩, congrArg₂ (ix3 (p 0)) h1.symm h2.symm⟩
  · intro j _
    rfl

end Cert.LibScatterAddRows

end
-- ==== Proof.KI.HostS.lean ====
/- The edge attributes summed per destination node, as the host stages leave them: the attributes transposed to one row per edge, scattered with addition onto 10000 zero rows at each edge's destination index, and 240 zero rows appended. Read at row v and batch b this is the sum over the edges ending at v of the attribute of batch b, and zero on the appended rows. -/
import proofs.«421049_j39367670235755_2_alg».proof.Proof.Gen.KernelIdeal.Launch
import proofs.«421049_j39367670235755_2_alg».proof.Proof.KI.Spec
import proofs.«421049_j39367670235755_2_alg».proof.Proof.LibScatterAddRows
import Idealize.ShloMosaic.Lib.StableHlo.Run
import Idealize.ShloMosaic.Lib.ValueIdx
import Idealize.ShloMosaic.Lib.ValueLayout
import Idealize.ShloMosaic.Lib.KernelVsHost
import Idealize.ShloMosaic.Lib.IdealHost
import Idealize.ShloMosaic.PureOps.Ideal.Laws

set_option maxRecDepth 16384

noncomputable section

open scoped BigOperators

namespace Cert.KernelIdeal.HandVal

open Cert.KernelIdeal Cert.KernelIdeal.Gen Cert.Spec
open Idealize.ShloMosaic Idealize.ShloMosaic.TcCoe Idealize.ShloMosaic.ValueIdx

/-- What the two stretches leave in the padded per-node sums, as one term over the starting contents. -/
theorem v28_eq (W : Valuation τ sig (Elt Ideal)) :
    (StableHlo.after (hostOps1_1 (F := Ideal)) (StableHlo.after (hostOps1 (F := Ideal)) W) main_v28 : S10240x8.Idx → EReal)
      = pad S10240x8 ![0, 0] ![240, 0] ![0, 0]
          (Host.scatterAdd scatter_S10000x8_S160000x1_S160000x8_1_0_0_1
            (broadcastInDim S10000x8 ![] bcast_S_S10000x8 (constant (F := Ideal) S_ .f32 0x00000000#32))
            (broadcastInDim S160000x1 ![0] bcast_S160000_S160000x1_0 (W main_v3 : S160000.Idx → BitVec 32))
            (transpose S160000x8 [1, 0] (W main_arg2 : S8x160000.Idx → EReal) transposes_S8x160000_S160000x8_1_0))
          (sitofp (F := Ideal) .f32 (constantI S_ 32 0#32)) pads_S10000x8_S10240x8_02400_000 h_S_ := by
  after_results_simp
  rfl

/-- A 32-bit word read signed is a natural below 2³¹ exactly when it is that natural read unsigned. -/
theorem toInt_eq_natCast_iff (x : BitVec 32) (k : ℕ) (hk : k < 10240) : x.toInt = (k : ℤ) ↔ x.toNat = k := by
  have h := BitVec.toInt_eq_toNat_cond x
  have hx := x.isLt
  split at h <;> omega

/-- The start indices of the scatter: one column holding the destination words. -/
theorem idx_apply (d : S160000.Idx → BitVec 32) (e : Fin 160000) :
    broadcastInDim S160000x1 ![0] bcast_S160000_S160000x1_0 d (ix2 e (0 : Fin 1)) = d (ix1 e) :=
  broadcastInDim_apply _ _ _ _ (ix1 e) fun a => match a with | ⟨0, _⟩ => rfl

/-- The scattered sums before padding, read at row i and batch b. -/
theorem v27_apply (d : S160000.Idx → BitVec 32) (ea : S8x160000.Idx → EReal) (i : Fin 10000) (b : Fin 8) :
    Host.scatterAdd scatter_S10000x8_S160000x1_S160000x8_1_0_0_1
        (broadcastInDim S10000x8 ![] bcast_S_S10000x8 (constant (F := Ideal) S_ .f32 0x00000000#32))
        (broadcastInDim S160000x1 ![0] bcast_S160000_S160000x1_0 d)
        (transpose S160000x8 [1, 0] ea transposes_S8x160000_S160000x8_1_0) (ix2 i b)
      = ∑ e : Fin 160000, if (d (ix1 e)).toNat = i.val then ea (ix2 b e) else 0 := by
  rw [Cert.LibScatterAddRows.scatterAdd_rows2_apply (N := 10000) (n := 160000) (C := 8) (w := 32) (φ := .f32)
    scatter_S10000x8_S160000x1_S160000x8_1_0_0_1 rfl rfl rfl rfl]
  rw [broadcastInDim_scalar_apply, constant_apply, Ideal.ofBits_zero_f32, zero_add, Finset.sum_filter]
  refine Finset.sum_congr rfl fun e _ => ?_
  rw [idx_apply, transpose_ix2_apply]
  by_cases h : (d (ix1 e)).toNat = i.val
  · rw [if_pos h, if_pos ((toInt_eq_natCast_iff _ _ (by have := i.isLt; omega)).2 h)]
  · rw [if_neg h, if_neg fun h' => h ((toInt_eq_natCast_iff _ _ (by have := i.isLt; omega)).1 h')]

/-- The padded per-node sums of the edge attributes, read at row v and batch b. -/
theorem v28_apply (W : Valuation τ sig (Elt Ideal))
    (h3 : ∀ e : Fin 160000, 0 ≤ ((W main_v3 : S160000.Idx → BitVec 32) (ix1 e)).toInt
      ∧ ((W main_v3 : S160000.Idx → BitVec 32) (ix1 e)).toInt < 10000)
    (v : Fin 10240) (b : Fin 8) :
    (StableHlo.after (hostOps1_1 (F := Ideal)) (StableHlo.after (hostOps1 (F := Ideal)) W) main_v28 : S10240x8.Idx → EReal) (ix2 v b)
      = Cert.Spec.Sseg (fun e => ((W main_v3 : S160000.Idx → BitVec 32) (ix1 e)).toNat)
          (fun b e => (W main_arg2 : S8x160000.Idx → EReal) (ix2 b e)) v b := by
  rw [v28_eq]
  unfold Cert.Spec.Sseg
  by_cases hv : v.val < 10000
  · rw [if_pos hv]
    rw [pad_apply_of_inside _ _ _ _ _ _ _ (ix2 v b) (ix2 (⟨v.val, hv⟩ : Fin 10000) b)
      (fun a => match a with
        | ⟨0, _⟩ => by show v.val = 0 + v.val * (0 + 1); omega
        | ⟨1, _⟩ => by show b.val = 0 + b.val * (0 + 1); omega)]
    exact v27_apply _ _ _ _
  · rw [if_neg hv]
    rw [pad_apply_of_not_inside _ _ _ _ _ _ _ (ix2 v b) (0 : Fin 2)
      (by
        show ¬(0 ≤ v.val ∧ (v.val - 0) % (0 + 1) = 0 ∧ (v.val - 0) / (0 + 1) < 10000)
        omega)]
    exact sitofp_zero (φ := .f32)

end Cert.KernelIdeal.HandVal

end
-- ==== Proof.Pre.lean ====
/-
  The precondition read back. The printed predicate is the conjunction of ten reductions by `and`: for each of the eight
  float arguments, "every entry's absolute value is below +∞", and for the edge list, "every word is at least 0" and
  "every word is below 10000", signed. Read at its one index and split, each reduction gives its element fact at every
  index: an extended real whose absolute value is below +∞ is a real number, and a 32-bit word in [0, 10000) signed
  reads the same unsigned, below 10000. `argsOf` names the arguments of the mathematics as functions of coordinates.
-/
import Idealize.ShloMosaic.Lib.ReduceAll
import Idealize.ShloMosaic.Lib.ValueIdx
import proofs.«421049_j39367670235755_2_alg».proof.Proof.KI.Spec
import proofs.«421049_j39367670235755_2_alg».proof.Pre_finite_inputs
import proofs.«421049_j39367670235755_2_alg».proof.Proof.Gen.Pre_finite_inputs

set_option maxRecDepth 16384

noncomputable section

namespace Cert.Spec

open Idealize.ShloMosaic Idealize.ShloMosaic.ValueIdx

/-- The arguments of the mathematics, read off the nine argument arrays at explicit coordinates; the two columns of the
    edge list are read as naturals. -/
def argsOf (x : FVec Ideal ⟨3, ![8, 10000, 128]⟩ .f32) (idx : IVec ⟨2, ![160000, 2]⟩ 32)
    (ea : FVec Ideal ⟨2, ![8, 160000]⟩ .f32) (wn : FVec Ideal ⟨2, ![128, 128]⟩ .f32)
    (we : FVec Ideal ⟨2, ![128, 1]⟩ .f32) (ws : FVec Ideal ⟨2, ![128, 128]⟩ .f32)
    (bs g be : FVec Ideal ⟨1, ![128]⟩ .f32) : Args :=
  { x := fun b v f => x (ix3 b v f), src := fun e => (idx (ix2 e 0)).toNat, dst := fun e => (idx (ix2 e 1)).toNat,
    ea := fun b e => ea (ix2 b e), wn := fun o f => wn (ix2 o f), we := fun o => we (ix2 o 0),
    ws := fun o f => ws (ix2 o f), bs := fun o => bs (ix1 o), g := fun o => g (ix1 o), be := fun o => be (ix1 o) }

/-! ## The element facts -/

/-- An extended real whose absolute value `max z (−z)` is below +∞ is a real number. -/
theorem isReal_of_abs_lt_top (z : EReal) (h : max z (-z) < ⊤) : IsReal z := by
  induction z using EReal.rec with
  | bot => simp at h
  | coe r => exact ⟨r, rfl⟩
  | top => simp at h

/-- The word 0x7F800000 is +∞. -/
theorem ofBits_inf : Ideal.ofBits .f32 0x7F800000#32 = (⊤ : EReal) := by
  simp [Ideal.ofBits, Ideal.ieee]

/-- A bit made from a Boolean is 1 exactly when the Boolean is true. -/
theorem ofBool_eq_one {b : Bool} : BitVec.ofBool b = 1#1 ↔ b = true := by cases b <;> decide

local instance : Subsingleton (⟨0, ![]⟩ : Shape).Idx := ⟨fun a b => funext fun d => d.elim0⟩

/-- One entry of `|x| < +∞` (the comparison of the absolute values with the broadcast +∞) being 1 says the entry is real. -/
theorem isReal_of_cmp {s : Shape} (hb : (⟨0, ![]⟩ : Shape).BroadcastsInDim s (![] : Fin 0 → Fin s.rank))
    (x : FVec Ideal s .f32) (i : s.Idx)
    (h : cmpf .olt (Host.absf x) (broadcastInDim s ![] hb (constant (F := Ideal) ⟨0, ![]⟩ .f32 0x7F800000#32)) i = 1#1) :
    IsReal (x i) := by
  have h' : BitVec.ofBool (decide (max (x i) (-(x i)) < Ideal.ofBits .f32 0x7F800000#32)) = 1#1 := h
  rw [ofBits_inf, ofBool_eq_one, decide_eq_true_eq] at h'
  exact isReal_of_abs_lt_top _ h'

/-- A 32-bit word in [0, n) signed reads the same unsigned, below n. -/
theorem toNat_lt_of_toInt (w : BitVec 32) (n : ℕ) (h0 : 0 ≤ w.toInt) (h1 : w.toInt < n) : w.toNat < n := by
  have := BitVec.toInt_eq_toNat_cond w
  have hw := w.isLt
  split at this <;> omega

/-- The vector `and` of two masks is 1 at an index exactly when both are. -/
theorem andi_apply_eq_one {s : Shape} (a b : IVec s 1) (i : s.Idx) : andi a b i = 1#1 ↔ a i = 1#1 ∧ b i = 1#1 :=
  IntOp.andi_eq_one

/-! ## The predicate decoded -/

section Decode

open Cert.Pre_finite_inputs

variable (x : FVec Ideal S8x10000x128 .f32) (idx : IVec S160000x2 32) (ea : FVec Ideal S8x160000 .f32)
  (wn : FVec Ideal S128x128 .f32) (we : FVec Ideal S128x1 .f32) (ws : FVec Ideal S128x128 .f32)
  (bs g be : FVec Ideal S128 .f32)

/-- The ten conjuncts, each at every index. -/
theorem pre_split (h : Cert.Pre_finite_inputs.fn (F := Ideal) x idx ea wn we ws bs g be = (fun _ => 1#1)) :
    (∀ i, IsReal (x i)) ∧ (∀ i, IsReal (ea i)) ∧ (∀ i, IsReal (wn i)) ∧ (∀ i, IsReal (we i)) ∧ (∀ i, IsReal (ws i)) ∧
      (∀ i, IsReal (bs i)) ∧ (∀ i, IsReal (g i)) ∧ (∀ i, IsReal (be i)) ∧
      (∀ i, 0 ≤ (idx i).toInt) ∧ (∀ i, (idx i).toInt < 10000) := by
  have e := congrFun h ix0
  dsimp only [Cert.Pre_finite_inputs.fn, Cert.Pre_finite_inputs.fn_part1, Cert.Pre_finite_inputs.fn_part2] at e
  obtain ⟨e, h10⟩ := (andi_apply_eq_one _ _ _).1 e
  obtain ⟨e, h9⟩ := (andi_apply_eq_one _ _ _).1 e
  obtain ⟨e, h8⟩ := (andi_apply_eq_one _ _ _).1 e
  obtain ⟨e, h7⟩ := (andi_apply_eq_one _ _ _).1 e
  obtain ⟨e, h6⟩ := (andi_apply_eq_one _ _ _).1 e
  obtain ⟨e, h5⟩ := (andi_apply_eq_one _ _ _).1 e
  obtain ⟨e, h4⟩ := (andi_apply_eq_one _ _ _).1 e
  obtain ⟨e, h3⟩ := (andi_apply_eq_one _ _ _).1 e
  obtain ⟨h1, h2⟩ := (andi_apply_eq_one _ _ _).1 e
  refine ⟨fun i => isReal_of_cmp _ x i (Host.reduce_andi_all _ _ _ _ _ h1 i),
    fun i => isReal_of_cmp _ ea i (Host.reduce_andi_all _ _ _ _ _ h2 i),
    fun i => isReal_of_cmp _ wn i (Host.reduce_andi_all _ _ _ _ _ h3 i),
    fun i => isReal_of_cmp _ we i (Host.reduce_andi_all _ _ _ _ _ h4 i),
    fun i => isReal_of_cmp _ ws i (Host.reduce_andi_all _ _ _ _ _ h5 i),
    fun i => isReal_of_cmp _ bs i (Host.reduce_andi_all _ _ _ _ _ h6 i),
    fun i => isReal_of_cmp _ g i (Host.reduce_andi_all _ _ _ _ _ h7 i),
    fun i => isReal_of_cmp _ be i (Host.reduce_andi_all _ _ _ _ _ h8 i), fun i => ?_, fun i => ?_⟩
  · have hc : IntOp.cmpi .sge (idx i) (0#32) = 1#1 := Host.reduce_andi_all _ _ _ _ _ h9 i
    have := IntOp.cmpi_sge.1 hc
    rwa [show (0#32 : BitVec 32).toInt = 0 from by decide] at this
  · have hc : IntOp.cmpi .slt (idx i) (10000#32) = 1#1 := Host.reduce_andi_all _ _ _ _ _ h10 i
    have := IntOp.cmpi_slt.1 hc
    rwa [show (10000#32 : BitVec 32).toInt = 10000 from by decide] at this

/-- Under the precondition every float argument is a real number. -/
theorem argsOf_finite (h : Cert.Pre_finite_inputs.fn (F := Ideal) x idx ea wn we ws bs g be = (fun _ => 1#1)) :
    (argsOf x idx ea wn we ws bs g be).Finite := by
  obtain ⟨hx, hea, hwn, hwe, hws, hbs, hg, hbe, -, -⟩ := pre_split x idx ea wn we ws bs g be h
  exact ⟨fun b v f => hx _, fun b e => hea _, fun o f => hwn _, fun o => hwe _, fun o f => hws _, fun o => hbs _,
    fun o => hg _, fun o => hbe _⟩

/-- Under the precondition every word of the edge list is in [0, 10000), signed. -/
theorem idx_range (h : Cert.Pre_finite_inputs.fn (F := Ideal) x idx ea wn we ws bs g be = (fun _ => 1#1))
    (e : Fin 160000) (j : Fin 2) : 0 ≤ (idx (ix2 e j)).toInt ∧ (idx (ix2 e j)).toInt < 10000 := by
  obtain ⟨-, -, -, -, -, -, -, -, h0, h1⟩ := pre_split x idx ea wn we ws bs g be h
  exact ⟨h0 _, h1 _⟩

/-- Hence every source node is below 10000 … -/
theorem argsOf_src_lt (h : Cert.Pre_finite_inputs.fn (F := Ideal) x idx ea wn we ws bs g be = (fun _ => 1#1))
    (e : Fin 160000) : (argsOf x idx ea wn we ws bs g be).src e < 10000 := by
  obtain ⟨h0, h1⟩ := idx_range x idx ea wn we ws bs g be h e 0
  exact toNat_lt_of_toInt _ 10000 h0 (by exact_mod_cast h1)

/-- … and every destination node. -/
theorem argsOf_dst_lt (h : Cert.Pre_finite_inputs.fn (F := Ideal) x idx ea wn we ws bs g be = (fun _ => 1#1))
    (e : Fin 160000) : (argsOf x idx ea wn we ws bs g be).dst e < 10000 := by
  obtain ⟨h0, h1⟩ := idx_range x idx ea wn we ws bs g be h e 1
  exact toNat_lt_of_toInt _ 10000 h0 (by exact_mod_cast h1)

end Decode

end Cert.Spec

end
-- ==== Proof.KI.Chain.lean ====
/-
  The kernel-side program's result as the mathematics of its arguments. Each buffer the four regions read or write is
  followed back from where it is used to where it was written: the output of the last region is the normalisation of
  the activations by the mean and variance rows and the scale and shift rows; the mean and variance rows are the host's
  stage over the two sums region 2 leaves; those are the sum and the sum of squares of the activations region 1 leaves;
  the activations combine the multiplicity matrix, the two transforms region 0 leaves, the per-node attribute sums
  and the edge weight row; and every one of those is a host stage over the launch's argument arrays, which no item
  writes. Read at an index, the chain is `kernelOut` of the arguments.
-/
import proofs.«421049_j39367670235755_2_alg».proof.Proof.KI.Run
import proofs.«421049_j39367670235755_2_alg».proof.Proof.KI.R0Val
import proofs.«421049_j39367670235755_2_alg».proof.Proof.KI.R1Val
import proofs.«421049_j39367670235755_2_alg».proof.Proof.KI.R2Val
import proofs.«421049_j39367670235755_2_alg».proof.Proof.KI.R3Val
import proofs.«421049_j39367670235755_2_alg».proof.Proof.KI.Host
import proofs.«421049_j39367670235755_2_alg».proof.Proof.KI.HostS
import proofs.«421049_j39367670235755_2_alg».proof.Proof.Pre

set_option maxRecDepth 16384

noncomputable section

namespace Cert.KernelIdeal.HandVal

open Cert.KernelIdeal Cert.KernelIdeal.Gen Cert.KernelIdeal.Hand Cert.Spec
open Idealize.ShloMosaic Idealize.ShloMosaic.TcCoe Idealize.ShloMosaic.ValueIdx
open Idealize.ShloMosaic.Pipeline (Dat)

variable (m : (ℓ : Loc nD τ sig) → Buf (Elt Ideal) ℓ) (c : Dev nD)

namespace Chain

/-- The arguments of the mathematics, read off core c's launch memory. -/
abbrev aOf : Args :=
  argsOf (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))

/-- Every word of the edge list is in [0, 10000), read signed. -/
abbrev EdgesInRange : Prop :=
  ∀ (e : Fin 160000) (j : Fin 2),
    0 ≤ ((m ((c : Thread nD τ).loc main_arg1) : S160000x2.Idx → BitVec 32) (ix2 e j)).toInt
      ∧ ((m ((c : Thread nD τ).loc main_arg1) : S160000x2.Idx → BitVec 32) (ix2 e j)).toInt < 10000

/-! ## Before region 0: the two edge columns, the padded features, the bias row, the two weight matrices -/

/-- Column 0 of the edge list as region 0 is left: the launch's edge list at (e, 0). -/
theorem src4_apply (e : Fin 160000) :
    (W4 m c main_v1 : S160000.Idx → BitVec 32) (ix1 e) = (m ((c : Thread nD τ).loc main_arg1) : S160000x2.Idx → BitVec 32) (ix2 e (0 : Fin 2)) := by
  rw [W4_keep m c main_v1 (by decide) (by decide), V3_of m c main_v1 (by decide), V2_of m c main_v1 (by decide)]
  exact v1_apply (V0 m c) e

/-- Column 1 likewise. -/
theorem dst4_apply (e : Fin 160000) :
    (W4 m c main_v3 : S160000.Idx → BitVec 32) (ix1 e) = (m ((c : Thread nD τ).loc main_arg1) : S160000x2.Idx → BitVec 32) (ix2 e (1 : Fin 2)) := by
  rw [W4_keep m c main_v3 (by decide) (by decide), V3_of m c main_v3 (by decide), V2_of m c main_v3 (by decide)]
  exact v3_apply (V0 m c) e

/-- The features region 0 reads are the launch's with 240 zero rows appended. -/
theorem x4_apply (b : Fin 8) (v : Fin 10240) (f : Fin 128) :
    (V3 m c main_v4 : S8x10240x128.Idx → EReal) (ix3 b v f) = xpad (aOf m c).x b v f := by
  rw [V3_of m c main_v4 (by decide)]
  exact v4_apply' (V0 m c) b v f

/-- The bias row region 0 reads is the launch's self bias. -/
theorem bs5_apply (o : Fin 128) : (V3 m c main_v5 : S1x128.Idx → EReal) (ix2 (0 : Fin 1) o) = (aOf m c).bs o := by
  refine (v5_apply (V2 m c) o).trans ?_
  rw [V2_of m c main_arg6 (by decide), V1_of m c main_arg6 (by decide)]; rfl

theorem wn_apply (o f : Fin 128) : (V3 m c main_arg3 : S128x128.Idx → EReal) (ix2 o f) = (aOf m c).wn o f := by
  rw [V3_of m c main_arg3 (by decide), V2_of m c main_arg3 (by decide), V1_of m c main_arg3 (by decide)]; rfl
theorem ws_apply (o f : Fin 128) : (V3 m c main_arg5 : S128x128.Idx → EReal) (ix2 o f) = (aOf m c).ws o f := by
  rw [V3_of m c main_arg5 (by decide), V2_of m c main_arg5 (by decide), V1_of m c main_arg5 (by decide)]; rfl

/-! ## Region 0's outputs -/

/-- The neighbour transform after region 0: the padded features against the neighbour weights. -/
theorem xn_apply (v : Fin 10240) (b : Fin 8) (o : Fin 128) :
    (W4 m c main_v6_0 : S10240x1024.Idx → EReal) (ix2 v (col b o)) = lin (xpad (aOf m c).x) (aOf m c).wn v b o := by
  have key : lin (fun b v f => (V3 m c main_v4 : S8x10240x128.Idx → EReal) (ix3 b v f)) (fun o f => (V3 m c main_arg3 : S128x128.Idx → EReal) (ix2 o f)) v b o
      = lin (xpad (aOf m c).x) (aOf m c).wn v b o := by
    unfold lin; exact Finset.sum_congr rfl fun f _ => congrArg₂ (· * ·) (x4_apply m c b v f) (wn_apply m c o f)
  exact (congrFun (W4_arr m c 4) (ix2 v (col b o))).trans ((final0_4 (E3 m) c v b o).trans key)

/-- The self transform after region 0: the padded features against the self weights, plus the bias. -/
theorem hs_apply (v : Fin 10240) (b : Fin 8) (o : Fin 128) :
    (W4 m c main_v6_1 : S10240x1024.Idx → EReal) (ix2 v (col b o)) = linb (xpad (aOf m c).x) (aOf m c).ws (aOf m c).bs v b o := by
  have key : linb (fun b v f => (V3 m c main_v4 : S8x10240x128.Idx → EReal) (ix3 b v f)) (fun o f => (V3 m c main_arg5 : S128x128.Idx → EReal) (ix2 o f))
        (fun o => (V3 m c main_v5 : S1x128.Idx → EReal) (ix2 (0 : Fin 1) o)) v b o
      = linb (xpad (aOf m c).x) (aOf m c).ws (aOf m c).bs v b o := by
    unfold linb lin
    exact congrArg₂ (· + ·) (Finset.sum_congr rfl fun f _ => congrArg₂ (· * ·) (x4_apply m c b v f) (ws_apply m c o f)) (bs5_apply m c o)
  exact (congrFun (W4_arr m c 5) (ix2 v (col b o))).trans ((final0_5 (E3 m) c v b o).trans key)

/-! ## Before region 1: the multiplicity matrix, the per-node attribute sums, the edge weight row -/

/-- The multiplicity matrix region 1 reads counts the launch's edges from u to v. -/
theorem A_apply (hidx : EdgesInRange m c) (v u : Fin 10240) :
    (W7 m c main_v23 : S10240x10240.Idx → EReal) (ix2 v u) = Amat (aOf m c).src (aOf m c).dst v u := by
  rw [W7_of m c main_v23 (by decide), W6_of m c main_v23 (by decide)]
  refine (v23_apply (W4 m c) (fun e => by rw [src4_apply]; exact hidx e 0) (fun e => by rw [dst4_apply]; exact hidx e 1) v u).trans ?_
  exact congrArg₂ (fun s d => Amat s d v u) (funext fun e => congrArg BitVec.toNat (src4_apply m c e))
    (funext fun e => congrArg BitVec.toNat (dst4_apply m c e))

theorem ea4_apply (b : Fin 8) (e : Fin 160000) :
    (W4 m c main_arg2 : S8x160000.Idx → EReal) (ix2 b e) = (aOf m c).ea b e := by
  rw [W4_keep m c main_arg2 (by decide) (by decide), V3_of m c main_arg2 (by decide), V2_of m c main_arg2 (by decide), V1_of m c main_arg2 (by decide)]; rfl

/-- The attribute sums region 1 reads: per destination node and batch, zero on the padding rows. -/
theorem S_apply (hidx : EdgesInRange m c) (v : Fin 10240) (b : Fin 8) :
    (W7 m c main_v28 : S10240x8.Idx → EReal) (ix2 v b) = Sseg (aOf m c).dst (aOf m c).ea v b := by
  rw [W7_of m c main_v28 (by decide)]
  refine (v28_apply (W4 m c) (fun e => by rw [dst4_apply]; exact hidx e 1) v b).trans ?_
  exact congrArg₂ (fun d a => Sseg d a v b) (funext fun e => congrArg BitVec.toNat (dst4_apply m c e))
    (funext fun b => funext fun e => ea4_apply m c b e)

/-- The edge weight row region 1 reads is the launch's edge weight column. -/
theorem we_apply (o : Fin 128) : (W7 m c main_v30 : S1x128.Idx → EReal) (ix2 (0 : Fin 1) o) = (aOf m c).we o := by
  refine (v30_apply (W6 m c) o).trans ?_
  rw [W6_of m c main_arg4 (by decide), W5_of m c main_arg4 (by decide), W4_keep m c main_arg4 (by decide) (by decide),
    V3_of m c main_arg4 (by decide), V2_of m c main_arg4 (by decide), V1_of m c main_arg4 (by decide)]; rfl

/-- Region 0's outputs reach region 1 untouched. -/
theorem xn7_apply (v : Fin 10240) (b : Fin 8) (o : Fin 128) :
    (W7 m c main_v6_0 : S10240x1024.Idx → EReal) (ix2 v (col b o)) = lin (xpad (aOf m c).x) (aOf m c).wn v b o := by
  rw [W7_of m c main_v6_0 (by decide), W6_of m c main_v6_0 (by decide), W5_of m c main_v6_0 (by decide)]
  exact xn_apply m c v b o
theorem hs7_apply (v : Fin 10240) (b : Fin 8) (o : Fin 128) :
    (W7 m c main_v6_1 : S10240x1024.Idx → EReal) (ix2 v (col b o)) = linb (xpad (aOf m c).x) (aOf m c).ws (aOf m c).bs v b o := by
  rw [W7_of m c main_v6_1 (by decide), W6_of m c main_v6_1 (by decide), W5_of m c main_v6_1 (by decide)]
  exact hs_apply m c v b o

/-! ## Region 1's output: the activations before normalisation -/

theorem h31_apply (hidx : EdgesInRange m c) (v : Fin 10240) (b : Fin 8) (o : Fin 128) :
    (W8 m c main_v31 : S10240x1024.Idx → EReal) (ix2 v (col b o)) = hK (aOf m c) v b o := by
  have key : hbo (fun v u => (W7 m c main_v23 : S10240x10240.Idx → EReal) (ix2 v u))
        (fun v b o => (W7 m c main_v6_0 : S10240x1024.Idx → EReal) (ix2 v (col b o)))
        (fun v b o => (W7 m c main_v6_1 : S10240x1024.Idx → EReal) (ix2 v (col b o)))
        (fun v b => (W7 m c main_v28 : S10240x8.Idx → EReal) (ix2 v b))
        (fun o => (W7 m c main_v30 : S1x128.Idx → EReal) (ix2 (0 : Fin 1) o)) v b o
      = hK (aOf m c) v b o := by
    unfold hK hbo agg
    exact congrArg₂ (· + ·)
      (congrArg₂ (· + ·) (Finset.sum_congr rfl fun u _ => congrArg₂ (· * ·) (A_apply m c hidx v u) (xn7_apply m c u b o)) (hs7_apply m c v b o))
      (congrArg₂ (· * ·) (S_apply m c hidx v b) (we_apply m c o))
  exact (congrFun (W8_arr m c 5) (ix2 v (col b o))).trans ((final1_5 (E7 m) c v b o).trans key)

/-! ## Region 2's outputs: the sum and the sum of squares per channel -/

theorem s1_apply (hidx : EdgesInRange m c) (o : Fin 128) :
    (W9 m c main_v32_0 : S1x128.Idx → EReal) (ix2 (0 : Fin 1) o) = sumH (hK (aOf m c)) o := by
  have key : sumH (fun v b o => (W8 m c main_v31 : S10240x1024.Idx → EReal) (ix2 v (col b o))) o = sumH (hK (aOf m c)) o := by
    unfold sumH
    exact Finset.sum_congr rfl fun v _ => Finset.sum_congr rfl fun b _ => h31_apply m c hidx (row v) b o
  exact (congrFun (W9_arr m c 1) (ix2 (0 : Fin 1) o)).trans ((final2_1 (E8 m) c o).trans key)

theorem s2_apply (hidx : EdgesInRange m c) (o : Fin 128) :
    (W9 m c main_v32_1 : S1x128.Idx → EReal) (ix2 (0 : Fin 1) o) = sumsqH (hK (aOf m c)) o := by
  have key : sumsqH (fun v b o => (W8 m c main_v31 : S10240x1024.Idx → EReal) (ix2 v (col b o))) o = sumsqH (hK (aOf m c)) o := by
    unfold sumsqH
    exact Finset.sum_congr rfl fun v _ => Finset.sum_congr rfl fun b _ =>
      congrArg₂ (· * ·) (h31_apply m c hidx (row v) b o) (h31_apply m c hidx (row v) b o)
  exact (congrFun (W9_arr m c 2) (ix2 (0 : Fin 1) o)).trans ((final2_2 (E8 m) c o).trans key)

/-! ## Before region 3: the mean and variance rows, the scale and shift rows, the activations -/

theorem mean_apply (hidx : EdgesInRange m c) (o : Fin 128) :
    (W10 m c main_v34 : S1x128.Idx → EReal) (ix2 (0 : Fin 1) o) = meanK (sumH (hK (aOf m c)) o) :=
  (v34_apply (W9 m c) o).trans (congrArg meanK (s1_apply m c hidx o))

theorem var_apply (hidx : EdgesInRange m c) (o : Fin 128) :
    (W10 m c main_v40 : S1x128.Idx → EReal) (ix2 (0 : Fin 1) o) = varK (sumH (hK (aOf m c)) o) (sumsqH (hK (aOf m c)) o) :=
  (v40_apply (W9 m c) o).trans (congrArg₂ varK (s1_apply m c hidx o) (s2_apply m c hidx o))

theorem g_apply (o : Fin 128) : (W10 m c main_v41 : S1x128.Idx → EReal) (ix2 (0 : Fin 1) o) = (aOf m c).g o := by
  refine (v41_apply (W9 m c) o).trans ?_
  rw [W9_keep m c main_arg7 (by decide) (by decide), W8_keep m c main_arg7 (by decide), W7_of m c main_arg7 (by decide),
    W6_of m c main_arg7 (by decide), W5_of m c main_arg7 (by decide), W4_keep m c main_arg7 (by decide) (by decide),
    V3_of m c main_arg7 (by decide), V2_of m c main_arg7 (by decide), V1_of m c main_arg7 (by decide)]; rfl

theorem be_apply (o : Fin 128) : (W10 m c main_v42 : S1x128.Idx → EReal) (ix2 (0 : Fin 1) o) = (aOf m c).be o := by
  refine (v42_apply (W9 m c) o).trans ?_
  rw [W9_keep m c main_arg8 (by decide) (by decide), W8_keep m c main_arg8 (by decide), W7_of m c main_arg8 (by decide),
    W6_of m c main_arg8 (by decide), W5_of m c main_arg8 (by decide), W4_keep m c main_arg8 (by decide) (by decide),
    V3_of m c main_arg8 (by decide), V2_of m c main_arg8 (by decide), V1_of m c main_arg8 (by decide)]; rfl

theorem h31_10_apply (hidx : EdgesInRange m c) (v : Fin 10240) (b : Fin 8) (o : Fin 128) :
    (W10 m c main_v31 : S10240x1024.Idx → EReal) (ix2 v (col b o)) = hK (aOf m c) v b o := by
  rw [W10_of m c main_v31 (by decide), W9_keep m c main_v31 (by decide) (by decide)]
  exact h31_apply m c hidx v b o

theorem bn_congr {h h' mu mu' s s' g g' be be' : EReal} (e1 : h = h') (e2 : mu = mu') (e3 : s = s') (e4 : g = g') (e5 : be = be') :
    bn h mu s g be = bn h' mu' s' g' be' := by subst e1 e2 e3 e4 e5; rfl

end Chain

open Chain

/-! ## The result -/

/-- The output array after the last region, at batch b, node v, channel o, is the kernels' arrangement of the
    mathematics at the launch's arguments. -/
theorem v43_apply (hidx : ∀ (e : Fin 160000) (j : Fin 2),
      0 ≤ ((m ((c : Thread nD τ).loc main_arg1) : S160000x2.Idx → BitVec 32) (ix2 e j)).toInt
        ∧ ((m ((c : Thread nD τ).loc main_arg1) : S160000x2.Idx → BitVec 32) (ix2 e j)).toInt < 10000)
    (b : Fin 8) (v : Fin 10000) (o : Fin 128) :
    (Cert.KernelIdeal.Hand.W11 (F := Ideal) m c main_v43 : S8x10000x128.Idx → EReal) (ix3 b v o)
      = Cert.Spec.kernelOut (Cert.Spec.argsOf (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7))
          (m ((c : Thread nD τ).loc main_arg8))) b v o := by
  have key : bn ((W10 m c main_v31 : S10240x1024.Idx → EReal) (ix2 (row v) (col b o)))
        ((W10 m c main_v34 : S1x128.Idx → EReal) (ix2 (0 : Fin 1) o)) ((W10 m c main_v40 : S1x128.Idx → EReal) (ix2 (0 : Fin 1) o))
        ((W10 m c main_v41 : S1x128.Idx → EReal) (ix2 (0 : Fin 1) o)) ((W10 m c main_v42 : S1x128.Idx → EReal) (ix2 (0 : Fin 1) o))
      = kernelOut (aOf m c) b v o := by
    unfold kernelOut
    exact bn_congr (h31_10_apply m c hidx (row v) b o) (mean_apply m c hidx o) (var_apply m c hidx o) (g_apply m c o) (be_apply m c o)
  exact (congrFun (W11_arr m c 5) (ix3 b v o)).trans ((final3_5 (E10 m) c b v o).trans key)

end Cert.KernelIdeal.HandVal

end
-- ==== Proof.Ref.Term.lean ====
/-
  The reference's arithmetic as a term of its nine arguments: every operation of @main in order, the
  callees' operations at their call sites, each value named after the tensor value it is, grouped by
  what it computes.

    refSrc, refDst   the two columns of the index table, a negative entry wrapped once by the node count
    refSelf          x · wsᵀ + bs
    refMsg           (x · wnᵀ) gathered at the source, plus ea ⊗ we
    refH             refSelf plus the messages summed into their destination rows
    refMean, refVar  the statistics of refH over batch and node, per channel
    refNorm          max((h − mean) · rsqrt(var + 1e-5) · g + be, 0)
    refTerm          the composition
-/
import proofs.«421049_j39367670235755_2_alg».proof.Proof.Gen.ReferenceIdeal

noncomputable section

namespace Cert.ReferenceIdeal.Hand

open Cert.ReferenceIdeal Cert.ReferenceIdeal.Gen Idealize.ShloMosaic Idealize.SL.Sem

variable {F : FTy → Type} [FloatOps F]

/-- The source node of each edge: column 0 of the index table, a negative entry wrapped once by the node count. -/
def refSrc (idx : (⟨S160000x2, .i32⟩ : BufTy).Contents (Elt F)) :
    (⟨S160000, .i32⟩ : BufTy).Contents (Elt F) :=
  let v0 : (⟨S160000x1, .i32⟩ : BufTy).Contents (Elt F) := extractStridedSlice S160000x1 ![0, 0] idx slices_S160000x2_S160000x1_0_0
  let v1 : (⟨S160000, .i32⟩ : BufTy).Contents (Elt F) := shapeCast S160000 v0 shapeCasts_S160000x1_S160000
  let c : (⟨S_, .i32⟩ : BufTy).Contents (Elt F) := constantI S_ 32 0#32
  let v9 : (⟨S160000, .i32⟩ : BufTy).Contents (Elt F) := broadcastInDim S160000 ![] bcast_S_S160000 c
  let v10 : (⟨S160000, .i1⟩ : BufTy).Contents (Elt F) := cmpi .slt v1 v9
  let c_0 : (⟨S_, .i32⟩ : BufTy).Contents (Elt F) := constantI S_ 32 10000#32
  let v11 : (⟨S160000, .i32⟩ : BufTy).Contents (Elt F) := broadcastInDim S160000 ![] bcast_S_S160000 c_0
  let v12 : (⟨S160000, .i32⟩ : BufTy).Contents (Elt F) := addi v1 v11
  let v13 : (⟨S160000, .i32⟩ : BufTy).Contents (Elt F) := select v10 v12 v1
  v13

/-- The destination node of each edge: column 1 of the index table, a negative entry wrapped once by the node count. -/
def refDst (idx : (⟨S160000x2, .i32⟩ : BufTy).Contents (Elt F)) :
    (⟨S160000, .i32⟩ : BufTy).Contents (Elt F) :=
  let v2 : (⟨S160000x1, .i32⟩ : BufTy).Contents (Elt F) := extractStridedSlice S160000x1 ![0, 1] idx slices_S160000x2_S160000x1_0_1
  let v3 : (⟨S160000, .i32⟩ : BufTy).Contents (Elt F) := shapeCast S160000 v2 shapeCasts_S160000x1_S160000
  let c_1 : (⟨S_, .i32⟩ : BufTy).Contents (Elt F) := constantI S_ 32 0#32
  let v24 : (⟨S160000, .i32⟩ : BufTy).Contents (Elt F) := broadcastInDim S160000 ![] bcast_S_S160000 c_1
  let v25 : (⟨S160000, .i1⟩ : BufTy).Contents (Elt F) := cmpi .slt v3 v24
  let c_2 : (⟨S_, .i32⟩ : BufTy).Contents (Elt F) := constantI S_ 32 10000#32
  let v26 : (⟨S160000, .i32⟩ : BufTy).Contents (Elt F) := broadcastInDim S160000 ![] bcast_S_S160000 c_2
  let v27 : (⟨S160000, .i32⟩ : BufTy).Contents (Elt F) := addi v3 v26
  let v28 : (⟨S160000, .i32⟩ : BufTy).Contents (Elt F) := select v25 v27 v3
  v28

/-- The self transform `x · wsᵀ + bs`. -/
def refSelf (x : (⟨S8x10000x128, .f32⟩ : BufTy).Contents (Elt F)) (ws : (⟨S128x128, .f32⟩ : BufTy).Contents (Elt F)) (bs : (⟨S128, .f32⟩ : BufTy).Contents (Elt F)) :
    (⟨S8x10000x128, .f32⟩ : BufTy).Contents (Elt F) :=
  let v4 : (⟨S8x10000x128, .f32⟩ : BufTy).Contents (Elt F) := Host.dotGeneral dot_S8x10000x128_S128x128_S8x10000x128_2_1_01_0_n_n none x ws
  let v5 : (⟨S1x1x128, .f32⟩ : BufTy).Contents (Elt F) := broadcastInDim S1x1x128 ![2] bcast_S128_S1x1x128_2 bs
  let v6 : (⟨S8x10000x128, .f32⟩ : BufTy).Contents (Elt F) := broadcastInDim S8x10000x128 ![0, 1, 2] bcast_S1x1x128_S8x10000x128_0_1_2 v5
  let v7 : (⟨S8x10000x128, .f32⟩ : BufTy).Contents (Elt F) := addf v4 v6
  v7

/-- Each edge's message: the node transform `x · wnᵀ` gathered at the edge's source, plus `ea ⊗ we`. -/
def refMsg (x : (⟨S8x10000x128, .f32⟩ : BufTy).Contents (Elt F)) (idx : (⟨S160000x2, .i32⟩ : BufTy).Contents (Elt F)) (ea : (⟨S8x160000, .f32⟩ : BufTy).Contents (Elt F)) (wn : (⟨S128x128, .f32⟩ : BufTy).Contents (Elt F)) (we : (⟨S128x1, .f32⟩ : BufTy).Contents (Elt F)) :
    (⟨S8x160000x128, .f32⟩ : BufTy).Contents (Elt F) :=
  let v13 : (⟨S160000, .i32⟩ : BufTy).Contents (Elt F) := refSrc idx
  let v8 : (⟨S8x10000x128, .f32⟩ : BufTy).Contents (Elt F) := Host.dotGeneral dot_S8x10000x128_S128x128_S8x10000x128_2_1_01_0_n_n none x wn
  let v14 : (⟨S160000x1, .i32⟩ : BufTy).Contents (Elt F) := broadcastInDim S160000x1 ![0] bcast_S160000_S160000x1_0 v13
  let v15 : (⟨S8x160000x128, .f32⟩ : BufTy).Contents (Elt F) := Host.gather gather_S8x10000x128_S160000x1_S8x160000x128_02_1_n_n_1_1_81128 v8 v14
  let v16 : (⟨S8x160000x1, .f32⟩ : BufTy).Contents (Elt F) := broadcastInDim S8x160000x1 ![0, 1] bcast_S8x160000_S8x160000x1_0_1 ea
  let v17 : (⟨S128, .f32⟩ : BufTy).Contents (Elt F) := shapeCast S128 we shapeCasts_S128x1_S128
  let v18 : (⟨S1x1x128, .f32⟩ : BufTy).Contents (Elt F) := broadcastInDim S1x1x128 ![2] bcast_S128_S1x1x128_2 v17
  let v19 : (⟨S8x160000x128, .f32⟩ : BufTy).Contents (Elt F) := broadcastInDim S8x160000x128 ![0, 1, 2] bcast_S8x160000x1_S8x160000x128_0_1_2 v16
  let v20 : (⟨S8x160000x128, .f32⟩ : BufTy).Contents (Elt F) := broadcastInDim S8x160000x128 ![0, 1, 2] bcast_S1x1x128_S8x160000x128_0_1_2 v18
  let v21 : (⟨S8x160000x128, .f32⟩ : BufTy).Contents (Elt F) := mulf v19 v20
  let v22 : (⟨S8x160000x128, .f32⟩ : BufTy).Contents (Elt F) := addf v15 v21
  v22

/-- The layer before normalisation: the self transform plus the messages summed into their destination rows. -/
def refH (x : (⟨S8x10000x128, .f32⟩ : BufTy).Contents (Elt F)) (idx : (⟨S160000x2, .i32⟩ : BufTy).Contents (Elt F)) (ea : (⟨S8x160000, .f32⟩ : BufTy).Contents (Elt F)) (wn : (⟨S128x128, .f32⟩ : BufTy).Contents (Elt F)) (we : (⟨S128x1, .f32⟩ : BufTy).Contents (Elt F)) (ws : (⟨S128x128, .f32⟩ : BufTy).Contents (Elt F)) (bs : (⟨S128, .f32⟩ : BufTy).Contents (Elt F)) :
    (⟨S8x10000x128, .f32⟩ : BufTy).Contents (Elt F) :=
  let v7 : (⟨S8x10000x128, .f32⟩ : BufTy).Contents (Elt F) := refSelf x ws bs
  let v22 : (⟨S8x160000x128, .f32⟩ : BufTy).Contents (Elt F) := refMsg x idx ea wn we
  let v28 : (⟨S160000, .i32⟩ : BufTy).Contents (Elt F) := refDst idx
  let cst : (⟨S_, .f32⟩ : BufTy).Contents (Elt F) := constant S_ .f32 0x00000000#32
  let v23 : (⟨S8x10000x128, .f32⟩ : BufTy).Contents (Elt F) := broadcastInDim S8x10000x128 ![] bcast_S_S8x10000x128 cst
  let v29 : (⟨S160000x1, .i32⟩ : BufTy).Contents (Elt F) := broadcastInDim S160000x1 ![0] bcast_S160000_S160000x1_0 v28
  let v30 : (⟨S8x10000x128, .f32⟩ : BufTy).Contents (Elt F) := Host.scatterAdd scatter_S8x10000x128_S160000x1_S8x160000x128_02_1_1_1 v23 v29 v22
  let v31 : (⟨S8x10000x128, .f32⟩ : BufTy).Contents (Elt F) := addf v7 v30
  v31

/-- The per-channel mean over batch and node: the sum divided by 80000. -/
def refMean (v31 : (⟨S8x10000x128, .f32⟩ : BufTy).Contents (Elt F)) :
    (⟨S128, .f32⟩ : BufTy).Contents (Elt F) :=
  let cst_3 : (⟨S_, .f32⟩ : BufTy).Contents (Elt F) := constant S_ .f32 0x00000000#32
  let v32 : (⟨S128, .f32⟩ : BufTy).Contents (Elt F) := Host.reduceAdd v31 cst_3 reducesTo_S8x10000x128_S128_d0_1 h_S_
  let cst_4 : (⟨S_, .f32⟩ : BufTy).Contents (Elt F) := constant S_ .f32 0x479C4000#32
  let v33 : (⟨S128, .f32⟩ : BufTy).Contents (Elt F) := broadcastInDim S128 ![] bcast_S_S128 cst_4
  let v34 : (⟨S128, .f32⟩ : BufTy).Contents (Elt F) := Host.divf v32 v33
  v34

/-- The per-channel variance over batch and node as the variance function computes it: the sum of the squared deviations from the mean, divided by `80000 − 0`, and a NaN row were that divisor not positive. -/
def refVar (v31 : (⟨S8x10000x128, .f32⟩ : BufTy).Contents (Elt F)) :
    (⟨S128, .f32⟩ : BufTy).Contents (Elt F) :=
  let c_5 : (⟨S_, .i32⟩ : BufTy).Contents (Elt F) := constantI S_ 32 0#32
  let call0_cst : (⟨S_, .f32⟩ : BufTy).Contents (Elt F) := constant S_ .f32 0x00000000#32
  let call0_v0 : (⟨S128, .f32⟩ : BufTy).Contents (Elt F) := Host.reduceAdd v31 call0_cst reducesTo_S8x10000x128_S128_d0_1 h_S_
  let call0_v1 : (⟨S1x1x128, .f32⟩ : BufTy).Contents (Elt F) := broadcastInDim S1x1x128 ![2] bcast_S128_S1x1x128_2 call0_v0
  let call0_cst_0 : (⟨S_, .f32⟩ : BufTy).Contents (Elt F) := constant S_ .f32 0x479C4000#32
  let call0_v2 : (⟨S1x1x128, .f32⟩ : BufTy).Contents (Elt F) := broadcastInDim S1x1x128 ![] bcast_S_S1x1x128 call0_cst_0
  let call0_v3 : (⟨S1x1x128, .f32⟩ : BufTy).Contents (Elt F) := Host.divf call0_v1 call0_v2
  let call0_v4 : (⟨S8x10000x128, .f32⟩ : BufTy).Contents (Elt F) := broadcastInDim S8x10000x128 ![0, 1, 2] bcast_S1x1x128_S8x10000x128_0_1_2 call0_v3
  let call0_v5 : (⟨S8x10000x128, .f32⟩ : BufTy).Contents (Elt F) := subf v31 call0_v4
  let call0_v6 : (⟨S8x10000x128, .f32⟩ : BufTy).Contents (Elt F) := mulf call0_v5 call0_v5
  let call0_v7 : (⟨S_, .f32⟩ : BufTy).Contents (Elt F) := sitofp (F := F) .f32 c_5
  let call0_cst_1 : (⟨S_, .f32⟩ : BufTy).Contents (Elt F) := constant S_ .f32 0x479C4000#32
  let call0_v8 : (⟨S_, .f32⟩ : BufTy).Contents (Elt F) := subf call0_cst_1 call0_v7
  let call0_cst_2 : (⟨S_, .f32⟩ : BufTy).Contents (Elt F) := constant S_ .f32 0x00000000#32
  let call0_v9 : (⟨S128, .f32⟩ : BufTy).Contents (Elt F) := Host.reduceAdd call0_v6 call0_cst_2 reducesTo_S8x10000x128_S128_d0_1 h_S_
  let call0_v10 : (⟨S128, .f32⟩ : BufTy).Contents (Elt F) := broadcastInDim S128 ![] bcast_S_S128 call0_v8
  let call0_v11 : (⟨S128, .f32⟩ : BufTy).Contents (Elt F) := Host.divf call0_v9 call0_v10
  let call0_cst_3 : (⟨S_, .f32⟩ : BufTy).Contents (Elt F) := constant S_ .f32 0x00000000#32
  let call0_v12 : (⟨S_, .i1⟩ : BufTy).Contents (Elt F) := cmpf (F := F) .ogt call0_v8 call0_cst_3
  let call0_cst_4 : (⟨S_, .f32⟩ : BufTy).Contents (Elt F) := constant S_ .f32 0x7FC00000#32
  let call0_call0_v0 : (⟨S_, .f32⟩ : BufTy).Contents (Elt F) := call0_cst_4
  let call0_call0_v1 : (⟨S128, .f32⟩ : BufTy).Contents (Elt F) := broadcastInDim S128 ![] bcast_S_S128 call0_call0_v0
  let v35 : (⟨S128, .f32⟩ : BufTy).Contents (Elt F) := select (broadcastInDim S128 ![] bcast_S_S128 call0_v12) call0_v11 call0_call0_v1
  v35

/-- Normalise, scale, shift, and clamp below at zero: `max((h − mean) · rsqrt(var + 1e-5) · g + be, 0)`. -/
def refNorm (v31 : (⟨S8x10000x128, .f32⟩ : BufTy).Contents (Elt F)) (v34 : (⟨S128, .f32⟩ : BufTy).Contents (Elt F)) (v35 : (⟨S128, .f32⟩ : BufTy).Contents (Elt F)) (g : (⟨S128, .f32⟩ : BufTy).Contents (Elt F)) (be : (⟨S128, .f32⟩ : BufTy).Contents (Elt F)) :
    (⟨S8x10000x128, .f32⟩ : BufTy).Contents (Elt F) :=
  let v36 : (⟨S1x1x128, .f32⟩ : BufTy).Contents (Elt F) := broadcastInDim S1x1x128 ![2] bcast_S128_S1x1x128_2 v34
  let v37 : (⟨S8x10000x128, .f32⟩ : BufTy).Contents (Elt F) := broadcastInDim S8x10000x128 ![0, 1, 2] bcast_S1x1x128_S8x10000x128_0_1_2 v36
  let v38 : (⟨S8x10000x128, .f32⟩ : BufTy).Contents (Elt F) := subf v31 v37
  let cst_6 : (⟨S_, .f32⟩ : BufTy).Contents (Elt F) := constant S_ .f32 0x3727C5AC#32
  let v39 : (⟨S128, .f32⟩ : BufTy).Contents (Elt F) := broadcastInDim S128 ![] bcast_S_S128 cst_6
  let v40 : (⟨S128, .f32⟩ : BufTy).Contents (Elt F) := addf v35 v39
  let v41 : (⟨S128, .f32⟩ : BufTy).Contents (Elt F) := Host.rsqrt v40
  let v42 : (⟨S1x1x128, .f32⟩ : BufTy).Contents (Elt F) := broadcastInDim S1x1x128 ![2] bcast_S128_S1x1x128_2 v41
  let v43 : (⟨S8x10000x128, .f32⟩ : BufTy).Contents (Elt F) := broadcastInDim S8x10000x128 ![0, 1, 2] bcast_S1x1x128_S8x10000x128_0_1_2 v42
  let v44 : (⟨S8x10000x128, .f32⟩ : BufTy).Contents (Elt F) := mulf v38 v43
  let v45 : (⟨S1x1x128, .f32⟩ : BufTy).Contents (Elt F) := broadcastInDim S1x1x128 ![2] bcast_S128_S1x1x128_2 g
  let v46 : (⟨S8x10000x128, .f32⟩ : BufTy).Contents (Elt F) := broadcastInDim S8x10000x128 ![0, 1, 2] bcast_S1x1x128_S8x10000x128_0_1_2 v45
  let v47 : (⟨S8x10000x128, .f32⟩ : BufTy).Contents (Elt F) := mulf v44 v46
  let v48 : (⟨S1x1x128, .f32⟩ : BufTy).Contents (Elt F) := broadcastInDim S1x1x128 ![2] bcast_S128_S1x1x128_2 be
  let v49 : (⟨S8x10000x128, .f32⟩ : BufTy).Contents (Elt F) := broadcastInDim S8x10000x128 ![0, 1, 2] bcast_S1x1x128_S8x10000x128_0_1_2 v48
  let v50 : (⟨S8x10000x128, .f32⟩ : BufTy).Contents (Elt F) := addf v47 v49
  let call1_cst : (⟨S_, .f32⟩ : BufTy).Contents (Elt F) := constant S_ .f32 0x00000000#32
  let call1_v0 : (⟨S8x10000x128, .f32⟩ : BufTy).Contents (Elt F) := broadcastInDim S8x10000x128 ![] bcast_S_S8x10000x128 call1_cst
  let v51 : (⟨S8x10000x128, .f32⟩ : BufTy).Contents (Elt F) := maximumf v50 call1_v0
  v51

/-- @main's result as a function of its arguments' contents: the eighty-four operations composed. -/
def refTerm (x : (⟨S8x10000x128, .f32⟩ : BufTy).Contents (Elt F)) (idx : (⟨S160000x2, .i32⟩ : BufTy).Contents (Elt F)) (ea : (⟨S8x160000, .f32⟩ : BufTy).Contents (Elt F)) (wn : (⟨S128x128, .f32⟩ : BufTy).Contents (Elt F)) (we : (⟨S128x1, .f32⟩ : BufTy).Contents (Elt F)) (ws : (⟨S128x128, .f32⟩ : BufTy).Contents (Elt F)) (bs : (⟨S128, .f32⟩ : BufTy).Contents (Elt F)) (g : (⟨S128, .f32⟩ : BufTy).Contents (Elt F)) (be : (⟨S128, .f32⟩ : BufTy).Contents (Elt F)) :
    (⟨S8x10000x128, .f32⟩ : BufTy).Contents (Elt F) :=
  let v31 : (⟨S8x10000x128, .f32⟩ : BufTy).Contents (Elt F) := refH x idx ea wn we ws bs
  refNorm v31 (refMean v31) (refVar v31) g be

end Cert.ReferenceIdeal.Hand

end
-- ==== Proof.Ref.Run.lean ====
/-
  The reference's run: @main is a straight line of eighty-four host operations — its own fifty-nine, the
  nineteen of the variance function at its call site with the three of the selection it calls, and the
  three of the final maximum — so every weakly fair execution terminates with each buffer at the
  operations' fold over the launch contents. At the result buffer the fold is `refTerm` of the nine
  arguments' contents; at each argument buffer it is what the launch put there.
-/
import proofs.«421049_j39367670235755_2_alg».proof.Proof.Ref.Term
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- @main's eighty-four operations, in order: statements 1 … 43, the variance function's nineteen over the record
    `main_call0` and the selection's three over `main_call0_call0`, statements 45 … 60, the maximum's three over
    `main_call1`. -/
abbrev ops : List (HloOp τ sig (Elt F)) :=
  [ unary main_arg1 main_v0 ((extractStridedSlice S160000x1 ![0, 0] · slices_S160000x2_S160000x1_0_0) : (⟨S160000x2, .i32⟩ : BufTy).Contents (Elt F) → (⟨S160000x1, .i32⟩ : BufTy).Contents (Elt F)),
    reshape main_v0 main_v1 rfl shapeCasts_S160000x1_S160000,
    unary main_arg1 main_v2 ((extractStridedSlice S160000x1 ![0, 1] · slices_S160000x2_S160000x1_0_1) : (⟨S160000x2, .i32⟩ : BufTy).Contents (Elt F) → (⟨S160000x1, .i32⟩ : BufTy).Contents (Elt F)),
    reshape main_v2 main_v3 rfl shapeCasts_S160000x1_S160000,
    binary main_arg0 main_arg5 main_v4 ((fun l r => Host.dotGeneral dot_S8x10000x128_S128x128_S8x10000x128_2_1_01_0_n_n none l r) : (⟨S8x10000x128, .f32⟩ : BufTy).Contents (Elt F) → (⟨S128x128, .f32⟩ : BufTy).Contents (Elt F) → (⟨S8x10000x128, .f32⟩ : BufTy).Contents (Elt F)),
    unary main_arg6 main_v5 (broadcastInDim S1x1x128 ![2] bcast_S128_S1x1x128_2 : (⟨S128, .f32⟩ : BufTy).Contents (Elt F) → (⟨S1x1x128, .f32⟩ : BufTy).Contents (Elt F)),
    unary main_v5 main_v6 (broadcastInDim S8x10000x128 ![0, 1, 2] bcast_S1x1x128_S8x10000x128_0_1_2 : (⟨S1x1x128, .f32⟩ : BufTy).Contents (Elt F) → (⟨S8x10000x128, .f32⟩ : BufTy).Contents (Elt F)),
    binary main_v4 main_v6 main_v7 (addf : (⟨S8x10000x128, .f32⟩ : BufTy).Contents (Elt F) → (⟨S8x10000x128, .f32⟩ : BufTy).Contents (Elt F) → (⟨S8x10000x128, .f32⟩ : BufTy).Contents (Elt F)),
    binary main_arg0 main_arg3 main_v8 ((fun l r => Host.dotGeneral dot_S8x10000x128_S128x128_S8x10000x128_2_1_01_0_n_n none l r) : (⟨S8x10000x128, .f32⟩ : BufTy).Contents (Elt F) → (⟨S128x128, .f32⟩ : BufTy).Contents (Elt F) → (⟨S8x10000x128, .f32⟩ : BufTy).Contents (Elt F)),
    nullary main_c (constantI S_ 32 0#32),
    unary main_c main_v9 (broadcastInDim S160000 ![] bcast_S_S160000 : (⟨S_, .i32⟩ : BufTy).Contents (Elt F) → (⟨S160000, .i32⟩ : BufTy).Contents (Elt F)),
    binary main_v1 main_v9 main_v10 (cmpi .slt : (⟨S160000, .i32⟩ : BufTy).Contents (Elt F) → (⟨S160000, .i32⟩ : BufTy).Contents (Elt F) → (⟨S160000, .i1⟩ : BufTy).Contents (Elt F)),
    nullary main_c_0 (constantI S_ 32 10000#32),
    unary main_c_0 main_v11 (broadcastInDim S160000 ![] bcast_S_S160000 : (⟨S_, .i32⟩ : BufTy).Contents (Elt F) → (⟨S160000, .i32⟩ : BufTy).Contents (Elt F)),
    binary main_v1 main_v11 main_v12 (addi : (⟨S160000, .i32⟩ : BufTy).Contents (Elt F) → (⟨S160000, .i32⟩ : BufTy).Contents (Elt F) → (⟨S160000, .i32⟩ : BufTy).Contents (Elt F)),
    ternary main_v10 main_v12 main_v1 main_v13 (select : (⟨S160000, .i1⟩ : BufTy).Contents (Elt F) → (⟨S160000, .i32⟩ : BufTy).Contents (Elt F) → (⟨S160000, .i32⟩ : BufTy).Contents (Elt F) → (⟨S160000, .i32⟩ : BufTy).Contents (Elt F)),
    unary main_v13 main_v14 (broadcastInDim S160000x1 ![0] bcast_S160000_S160000x1_0 : (⟨S160000, .i32⟩ : BufTy).Contents (Elt F) → (⟨S160000x1, .i32⟩ : BufTy).Contents (Elt F)),
    binary main_v8 main_v14 main_v15 ((fun x i => Host.gather gather_S8x10000x128_S160000x1_S8x160000x128_02_1_n_n_1_1_81128 x i) : (⟨S8x10000x128, .f32⟩ : BufTy).Contents (Elt F) → (⟨S160000x1, .i32⟩ : BufTy).Contents (Elt F) → (⟨S8x160000x128, .f32⟩ : BufTy).Contents (Elt F)),
    unary main_arg2 main_v16 (broadcastInDim S8x160000x1 ![0, 1] bcast_S8x160000_S8x160000x1_0_1 : (⟨S8x160000, .f32⟩ : BufTy).Contents (Elt F) → (⟨S8x160000x1, .f32⟩ : BufTy).Contents (Elt F)),
    reshape main_arg4 main_v17 rfl shapeCasts_S128x1_S128,
    unary main_v17 main_v18 (broadcastInDim S1x1x128 ![2] bcast_S128_S1x1x128_2 : (⟨S128, .f32⟩ : BufTy).Contents (Elt F) → (⟨S1x1x128, .f32⟩ : BufTy).Contents (Elt F)),
    unary main_v16 main_v19 (broadcastInDim S8x160000x128 ![0, 1, 2] bcast_S8x160000x1_S8x160000x128_0_1_2 : (⟨S8x160000x1, .f32⟩ : BufTy).Contents (Elt F) → (⟨S8x160000x128, .f32⟩ : BufTy).Contents (Elt F)),
    unary main_v18 main_v20 (broadcastInDim S8x160000x128 ![0, 1, 2] bcast_S1x1x128_S8x160000x128_0_1_2 : (⟨S1x1x128, .f32⟩ : BufTy).Contents (Elt F) → (⟨S8x160000x128, .f32⟩ : BufTy).Contents (Elt F)),
    binary main_v19 main_v20 main_v21 (mulf : (⟨S8x160000x128, .f32⟩ : BufTy).Contents (Elt F) → (⟨S8x160000x128, .f32⟩ : BufTy).Contents (Elt F) → (⟨S8x160000x128, .f32⟩ : BufTy).Contents (Elt F)),
    binary main_v15 main_v21 main_v22 (addf : (⟨S8x160000x128, .f32⟩ : BufTy).Contents (Elt F) → (⟨S8x160000x128, .f32⟩ : BufTy).Contents (Elt F) → (⟨S8x160000x128, .f32⟩ : BufTy).Contents (Elt F)),
    nullary main_cst (constant S_ .f32 0x00000000#32),
    unary main_cst main_v23 (broadcastInDim S8x10000x128 ![] bcast_S_S8x10000x128 : (⟨S_, .f32⟩ : BufTy).Contents (Elt F) → (⟨S8x10000x128, .f32⟩ : BufTy).Contents (Elt F)),
    nullary main_c_1 (constantI S_ 32 0#32),
    unary main_c_1 main_v24 (broadcastInDim S160000 ![] bcast_S_S160000 : (⟨S_, .i32⟩ : BufTy).Contents (Elt F) → (⟨S160000, .i32⟩ : BufTy).Contents (Elt F)),
    binary main_v3 main_v24 main_v25 (cmpi .slt : (⟨S160000, .i32⟩ : BufTy).Contents (Elt F) → (⟨S160000, .i32⟩ : BufTy).Contents (Elt F) → (⟨S160000, .i1⟩ : BufTy).Contents (Elt F)),
    nullary main_c_2 (constantI S_ 32 10000#32),
    unary main_c_2 main_v26 (broadcastInDim S160000 ![] bcast_S_S160000 : (⟨S_, .i32⟩ : BufTy).Contents (Elt F) → (⟨S160000, .i32⟩ : BufTy).Contents (Elt F)),
    binary main_v3 main_v26 main_v27 (addi : (⟨S160000, .i32⟩ : BufTy).Contents (Elt F) → (⟨S160000, .i32⟩ : BufTy).Contents (Elt F) → (⟨S160000, .i32⟩ : BufTy).Contents (Elt F)),
    ternary main_v25 main_v27 main_v3 main_v28 (select : (⟨S160000, .i1⟩ : BufTy).Contents (Elt F) → (⟨S160000, .i32⟩ : BufTy).Contents (Elt F) → (⟨S160000, .i32⟩ : BufTy).Contents (Elt F) → (⟨S160000, .i32⟩ : BufTy).Contents (Elt F)),
    unary main_v28 main_v29 (broadcastInDim S160000x1 ![0] bcast_S160000_S160000x1_0 : (⟨S160000, .i32⟩ : BufTy).Contents (Elt F) → (⟨S160000x1, .i32⟩ : BufTy).Contents (Elt F)),
    ternary main_v23 main_v29 main_v22 main_v30 ((fun x i u => Host.scatterAdd scatter_S8x10000x128_S160000x1_S8x160000x128_02_1_1_1 x i u) : (⟨S8x10000x128, .f32⟩ : BufTy).Contents (Elt F) → (⟨S160000x1, .i32⟩ : BufTy).Contents (Elt F) → (⟨S8x160000x128, .f32⟩ : BufTy).Contents (Elt F) → (⟨S8x10000x128, .f32⟩ : BufTy).Contents (Elt F)),
    binary main_v7 main_v30 main_v31 (addf : (⟨S8x10000x128, .f32⟩ : BufTy).Contents (Elt F) → (⟨S8x10000x128, .f32⟩ : BufTy).Contents (Elt F) → (⟨S8x10000x128, .f32⟩ : BufTy).Contents (Elt F)),
    nullary main_cst_3 (constant S_ .f32 0x00000000#32),
    binary main_v31 main_cst_3 main_v32 ((fun x v => Host.reduceAdd x v reducesTo_S8x10000x128_S128_d0_1 h_S_) : (⟨S8x10000x128, .f32⟩ : BufTy).Contents (Elt F) → (⟨S_, .f32⟩ : BufTy).Contents (Elt F) → (⟨S128, .f32⟩ : BufTy).Contents (Elt F)),
    nullary main_cst_4 (constant S_ .f32 0x479C4000#32),
    unary main_cst_4 main_v33 (broadcastInDim S128 ![] bcast_S_S128 : (⟨S_, .f32⟩ : BufTy).Contents (Elt F) → (⟨S128, .f32⟩ : BufTy).Contents (Elt F)),
    binary main_v32 main_v33 main_v34 (Host.divf : (⟨S128, .f32⟩ : BufTy).Contents (Elt F) → (⟨S128, .f32⟩ : BufTy).Contents (Elt F) → (⟨S128, .f32⟩ : BufTy).Contents (Elt F)),
    nullary main_c_5 (constantI S_ 32 0#32),
    TRef.nullary main_call0.cst (constant S_ .f32 0x00000000#32),
    TRef.binary (.of main_v31) main_call0.cst main_call0.v0 (fun x v => Host.reduceAdd x v reducesTo_S8x10000x128_S128_d0_1 h_S_),
    TRef.unary main_call0.v0 main_call0.v1 (broadcastInDim S1x1x128 ![2] bcast_S128_S1x1x128_2),
    TRef.nullary main_call0.cst_0 (constant S_ .f32 0x479C4000#32),
    TRef.unary main_call0.cst_0 main_call0.v2 (broadcastInDim S1x1x128 ![] bcast_S_S1x1x128),
    TRef.binary main_call0.v1 main_call0.v2 main_call0.v3 Host.divf,
    TRef.unary main_call0.v3 main_call0.v4 (broadcastInDim S8x10000x128 ![0, 1, 2] bcast_S1x1x128_S8x10000x128_0_1_2),
    TRef.binary (.of main_v31) main_call0.v4 main_call0.v5 subf,
    TRef.binary main_call0.v5 main_call0.v5 main_call0.v6 mulf,
    TRef.unary (.of main_c_5) main_call0.v7 (sitofp (F := F) .f32),
    TRef.nullary main_call0.cst_1 (constant S_ .f32 0x479C4000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S8x10000x128_S128_d0_1 h_S_),
    TRef.unary main_call0.v8 main_call0.v10 (broadcastInDim S128 ![] bcast_S_S128),
    TRef.binary main_call0.v9 main_call0.v10 main_call0.v11 Host.divf,
    TRef.nullary main_call0.cst_3 (constant S_ .f32 0x00000000#32),
    TRef.binary main_call0.v8 main_call0.cst_3 main_call0.v12 (cmpf (F := F) .ogt),
    TRef.nullary main_call0.cst_4 (constant S_ .f32 0x7FC00000#32),
    TRef.unary main_call0.cst_4 main_call0_call0.v0 id,
    TRef.unary main_call0_call0.v0 main_call0_call0.v1 (broadcastInDim S128 ![] bcast_S_S128),
    TRef.ternary main_call0.v12 main_call0.v11 main_call0_call0.v1 main_call0_call0.v2 (fun p a b => select (broadcastInDim S128 ![] bcast_S_S128 p) a b),
    unary main_v34 main_v36 (broadcastInDim S1x1x128 ![2] bcast_S128_S1x1x128_2 : (⟨S128, .f32⟩ : BufTy).Contents (Elt F) → (⟨S1x1x128, .f32⟩ : BufTy).Contents (Elt F)),
    unary main_v36 main_v37 (broadcastInDim S8x10000x128 ![0, 1, 2] bcast_S1x1x128_S8x10000x128_0_1_2 : (⟨S1x1x128, .f32⟩ : BufTy).Contents (Elt F) → (⟨S8x10000x128, .f32⟩ : BufTy).Contents (Elt F)),
    binary main_v31 main_v37 main_v38 (subf : (⟨S8x10000x128, .f32⟩ : BufTy).Contents (Elt F) → (⟨S8x10000x128, .f32⟩ : BufTy).Contents (Elt F) → (⟨S8x10000x128, .f32⟩ : BufTy).Contents (Elt F)),
    nullary main_cst_6 (constant S_ .f32 0x3727C5AC#32),
    unary main_cst_6 main_v39 (broadcastInDim S128 ![] bcast_S_S128 : (⟨S_, .f32⟩ : BufTy).Contents (Elt F) → (⟨S128, .f32⟩ : BufTy).Contents (Elt F)),
    binary main_v35 main_v39 main_v40 (addf : (⟨S128, .f32⟩ : BufTy).Contents (Elt F) → (⟨S128, .f32⟩ : BufTy).Contents (Elt F) → (⟨S128, .f32⟩ : BufTy).Contents (Elt F)),
    unary main_v40 main_v41 (Host.rsqrt : (⟨S128, .f32⟩ : BufTy).Contents (Elt F) → (⟨S128, .f32⟩ : BufTy).Contents (Elt F)),
    unary main_v41 main_v42 (broadcastInDim S1x1x128 ![2] bcast_S128_S1x1x128_2 : (⟨S128, .f32⟩ : BufTy).Contents (Elt F) → (⟨S1x1x128, .f32⟩ : BufTy).Contents (Elt F)),
    unary main_v42 main_v43 (broadcastInDim S8x10000x128 ![0, 1, 2] bcast_S1x1x128_S8x10000x128_0_1_2 : (⟨S1x1x128, .f32⟩ : BufTy).Contents (Elt F) → (⟨S8x10000x128, .f32⟩ : BufTy).Contents (Elt F)),
    binary main_v38 main_v43 main_v44 (mulf : (⟨S8x10000x128, .f32⟩ : BufTy).Contents (Elt F) → (⟨S8x10000x128, .f32⟩ : BufTy).Contents (Elt F) → (⟨S8x10000x128, .f32⟩ : BufTy).Contents (Elt F)),
    unary main_arg7 main_v45 (broadcastInDim S1x1x128 ![2] bcast_S128_S1x1x128_2 : (⟨S128, .f32⟩ : BufTy).Contents (Elt F) → (⟨S1x1x128, .f32⟩ : BufTy).Contents (Elt F)),
    unary main_v45 main_v46 (broadcastInDim S8x10000x128 ![0, 1, 2] bcast_S1x1x128_S8x10000x128_0_1_2 : (⟨S1x1x128, .f32⟩ : BufTy).Contents (Elt F) → (⟨S8x10000x128, .f32⟩ : BufTy).Contents (Elt F)),
    binary main_v44 main_v46 main_v47 (mulf : (⟨S8x10000x128, .f32⟩ : BufTy).Contents (Elt F) → (⟨S8x10000x128, .f32⟩ : BufTy).Contents (Elt F) → (⟨S8x10000x128, .f32⟩ : BufTy).Contents (Elt F)),
    unary main_arg8 main_v48 (broadcastInDim S1x1x128 ![2] bcast_S128_S1x1x128_2 : (⟨S128, .f32⟩ : BufTy).Contents (Elt F) → (⟨S1x1x128, .f32⟩ : BufTy).Contents (Elt F)),
    unary main_v48 main_v49 (broadcastInDim S8x10000x128 ![0, 1, 2] bcast_S1x1x128_S8x10000x128_0_1_2 : (⟨S1x1x128, .f32⟩ : BufTy).Contents (Elt F) → (⟨S8x10000x128, .f32⟩ : BufTy).Contents (Elt F)),
    binary main_v47 main_v49 main_v50 (addf : (⟨S8x10000x128, .f32⟩ : BufTy).Contents (Elt F) → (⟨S8x10000x128, .f32⟩ : BufTy).Contents (Elt F) → (⟨S8x10000x128, .f32⟩ : BufTy).Contents (Elt F)),
    TRef.nullary main_call1.cst (constant S_ .f32 0x00000000#32),
    TRef.unary main_call1.cst main_call1.v0 (broadcastInDim S8x10000x128 ![] bcast_S_S8x10000x128),
    TRef.binary (.of main_v50) main_call1.v0 main_call1.v1 maximumf ]

set_option maxRecDepth 4096 in
set_option maxHeartbeats 4000000 in
/-- @main is that straight line: the two windows, the three functions' definitions unfolded at their calls, and
    sequencing reassociated. -/
theorem main_eq (c : Dev nD) : main (F := F) c = seq ops := by
  simp only [main, main_part0, main_part1, fn_var.body, fn_where.body, fn_relu.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., reshape_bufs_sub .., unary_bufs_sub .., reshape_bufs_sub .., binary_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., unary_bufs_sub .., unary_bufs_sub .., unary_bufs_sub .., binary_bufs_sub .., binary_bufs_sub .., nullary_bufs_sub .., unary_bufs_sub .., nullary_bufs_sub .., unary_bufs_sub .., binary_bufs_sub .., nullary_bufs_sub .., unary_bufs_sub .., binary_bufs_sub .., ternary_bufs_sub .., unary_bufs_sub .., ternary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩

/-- Every operation determines its result: none allocates. -/
theorem ops_fresh : (ops : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The references the operations write: one per operation, its result. -/
abbrev ops_W : List (Ref sig .tc) :=
  [main_v0, main_v1, main_v2, main_v3, main_v4, main_v5, main_v6, main_v7, main_v8, main_c, main_v9, main_v10, main_c_0, main_v11, main_v12, main_v13, main_v14, main_v15, main_v16, main_v17, main_v18, main_v19, main_v20, main_v21, main_v22, main_cst, main_v23, main_c_1, main_v24, main_v25, main_c_2, main_v26, main_v27, main_v28, main_v29, main_v30, main_v31, main_cst_3, main_v32, main_cst_4, main_v33, main_v34, main_c_5, main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_cst_3, main_call0_v12, main_call0_cst_4, main_call0_call0_v0, main_call0_call0_v1, main_v35, main_v36, main_v37, main_v38, main_cst_6, main_v39, main_v40, main_v41, main_v42, main_v43, main_v44, main_v45, main_v46, main_v47, main_v48, main_v49, main_v50, main_call1_cst, main_call1_v0, main_v51]

/-- A result that is on a list is, as a one-element set of device buffers, inside the list's. -/
theorem singleton_sub_of_mem {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map_of_mem h))

theorem ops_writes :
    (ops : List (HloOp τ sig (Elt F))).Forall fun op => op.writes ⊆ (ops_W.map (Proc.devRef (τ := τ) .tc)).toFinset :=
  ⟨singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide)⟩

/-- A buffer that is no operation's result ends as it began. -/
theorem after_of_not_result (V : Valuation τ sig (Elt F)) (r : Ref sig .tc) (h : r ∉ ops_W) :
    after ops V (r : DevRef τ sig) = V (r : DevRef τ sig) :=
  after_of_writes_sub ops V ops_writes h

set_option maxRecDepth 8192 in
set_option maxHeartbeats 4000000 in
/-- The fold at the result buffer: each operation's result read at its own buffer is its function of what its
    operands held, every other buffer is passed over, and the functions' typed references carry the identity cast;
    what is left is `refTerm` unfolded. -/
theorem out_eq (V : Valuation τ sig (Elt F)) :
    after ops V (main_v51 : DevRef τ sig)
      = refTerm (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) := by
  after_results_simp
  try simp only [TRef.ofBuf, TRef.toBuf, cast_eq]
  rfl

/-- At the compiled mesh, for any float values, from any memory with zero counters: every weakly fair execution of
    @main on the TensorCores terminates, and every final state has each TensorCore buffer at the operations' fold
    over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ
    (fun _ => List.forall_iff_forall_mem.mp ops_fresh)

/-- The run read back: the result buffer ends at `refTerm` of the nine arguments' launch contents, and every
    argument buffer ends as it was launched. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v51)
        = refTerm (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c main_v51).trans (out_eq _),
      (h c main_arg0).trans (after_of_not_result _ main_arg0 (by decide)),
      (h c main_arg1).trans (after_of_not_result _ main_arg1 (by decide)),
      (h c main_arg2).trans (after_of_not_result _ main_arg2 (by decide)),
      (h c main_arg3).trans (after_of_not_result _ main_arg3 (by decide)),
      (h c main_arg4).trans (after_of_not_result _ main_arg4 (by decide)),
      (h c main_arg5).trans (after_of_not_result _ main_arg5 (by decide)),
      (h c main_arg6).trans (after_of_not_result _ main_arg6 (by decide)),
      (h c main_arg7).trans (after_of_not_result _ main_arg7 (by decide)),
      (h c main_arg8).trans (after_of_not_result _ main_arg8 (by decide))⟩)
    (run_main m ρ)

/-- The same with the result dropped: every argument buffer ends as it was launched. -/
theorem run_frame (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => (h c).2) (run m ρ)

end Cert.ReferenceIdeal.Hand

end
-- ==== Proof.LibGatherMid.lean ====
/- The gather along the middle axis: operand [B, N, C], start indices [n, 1], result [B, n, C]; the operand's axis 1 is collapsed and named by the one component of the index vector, its axes 0 and 2 are offset axes taken whole (the result's axes 0 and 2). Result entry (b, e, c) is the operand's entry (b, k, c) with k the start index e, read signed and clamped into [0, N - 1]; for a start index already in [0, N) it is that index. -/
import Idealize.ShloMosaic.PureOps.Ideal
import Idealize.ShloMosaic.Lib.ValueIdx

noncomputable section

open scoped BigOperators

namespace Cert.LibGatherMid

open Idealize.ShloMosaic Idealize.ShloMosaic.ValueIdx

/-- An entry of a list read through two equations: of the lists and of the positions. -/
theorem getElem_of_eq_of_eq {β : Type} {l l' : List β} (h : l = l') {i i' : Nat} (hi : i = i') (w : i < l.length) :
    l[i] = l'[i']'(by subst h; subst hi; exact w) := by
  subst h; subst hi; rfl

/-- THE MIDDLE-AXIS GATHER READ AT (b, e, c). On axis 1 (collapsed, named by the start index map) the operand
    coordinate is the start word read signed and clamped so that a slice of size 1 fits; on axes 0 and 2 (offset axes,
    not named by the start index map) the start is 0 and the offset coordinate is the result's coordinate on its
    axes 0 and 2, in order. -/
theorem gather_mid_apply {α : Type} {B N n C w : Nat} (hN : 0 < N)
    (d : GatherDims ⟨3, ![B, N, C]⟩ ⟨2, ![n, 1]⟩ ⟨3, ![B, n, C]⟩)
    (hoff : d.offsetDims = [0, 2]) (hcoll : d.collapsedSliceDims = [1]) (hob : d.operandBatchingDims = [])
    (hsb : d.startIndicesBatchingDims = []) (hsim : d.startIndexMap = [1]) (hivd : d.indexVectorDim = 1)
    (x : (⟨3, ![B, N, C]⟩ : Shape).Idx → α) (idx : IVec ⟨2, ![n, 1]⟩ w) (b : Fin B) (e : Fin n) (c : Fin C) :
    Host.gather d x idx (ix3 b e c)
      = x (ix3 b (⟨min (idx (ix2 e (0 : Fin 1))).toInt.toNat (N - 1), by omega⟩ : Fin N) c) := by
  unfold Host.gather
  congr 1
  funext q
  apply Fin.ext
  have hb : ∀ q : Fin 3, q ∉ d.operandBatchingDims := fun q => by rw [hob]; exact List.not_mem_nil
  -- the operand's axes that are neither collapsed nor batching: 0 and 2, in order
  have hsk : d.sKept = [0, 2] := by
    simp only [GatherDims.sKept, Shape.kept, hcoll, hob]
    rfl
  -- a batch axis of the result is its axis 1 (the one axis that is not an offset axis)
  have ebatch : ∀ X : Fin 3, X ∈ d.batchDims → ((ix3 b e c : (⟨3, ![B, n, C]⟩ : Shape).Idx) X).val = e.val := by
    intro X hX
    have hX1 : X = 1 := by
      simp only [GatherDims.batchDims, Shape.kept, hoff, List.mem_filter] at hX
      have h02 : X ≠ 0 ∧ X ≠ 2 := by simpa using hX.2
      match X with
      | ⟨0, _⟩ => exact absurd rfl h02.1
      | ⟨1, _⟩ => rfl
      | ⟨2, _⟩ => exact absurd rfl h02.2
    subst hX1; rfl
  -- the result's coordinates on its axes 0 and 2
  have e0 : ∀ X : Fin 3, X = 0 → ((ix3 b e c : (⟨3, ![B, n, C]⟩ : Shape).Idx) X).val = b.val := by
    intro X hX; subst hX; rfl
  have e2 : ∀ X : Fin 3, X = 2 → ((ix3 b e c : (⟨3, ![B, n, C]⟩ : Shape).Idx) X).val = c.val := by
    intro X hX; subst hX; rfl
  have hm : ∀ q : Fin 3, q ≠ 1 → q ∉ d.startIndexMap := fun q hq => by
    rw [hsim]; exact fun h => hq (List.mem_singleton.mp h)
  match q with
  | ⟨0, _⟩ =>
    -- the first offset axis: no start, no batching coordinate, the result's coordinate on its axis 0
    have hk : (0 : Fin 3) ∈ d.sKept := by rw [hsk]; simp
    show d.start (ix3 b e c) idx 0 + d.batchCoord (ix3 b e c) 0 + d.offCoord (ix3 b e c) 0 = b.val
    rw [GatherDims.batchCoord_eq_zero _ _ _ (hb 0)]
    unfold GatherDims.start GatherDims.offCoord
    rw [dif_neg (hm 0 (by decide)), dif_pos hk]
    simp only [Nat.zero_add]
    exact e0 _ ((getElem_of_eq_of_eq hoff (show List.idxOf (0 : Fin 3) d.sKept = 0 by rw [hsk]; rfl) _).trans rfl)
  | ⟨1, _⟩ =>
    -- the collapsed axis: the clamped start, no batching and no offset coordinate
    have hk : (1 : Fin 3) ∉ d.sKept := by rw [GatherDims.mem_sKept, hcoll]; simp
    have hm1 : (1 : Fin 3) ∈ d.startIndexMap := by rw [hsim]; exact List.mem_singleton.mpr rfl
    have hsl : d.sliceSizes 1 = 1 := d.slice_collapsed 1 (by rw [hcoll]; exact List.mem_singleton.mpr rfl)
    show d.start (ix3 b e c) idx 1 + d.batchCoord (ix3 b e c) 1 + d.offCoord (ix3 b e c) 1
      = min (idx (ix2 e (0 : Fin 1))).toInt.toNat (N - 1)
    rw [GatherDims.batchCoord_eq_zero _ _ _ (hb 1), GatherDims.offCoord_eq_zero _ _ _ hk]
    simp only [Nat.add_zero]
    unfold GatherDims.start
    rw [dif_pos hm1]
    show min (idx _).toInt.toNat (N - d.sliceSizes 1) = min (idx (ix2 e (0 : Fin 1))).toInt.toNat (N - 1)
    rw [hsl]
    congr 3
    congr 1
    funext p
    apply Fin.ext
    match p with
    | ⟨0, _⟩ =>
      -- the start indices' axis 0 is read at the result's batch coordinate
      unfold GatherDims.siIdx
      rw [dif_neg (by rw [hivd]; simp)]
      unfold GatherDims.siCoord
      simp only [Fin.val_cast]
      exact ebatch _ (List.getElem_mem _)
    | ⟨1, _⟩ =>
      -- the index vector's axis is read at the component's position in the start index map, the first
      unfold GatherDims.siIdx
      rw [dif_pos (by rw [hivd])]
      show List.idxOf (1 : Fin 3) d.startIndexMap = 0
      rw [hsim]; simp
  | ⟨2, _⟩ =>
    -- the second offset axis: the result's coordinate on its axis 2
    have hk : (2 : Fin 3) ∈ d.sKept := by rw [hsk]; simp
    show d.start (ix3 b e c) idx 2 + d.batchCoord (ix3 b e c) 2 + d.offCoord (ix3 b e c) 2 = c.val
    rw [GatherDims.batchCoord_eq_zero _ _ _ (hb 2)]
    unfold GatherDims.start GatherDims.offCoord
    rw [dif_neg (hm 2 (by decide)), dif_pos hk]
    simp only [Nat.zero_add]
    exact e2 _ ((getElem_of_eq_of_eq hoff (show List.idxOf (2 : Fin 3) d.sKept = 1 by rw [hsk]; rfl) _).trans rfl)

/-- For a start index already inside [0, N) nothing is clamped: entry (b, e, c) of the result is the operand's entry
    (b, start index e, c). -/
theorem gather_mid_apply_of_lt {α : Type} {B N n C w : Nat}
    (d : GatherDims ⟨3, ![B, N, C]⟩ ⟨2, ![n, 1]⟩ ⟨3, ![B, n, C]⟩)
    (hoff : d.offsetDims = [0, 2]) (hcoll : d.collapsedSliceDims = [1]) (hob : d.operandBatchingDims = [])
    (hsb : d.startIndicesBatchingDims = []) (hsim : d.startIndexMap = [1]) (hivd : d.indexVectorDim = 1)
    (x : (⟨3, ![B, N, C]⟩ : Shape).Idx → α) (idx : IVec ⟨2, ![n, 1]⟩ w) (b : Fin B) (e : Fin n) (c : Fin C)
    (hlo : 0 ≤ (idx (ix2 e (0 : Fin 1))).toInt) (hhi : (idx (ix2 e (0 : Fin 1))).toInt < (N : ℤ)) :
    Host.gather d x idx (ix3 b e c)
      = x (ix3 b (⟨(idx (ix2 e (0 : Fin 1))).toInt.toNat, by omega⟩ : Fin N) c) := by
  have hN : 0 < N := by omega
  rw [gather_mid_apply hN d hoff hcoll hob hsb hsim hivd]
  congr 2
  apply Fin.ext
  show min (idx (ix2 e (0 : Fin 1))).toInt.toNat (N - 1) = (idx (ix2 e (0 : Fin 1))).toInt.toNat
  omega

end Cert.LibGatherMid

end
-- ==== Proof.LibScatterAddMid.lean ====
/- The accumulating scatter along the middle axis: operand [B, N, C], start indices [n, 1], updates [B, n, C]; the operand's axis 1 is inserted and named by the one component of the index vector, its axes 0 and 2 are the update window (the updates' axes 0 and 2). Update (b, e, c) lands on (b', v, c') exactly when start index e, read signed, equals v and the window coordinates agree; an index outside [0, N) lands nowhere. So the scatter-add read at (b, v, c) is the operand there plus the sum, over the update positions e whose start index is v, of the update at (b, e, c). -/
import Idealize.ShloMosaic.PureOps.Ideal
import Idealize.ShloMosaic.Lib.ValueIdx

noncomputable section

open scoped BigOperators

namespace Cert.LibScatterAddMid

open Idealize.ShloMosaic Idealize.ShloMosaic.ValueIdx

/-- An axis of a rank-3 shape is axis 0, 1 or 2. -/
theorem axis3_cases {B N C : Nat} (a : Fin (⟨3, ![B, N, C]⟩ : Shape).rank) : a = 0 ∨ a = 1 ∨ a = 2 := by
  match a with
  | ⟨0, _⟩ => exact Or.inl rfl
  | ⟨1, _⟩ => exact Or.inr (Or.inl rfl)
  | ⟨2, _⟩ => exact Or.inr (Or.inr rfl)

/-- The dimension numbers of a scatter along the middle axis. -/
abbrev midDims (B N n C : Nat)
    (wf : ScatterDims.WF ⟨3, ![B, N, C]⟩ ⟨2, ![n, 1]⟩ ⟨3, ![B, n, C]⟩ [0, 2] [1] [1] 1) :
    ScatterDims ⟨3, ![B, N, C]⟩ ⟨2, ![n, 1]⟩ ⟨3, ![B, n, C]⟩ where
  updateWindowDims := [0, 2]
  insertedWindowDims := [1]
  scatterDimsToOperandDims := [1]
  indexVectorDim := 1
  wf := wf

section Mid
variable {B N n C w : Nat} (wf : ScatterDims.WF ⟨3, ![B, N, C]⟩ ⟨2, ![n, 1]⟩ ⟨3, ![B, n, C]⟩ [0, 2] [1] [1] 1)
  (b : Fin B) (e : Fin n) (c : Fin C) (idx : IVec ⟨2, ![n, 1]⟩ w)

/-- On the inserted axis the window of update (b, e, c) starts at start index e, read signed. -/
theorem mid_start1 : (midDims B N n C wf).start (ix3 b e c) idx 1 = (idx (ix2 e (0 : Fin 1))).toInt := by
  unfold ScatterDims.start
  rw [dif_pos (show (1 : Fin 3) ∈ (midDims B N n C wf).scatterDimsToOperandDims from List.mem_singleton.mpr rfl)]
  have hsi : (midDims B N n C wf).siIdx (ix3 b e c)
      ⟨List.idxOf (1 : Fin 3) (midDims B N n C wf).scatterDimsToOperandDims,
        List.idxOf_lt_length_iff.2 (List.mem_singleton.mpr rfl)⟩ = ix2 e (0 : Fin 1) := by
    funext q; refine Fin.ext ?_
    match q with
    | ⟨0, _⟩ => rfl
    | ⟨1, _⟩ => rfl
  rw [hsi]

/-- On the first window axis the start is 0. -/
theorem mid_start0 : (midDims B N n C wf).start (ix3 b e c) idx 0 = 0 := by
  unfold ScatterDims.start
  rw [dif_neg]
  simp

/-- On the second window axis the start is 0. -/
theorem mid_start2 : (midDims B N n C wf).start (ix3 b e c) idx 2 = 0 := by
  unfold ScatterDims.start
  rw [dif_neg]
  simp

/-- The first window axis has the update's first coordinate as window coordinate. -/
theorem mid_window0 : (midDims B N n C wf).window (ix3 b e c) 0 = b.val := by
  unfold ScatterDims.window
  rw [dif_pos (by simp [ScatterDims.sKept, Shape.kept, List.mem_filter, List.mem_finRange])]
  rfl

/-- The inserted axis has window coordinate 0. -/
theorem mid_window1 : (midDims B N n C wf).window (ix3 b e c) 1 = 0 := by
  unfold ScatterDims.window
  rw [dif_neg]
  simp [ScatterDims.sKept, Shape.kept, List.mem_filter, List.mem_finRange]

/-- The second window axis has the update's third coordinate as window coordinate. -/
theorem mid_window2 : (midDims B N n C wf).window (ix3 b e c) 2 = c.val := by
  unfold ScatterDims.window
  rw [dif_pos (by simp [ScatterDims.sKept, Shape.kept, List.mem_filter, List.mem_finRange])]
  rfl

/-- Update (b, e, c) lands on (b', v, c') exactly when start index e, read signed, is v and the window coordinates
    agree. -/
theorem mid_resultIdx?_eq_some_iff (b' : Fin B) (v : Fin N) (c' : Fin C) :
    (midDims B N n C wf).resultIdx? (ix3 b e c) idx = some (ix3 b' v c')
      ↔ ((idx (ix2 e (0 : Fin 1))).toInt = (v.val : ℤ) ∧ b = b' ∧ c = c') := by
  unfold ScatterDims.resultIdx?
  have hs0 : (midDims B N n C wf).start (ix3 b e c) idx 0 + ((midDims B N n C wf).window (ix3 b e c) 0 : ℤ)
      = (b.val : ℤ) := by
    rw [mid_start0, mid_window0]; simp
  have hs1 : (midDims B N n C wf).start (ix3 b e c) idx 1 + ((midDims B N n C wf).window (ix3 b e c) 1 : ℤ)
      = (idx (ix2 e (0 : Fin 1))).toInt := by
    rw [mid_start1, mid_window1]; simp
  have hs2 : (midDims B N n C wf).start (ix3 b e c) idx 2 + ((midDims B N n C wf).window (ix3 b e c) 2 : ℤ)
      = (c.val : ℤ) := by
    rw [mid_start2, mid_window2]; simp
  constructor
  · intro h
    split at h
    · rename_i hall
      have q := Option.some.inj h
      have h0 := congrArg Fin.val (congrFun q 0)
      have h1 := congrArg Fin.val (congrFun q 1)
      have h2 := congrArg Fin.val (congrFun q 2)
      change ((midDims B N n C wf).start (ix3 b e c) idx 0 + ((midDims B N n C wf).window (ix3 b e c) 0 : ℤ)).toNat
        = b'.val at h0
      change ((midDims B N n C wf).start (ix3 b e c) idx 1 + ((midDims B N n C wf).window (ix3 b e c) 1 : ℤ)).toNat
        = v.val at h1
      change ((midDims B N n C wf).start (ix3 b e c) idx 2 + ((midDims B N n C wf).window (ix3 b e c) 2 : ℤ)).toNat
        = c'.val at h2
      have hp := (hall 1).1
      rw [hs0] at h0
      rw [hs1] at h1 hp
      rw [hs2] at h2
      exact ⟨by omega, Fin.ext (by omega), Fin.ext (by omega)⟩
    · exact absurd h (by simp)
  · rintro ⟨h, rfl, rfl⟩
    have hall : ∀ q, 0 ≤ (midDims B N n C wf).start (ix3 b e c) idx q + ((midDims B N n C wf).window (ix3 b e c) q : ℤ) ∧
        (midDims B N n C wf).start (ix3 b e c) idx q + ((midDims B N n C wf).window (ix3 b e c) q : ℤ)
          < ((⟨3, ![B, N, C]⟩ : Shape).size q : ℤ) := by
      intro q
      rcases axis3_cases q with rfl | rfl | rfl
      · rw [hs0]
        have := b.isLt
        constructor
        · omega
        · change (b.val : ℤ) < (B : ℤ); omega
      · rw [hs1, h]
        have := v.isLt
        constructor
        · omega
        · change (v.val : ℤ) < (N : ℤ); omega
      · rw [hs2]
        have := c.isLt
        constructor
        · omega
        · change (c.val : ℤ) < (C : ℤ); omega
    rw [dif_pos hall]
    congr 1
    funext q
    refine Fin.ext ?_
    rcases axis3_cases q with rfl | rfl | rfl
    · change ((midDims B N n C wf).start (ix3 b e c) idx 0 + ((midDims B N n C wf).window (ix3 b e c) 0 : ℤ)).toNat = b.val
      rw [hs0]; simp
    · change ((midDims B N n C wf).start (ix3 b e c) idx 1 + ((midDims B N n C wf).window (ix3 b e c) 1 : ℤ)).toNat = v.val
      rw [hs1, h]; simp
    · change ((midDims B N n C wf).start (ix3 b e c) idx 2 + ((midDims B N n C wf).window (ix3 b e c) 2 : ℤ)).toNat = c.val
      rw [hs2]; simp

end Mid

/-- THE MIDDLE-AXIS SCATTER-ADD READ AT (b, v, c): the operand there plus the sum, over the update positions whose
    start index is v, of the update at (b, ·, c). -/
theorem scatterAdd_mid_apply {B N n C w : Nat} {φ : FTy} (d : ScatterDims ⟨3, ![B, N, C]⟩ ⟨2, ![n, 1]⟩ ⟨3, ![B, n, C]⟩)
    (hu : d.updateWindowDims = [0, 2]) (hi : d.insertedWindowDims = [1]) (hs : d.scatterDimsToOperandDims = [1])
    (hv : d.indexVectorDim = 1)
    (x : FVec Ideal ⟨3, ![B, N, C]⟩ φ) (idx : IVec ⟨2, ![n, 1]⟩ w) (upd : FVec Ideal ⟨3, ![B, n, C]⟩ φ)
    (b : Fin B) (v : Fin N) (c : Fin C) :
    Host.scatterAdd d x idx upd (ix3 b v c)
      = x (ix3 b v c) + ∑ e ∈ Finset.univ.filter (fun e : Fin n => (idx (ix2 e (0 : Fin 1))).toInt = (v.val : ℤ)), upd (ix3 b e c) := by
  obtain ⟨uw, iw, sd, iv, wf⟩ := d
  dsimp only at hu hi hs hv
  subst hu hi hs hv
  unfold Host.scatterAdd
  rw [Ideal.hostScatterAdd_def]
  unfold Ideal.hostScatterAdd
  congr 1
  symm
  refine Finset.sum_bij (fun e _ => ix3 b e c) ?_ ?_ ?_ ?_
  · intro e he
    simp only [Finset.mem_filter, Finset.mem_univ, true_and] at he ⊢
    exact (mid_resultIdx?_eq_some_iff wf b e c idx b v c).2 ⟨he, rfl, rfl⟩
  · intro e _ e' _ hee
    exact congrFun hee 1
  · intro p hp
    simp only [Finset.mem_filter, Finset.mem_univ, true_and] at hp
    rw [eq_ix3 p] at hp ⊢
    obtain ⟨h1, h0, h2⟩ := (mid_resultIdx?_eq_some_iff wf (p 0) (p 1) (p 2) idx b v c).1 hp
    exact ⟨p 1, Finset.mem_filter.2 ⟨Finset.mem_univ _, h1⟩, by subst h0; subst h2; rfl⟩
  · intro e _
    rfl

/-- The same as a sum over every update position, each counted when its start index is v. -/
theorem scatterAdd_mid_apply_ite {B N n C w : Nat} {φ : FTy} (d : ScatterDims ⟨3, ![B, N, C]⟩ ⟨2, ![n, 1]⟩ ⟨3, ![B, n, C]⟩)
    (hu : d.updateWindowDims = [0, 2]) (hi : d.insertedWindowDims = [1]) (hs : d.scatterDimsToOperandDims = [1])
    (hv : d.indexVectorDim = 1)
    (x : FVec Ideal ⟨3, ![B, N, C]⟩ φ) (idx : IVec ⟨2, ![n, 1]⟩ w) (upd : FVec Ideal ⟨3, ![B, n, C]⟩ φ)
    (b : Fin B) (v : Fin N) (c : Fin C) :
    Host.scatterAdd d x idx upd (ix3 b v c)
      = x (ix3 b v c) + ∑ e : Fin n, if (idx (ix2 e (0 : Fin 1))).toInt = (v.val : ℤ) then upd (ix3 b e c) else 0 := by
  rw [scatterAdd_mid_apply d hu hi hs hv, Finset.sum_filter]

end Cert.LibScatterAddMid

end
-- ==== Proof.Ref.Read.lean ====
/-
  The reference's result at an index. The reference's arithmetic is one term of its nine argument arrays
  (`refTerm`: the self transform, the message of each edge, the messages summed into their destination rows, the
  batch statistics, the normalisation and the clamp at zero). Read at batch `b`, node `v`, channel `o`, under the
  one hypothesis that every entry of the edge list is in [0, 10000) signed, it is `Cert.Spec.refOut` of the arguments
  read at coordinates (`Cert.Spec.argsOf`).

  Stage by stage: a column of the edge list is a slice then a shape cast; the index wrap `i < 0 ? i + 10000 : i`
  keeps an entry that is not negative; each of the two products is the sum over the 128 features; the gather along
  the node axis reads the transformed source row (no clamp, the index being in range); the scatter-add along the node
  axis is the sum over the edges whose destination is the node; each reduction over batch and node is the double sum;
  the variance's guard `80000 − 0 > 0` holds, so its NaN row is never read, and its divisor is 80000; the reciprocal
  square root, the maximum with zero and the broadcasts read through elementwise.
-/
import proofs.«421049_j39367670235755_2_alg».proof.Proof.Ref.Term
import proofs.«421049_j39367670235755_2_alg».proof.Proof.Pre
import proofs.«421049_j39367670235755_2_alg».proof.Proof.LibGatherMid
import proofs.«421049_j39367670235755_2_alg».proof.Proof.LibScatterAddMid
import Idealize.ShloMosaic.Lib.IdealHost
import Idealize.ShloMosaic.Lib.ValueIdx
import Idealize.ShloMosaic.Lib.ValueIdxRank1
import Idealize.ShloMosaic.Lib.Pipeline.Value

set_option maxRecDepth 16384

noncomputable section

open scoped BigOperators

namespace Cert.ReferenceIdeal.Hand.Read

open Idealize.ShloMosaic Idealize.ShloMosaic.ValueIdx Cert.ReferenceIdeal Cert.ReferenceIdeal.Facts₀ Cert.Spec

/-! ## The layout operations of the reference, read at an index -/

section Layout
variable {α : Type}

/-- Column 0 of the edge list as a flat array, read at an edge. -/
theorem col0_apply (idx : S160000x2.Idx → α) (e : Fin 160000) :
    shapeCast S160000 (extractStridedSlice S160000x1 ![0, 0] idx slices_S160000x2_S160000x1_0_0) shapeCasts_S160000x1_S160000 (ix1 e)
      = idx (ix2 e 0) := by
  refine (shapeCast_apply _ _ (ix1 e) (ix2 e (0 : Fin 1)) ?_).trans ?_
  · rw [Shape.rowMajor_val_two, Shape.rowMajor_val_one]
    show e.val * 1 + 0 = e.val
    omega
  · refine extractStridedSlice_apply _ idx _ _ (ix2 e 0) fun a => ?_
    match a with
    | ⟨0, _⟩ => show e.val = 0 + e.val; omega
    | ⟨1, _⟩ => rfl

/-- Column 1 of the edge list as a flat array, read at an edge. -/
theorem col1_apply (idx : S160000x2.Idx → α) (e : Fin 160000) :
    shapeCast S160000 (extractStridedSlice S160000x1 ![0, 1] idx slices_S160000x2_S160000x1_0_1) shapeCasts_S160000x1_S160000 (ix1 e)
      = idx (ix2 e 1) := by
  refine (shapeCast_apply _ _ (ix1 e) (ix2 e (0 : Fin 1)) ?_).trans ?_
  · rw [Shape.rowMajor_val_two, Shape.rowMajor_val_one]
    show e.val * 1 + 0 = e.val
    omega
  · refine extractStridedSlice_apply _ idx _ _ (ix2 e 1) fun a => ?_
    match a with
    | ⟨0, _⟩ => show e.val = 0 + e.val; omega
    | ⟨1, _⟩ => rfl

/-- A flat array of edges viewed as a one-column array. -/
theorem asCol_apply (i : S160000.Idx → α) (e : Fin 160000) :
    broadcastInDim S160000x1 ![0] bcast_S160000_S160000x1_0 i (ix2 e (0 : Fin 1)) = i (ix1 e) := by
  refine broadcastInDim_apply _ _ i _ (ix1 e) fun a => ?_
  match a with
  | ⟨0, _⟩ => rfl

/-- A per-channel vector broadcast over batch and node. -/
theorem chan_node_apply (u : S128.Idx → α) (b : Fin 8) (v : Fin 10000) (o : Fin 128) :
    broadcastInDim S8x10000x128 ![0, 1, 2] bcast_S1x1x128_S8x10000x128_0_1_2
      (broadcastInDim S1x1x128 ![2] bcast_S128_S1x1x128_2 u) (ix3 b v o) = u (ix1 o) := by
  refine (broadcastInDim_apply _ _ _ _ (ix3 (0 : Fin 1) (0 : Fin 1) o) fun a => ?_).trans ?_
  · match a with
    | ⟨0, _⟩ => rfl
    | ⟨1, _⟩ => rfl
    | ⟨2, _⟩ => rfl
  · refine broadcastInDim_apply _ _ u _ (ix1 o) fun a => ?_
    match a with
    | ⟨0, _⟩ => rfl

/-- A per-channel vector broadcast over batch and edge. -/
theorem chan_edge_apply (u : S128.Idx → α) (b : Fin 8) (e : Fin 160000) (o : Fin 128) :
    broadcastInDim S8x160000x128 ![0, 1, 2] bcast_S1x1x128_S8x160000x128_0_1_2
      (broadcastInDim S1x1x128 ![2] bcast_S128_S1x1x128_2 u) (ix3 b e o) = u (ix1 o) := by
  refine (broadcastInDim_apply _ _ _ _ (ix3 (0 : Fin 1) (0 : Fin 1) o) fun a => ?_).trans ?_
  · match a with
    | ⟨0, _⟩ => rfl
    | ⟨1, _⟩ => rfl
    | ⟨2, _⟩ => rfl
  · refine broadcastInDim_apply _ _ u _ (ix1 o) fun a => ?_
    match a with
    | ⟨0, _⟩ => rfl

/-- The edge attributes broadcast over the channels. -/
theorem attr_apply (ea : S8x160000.Idx → α) (b : Fin 8) (e : Fin 160000) (o : Fin 128) :
    broadcastInDim S8x160000x128 ![0, 1, 2] bcast_S8x160000x1_S8x160000x128_0_1_2
      (broadcastInDim S8x160000x1 ![0, 1] bcast_S8x160000_S8x160000x1_0_1 ea) (ix3 b e o) = ea (ix2 b e) := by
  refine (broadcastInDim_apply _ _ _ _ (ix3 b e (0 : Fin 1)) fun a => ?_).trans ?_
  · match a with
    | ⟨0, _⟩ => rfl
    | ⟨1, _⟩ => rfl
    | ⟨2, _⟩ => rfl
  · refine broadcastInDim_apply _ _ ea _ (ix2 b e) fun a => ?_
    match a with
    | ⟨0, _⟩ => rfl
    | ⟨1, _⟩ => rfl

/-- The edge weight column as a flat vector. -/
theorem weCol_apply (we : S128x1.Idx → α) (o : Fin 128) :
    shapeCast S128 we shapeCasts_S128x1_S128 (ix1 o) = we (ix2 o (0 : Fin 1)) := by
  refine shapeCast_apply _ _ (ix1 o) (ix2 o (0 : Fin 1)) ?_
  rw [Shape.rowMajor_val_two, Shape.rowMajor_val_one]
  show o.val * 1 + 0 = o.val
  omega

end Layout

/-! ## The index wrap: a start index that is not negative is kept -/

/-- `i < 0 ? i + 10000 : i` at an entry that is not negative is the entry. -/
theorem wrap_apply (i : IVec S160000 32) (e : Fin 160000) (h0 : 0 ≤ (i (ix1 e)).toInt) :
    select (cmpi .slt i (broadcastInDim S160000 ![] bcast_S_S160000 (constantI S_ 32 0#32)))
      (addi i (broadcastInDim S160000 ![] bcast_S_S160000 (constantI S_ 32 10000#32))) i (ix1 e) = i (ix1 e) := by
  rw [select_apply]
  have hc : cmpi .slt i (broadcastInDim S160000 ![] bcast_S_S160000 (constantI S_ 32 0#32)) (ix1 e) = 0#1 := by
    show IntOp.cmpi .slt (i (ix1 e)) (broadcastInDim S160000 ![] bcast_S_S160000 (constantI S_ 32 0#32) (ix1 e)) = 0#1
    rw [broadcastInDim_scalar_apply]
    show IntOp.cmpi .slt (i (ix1 e)) 0#32 = 0#1
    unfold IntOp.cmpi
    have : (i (ix1 e)).slt 0#32 = false := by
      simp only [BitVec.slt, BitVec.toInt_zero, decide_eq_false_iff_not, not_lt]
      exact h0
    rw [this]; rfl
  rw [hc, select_zero]

section Layout2
variable {α : Type}

/-- A [1,1,128] array broadcast over batch and node reads its channel entry. -/
theorem overNodes_apply (w : S1x1x128.Idx → α) (b : Fin 8) (v : Fin 10000) (o : Fin 128) :
    broadcastInDim S8x10000x128 ![0, 1, 2] bcast_S1x1x128_S8x10000x128_0_1_2 w (ix3 b v o)
      = w (ix3 (0 : Fin 1) (0 : Fin 1) o) := by
  refine broadcastInDim_apply _ _ _ _ (ix3 (0 : Fin 1) (0 : Fin 1) o) fun a => ?_
  match a with
  | ⟨0, _⟩ => rfl
  | ⟨1, _⟩ => rfl
  | ⟨2, _⟩ => rfl

/-- A per-channel vector viewed as a [1,1,128] array. -/
theorem lift_apply (u : S128.Idx → α) (o : Fin 128) :
    broadcastInDim S1x1x128 ![2] bcast_S128_S1x1x128_2 u (ix3 (0 : Fin 1) (0 : Fin 1) o) = u (ix1 o) := by
  refine broadcastInDim_apply _ _ u _ (ix1 o) fun a => ?_
  match a with
  | ⟨0, _⟩ => rfl

end Layout2

/-! ## The two products and the two-axis sums -/

/-- The node transform: features contracted against the weight rows. -/
theorem dot_apply (x : FVec Ideal S8x10000x128 .f32) (w : FVec Ideal S128x128 .f32) (b : Fin 8) (v : Fin 10000) (o : Fin 128) :
    Host.dotGeneral dot_S8x10000x128_S128x128_S8x10000x128_2_1_01_0_n_n none x w (ix3 b v o)
      = ∑ f : Fin 128, x (ix3 b v f) * w (ix2 o f) := by
  simp only [Host.dotGeneral]
  rw [Ideal.dotGeneral_apply]
  rw [← Equiv.sum_comp (contrEquiv1 dot_S8x10000x128_S128x128_S8x10000x128_2_1_01_0_n_n 128 rfl rfl).symm]
  refine Finset.sum_congr rfl fun f _ => ?_
  have hk := contrEquiv1_symm_val dot_S8x10000x128_S128x128_S8x10000x128_2_1_01_0_n_n 128 rfl rfl f
  congr 1
  · refine congrArg x (funext fun a => Fin.ext ?_)
    match a with
    | ⟨0, _⟩ => simp [DotDims.lhsIdx, dot_S8x10000x128_S128x128_S8x10000x128_2_1_01_0_n_n]; rfl
    | ⟨1, _⟩ => simp [DotDims.lhsIdx, dot_S8x10000x128_S128x128_S8x10000x128_2_1_01_0_n_n]; rfl
    | ⟨2, _⟩ => simp [DotDims.lhsIdx, dot_S8x10000x128_S128x128_S8x10000x128_2_1_01_0_n_n]; exact hk
  · refine congrArg w (funext fun a => Fin.ext ?_)
    match a with
    | ⟨0, _⟩ => simp [DotDims.rhsIdx, dot_S8x10000x128_S128x128_S8x10000x128_2_1_01_0_n_n]; rfl
    | ⟨1, _⟩ => simp [DotDims.rhsIdx, dot_S8x10000x128_S128x128_S8x10000x128_2_1_01_0_n_n]; exact hk

/-- A rank-3 index set is the product of its three coordinate ranges. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- The sum over batch and node, per channel. -/
theorem reduce01_apply (y : FVec Ideal S8x10000x128 .f32) (init : S_.Idx → Ideal .f32) (o : Fin 128) :
    Host.reduceAdd y init reducesTo_S8x10000x128_S128_d0_1 h_S_ (ix1 o)
      = init ix0 + ∑ b : Fin 8, ∑ v : Fin 10000, y (ix3 b v o) := by
  rw [hostReduceAdd_apply]
  unfold Ideal.hostReduceAdd
  have hi : init (Shape.Idx.first h_S_) = init ix0 := congrArg init (eq_ix0 _)
  rw [hi]
  congr 1
  rw [Finset.sum_filter, ← Equiv.sum_comp (idxEquiv3 (n0 := 8) (n1 := 10000) (n2 := 128)).symm,
    Fintype.sum_prod_type]
  refine Finset.sum_congr rfl fun b _ => ?_
  rw [Fintype.sum_prod_type]
  refine Finset.sum_congr rfl fun v _ => ?_
  have hiff : ∀ o' : Fin 128,
      (reducesTo_S8x10000x128_S128_d0_1.drop (idxEquiv3.symm (b, v, o')) = ix1 o) ↔ o' = o := by
    intro o'
    constructor
    · intro h
      have := congrArg (fun j : S128.Idx => (j 0).val) h
      exact Fin.ext this
    · rintro rfl
      funext a
      match a with
      | ⟨0, _⟩ => exact Fin.ext rfl
  simp only [hiff]
  rw [Finset.sum_ite_eq' Finset.univ o]
  simp
  rfl

/-! ## The constants, the variance's guard, and the normalisation read at an index -/

/-- The host's reciprocal square root at an index. -/
theorem hostRsqrt_apply {s : Shape} (a : FVec Ideal s .f32) (i : s.Idx) : Host.rsqrt a i = Ideal.rsqrt (a i) := rfl

/-- The word 0x479C4000 is the real 80000. -/
theorem n80000_eq : n80000 = ((80000 : ℝ) : EReal) := by
  unfold n80000
  simp [Ideal.ofBits, Ideal.ieee, -EReal.coe_mul]; norm_num

/-- The variance's divisor: 80000 minus the integer 0 converted, which is 80000. -/
theorem divisor_apply :
    subf (constant (F := Ideal) S_ .f32 0x479C4000#32) (sitofp (F := Ideal) .f32 (constantI S_ 32 0#32)) ix0 = n80000 := by
  show Ideal.ofBits .f32 0x479C4000#32 - (((0#32 : BitVec 32).toInt : ℝ) : EReal) = n80000
  rw [BitVec.toInt_zero, Int.cast_zero, EReal.coe_zero, sub_zero]
  rfl

/-- The guard `80000 − 0 > 0` holds. -/
theorem guard_apply :
    cmpf (F := Ideal) .ogt (subf (constant (F := Ideal) S_ .f32 0x479C4000#32) (sitofp (F := Ideal) .f32 (constantI S_ 32 0#32)))
      (constant (F := Ideal) S_ .f32 0x00000000#32) ix0 = 1#1 := by
  rw [cmpf_apply, divisor_apply]
  show Ideal.cmp .ogt n80000 (Ideal.ofBits .f32 0x00000000#32) = 1#1
  rw [Ideal.ofBits_zero_f32, n80000_eq]
  unfold Ideal.cmp
  have : (0 : EReal) < ((80000 : ℝ) : EReal) := by exact_mod_cast (by norm_num : (0 : ℝ) < 80000)
  simp [this]

/-! ## The statistics and the normalisation, stage by stage -/

/-- The two literals, by name. -/
theorem n80000_def : Ideal.ofBits .f32 0x479C4000#32 = n80000 := rfl
theorem eps_def : Ideal.ofBits .f32 0x3727C5AC#32 = eps := rfl

/-- The two-axis sum from the zero constant. -/
theorem sum01_apply (y : FVec Ideal S8x10000x128 .f32) (o : Fin 128) :
    Host.reduceAdd y (constant (F := Ideal) S_ .f32 0x00000000#32) reducesTo_S8x10000x128_S128_d0_1 h_S_ (ix1 o)
      = ∑ b : Fin 8, ∑ v : Fin 10000, y (ix3 b v o) := by
  rw [reduce01_apply, constant_apply, Ideal.ofBits_zero_f32, zero_add]

/-- The mean of a channel: the sum over batch and node divided by 80000. -/
theorem refMean_apply (h : FVec Ideal S8x10000x128 .f32) (o : Fin 128) :
    refMean (F := Ideal) h (ix1 o) = Ideal.div (∑ b : Fin 8, ∑ v : Fin 10000, h (ix3 b v o)) n80000 := by
  unfold refMean
  simp only []
  rw [hostDivf_apply, sum01_apply, broadcastInDim_scalar_apply, constant_apply, n80000_def]

/-- The variance of a channel: the sum of the squared deviations from the mean divided by 80000; the guard holds, so the
    NaN row is not read. -/
theorem refVar_apply (h : FVec Ideal S8x10000x128 .f32) (o : Fin 128) :
    refVar (F := Ideal) h (ix1 o)
      = Ideal.div (∑ b : Fin 8, ∑ v : Fin 10000,
          (h (ix3 b v o) - Ideal.div (∑ b' : Fin 8, ∑ v' : Fin 10000, h (ix3 b' v' o)) n80000)
            * (h (ix3 b v o) - Ideal.div (∑ b' : Fin 8, ∑ v' : Fin 10000, h (ix3 b' v' o)) n80000)) n80000 := by
  unfold refVar
  simp only []
  rw [select_apply, broadcastInDim_scalar_apply, guard_apply, select_one, hostDivf_apply, sum01_apply,
    broadcastInDim_scalar_apply, divisor_apply]
  refine congrArg (fun s => Ideal.div s n80000) ?_
  refine Finset.sum_congr rfl fun b' _ => Finset.sum_congr rfl fun v' _ => ?_
  rw [mulf_apply, subf_apply, overNodes_apply, hostDivf_apply, lift_apply, sum01_apply, broadcastInDim_scalar_apply,
    constant_apply, n80000_def]

/-- The normalisation at an index: `bn` of the entry, the channel's mean, variance, scale and shift. -/
theorem refNorm_apply (h : FVec Ideal S8x10000x128 .f32) (m vr g be : FVec Ideal S128 .f32)
    (b : Fin 8) (v : Fin 10000) (o : Fin 128) :
    refNorm (F := Ideal) h m vr g be (ix3 b v o)
      = bn (h (ix3 b v o)) (m (ix1 o)) (vr (ix1 o)) (g (ix1 o)) (be (ix1 o)) := by
  unfold refNorm bn
  simp only []
  rw [maximumf_apply, addf_apply, mulf_apply, mulf_apply, subf_apply, chan_node_apply, chan_node_apply, chan_node_apply,
    chan_node_apply, hostRsqrt_apply, addf_apply, broadcastInDim_scalar_apply, broadcastInDim_scalar_apply,
    constant_apply, constant_apply, Ideal.ofBits_zero_f32, eps_def]

/-! ## The activations before normalisation -/

/-- A 32-bit word that is not negative signed reads the same unsigned. -/
theorem toInt_eq_toNat (w : BitVec 32) (h0 : 0 ≤ w.toInt) : w.toInt = (w.toNat : ℤ) := by
  have := BitVec.toInt_eq_toNat_cond w
  have hw := w.isLt
  split at this <;> omega

section H

variable (x : FVec Ideal S8x10000x128 .f32) (idx : IVec S160000x2 32) (ea : FVec Ideal S8x160000 .f32)
  (wn : FVec Ideal S128x128 .f32) (we : FVec Ideal S128x1 .f32) (ws : FVec Ideal S128x128 .f32)
  (bs g be : FVec Ideal S128 .f32)
  (hidx : ∀ (e : Fin 160000) (j : Fin 2), 0 ≤ (idx (ix2 e j)).toInt ∧ (idx (ix2 e j)).toInt < 10000)

include hidx

/-- The source of an edge is column 0 of the edge list: the wrap keeps an entry that is not negative. -/
theorem refSrc_apply (e : Fin 160000) : refSrc (F := Ideal) idx (ix1 e) = idx (ix2 e 0) := by
  unfold refSrc
  simp only []
  rw [wrap_apply _ _ (by rw [col0_apply]; exact (hidx e 0).1), col0_apply]

/-- The destination of an edge is column 1 of the edge list. -/
theorem refDst_apply (e : Fin 160000) : refDst (F := Ideal) idx (ix1 e) = idx (ix2 e 1) := by
  unfold refDst
  simp only []
  rw [wrap_apply _ _ (by rw [col1_apply]; exact (hidx e 1).1), col1_apply]

omit hidx in
/-- The self transform at an index. -/
theorem refSelf_apply (b : Fin 8) (v : Fin 10000) (o : Fin 128) :
    refSelf (F := Ideal) x ws bs (ix3 b v o) = (∑ f : Fin 128, x (ix3 b v f) * ws (ix2 o f)) + bs (ix1 o) := by
  unfold refSelf
  simp only []
  rw [addf_apply, dot_apply, chan_node_apply]

/-- The message of an edge at an index: the transformed source row plus the edge attribute times the edge weight. -/
theorem refMsg_apply (b : Fin 8) (e : Fin 160000) (o : Fin 128) :
    refMsg (F := Ideal) x idx ea wn we (ix3 b e o) = msg (argsOf x idx ea wn we ws bs g be) b e o := by
  have hs : (idx (ix2 e 0)).toNat < 10000 := toNat_lt_of_toInt _ _ (hidx e 0).1 (hidx e 0).2
  have hv14 : broadcastInDim S160000x1 ![0] bcast_S160000_S160000x1_0 (refSrc (F := Ideal) idx) (ix2 e (0 : Fin 1))
      = idx (ix2 e 0) := by
    rw [asCol_apply, refSrc_apply idx hidx]
  unfold refMsg
  simp only []
  rw [addf_apply, mulf_apply, attr_apply, chan_edge_apply, weCol_apply]
  rw [Cert.LibGatherMid.gather_mid_apply_of_lt (N := 10000)
    gather_S8x10000x128_S160000x1_S8x160000x128_02_1_n_n_1_1_81128 rfl rfl rfl rfl rfl rfl
    (Host.dotGeneral dot_S8x10000x128_S128x128_S8x10000x128_2_1_01_0_n_n none x wn)
    (broadcastInDim S160000x1 ![0] bcast_S160000_S160000x1_0 (refSrc (F := Ideal) idx)) b e o
    (by rw [hv14]; exact (hidx e 0).1) (by rw [hv14]; exact (hidx e 0).2)]
  rw [dot_apply]
  show _ = (if h : (idx (ix2 e 0)).toNat < 10000 then
      ∑ f : Fin 128, x (ix3 b (⟨(idx (ix2 e 0)).toNat, h⟩ : Fin 10000) f) * wn (ix2 o f) else 0)
    + ea (ix2 b e) * we (ix2 o 0)
  rw [dif_pos hs]
  refine congrArg (· + ea (ix2 b e) * we (ix2 o 0)) ?_
  refine congrArg (fun n : Fin 10000 => ∑ f : Fin 128, x (ix3 b n f) * wn (ix2 o f)) (Fin.ext ?_)
  show (broadcastInDim S160000x1 ![0] bcast_S160000_S160000x1_0 (refSrc (F := Ideal) idx) (ix2 e (0 : Fin 1))).toInt.toNat
    = (idx (ix2 e 0)).toNat
  rw [hv14, toInt_eq_toNat _ (hidx e 0).1, Int.toNat_natCast]

/-- The activations at an index: the self term plus the messages of the edges that end at the node. -/
theorem refH_apply (b : Fin 8) (v : Fin 10000) (o : Fin 128) :
    refH (F := Ideal) x idx ea wn we ws bs (ix3 b v o) = hR (argsOf x idx ea wn we ws bs g be) b v o := by
  unfold refH
  simp only []
  rw [addf_apply, refSelf_apply,
    Cert.LibScatterAddMid.scatterAdd_mid_apply_ite scatter_S8x10000x128_S160000x1_S8x160000x128_02_1_1_1 rfl rfl rfl rfl,
    broadcastInDim_scalar_apply, constant_apply, Ideal.ofBits_zero_f32, zero_add]
  show _ = ((∑ f : Fin 128, x (ix3 b v f) * ws (ix2 o f)) + bs (ix1 o))
    + ∑ e : Fin 160000, if (idx (ix2 e 1)).toNat = v.val then msg (argsOf x idx ea wn we ws bs g be) b e o else 0
  refine congrArg (((∑ f : Fin 128, x (ix3 b v f) * ws (ix2 o f)) + bs (ix1 o)) + ·) ?_
  refine Finset.sum_congr rfl fun e _ => ?_
  rw [asCol_apply, refDst_apply idx hidx, refMsg_apply x idx ea wn we ws bs g be hidx]
  have hc : ((idx (ix2 e 1)).toInt = (v.val : ℤ)) ↔ ((idx (ix2 e 1)).toNat = v.val) := by
    rw [toInt_eq_toNat _ (hidx e 1).1]; exact Nat.cast_inj
  by_cases hd : (idx (ix2 e 1)).toNat = v.val
  · rw [if_pos (hc.mpr hd), if_pos hd]
  · rw [if_neg (fun h => hd (hc.mp h)), if_neg hd]

/-- THE REFERENCE'S RESULT AT AN INDEX is the mathematics' `refOut` of the arguments. -/
theorem refTerm_apply (b : Fin 8) (v : Fin 10000) (o : Fin 128) :
    refTerm (F := Ideal) x idx ea wn we ws bs g be (ix3 b v o)
      = Cert.Spec.refOut (Cert.Spec.argsOf x idx ea wn we ws bs g be) b v o := by
  have hH := fun b v o => refH_apply x idx ea wn we ws bs g be hidx b v o
  unfold refTerm
  simp only []
  rw [refNorm_apply, refMean_apply, refVar_apply]
  simp only [hH]
  unfold refOut varR meanR
  rfl

end H

end Cert.ReferenceIdeal.Hand.Read

namespace Cert.ReferenceIdeal.Hand

open Idealize.ShloMosaic Idealize.ShloMosaic.ValueIdx Cert.ReferenceIdeal

/-- The reference's result at an index is `Cert.Spec.refOut` of the arguments, when every entry of the edge list is in
    [0, 10000) signed. -/
theorem refTerm_apply (x : FVec Ideal S8x10000x128 .f32) (idx : IVec S160000x2 32) (ea : FVec Ideal S8x160000 .f32)
    (wn : FVec Ideal S128x128 .f32) (we : FVec Ideal S128x1 .f32) (ws : FVec Ideal S128x128 .f32)
    (bs g be : FVec Ideal S128 .f32)
    (hidx : ∀ (e : Fin 160000) (j : Fin 2), 0 ≤ (idx (ix2 e j)).toInt ∧ (idx (ix2 e j)).toInt < 10000)
    (b : Fin 8) (v : Fin 10000) (o : Fin 128) :
    refTerm (F := Ideal) x idx ea wn we ws bs g be (ix3 b v o)
      = Cert.Spec.refOut (Cert.Spec.argsOf x idx ea wn we ws bs g be) b v o :=
  Read.refTerm_apply x idx ea wn we ws bs g be hidx b v o

end Cert.ReferenceIdeal.Hand

end
-- ==== Proof.Bridge.lean ====
/-
  The two arrangements of the layer in `KI/Spec.lean` agree on finite arguments whose edge endpoints are nodes.
  Every quantity is a real number there, so the extended-real sums and products are coercions of real ones:
  the product with the multiplicity matrix is the sum over the edges ending at a node, the padding rows
  contribute nothing, the two statistics sum the same reals in a different order, and the mean squared deviation
  is the mean square minus the squared mean (nonnegative, so clamping it at zero changes nothing).
-/
import proofs.«421049_j39367670235755_2_alg».proof.Proof.KI.Spec
import Mathlib.Data.EReal.Inv
import Mathlib.Algebra.BigOperators.Ring.Finset
import Mathlib.Algebra.BigOperators.Group.Finset.Sigma
import Mathlib.Algebra.BigOperators.Group.Finset.Piecewise
import Mathlib.Data.Fintype.BigOperators
import Mathlib.Tactic.Ring
import Mathlib.Tactic.FieldSimp
import Mathlib.Tactic.Linarith
import Mathlib.Tactic.NormNum

noncomputable section

namespace Cert.Spec

open Idealize.ShloMosaic

/-! ## Real arithmetic inside the extended reals -/

/-- The coercion of a finite sum of reals is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

theorem coe_ite (p : Prop) [Decidable p] (x y : ℝ) :
    ((if p then x else y : ℝ) : EReal) = if p then (x : EReal) else (y : EReal) := by
  split_ifs <;> rfl

theorem coe_dite (p : Prop) [Decidable p] (x : p → ℝ) (y : ¬p → ℝ) :
    ((dite p x y : ℝ) : EReal) = dite p (fun h => (x h : EReal)) (fun h => (y h : EReal)) := by
  split_ifs <;> rfl

/-- The literal `80000`. -/
theorem n80000_eq : n80000 = ((80000 : ℝ) : EReal) := by
  simp [n80000, Ideal.ofBits, Ideal.ieee, -EReal.coe_mul]; norm_num

/-- Division of a real by `80000`. -/
theorem div_n80000 (r : ℝ) : Ideal.div (r : EReal) n80000 = ((r * (1 / 80000) : ℝ) : EReal) := by
  rw [n80000_eq, Ideal.div_coe (by norm_num), EReal.coe_mul]

/-! ## Sums over abstract finite index types, in the reals -/

/-- A weighted sum against a multiplicity count is the sum over the counted items. -/
theorem sum_count_mul {E U : Type*} [Fintype E] [Fintype U] [DecidableEq U] (p : E → Prop) [DecidablePred p]
    (s : E → U) (g : U → ℝ) :
    ∑ u, (∑ e, if p e ∧ s e = u then (1 : ℝ) else 0) * g u = ∑ e, if p e then g (s e) else 0 := by
  simp_rw [Finset.sum_mul, ite_mul, one_mul, zero_mul]
  rw [Finset.sum_comm]
  refine Finset.sum_congr rfl fun e _ => ?_
  by_cases hp : p e
  · simp [hp]
  · simp [hp]

/-- The mean squared deviation is the mean square minus the squared mean. -/
theorem var_identity {ι : Type*} [Fintype ι] (h : ι → ℝ) (N : ℝ) (hN : N ≠ 0) (hc : (Fintype.card ι : ℝ) = N) :
    (∑ i, (h i - (∑ j, h j) * (1 / N)) * (h i - (∑ j, h j) * (1 / N))) * (1 / N)
      = (∑ i, h i * h i) * (1 / N) - ((∑ j, h j) * (1 / N)) * ((∑ j, h j) * (1 / N)) := by
  set S := ∑ j, h j with hS
  have e1 : ∀ i, (h i - S * (1 / N)) * (h i - S * (1 / N))
      = h i * h i - (2 * (S * (1 / N))) * h i + (S * (1 / N)) * (S * (1 / N)) := fun i => by ring
  simp_rw [e1]
  rw [Finset.sum_add_distrib, Finset.sum_sub_distrib, ← Finset.mul_sum, Finset.sum_const, Finset.card_univ,
    nsmul_eq_mul, hc, ← hS]
  field_simp
  ring

/-! ## The activations are real numbers, and the two arrangements give the same one -/

section Activations

variable (a : Args)
  (X : Fin 8 → Fin 10000 → Fin 128 → ℝ) (EA : Fin 8 → Fin 160000 → ℝ) (WN WS : Fin 128 → Fin 128 → ℝ)
  (WE BS : Fin 128 → ℝ)

/-- The activation of node `v`, batch `b`, channel `o` as a real number. -/
def Hreal (hs : ∀ e, a.src e < 10000) (b : Fin 8) (v : Fin 10000) (o : Fin 128) : ℝ :=
  (∑ f, X b v f * WS o f + BS o)
    + ∑ e : Fin 160000, if a.dst e = v.val then (∑ f, X b ⟨a.src e, hs e⟩ f * WN o f + EA b e * WE o) else 0

variable {a X EA WN WS WE BS}
variable (hX : ∀ b v f, a.x b v f = (X b v f : EReal)) (hEA : ∀ b e, a.ea b e = (EA b e : EReal))
  (hWN : ∀ o f, a.wn o f = (WN o f : EReal)) (hWE : ∀ o, a.we o = (WE o : EReal))
  (hWS : ∀ o f, a.ws o f = (WS o f : EReal)) (hBS : ∀ o, a.bs o = (BS o : EReal))

include hX hEA hWN hWE hWS hBS in
/-- The reference's activation is that real. -/
theorem hR_coe (hs : ∀ e, a.src e < 10000) (b : Fin 8) (v : Fin 10000) (o : Fin 128) :
    hR a b v o = (Hreal a X EA WN WS WE BS hs b v o : EReal) := by
  simp only [hR, msg, linR, Hreal, hs, dite_true, hX, hEA, hWN, hWE, hWS, hBS, EReal.coe_add, coe_sum,
    EReal.coe_mul, coe_ite, EReal.coe_zero]

include hX in
/-- A linear map of the padded features is real: padding rows contribute `0`. -/
theorem lin_xpad_coe (W : Fin 128 → Fin 128 → EReal) (Wr : Fin 128 → Fin 128 → ℝ) (hW : ∀ o f, W o f = (Wr o f : EReal))
    (u : Fin 10240) (b : Fin 8) (o : Fin 128) :
    lin (xpad a.x) W u b o
      = ((∑ f, (if h : u.val < 10000 then X b ⟨u.val, h⟩ f else 0) * Wr o f : ℝ) : EReal) := by
  simp only [lin, xpad, hX, hW, coe_sum, EReal.coe_mul, coe_dite, EReal.coe_zero]

/-- On a real row the padded features are the features. -/
theorem xpad_row (x : Fin 8 → Fin 10000 → Fin 128 → EReal) (b : Fin 8) (v : Fin 10000) (f : Fin 128) :
    xpad x b (row v) f = x b v f := by
  unfold xpad
  rw [dif_pos (show (row v).val < 10000 from v.isLt)]
  rfl

/-- The multiplicity matrix is a real count. -/
theorem Amat_coe (src dst : Fin 160000 → ℕ) (v u : Fin 10240) :
    Amat src dst v u = ((∑ e : Fin 160000, if dst e = v.val ∧ src e = u.val then (1 : ℝ) else 0 : ℝ) : EReal) := by
  simp only [Amat, coe_sum, coe_ite, EReal.coe_one, EReal.coe_zero]

include hX hWN in
/-- The aggregation over all padded source rows is the sum, over the edges ending at `v`, of the transformed
    source rows. -/
theorem agg_coe (hs : ∀ e, a.src e < 10000) (b : Fin 8) (v : Fin 10000) (o : Fin 128) :
    agg (Amat a.src a.dst) (lin (xpad a.x) a.wn) (row v) b o
      = ((∑ e : Fin 160000, if a.dst e = v.val then ∑ f, X b ⟨a.src e, hs e⟩ f * WN o f else 0 : ℝ) : EReal) := by
  unfold agg
  simp only [Amat_coe, lin_xpad_coe hX a.wn WN hWN, ← EReal.coe_mul, ← coe_sum]
  rw [EReal.coe_eq_coe_iff]
  have key := sum_count_mul (fun e : Fin 160000 => a.dst e = v.val)
    (fun e => (⟨a.src e, lt_trans (hs e) (by norm_num)⟩ : Fin 10240))
    (fun u => ∑ f, (if h : u.val < 10000 then X b ⟨u.val, h⟩ f else 0) * WN o f)
  simp only [Fin.ext_iff, hs, dite_true] at key
  exact key

include hX hEA hWN hWE hWS hBS in
/-- The kernels' activation on a real row is the same real. -/
theorem hK_coe (hs : ∀ e, a.src e < 10000) (b : Fin 8) (v : Fin 10000) (o : Fin 128) :
    hK a (row v) b o = (Hreal a X EA WN WS WE BS hs b v o : EReal) := by
  have hlin : linb (xpad a.x) a.ws a.bs (row v) b o = ((∑ f, X b v f * WS o f + BS o : ℝ) : EReal) := by
    simp only [linb, lin, xpad_row, hX, hWS, hBS, ← EReal.coe_mul, ← coe_sum, ← EReal.coe_add]
  have hseg : Sseg a.dst a.ea (row v) b
      = ((∑ e : Fin 160000, if a.dst e = v.val then EA b e else 0 : ℝ) : EReal) := by
    simp only [Sseg, row, v.isLt, if_true, hEA, coe_sum, coe_ite, EReal.coe_zero]
  rw [hK, hbo, agg_coe hX hWN hs, hlin, hseg, hWE, ← EReal.coe_add, ← EReal.coe_mul, ← EReal.coe_add,
    EReal.coe_eq_coe_iff]
  unfold Hreal
  have hsplit : (∑ e : Fin 160000,
        if a.dst e = v.val then (∑ f, X b ⟨a.src e, hs e⟩ f * WN o f + EA b e * WE o) else 0)
      = (∑ e : Fin 160000, if a.dst e = v.val then ∑ f, X b ⟨a.src e, hs e⟩ f * WN o f else 0)
        + (∑ e : Fin 160000, if a.dst e = v.val then EA b e else 0) * WE o := by
    rw [Finset.sum_mul, ← Finset.sum_add_distrib]
    refine Finset.sum_congr rfl fun e _ => ?_
    split_ifs <;> ring
  rw [hsplit]
  ring

end Activations

/-! ## The statistics and the result -/

/-- A node-major double sum of reals, as one real sum over the pairs. -/
theorem sum_vb_coe (G : Fin 8 → Fin 10000 → ℝ) :
    (∑ v : Fin 10000, ∑ b : Fin 8, ((G b v : ℝ) : EReal))
      = ((∑ p : Fin 8 × Fin 10000, G p.1 p.2 : ℝ) : EReal) := by
  rw [Fintype.sum_prod_type' G, Finset.sum_comm, coe_sum]
  exact Finset.sum_congr rfl fun b _ => (coe_sum _ _).symm

/-- The batch-major double sum likewise. -/
theorem sum_bv_coe (G : Fin 8 → Fin 10000 → ℝ) :
    (∑ b : Fin 8, ∑ v : Fin 10000, ((G b v : ℝ) : EReal))
      = ((∑ p : Fin 8 × Fin 10000, G p.1 p.2 : ℝ) : EReal) := by
  rw [Finset.sum_comm]; exact sum_vb_coe G

/-- Once both arrangements' activations are one family of reals, the results agree. -/
theorem out_eq_of_real (a : Args) (H : Fin 8 → Fin 10000 → Fin 128 → ℝ)
    (hk : ∀ b v o, hK a (row v) b o = (H b v o : EReal)) (hr : ∀ b v o, hR a b v o = (H b v o : EReal)) :
    kernelOut a = refOut a := by
  funext b v o
  have hcard : (Fintype.card (Fin 8 × Fin 10000) : ℝ) = 80000 := by
    rw [Fintype.card_prod, Fintype.card_fin, Fintype.card_fin]; norm_num
  have hsum : sumH (hK a) o = ((∑ p : Fin 8 × Fin 10000, H p.1 p.2 o : ℝ) : EReal) := by
    simp only [sumH, hk]
    exact sum_vb_coe (fun b v => H b v o)
  have hsq : sumsqH (hK a) o = ((∑ p : Fin 8 × Fin 10000, H p.1 p.2 o * H p.1 p.2 o : ℝ) : EReal) := by
    simp only [sumsqH, hk, ← EReal.coe_mul]
    exact sum_vb_coe (fun b v => H b v o * H b v o)
  have hmK : meanK (sumH (hK a) o)
      = (((∑ p : Fin 8 × Fin 10000, H p.1 p.2 o) * (1 / 80000) : ℝ) : EReal) := by
    rw [meanK, hsum, div_n80000]
  have hmR : meanR a o = (((∑ p : Fin 8 × Fin 10000, H p.1 p.2 o) * (1 / 80000) : ℝ) : EReal) := by
    simp only [meanR, hr]
    rw [sum_bv_coe (fun b v => H b v o), div_n80000]
  have hvR : varR a o
      = (((∑ p : Fin 8 × Fin 10000,
            (H p.1 p.2 o - (∑ q : Fin 8 × Fin 10000, H q.1 q.2 o) * (1 / 80000))
              * (H p.1 p.2 o - (∑ q : Fin 8 × Fin 10000, H q.1 q.2 o) * (1 / 80000))) * (1 / 80000) : ℝ) : EReal) := by
    simp only [varR, hr, hmR, ← EReal.coe_sub, ← EReal.coe_mul]
    rw [sum_bv_coe (fun b v => (H b v o - (∑ q : Fin 8 × Fin 10000, H q.1 q.2 o) * (1 / 80000))
      * (H b v o - (∑ q : Fin 8 × Fin 10000, H q.1 q.2 o) * (1 / 80000))), div_n80000]
  have hvK : varK (sumH (hK a) o) (sumsqH (hK a) o) = varR a o := by
    have hv := var_identity (fun p : Fin 8 × Fin 10000 => H p.1 p.2 o) 80000 (by norm_num) hcard
    rw [hvR, varK, hmK, hsq, div_n80000, ← EReal.coe_mul, ← EReal.coe_sub, ← hv]
    exact max_eq_left (EReal.coe_nonneg.mpr
      (mul_nonneg (Finset.sum_nonneg fun p _ => mul_self_nonneg _) (by norm_num)))
  rw [kernelOut, refOut, hvK, hmK, hmR, hk, hr]

/-- The kernels' arrangement and the reference's arrangement of the layer give the same result on finite
    arguments whose edge endpoints are nodes. -/
theorem bridge (a : Args) (hf : a.Finite) (hs : ∀ e, a.src e < 10000) (hd : ∀ e, a.dst e < 10000) :
    kernelOut a = refOut a := by
  have _ := hd
  obtain ⟨hx, hea, hwn, hwe, hws, hbs, _, _⟩ := hf
  simp only [IsReal] at hx hea hwn hwe hws hbs
  choose X hX using hx
  choose EA hEA using hea
  choose WN hWN using hwn
  choose WE hWE using hwe
  choose WS hWS using hws
  choose BS hBS using hbs
  exact out_eq_of_real a (Hreal a X EA WN WS WE BS hs) (hK_coe hX hEA hWN hWE hWS hBS hs)
    (hR_coe hX hEA hWN hWE hWS hBS hs)

end Cert.Spec

end
-- ==== Proof.lean ====
/-
  The claim: the tiled graph-convolution kernels (node transform; aggregation as a product with the edge multiplicity
  matrix, fused with the self term and the edge-attribute term; batch statistics; normalisation and ReLU) against the
  plain reference (gather of transformed source rows, scatter-add onto destination rows, mean and variance, the same
  normalisation), for finite float inputs and edge endpoints in [0, 10000).
  Frames: each program's run, with the result dropped. The idealization rewrote nothing, so `preserves` is trivial.
  Equal results: the kernel program's last buffer is `Cert.Spec.kernelOut` of the arguments, the reference's result
  `Cert.Spec.refOut` of the same arguments, and the two agree for real-valued arguments with endpoints in range:
  the multiplicity matrix times the transformed rows is the sum of the gathered rows over the edges that end at a
  node (the padding rows are zero), a scalar factor moves across a finite real sum, and the mean squared deviation
  is the mean of squares less the squared mean, a non-negative number.
-/
import proofs.«421049_j39367670235755_2_alg».proof.Defs
import proofs.«421049_j39367670235755_2_alg».proof.Proof.Gen.Kernel
import proofs.«421049_j39367670235755_2_alg».proof.Proof.Gen.KernelIdeal
import proofs.«421049_j39367670235755_2_alg».proof.Proof.Gen.ReferenceIdeal
import proofs.«421049_j39367670235755_2_alg».proof.Proof.Gen.Pre_finite_inputs
import proofs.«421049_j39367670235755_2_alg».proof.Proof.K.Run
import proofs.«421049_j39367670235755_2_alg».proof.Proof.KI.Run
import proofs.«421049_j39367670235755_2_alg».proof.Proof.KI.Chain
import proofs.«421049_j39367670235755_2_alg».proof.Proof.Ref.Run
import proofs.«421049_j39367670235755_2_alg».proof.Proof.Ref.Read
import proofs.«421049_j39367670235755_2_alg».proof.Proof.Pre
import proofs.«421049_j39367670235755_2_alg».proof.Proof.Bridge
import Idealize.ShloMosaic.Lib.ValueIdx
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.ValueIdx

theorem frame_p : Cert.frame_Kernel := fun m ρ _ =>
  (θ_run Cert.Kernel.defs _ _).mono (fun r h c => ⟨(h c _ (Cert.Kernel.Hand.mem_uc Cert.Kernel.main_arg0 (by decide))).trans (Cert.Kernel.Hand.W11_main_arg0 m c),
      (h c _ (Cert.Kernel.Hand.mem_uc Cert.Kernel.main_arg1 (by decide))).trans (Cert.Kernel.Hand.W11_main_arg1 m c),
      (h c _ (Cert.Kernel.Hand.mem_uc Cert.Kernel.main_arg2 (by decide))).trans (Cert.Kernel.Hand.W11_main_arg2 m c),
      (h c _ (Cert.Kernel.Hand.mem_uc Cert.Kernel.main_arg3 (by decide))).trans (Cert.Kernel.Hand.W11_main_arg3 m c),
      (h c _ (Cert.Kernel.Hand.mem_uc Cert.Kernel.main_arg4 (by decide))).trans (Cert.Kernel.Hand.W11_main_arg4 m c),
      (h c _ (Cert.Kernel.Hand.mem_uc Cert.Kernel.main_arg5 (by decide))).trans (Cert.Kernel.Hand.W11_main_arg5 m c),
      (h c _ (Cert.Kernel.Hand.mem_uc Cert.Kernel.main_arg6 (by decide))).trans (Cert.Kernel.Hand.W11_main_arg6 m c),
      (h c _ (Cert.Kernel.Hand.mem_uc Cert.Kernel.main_arg7 (by decide))).trans (Cert.Kernel.Hand.W11_main_arg7 m c),
      (h c _ (Cert.Kernel.Hand.mem_uc Cert.Kernel.main_arg8 (by decide))).trans (Cert.Kernel.Hand.W11_main_arg8 m c)⟩) (Cert.Kernel.Hand.run_all (F := Bits) m ρ)

theorem frame_pi : Cert.frame_KernelIdeal := fun m ρ _ =>
  (θ_run Cert.KernelIdeal.defs _ _).mono (fun r h c => ⟨(h c _ (Cert.KernelIdeal.Hand.mem_uc Cert.KernelIdeal.main_arg0 (by decide))).trans (Cert.KernelIdeal.Hand.W11_main_arg0 m c),
      (h c _ (Cert.KernelIdeal.Hand.mem_uc Cert.KernelIdeal.main_arg1 (by decide))).trans (Cert.KernelIdeal.Hand.W11_main_arg1 m c),
      (h c _ (Cert.KernelIdeal.Hand.mem_uc Cert.KernelIdeal.main_arg2 (by decide))).trans (Cert.KernelIdeal.Hand.W11_main_arg2 m c),
      (h c _ (Cert.KernelIdeal.Hand.mem_uc Cert.KernelIdeal.main_arg3 (by decide))).trans (Cert.KernelIdeal.Hand.W11_main_arg3 m c),
      (h c _ (Cert.KernelIdeal.Hand.mem_uc Cert.KernelIdeal.main_arg4 (by decide))).trans (Cert.KernelIdeal.Hand.W11_main_arg4 m c),
      (h c _ (Cert.KernelIdeal.Hand.mem_uc Cert.KernelIdeal.main_arg5 (by decide))).trans (Cert.KernelIdeal.Hand.W11_main_arg5 m c),
      (h c _ (Cert.KernelIdeal.Hand.mem_uc Cert.KernelIdeal.main_arg6 (by decide))).trans (Cert.KernelIdeal.Hand.W11_main_arg6 m c),
      (h c _ (Cert.KernelIdeal.Hand.mem_uc Cert.KernelIdeal.main_arg7 (by decide))).trans (Cert.KernelIdeal.Hand.W11_main_arg7 m c),
      (h c _ (Cert.KernelIdeal.Hand.mem_uc Cert.KernelIdeal.main_arg8 (by decide))).trans (Cert.KernelIdeal.Hand.W11_main_arg8 m c)⟩) (Cert.KernelIdeal.Hand.run_all (F := Ideal) m ρ)

theorem frame_ri : Cert.frame_ReferenceIdeal := fun m ρ _ =>
  Cert.ReferenceIdeal.Hand.run_frame (F := Ideal) m ρ

theorem preserves : Cert.preserves_Kernel_KernelIdeal := trivial

theorem algebraic : Cert.algebraic_KernelIdeal_ReferenceIdeal := by
  intro m ρ m' ρ' hpre hagree
  refine ⟨fun c => Cert.KernelIdeal.Hand.W11 (F := Ideal) m c Cert.KernelIdeal.main_v43, ?_, ?_⟩
  · exact (θ_run Cert.KernelIdeal.defs _ _).mono (fun r h c => ⟨h c _ (Cert.KernelIdeal.Hand.mem_uc Cert.KernelIdeal.main_v43 (by decide)),
      (h c _ (Cert.KernelIdeal.Hand.mem_uc Cert.KernelIdeal.main_arg0 (by decide))).trans (Cert.KernelIdeal.Hand.W11_main_arg0 m c),
      (h c _ (Cert.KernelIdeal.Hand.mem_uc Cert.KernelIdeal.main_arg1 (by decide))).trans (Cert.KernelIdeal.Hand.W11_main_arg1 m c),
      (h c _ (Cert.KernelIdeal.Hand.mem_uc Cert.KernelIdeal.main_arg2 (by decide))).trans (Cert.KernelIdeal.Hand.W11_main_arg2 m c),
      (h c _ (Cert.KernelIdeal.Hand.mem_uc Cert.KernelIdeal.main_arg3 (by decide))).trans (Cert.KernelIdeal.Hand.W11_main_arg3 m c),
      (h c _ (Cert.KernelIdeal.Hand.mem_uc Cert.KernelIdeal.main_arg4 (by decide))).trans (Cert.KernelIdeal.Hand.W11_main_arg4 m c),
      (h c _ (Cert.KernelIdeal.Hand.mem_uc Cert.KernelIdeal.main_arg5 (by decide))).trans (Cert.KernelIdeal.Hand.W11_main_arg5 m c),
      (h c _ (Cert.KernelIdeal.Hand.mem_uc Cert.KernelIdeal.main_arg6 (by decide))).trans (Cert.KernelIdeal.Hand.W11_main_arg6 m c),
      (h c _ (Cert.KernelIdeal.Hand.mem_uc Cert.KernelIdeal.main_arg7 (by decide))).trans (Cert.KernelIdeal.Hand.W11_main_arg7 m c),
      (h c _ (Cert.KernelIdeal.Hand.mem_uc Cert.KernelIdeal.main_arg8 (by decide))).trans (Cert.KernelIdeal.Hand.W11_main_arg8 m c)⟩)
      (Cert.KernelIdeal.Hand.run_all (F := Ideal) m ρ)
  · refine (θ_run Cert.ReferenceIdeal.defs _ _).mono (fun r h c => ⟨(h c).1.trans ?_, (h c).2⟩)
      (Cert.ReferenceIdeal.Hand.run (F := Ideal) m' ρ')
    obtain ⟨h0, h1, h2, h3, h4, h5, h6, h7, h8⟩ := hagree c
    rw [h0, h1, h2, h3, h4, h5, h6, h7, h8]
    have hr := Cert.Spec.idx_range _ _ _ _ _ _ _ _ _ (hpre c)
    funext i
    obtain ⟨b, v, o, rfl⟩ : ∃ (b : Fin 8) (v : Fin 10000) (o : Fin 128), i = ix3 b v o := ⟨i 0, i 1, i 2, eq_ix3 i⟩
    rw [Cert.ReferenceIdeal.Hand.refTerm_apply _ _ _ _ _ _ _ _ _ hr b v o]
    refine Eq.trans ?_ (Cert.KernelIdeal.HandVal.v43_apply m c hr b v o).symm
    have hb := Cert.Spec.bridge _ (Cert.Spec.argsOf_finite _ _ _ _ _ _ _ _ _ (hpre c)) (Cert.Spec.argsOf_src_lt _ _ _ _ _ _ _ _ _ (hpre c))
      (Cert.Spec.argsOf_dst_lt _ _ _ _ _ _ _ _ _ (hpre c))
    exact (congrFun (congrFun (congrFun hb b) v) o).symm

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
